-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S10 : Shape := ⟨1, ![10]⟩
abbrev S3072x1024 : Shape := ⟨2, ![3072, 1024]⟩
abbrev S1024x3072 : Shape := ⟨2, ![1024, 3072]⟩
abbrev S8192x1024 : Shape := ⟨2, ![8192, 1024]⟩
abbrev S3x8192x1024 : Shape := ⟨3, ![3, 8192, 1024]⟩
abbrev S1x1024x1024 : Shape := ⟨3, ![1, 1024, 1024]⟩
abbrev S3x4x2048x1024 : Shape := ⟨4, ![3, 4, 2048, 1024]⟩
abbrev S1x1x512x1024 : Shape := ⟨4, ![1, 1, 512, 1024]⟩
abbrev S1 : Shape := ⟨1, ![1]⟩
abbrev S1x512x1024 : Shape := ⟨3, ![1, 512, 1024]⟩
abbrev S512x1 : Shape := ⟨2, ![512, 1]⟩
abbrev S512x1024 : Shape := ⟨2, ![512, 1024]⟩
abbrev S512x512 : Shape := ⟨2, ![512, 512]⟩
abbrev S512 : Shape := ⟨1, ![512]⟩

abbrev nBuf : Space → Nat
  | .hbm => 11
  | .vmem => 16
  | .smem => 2
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S3072x1024, .f32⟩
  | .hbm, ⟨5, _⟩ => ⟨S1024x3072, .f32⟩
  | .hbm, ⟨6, _⟩ => ⟨S1024x3072, .bf16⟩
  | .hbm, ⟨7, _⟩ => ⟨S8192x1024, .f32⟩
  | .hbm, ⟨8, _⟩ => ⟨S3x8192x1024, .bf16⟩
  | .hbm, ⟨9, _⟩ => ⟨S3x4x2048x1024, .bf16⟩
  | .hbm, ⟨10, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1x512x1024, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1x1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | .local _ .smem, ⟨0, _⟩ => ⟨S10, .i32⟩
  | .local _ .smem, ⟨1, _⟩ => ⟨S10, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![8, 3], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond4 (v1 : BitVec 32) (v3 : BitVec 32) : BitVec 1 :=
  let v16 : BitVec 1 := Scalar.cmpi .eq v3 v1
  let v22 : BitVec 32 := Scalar.extui v16
  let c0_i32_15 : BitVec 32 := 0#32
  let v23 : BitVec 1 := Scalar.cmpi .ne v22 c0_i32_15
  v23

def cc1_transform_0 (k1_off1_inb : ∀ i : grid1.Coords, ∀ a, (k1_off1 i) a + S1.size a ≤ S10.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  let c0_i32_1 : BitVec 32 := 0#32
  ![c0_i32.toNat, arg0.toNat, v1.toNat, c0_i32_0.toNat]

def cc1_transform_1 (k1_off1_inb : ∀ i : grid1.Coords, ∀ a, (k1_off1 i) a + S1.size a ≤ S10.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c1_i32 : BitVec 32 := 1#32
  let c0_i32 : BitVec 32 := 0#32
  let c0_i32_0 : BitVec 32 := 0#32
  ![c1_i32.toNat, arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c2_i32 : BitVec 32 := 2#32
  let c0_i32 : BitVec 32 := 0#32
  let c0_i32_0 : BitVec 32 := 0#32
  ![c2_i32.toNat, arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S3x8192x1024_S3x4x2048x1024 : S3x8192x1024.ShapeCasts S3x4x2048x1024
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1024x1024.size a ≤ S1024x3072.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S3x8192x1024.size a
  hwx0_2 : ∀ i : grid0.Coords, EltTy.bits .bf16 = 32 ∨ (Rect.block (s := S3x8192x1024) S1x1024x1024.size (cc0_transform_2 i) (hinb0_2 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v5) S1x1x512x1024.size reads1_0 false false 2 stage1_0 sem1_0 nbuf1_0 hstage1_0

abbrev spec1_1 : Pipeline.WinSpec sig grid1.rank :=
  Pipeline.WinSpec.ofSpec (Memref.whole main_v5) S1x1x512x1024.size reads1_1 false false 2 stage1_1 sem1_1 nbuf1_1 hstage1_1

abbrev spec1_2 : Pipeline.WinSpec sig grid1.rank :=
  Pipeline.WinSpec.ofSpec (Memref.whole main_v5) S1x1x512x1024.size reads1_2 false false 2 stage1_2 sem1_2 nbuf1_2 hstage1_2

abbrev spec1_3 : Pipeline.WinSpec sig grid1.rank :=
  Pipeline.WinSpec.ofSpec (Memref.whole main_v6) S1x512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x512x1024.size a ≤ S3x4x2048x1024.size a), EltTy.bits .bf16 = 32 ∨ (Rect.block (s := S3x4x2048x1024) S1x1x512x1024.size (cc1_transform_0 k1_off1_inb numel1_S1 pf i) h).WholeWords (EltTy.packing .bf16)) ∧
  (∀ i : grid1.Coords, ∃ h : (∀ a, (cc1_transform_1 k1_off1_inb numel1_S1 pf i a + 1) * S1x1x512x1024.size a ≤ S3x4x2048x1024.size a), EltTy.bits .bf16 = 32 ∨ (Rect.block (s := S3x4x2048x1024) S1x1x512x1024.size (cc1_transform_1 k1_off1_inb numel1_S1 pf i) h).WholeWords (EltTy.packing .bf16)) ∧
  (∀ i : grid1.Coords, ∃ h : (∀ a, (cc1_transform_2 k1_off1_inb numel1_S1 pf i a + 1) * S1x1x512x1024.size a ≤ S3x4x2048x1024.size a), EltTy.bits .bf16 = 32 ∨ (Rect.block (s := S3x4x2048x1024) S1x1x512x1024.size (cc1_transform_2 k1_off1_inb numel1_S1 pf i) h).WholeWords (EltTy.packing .bf16)) ∧
  (∀ i : grid1.Coords, ∃ h : (∀ a, (cc1_transform_3 k1_off1_inb numel1_S1 pf i a + 1) * S1x512x1024.size a ≤ S4x2048x1024.size a), EltTy.bits .f32 = 32 ∨ (Rect.block (s := S4x2048x1024) S1x512x1024.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond4 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .i1⟩
  | .hbm, ⟨13, _⟩ => ⟨S2048x2048, .i1⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .i1⟩
  | .hbm, ⟨21, _⟩ => ⟨S2048x2048, .i1⟩
  | .hbm, ⟨22, _⟩ => ⟨S2048x2048, .i1⟩
  | .hbm, ⟨23, _⟩ => ⟨S_, .f32⟩
  | .hbm, ⟨24, _⟩ => ⟨S_, .f32⟩
  | .hbm, ⟨25, _⟩ => ⟨S4x2048x2048, .i1⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsRegion0.lean ====
import proofs.«418573_j77876347011327_3_alg».proof.Proof.Gen.Kernel.Launch
import proofs.«418573_j77876347011327_3_alg».proof.Proof.Gen.Kernel.Skeleton
import proofs.«418573_j77876347011327_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the projection kernel on its grid of 8 row tiles by 3 weight thirds

At grid point `(i, j)` the body reads the row tile `i` of the activations (1024 rows of 1024
columns), reads columns `j * 1024 … j * 1024 + 1023` of the whole weight array (1024 by 3072), and
stores the product of the two (the activations first rounded to the narrow format, the product
accumulated from zero and rounded to the narrow format) over the whole of its output block
`(j, i)`. It also reads its output block before writing it, and uses nothing of what it read.

This file states, for any contents `V` of the buffers when the region is entered: each window's
block at a point as a function of `V`; what the body leaves in its output block as a function of
the two input blocks (`out0_2`); the body's triple; the proof data of the pipeline (`dat0`); and
the body obligation at every point (`body_obligation0`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the row tile of the point at every point, fetched there or
    not (when it is not fetched the row tile has not changed), for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight array at every point (it is fetched once, at
    the first point, and its block never changes). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole activations block. -/
abbrev r0_0 : Rect S1024x1024 := Rect.unit (s := S1024x1024) ![0, 0] S1024x1024.size inb_S1024x1024_S1024x1024_0_0
/-- The weight slice of grid point `i`: all 1024 rows, the 1024 columns from `1024 * i 1` on. -/
abbrev r0_1 (i : grid0.Coords) : Rect S1024x3072 := Rect.unit (s := S1024x3072) (k0_off1 i) S1024x1024.size (k0_off1_inb i)
/-- The whole output block. -/
abbrev r0_2 : Rect S1x1024x1024 := Rect.unit (s := S1x1024x1024) ![0, 0, 0] S1x1024x1024.size inb_S1x1024x1024_S1x1024x1024_0_0_0

/-! ## What the body leaves in the output block -/

/-- The output block after the body at grid point `i`, from the activations block `x0` and the
    whole weight array `w0`: the one store, over the whole block, of the product of `x0` and the
    weight slice of the point. -/
def out0_2 (i : grid0.Coords) (x0 : Vec F S1024x1024 .f32) (w0 : Vec F S1024x3072 .bf16) : Vec F S1x1024x1024 .bf16 :=
  View.canon [⟨r0_2, k0_pay1 (View.ld x0 r0_0) (View.ld w0 (r0_1 i))⟩]

/-- The one store covers the output block. -/
theorem cover0_2 (p0 : Vec F S1x1024x1024 .bf16) (y : S1x1024x1024.Idx) :
    ∃ pc ∈ ([⟨r0_2, p0⟩] : List (View.Piece (Elt F) S1x1024x1024 .bf16)), y ∈ pc.1.set :=
  View.cover_of_tiled [⟨r0_2, p0⟩] S1x1024x1024.size (by rfl) y

/-! ## The body's triple -/

set_option maxHeartbeats 1000000 in
/-- The body at grid point `i` on whole staging buffers, the inputs' at read contents `x0`, `w0` and the
    output's at anything, runs to the continuation holding the inputs' as they were and the output's
    at `out0_2 i x0 w0`. The read of the output block before the store reads the unknown contents and
    its value goes nowhere. -/
theorem sound_kernel0 (c : Dev nD) (E : Set ℕ) (i : grid0.Coords)
    (arg2 : Memref sig .tc .vmem S1024x1024 .f32) (harg2 : arg2.IsWhole)
    (arg3 : Memref sig .tc .vmem S1024x3072 .bf16) (harg3 : arg3.IsWhole)
    (arg4 : Memref sig .tc .vmem S1x1024x1024 .bf16) (harg4 : arg4.IsWhole)
    (x0 : Vec F S1024x1024 .f32) (w0 : Vec F S1024x3072 .bf16) (K : PUnit → sProp 𝕄) :
    iprop(owns (c : Thread nD τ) arg2 fullShare x0 ∗ owns (c : Thread nD τ) arg3 fullShare w0 ∗ (∃ d, owns (c : Thread nD τ) arg4 fullShare d)
        ∗ (iprop(owns (c : Thread nD τ) arg2 fullShare x0 ∗ owns (c : Thread nD τ) arg3 fullShare w0 ∗ owns (c : Thread nD τ) arg4 fullShare (out0_2 i x0 w0)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the
    body at point `t` each input's buffer at its block and the output's at `out0_2` of the input
    blocks at the point's coordinates; the invariant the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies at the
    point's coordinates; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1Base.lean ====
/-
  Region 1 (the attention kernel): the names its runs, its proof data and its body obligation share — the two
  index tables as the body is handed them, the two words the body reads from them at a grid point, its four
  branch conditions as propositions of those words, and its staging and scratch memrefs.
-/
import proofs.«418573_j77876347011327_3_alg».proof.Proof.Gen.Kernel.Launch
import proofs.«418573_j77876347011327_3_alg».proof.Proof.Gen.Kernel.Skeleton
import proofs.«418573_j77876347011327_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables -/

/-- The table of query-block indices and the table of key-block indices, each a whole buffer in scalar memory. -/
abbrev tbM1_0 : Memref sig .tc .smem S10 .i32 := Memref.whole main_c
abbrev htbM1_0 : tbM1_0.IsWhole := Memref.isWhole_whole _
abbrev tbM1_1 : Memref sig .tc .smem S10 .i32 := Memref.whole main_c_0
abbrev htbM1_1 : tbM1_1.IsWhole := Memref.isWhole_whole _

/-- A table's contents type on core `c`, and the table held whole at contents `f`. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The query-block index and the key-block index the body reads at grid point `i`: entry `i 1` of each table. -/
abbrev wordQ (c : Dev nD) (i : grid1.Coords) (xt0 : TbBuf1 (F := F) c tbM1_0) : BitVec 32 :=
  tbM1_0.view.readAt (Elt F) (Rect.unit (s := S10) (k1_off1 i) S1.size (k1_off1_inb i)).toLoadRect xt0 (Shape.Idx.first (numel1_S1.symm ▸ Nat.one_pos))
abbrev wordK (c : Dev nD) (i : grid1.Coords) (xt1 : TbBuf1 (F := F) c tbM1_1) : BitVec 32 :=
  tbM1_1.view.readAt (Elt F) (Rect.unit (s := S10) (k1_off1 i) S1.size (k1_off1_inb i)).toLoadRect xt1 (Shape.Idx.first (numel1_S1.symm ▸ Nat.one_pos))

/-! ## The body's four conditions, of the query-block index `w1` and the key-block index `w3` -/

/-- The first key block of a query block: the running state is reset. -/
abbrev cReset (w3 : BitVec 32) : Prop := Scalar.cmpi .ne (Scalar.extui (Scalar.cmpi .eq w3 0#32)) 0#32 = 1#1
/-- The diagonal block: the causal mask is applied. -/
abbrev cDiag (w1 w3 : BitVec 32) : Prop := Scalar.cmpi .ne (Scalar.extui (Scalar.cmpi .eq w3 w1)) 0#32 = 1#1
/-- A block below the diagonal: no mask. -/
abbrev cOff (w1 w3 : BitVec 32) : Prop := Scalar.cmpi .ne (Scalar.extui (Scalar.xori (Scalar.cmpi .eq w3 w1) 1#1)) 0#32 = 1#1
/-- The diagonal block again: the output block is stored. -/
abbrev cFin (w1 w3 : BitVec 32) : Prop := k1_cond4 w1 w3 = 1#1

/-! ## The memrefs -/

/-- The three scratch operands (running maximum, running sum, running weighted sum): whole scoped buffers. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- Their views: what each holds is stated through them. -/
abbrev VS1_0 : View sig .tc .vmem S512x1 .f32 := scM1_0.view
abbrev VS1_1 : View sig .tc .vmem S512x1 .f32 := scM1_1.view
abbrev VS1_2 : View sig .tc .vmem S512x1024 .f32 := scM1_2.view
/-- One staging buffer of the output window, through which its contents are stated. -/
abbrev VO1_3 : View sig .tc .vmem S1x512x1024 .f32 := (Memref.whole cc1_stg3_0 : Memref sig .tc .vmem S1x512x1024 .f32).view

/-- Each window's current staging memref at point `t` of the pipeline at admissible table contents `a`. -/
abbrev ms1_0 (a : (pcfg1 (F := F)).Adm) (t : Fin (cfg1 a).N) : Memref sig .tc .vmem S1x1x512x1024 .bf16 := spec1_0.stage ((cfg1 a).slots t 0)
abbrev hs1_0 (a : (pcfg1 (F := F)).Adm) (t : Fin (cfg1 a).N) : (ms1_0 a t).IsWhole := hstage1_0 (((cfg1 a).slots t 0).cast nbuf1_0)
abbrev ms1_1 (a : (pcfg1 (F := F)).Adm) (t : Fin (cfg1 a).N) : Memref sig .tc .vmem S1x1x512x1024 .bf16 := spec1_1.stage ((cfg1 a).slots t 1)
abbrev hs1_1 (a : (pcfg1 (F := F)).Adm) (t : Fin (cfg1 a).N) : (ms1_1 a t).IsWhole := hstage1_1 (((cfg1 a).slots t 1).cast nbuf1_1)
abbrev ms1_2 (a : (pcfg1 (F := F)).Adm) (t : Fin (cfg1 a).N) : Memref sig .tc .vmem S1x1x512x1024 .bf16 := spec1_2.stage ((cfg1 a).slots t 2)
abbrev hs1_2 (a : (pcfg1 (F := F)).Adm) (t : Fin (cfg1 a).N) : (ms1_2 a t).IsWhole := hstage1_2 (((cfg1 a).slots t 2).cast nbuf1_2)
abbrev ms1_3 (a : (pcfg1 (F := F)).Adm) (t : Fin (cfg1 a).N) : Memref sig .tc .vmem S1x512x1024 .f32 := spec1_3.stage ((cfg1 a).slots t 3)
abbrev hs1_3 (a : (pcfg1 (F := F)).Adm) (t : Fin (cfg1 a).N) : (ms1_3 a t).IsWhole := hstage1_3 (((cfg1 a).slots t 3).cast nbuf1_3)

/-- The kernel body at point `t`, on what the pipeline calls it with. -/
abbrev bodyAt1 (a : (pcfg1 (F := F)).Adm) (t : Fin (cfg1 a).N) : Prog (TpuEff nD τ sig (Elt F) Λ₀ .tc) PUnit :=
  cc1__flash_kernel ((cfg1 a).grid.coords t) tbM1_0 htbM1_0 tbM1_1 htbM1_1 (ms1_0 a t) (hs1_0 a t) (ms1_1 a t) (hs1_1 a t) (ms1_2 a t) (hs1_2 a t) (ms1_3 a t) (hs1_3 a t)
    scM1_0 (Memref.isWhole_whole _) scM1_1 (Memref.isWhole_whole _) scM1_2 (Memref.isWhole_whole _)

end Cert.Kernel.Hand

end
-- ==== Proof.BitsRunBase.lean ====
/-
  The run of the launch up to and including region 0: the buffer contents at each segment boundary as a fold from
  the launch memory, the two index tables as literal contents and that region 1 finds them so, the admissible
  table contents of both pipelines, what the host operations leave in the arrays the regions read, the arguments
  read back to the launch memory, the proof-data family, the thread state, and region 0 as a segment.
-/
import proofs.«418573_j77876347011327_3_alg».proof.Proof.BitsRegion0
import proofs.«418573_j77876347011327_3_alg».proof.Proof.BitsRegion1Base
import Idealize.ShloMosaic.Lib.Pipeline.Regions
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the launch -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after (hostOps0 (F := F)) (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after (hostOps1 (F := F)) (W2 m ρ c)
/-- The same read at the TensorCore's references (what region 1's proof data take). -/
abbrev V3 : (c : Dev nD) → (b : Ref sig .tc) → Buf (Elt F) ((c : Thread nD τ).loc b) := fun c b => W3 m ρ c b

/-! ## Which operations write which buffers -/

/-- The second stretch writes only the reshaped projections. -/
theorem W3_of_ne (c : Dev nD) (b : Ref sig .tc) (hb : b ≠ main_v5) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The two index tables -/

/-- The tables' contents as the launch writes them: the query-block indices and the key-block indices of the ten
    lower-triangle blocks, in row-major order. -/
def tblLit : pre1.Contents (Elt F) := fun
  | ⟨0, _⟩ => fun i => lit0 (S10.rowMajor i)
  | ⟨1, _⟩ => fun i => lit1 (S10.rowMajor i)

/-- Region 1 finds the tables so: the first stretch writes them with the literals, and neither region 0 nor the
    second stretch writes them. -/
theorem V3_pre (c : Dev nD) (j : Fin 2) : V3 m ρ c (pre1.ref j) = tblLit j := by
  match j with
  | ⟨0, _⟩ =>
    refine (W3_of_ne m ρ c main_c (by decide)).trans ((W2_of_ne m ρ c main_c (by decide)).trans ?_)
    show StableHlo.after (hostOps0 (F := F)) (W0 m ρ c) (Proc.devRef .tc main_c) = _
    dsimp only [hostOps0]; after_results; rfl
  | ⟨1, _⟩ =>
    refine (W3_of_ne m ρ c main_c_0 (by decide)).trans ((W2_of_ne m ρ c main_c_0 (by decide)).trans ?_)
    show StableHlo.after (hostOps0 (F := F)) (W0 m ρ c) (Proc.devRef .tc main_c_0) = _
    dsimp only [hostOps0]; after_results; rfl

/-- Every grid point's table-indexed block lies inside its array, at the literal tables. -/
theorem ok_tbl : ok1 (F := F) tblLit := by
  unfold ok1
  dsimp only [cc1_transform_0, cc1_transform_1, cc1_transform_2, cc1_transform_3, tblLit, Pipeline.Prefetch.Contents.at]
  decide +kernel

/-- The tables' admissible contents: region 0 has no table, region 1 has the two literal tables. -/
abbrev adm : (p : Fin 2) → (pcfgs (F := F) p).Adm := fun
  | ⟨0, _⟩ => cfg0.toPCfg_adm
  | ⟨1, _⟩ => ⟨tblLit, ok_tbl⟩
  | ⟨_ + 2, h⟩ => absurd h (Nat.not_lt.2 (Nat.le_add_left _ _))

/-! ## What the host operations leave, and the arguments read back -/

/-- A buffer the first stretch does not write keeps its launch contents. -/
theorem W1_of_ne (c : Dev nD) (b : Ref sig .tc) (h0 : b ≠ main_c) (h1 : b ≠ main_c_0) (h2 : b ≠ main_v0) (h3 : b ≠ main_v1)
    (h4 : b ≠ main_v2) (h5 : b ≠ main_v3) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.nary_writes,
      StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- No host operation and no region before region 1 writes an argument: each is as launched. -/
theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans
    (W1_of_ne m ρ c main_arg0 (by decide) (by decide) (by decide) (by decide) (by decide) (by decide)))
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans
    (W1_of_ne m ρ c main_arg1 (by decide) (by decide) (by decide) (by decide) (by decide) (by decide)))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans
    (W1_of_ne m ρ c main_arg2 (by decide) (by decide) (by decide) (by decide) (by decide) (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans
    (W1_of_ne m ρ c main_arg3 (by decide) (by decide) (by decide) (by decide) (by decide) (by decide)))

/-- Region 0's activations array: the input reshaped to 8192 rows. -/
theorem V1_main_v3 (c : Dev nD) :
    (V1 m ρ c main_v3 : Vec F S8192x1024 .f32)
      = shapeCast S8192x1024 (m ((c : Thread nD τ).loc main_arg0) : Vec F S4x2048x1024 .f32) shapeCasts_S4x2048x1024_S8192x1024 := by
  show StableHlo.after (hostOps0 (F := F)) (W0 m ρ c) (Proc.devRef .tc main_v3) = _
  dsimp only [hostOps0]; after_results; rfl

/-- Region 0's weight array: the three weight arguments stacked, transposed and rounded to the narrow format. -/
theorem V1_main_v2 (c : Dev nD) :
    (V1 m ρ c main_v2 : Vec F S1024x3072 .bf16)
      = truncf .bf16 (transpose S1024x3072 [1, 0] (concatenate S3072x1024 0
          [⟨S1024x1024, (m ((c : Thread nD τ).loc main_arg1) : Vec F S1024x1024 .f32)⟩,
           ⟨S1024x1024, (m ((c : Thread nD τ).loc main_arg2) : Vec F S1024x1024 .f32)⟩,
           ⟨S1024x1024, (m ((c : Thread nD τ).loc main_arg3) : Vec F S1024x1024 .f32)⟩]
          concatenates_S1024x1024_S1024x1024_S1024x1024_S3072x1024_d0) transposes_S3072x1024_S1024x3072_1_0) bitsLt_bf16_f32 := by
  show StableHlo.after (hostOps0 (F := F)) (W0 m ρ c) (Proc.devRef .tc main_v2) = _
  dsimp only [hostOps0]; after_results; rfl

/-- Region 1's one input array: region 0's output reshaped to three arrays of four sequences. -/
theorem V3_main_v5 (c : Dev nD) :
    (V3 m ρ c main_v5 : Vec F S3x4x2048x1024 .bf16)
      = shapeCast S3x4x2048x1024 (W2 m ρ c (Proc.devRef .tc main_v4) : Vec F S3x8192x1024 .bf16) shapeCasts_S3x8192x1024_S3x4x2048x1024 := by
  show StableHlo.after (hostOps1 (F := F)) (W2 m ρ c) (Proc.devRef .tc main_v5) = _
  dsimp only [hostOps1]; after_results; rfl

/-! ## The proof-data family and the thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### What a core owes, in a pipeline's form and out of it

Where a pipeline's proof data say that nothing is owed before a point and bound nothing of what the core's waits
have recorded, "the core owes nothing" and the pipeline's statement of what it owes there are one another's. -/

theorem owesAt_of_owes_zero {cfg : Cfg sig Λ₀} (c : Dev nD) (D : Dat τ (Elt F) Unit ℕ (UR sig nD τ) ℕ cfg c) (t : Fin (cfg.N + 1))
    (ho : D.owed t = 0) (hr : D.recorded t = Set.univ) :
    (iprop(∃ W, owes (c : Thread nD τ) (0 : CellTallies nD τ sig Unit) W) : sProp 𝕄) ⊢ D.owesAt () t := by
  unfold Dat.owesAt Pipeline.owesWithin Dat.bound
  rw [ho, hr]
  iintro ⟨%W, H⟩
  iexists W
  isplitr
  · ipureintro; exact fun _ _ => Or.inl trivial
  iexact H

theorem owes_zero_of_owesAt {cfg : Cfg sig Λ₀} (c : Dev nD) (D : Dat τ (Elt F) Unit ℕ (UR sig nD τ) ℕ cfg c) (t : Fin (cfg.N + 1))
    (ho : D.owed t = 0) :
    D.owesAt () t ⊢ (iprop(∃ W, owes (c : Thread nD τ) (0 : CellTallies nD τ sig Unit) W) : sProp 𝕄) := by
  unfold Dat.owesAt Pipeline.owesWithin
  rw [ho]
  iintro ⟨%W, -, H⟩
  iexists W
  iexact H

section Run

-- region 1's proof data, at the pipeline pinned at the literal tables
variable (D1 : (c : Dev nD) → Dat τ (Elt F) Unit ℕ (UR sig nD τ) ℕ (cfg1 (adm (F := F) 1)) c)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => D1 c

/-! ## Region 0 as a segment -/

/-- Entering region 0, the unscoped buffers at `W1` are its three arrays at their entry contents beside the rest. -/
theorem split0 (c : Dev nD) :
    (StableHlo.held (c : Thread nD τ) (Pipeline.ucRefs τ sig) (W1 m ρ c) : sProp 𝕄)
      ⊢ iprop((pdats m ρ D1 0 c).arrays ((pdats m ρ D1 0 c).arrAt · 0)
          ∗ Pipeline.unscopedRest (Ix := Unit) (Name := ℕ) (U := UR sig nD τ) (Lvl := ℕ) spec0 c (V1 m ρ c)) := by
  rw [← Pipeline.unscopedBufs_held]
  exact Pipeline.arrays_of_unscopedBufs (p := 0) (pcfgs (F := F)) adm (pdats m ρ D1) (launch0 (F := F)).win (launch0 (F := F)).arr_whole c
    ((pdats m ρ D1 0 c).share_full fun _ => rfl) (V1 m ρ c) fun _ => rfl

/-- Leaving it, the arrays at what the pipeline leaves and the rest as entered are the unscoped buffers at `W2`. -/
theorem join0 (c : Dev nD) :
    iprop((pdats m ρ D1 0 c).arrays ((pdats m ρ D1 0 c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held]
  exact Pipeline.unscopedBufs_of_arrays (p := 0) (pcfgs (F := F)) adm (Ix := Unit) (Name := ℕ) (U := UR sig nD τ) (Lvl := ℕ)
    (launch0 (F := F)).win (launch0 (F := F)).arr_whole c (pdats m ρ D1) ((pdats m ρ D1 0 c).share_full fun _ => rfl)
    (V1 m ρ c) (V2 m ρ c) ((pdats m ρ D1 0 c).arrAt · cfg0.N) (hF0 m ρ c) (hrest0 m ρ c)

/-- Region 0 has no table to hold. -/
theorem noTables0 (c : Dev nD) :
    (Pipeline.prefHeld (pcfgs (F := F) 0).pre c (fun _ => fullShare) (adm (F := F) 0).1 : sProp 𝕄) = BI.emp := by
  unfold Pipeline.prefHeld
  rw [show (Finset.univ : Finset (Fin 0)) = ∅ from rfl, BI.bigSep_empty]

set_option backward.isDefEq.respectTransparency.types false in
/-- Region 0 over the thread state: entered from every unscoped buffer at `W1`, left at `W2`; the generator
    register goes into the pipeline's invariant and comes out of it; nothing is owed; the kernel has no
    semaphore of its own. -/
def reg0 : Pipeline.RegionSeg (pcfgs (F := F)) adm (pdats m ρ D1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none, noTables0]
    iintro ⟨⟨Hbufs, Hreg, Howes⟩, -, -⟩
    imodintro
    ihave Hs := split0 m ρ D1 c $$ Hbufs
    icases Hs with ⟨Harr, Hrest⟩
    isplitl [Harr]; · iexact Harr
    isplitr; · iempintro
    isplitl [Howes]
    · iapply (owesAt_of_owes_zero c (pdats m ρ D1 0 c) 0 rfl rfl); iexact Howes
    isplitl [Hreg]; · iexact Hreg
    iexact Hrest
  hin c := by
    rw [noTables0, show (pdats m ρ D1 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ D1 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    iintro ⟨Harr, Howes, Hreg, Hrest⟩
    imodintro
    isplitl [Harr Hrest]
    · iapply (join0 m ρ D1 c); isplitl [Harr] <;> iassumption
    isplitl [Hreg]; · iexact Hreg
    iapply (owes_zero_of_owesAt c (pdats m ρ D1 0 c) (Fin.last _) rfl); iexact Howes

end Run

end Cert.Kernel.Hand

end
-- ==== Proof.BitsRegion1Runs.lean ====
/-
  Region 1 (the attention kernel): the runs of its body, one per control case.

  At a grid point the body reads the query-block index and the key-block index from the two tables and passes four
  conditionals on them: the reset of the running state (at a query block's first key block), the masked update (on
  the diagonal block), the unmasked update (below the diagonal) and the store of the output block (on the diagonal
  block again). On the tables the launch builds, four assignments of the conditions occur:
    A  reset, diagonal        B  reset, below the diagonal
    C  no reset, diagonal     D  no reset, below the diagonal.
  For each, `kernelRun1_κ` is the lists of pieces the body's stores leave in the output buffer and in the three
  scratch buffers (last store first), together with the proof that the body runs to a continuation holding them;
  `scover1_κ_j` / `cover1_κ_7` say the pieces cover their buffer, and `sout1_κ_j` / `out1_κ_7` are the buffer's
  contents read back from them. Everything is stated at any float model `F`.
-/
import proofs.«418573_j77876347011327_3_alg».proof.Proof.BitsRegion1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Case D -/

set_option maxHeartbeats 2000000 in
/-- CASE D (no reset, a block below the diagonal). The pieces the body's stores leave in the output buffer (none) and in
    the three scratch buffers (one whole-shape store each: the unmasked update), with the proof that the body runs: from
    the three input blocks at their contents, the output buffer at any contents `xi7` (handed back untouched), the
    scratch at the contents `xs·` the point before left and the two tables at theirs, to the continuation holding the
    inputs and tables as they were and each scratch buffer with its pieces written. Each of the four conditionals is
    decided by the case's hypothesis on the two table words. -/
noncomputable def kernelRun1_D (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) :
    Σ' (L7 : List (View.Piece (Elt F) S1x512x1024 .f32)) (LS0 : List (View.Piece (Elt F) S512x1 .f32)) (LS1 : List (View.Piece (Elt F) S512x1 .f32)),
      { LS2 : List (View.Piece (Elt F) S512x1024 .f32) //
      ∀ (xi7 : Vec F S1x512x1024 .f32) (E : Set ℕ) (K : PUnit → sProp 𝕄),
        iprop(owns (c : Thread nD τ) arg4 fullShare x0 ∗ owns (c : Thread nD τ) arg5 fullShare x1 ∗ owns (c : Thread nD τ) arg6 fullShare x2
            ∗ owns (c : Thread nD τ) arg7 fullShare xi7
            ∗ owns (c : Thread nD τ) arg8 fullShare xs0 ∗ owns (c : Thread nD τ) arg9 fullShare xs1 ∗ owns (c : Thread nD τ) arg10 fullShare xs2
            ∗ tbPt1 c tbM1_0 xt0 ∗ tbPt1 c tbM1_1 xt1
            ∗ (iprop(owns (c : Thread nD τ) arg4 fullShare x0 ∗ owns (c : Thread nD τ) arg5 fullShare x1 ∗ owns (c : Thread nD τ) arg6 fullShare x2
                 ∗ owns (c : Thread nD τ) arg7 fullShare xi7
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)
                 ∗ tbPt1 c tbM1_0 xt0 ∗ tbPt1 c tbM1_1 xt1) -∗ K ⟨⟩))
          ⊢ wp frame (wpE (defs₀ (F := F)) Variants.none c none) E (cc1__flash_kernel i tbM1_0 htbM1_0 tbM1_1 htbM1_1 arg4 harg4 arg5 harg5 arg6 harg6 arg7 harg7 arg8 harg8 arg9 harg9 arg10 harg10) K } := by
  refine ⟨[], ?_, ?_, ?_, fun xi7 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f7, %hf7, H7⟩, ⟨%g0, %hg0, HS0⟩, ⟨%g1, %hg1, HS1⟩, ⟨%g2, %hg2, HS2⟩, HT0, HT1, Hk⟩
    obtain rfl := harg4.eq_unread hf0; obtain rfl := harg5.eq_unread hf1; obtain rfl := harg6.eq_unread hf2
    obtain rfl := harg7.eq_unread hf7
    obtain rfl := harg8.eq_unread hg0; obtain rfl := harg9.eq_unread hg1; obtain rfl := harg10.eq_unread hg2
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]
    · iexists _; isplitr; · ipureintro; exact harg7.read_unread _
      iexact H7
    isplitl [HS0]; · iexists _; iexact HS0
    isplitl [HS1]; · iexists _; iexact HS1
    isplitl [HS2]; · iexists _; iexact HS2
    isplitl [HT0]; · iexact HT0
    iexact HT1

/-- Case D's pieces for the scratch buffer of the running maximum cover it: they tile the shape in blocks of the whole shape. -/
theorem scover1_D_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) (y : S512x1.Idx) :
    ∃ pc ∈ (kernelRun1_D c i arg4 harg4 arg5 harg5 arg6 harg6 arg7 harg7 arg8 harg8 arg9 harg9 arg10 harg10 xt0 xt1 h1 h2 h3 h4 x0 x1 x2 xs0 xs1 xs2).2.1, y ∈ pc.1.set :=
  View.cover_of_tiledL (kernelRun1_D c i arg4 harg4 arg5 harg5 arg6 harg6 arg7 harg7 arg8 harg8 arg9 harg9 arg10 harg10 xt0 xt1 h1 h2 h3 h4 x0 x1 x2 xs0 xs1 xs2).2.1 S512x1.size (by sl_kernel_rfl) y

/-- What case D leaves in the scratch buffer of the running maximum: its pieces read back over junk. -/
def sout1_D_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) : Vec F S512x1 .f32 :=
  VS1_0.read (Elt F) (VS1_0.writes (Elt F) VS1_0.junk (kernelRun1_D c i arg4 harg4 arg5 harg5 arg6 harg6 arg7 harg7 arg8 harg8 arg9 harg9 arg10 harg10 xt0 xt1 h1 h2 h3 h4 x0 x1 x2 xs0 xs1 xs2).2.1)

/-- Case D's pieces for the scratch buffer of the running sum cover it: they tile the shape in blocks of the whole shape. -/
theorem scover1_D_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) (y : S512x1.Idx) :
    ∃ pc ∈ (kernelRun1_D c i arg4 harg4 arg5 harg5 arg6 harg6 arg7 harg7 arg8 harg8 arg9 harg9 arg10 harg10 xt0 xt1 h1 h2 h3 h4 x0 x1 x2 xs0 xs1 xs2).2.2.1, y ∈ pc.1.set :=
  View.cover_of_tiledL (kernelRun1_D c i arg4 harg4 arg5 harg5 arg6 harg6 arg7 harg7 arg8 harg8 arg9 harg9 arg10 harg10 xt0 xt1 h1 h2 h3 h4 x0 x1 x2 xs0 xs1 xs2).2.2.1 S512x1.size (by sl_kernel_rfl) y

/-- What case D leaves in the scratch buffer of the running sum: its pieces read back over junk. -/
def sout1_D_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) : Vec F S512x1 .f32 :=
  VS1_1.read (Elt F) (VS1_1.writes (Elt F) VS1_1.junk (kernelRun1_D c i arg4 harg4 arg5 harg5 arg6 harg6 arg7 harg7 arg8 harg8 arg9 harg9 arg10 harg10 xt0 xt1 h1 h2 h3 h4 x0 x1 x2 xs0 xs1 xs2).2.2.1)

/-- Case D's pieces for the scratch buffer of the running weighted sum cover it: they tile the shape in blocks of the whole shape. -/
theorem scover1_D_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) (y : S512x1024.Idx) :
    ∃ pc ∈ (kernelRun1_D c i arg4 harg4 arg5 harg5 arg6 harg6 arg7 harg7 arg8 harg8 arg9 harg9 arg10 harg10 xt0 xt1 h1 h2 h3 h4 x0 x1 x2 xs0 xs1 xs2).2.2.2.1, y ∈ pc.1.set :=
  View.cover_of_tiledL (kernelRun1_D c i arg4 harg4 arg5 harg5 arg6 harg6 arg7 harg7 arg8 harg8 arg9 harg9 arg10 harg10 xt0 xt1 h1 h2 h3 h4 x0 x1 x2 xs0 xs1 xs2).2.2.2.1 S512x1024.size (by sl_kernel_rfl) y

/-- What case D leaves in the scratch buffer of the running weighted sum: its pieces read back over junk. -/
def sout1_D_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) : Vec F S512x1024 .f32 :=
  VS1_2.read (Elt F) (VS1_2.writes (Elt F) VS1_2.junk (kernelRun1_D c i arg4 harg4 arg5 harg5 arg6 harg6 arg7 harg7 arg8 harg8 arg9 harg9 arg10 harg10 xt0 xt1 h1 h2 h3 h4 x0 x1 x2 xs0 xs1 xs2).2.2.2.1)

/-! ## Case B -/

set_option maxHeartbeats 2000000 in
/-- CASE B (reset, a block below the diagonal). The pieces the body's stores leave in the output buffer (none) and in
    the three scratch buffers (two whole-shape stores each: the reset, then the unmasked update, last first), with the
    proof that the body runs: from the three input blocks at their contents, the output buffer at any contents `xi7`
    (handed back untouched), the scratch at ANY contents and the two tables at theirs, to the continuation holding the
    inputs and tables as they were and each scratch buffer with its pieces written. Each of the four conditionals is
    decided by the case's hypothesis on the two table words. -/
noncomputable def kernelRun1_B (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) :
    Σ' (L7 : List (View.Piece (Elt F) S1x512x1024 .f32)) (LS0 : List (View.Piece (Elt F) S512x1 .f32)) (LS1 : List (View.Piece (Elt F) S512x1 .f32)),
      { LS2 : List (View.Piece (Elt F) S512x1024 .f32) //
      ∀ (xi7 : Vec F S1x512x1024 .f32) (E : Set ℕ) (K : PUnit → sProp 𝕄),
        iprop(owns (c : Thread nD τ) arg4 fullShare x0 ∗ owns (c : Thread nD τ) arg5 fullShare x1 ∗ owns (c : Thread nD τ) arg6 fullShare x2
            ∗ owns (c : Thread nD τ) arg7 fullShare xi7
            ∗ (∃ d, owns (c : Thread nD τ) arg8 fullShare d) ∗ (∃ d, owns (c : Thread nD τ) arg9 fullShare d) ∗ (∃ d, owns (c : Thread nD τ) arg10 fullShare d)
            ∗ tbPt1 c tbM1_0 xt0 ∗ tbPt1 c tbM1_1 xt1
            ∗ (iprop(owns (c : Thread nD τ) arg4 fullShare x0 ∗ owns (c : Thread nD τ) arg5 fullShare x1 ∗ owns (c : Thread nD τ) arg6 fullShare x2
                 ∗ owns (c : Thread nD τ) arg7 fullShare xi7
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)
                 ∗ tbPt1 c tbM1_0 xt0 ∗ tbPt1 c tbM1_1 xt1) -∗ K ⟨⟩))
          ⊢ wp frame (wpE (defs₀ (F := F)) Variants.none c none) E (cc1__flash_kernel i tbM1_0 htbM1_0 tbM1_1 htbM1_1 arg4 harg4 arg5 harg5 arg6 harg6 arg7 harg7 arg8 harg8 arg9 harg9 arg10 harg10) K } := by
  refine ⟨[], ?_, ?_, ?_, fun xi7 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f7, %hf7, H7⟩, ⟨%d8, %g0, -, HS0⟩, ⟨%d9, %g1, -, HS1⟩, ⟨%d10, %g2, -, HS2⟩, HT0, HT1, Hk⟩
    obtain rfl := harg4.eq_unread hf0; obtain rfl := harg5.eq_unread hf1; obtain rfl := harg6.eq_unread hf2
    obtain rfl := harg7.eq_unread hf7
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]
    · iexists _; isplitr; · ipureintro; exact harg7.read_unread _
      iexact H7
    isplitl [HS0]; · iexists _; iexact HS0
    isplitl [HS1]; · iexists _; iexact HS1
    isplitl [HS2]; · iexists _; iexact HS2
    isplitl [HT0]; · iexact HT0
    iexact HT1

/-- Case B's pieces for the scratch buffer of the running maximum cover it: they tile the shape in blocks of the whole shape. -/
theorem scover1_B_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (y : S512x1.Idx) :
    ∃ pc ∈ (kernelRun1_B c i arg4 harg4 arg5 harg5 arg6 harg6 arg7 harg7 arg8 harg8 arg9 harg9 arg10 harg10 xt0 xt1 h1 h2 h3 h4 x0 x1 x2).2.1, y ∈ pc.1.set :=
  View.cover_of_tiledL (kernelRun1_B c i arg4 harg4 arg5 harg5 arg6 harg6 arg7 harg7 arg8 harg8 arg9 harg9 arg10 harg10 xt0 xt1 h1 h2 h3 h4 x0 x1 x2).2.1 S512x1.size (by sl_kernel_rfl) y

/-- What case B leaves in the scratch buffer of the running maximum: its pieces read back over junk. -/
def sout1_B_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) : Vec F S512x1 .f32 :=
  VS1_0.read (Elt F) (VS1_0.writes (Elt F) VS1_0.junk (kernelRun1_B c i arg4 harg4 arg5 harg5 arg6 harg6 arg7 harg7 arg8 harg8 arg9 harg9 arg10 harg10 xt0 xt1 h1 h2 h3 h4 x0 x1 x2).2.1)

/-- Case B's pieces for the scratch buffer of the running sum cover it: they tile the shape in blocks of the whole shape. -/
theorem scover1_B_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (y : S512x1.Idx) :
    ∃ pc ∈ (kernelRun1_B c i arg4 harg4 arg5 harg5 arg6 harg6 arg7 harg7 arg8 harg8 arg9 harg9 arg10 harg10 xt0 xt1 h1 h2 h3 h4 x0 x1 x2).2.2.1, y ∈ pc.1.set :=
  View.cover_of_tiledL (kernelRun1_B c i arg4 harg4 arg5 harg5 arg6 harg6 arg7 harg7 arg8 harg8 arg9 harg9 arg10 harg10 xt0 xt1 h1 h2 h3 h4 x0 x1 x2).2.2.1 S512x1.size (by sl_kernel_rfl) y

/-- What case B leaves in the scratch buffer of the running sum: its pieces read back over junk. -/
def sout1_B_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) : Vec F S512x1 .f32 :=
  VS1_1.read (Elt F) (VS1_1.writes (Elt F) VS1_1.junk (kernelRun1_B c i arg4 harg4 arg5 harg5 arg6 harg6 arg7 harg7 arg8 harg8 arg9 harg9 arg10 harg10 xt0 xt1 h1 h2 h3 h4 x0 x1 x2).2.2.1)

/-- Case B's pieces for the scratch buffer of the running weighted sum cover it: they tile the shape in blocks of the whole shape. -/
theorem scover1_B_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (y : S512x1024.Idx) :
    ∃ pc ∈ (kernelRun1_B c i arg4 harg4 arg5 harg5 arg6 harg6 arg7 harg7 arg8 harg8 arg9 harg9 arg10 harg10 xt0 xt1 h1 h2 h3 h4 x0 x1 x2).2.2.2.1, y ∈ pc.1.set :=
  View.cover_of_tiledL (kernelRun1_B c i arg4 harg4 arg5 harg5 arg6 harg6 arg7 harg7 arg8 harg8 arg9 harg9 arg10 harg10 xt0 xt1 h1 h2 h3 h4 x0 x1 x2).2.2.2.1 S512x1024.size (by sl_kernel_rfl) y

/-- What case B leaves in the scratch buffer of the running weighted sum: its pieces read back over junk. -/
def sout1_B_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) : Vec F S512x1024 .f32 :=
  VS1_2.read (Elt F) (VS1_2.writes (Elt F) VS1_2.junk (kernelRun1_B c i arg4 harg4 arg5 harg5 arg6 harg6 arg7 harg7 arg8 harg8 arg9 harg9 arg10 harg10 xt0 xt1 h1 h2 h3 h4 x0 x1 x2).2.2.2.1)

/-! ## Case C -/

set_option maxHeartbeats 2000000 in
/-- CASE C (no reset, the diagonal block). The pieces the body's stores leave in the output buffer (one whole-block
    store: the weighted sum over the sum) and in the three scratch buffers (one whole-shape store each: the masked
    update), with the proof that the body runs: from the three input blocks at their contents, the output buffer at
    ANY contents, the scratch at the contents `xs·` the point before left and the two tables at theirs, to the
    continuation holding the inputs and tables as they were and each of the four buffers with its pieces written.
    Each of the four conditionals is decided by the case's hypothesis on the two table words. -/
noncomputable def kernelRun1_C (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) :
    Σ' (L7 : List (View.Piece (Elt F) S1x512x1024 .f32)) (LS0 : List (View.Piece (Elt F) S512x1 .f32)) (LS1 : List (View.Piece (Elt F) S512x1 .f32)),
      { LS2 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ tbPt1 c tbM1_0 xt0 ∗ tbPt1 c tbM1_1 xt1
            ∗ (iprop(owns (c : Thread nD τ) arg4 fullShare x0 ∗ owns (c : Thread nD τ) arg5 fullShare x1 ∗ owns (c : Thread nD τ) arg6 fullShare x2
                 ∗ (∃ f, arg7.view.loc (c : Thread nD τ) ↦[arg7.view.set]{fullShare} arg7.view.writes (Elt F) f L7)
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)
                 ∗ tbPt1 c tbM1_0 xt0 ∗ tbPt1 c tbM1_1 xt1) -∗ K ⟨⟩))
          ⊢ wp frame (wpE (defs₀ (F := F)) Variants.none c none) E (cc1__flash_kernel i tbM1_0 htbM1_0 tbM1_1 htbM1_1 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    rw [k1_part1_eq_skeleton (F := F)]
    unfold owns
    iintro ⟨⟨%f0, %hf0, H0⟩, ⟨%f1, %hf1, H1⟩, ⟨%f2, %hf2, H2⟩, ⟨%d7, %f7, -, H7⟩, ⟨%g0, %hg0, HS0⟩, ⟨%g1, %hg1, HS1⟩, ⟨%g2, %hg2, HS2⟩, HT0, HT1, Hk⟩
    obtain rfl := harg4.eq_unread hf0; obtain rfl := harg5.eq_unread hf1; obtain rfl := harg6.eq_unread hf2
    obtain rfl := harg8.eq_unread hg0; obtain rfl := harg9.eq_unread hg1; obtain rfl := harg10.eq_unread hg2
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]; · iexists _; iexact H7
    isplitl [HS0]; · iexists _; iexact HS0
    isplitl [HS1]; · iexists _; iexact HS1
    isplitl [HS2]; · iexists _; iexact HS2
    isplitl [HT0]; · iexact HT0
    iexact HT1

/-- Case C's pieces for the scratch buffer of the running maximum cover it: they tile the shape in blocks of the whole shape. -/
theorem scover1_C_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) (y : S512x1.Idx) :
    ∃ pc ∈ (kernelRun1_C c i arg4 harg4 arg5 harg5 arg6 harg6 arg7 harg7 arg8 harg8 arg9 harg9 arg10 harg10 xt0 xt1 h1 h2 h3 h4 x0 x1 x2 xs0 xs1 xs2).2.1, y ∈ pc.1.set :=
  View.cover_of_tiledL (kernelRun1_C c i arg4 harg4 arg5 harg5 arg6 harg6 arg7 harg7 arg8 harg8 arg9 harg9 arg10 harg10 xt0 xt1 h1 h2 h3 h4 x0 x1 x2 xs0 xs1 xs2).2.1 S512x1.size (by sl_kernel_rfl) y

/-- What case C leaves in the scratch buffer of the running maximum: its pieces read back over junk. -/
def sout1_C_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) : Vec F S512x1 .f32 :=
  VS1_0.read (Elt F) (VS1_0.writes (Elt F) VS1_0.junk (kernelRun1_C c i arg4 harg4 arg5 harg5 arg6 harg6 arg7 harg7 arg8 harg8 arg9 harg9 arg10 harg10 xt0 xt1 h1 h2 h3 h4 x0 x1 x2 xs0 xs1 xs2).2.1)

/-- Case C's pieces for the scratch buffer of the running sum cover it: they tile the shape in blocks of the whole shape. -/
theorem scover1_C_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) (y : S512x1.Idx) :
    ∃ pc ∈ (kernelRun1_C c i arg4 harg4 arg5 harg5 arg6 harg6 arg7 harg7 arg8 harg8 arg9 harg9 arg10 harg10 xt0 xt1 h1 h2 h3 h4 x0 x1 x2 xs0 xs1 xs2).2.2.1, y ∈ pc.1.set :=
  View.cover_of_tiledL (kernelRun1_C c i arg4 harg4 arg5 harg5 arg6 harg6 arg7 harg7 arg8 harg8 arg9 harg9 arg10 harg10 xt0 xt1 h1 h2 h3 h4 x0 x1 x2 xs0 xs1 xs2).2.2.1 S512x1.size (by sl_kernel_rfl) y

/-- What case C leaves in the scratch buffer of the running sum: its pieces read back over junk. -/
def sout1_C_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) : Vec F S512x1 .f32 :=
  VS1_1.read (Elt F) (VS1_1.writes (Elt F) VS1_1.junk (kernelRun1_C c i arg4 harg4 arg5 harg5 arg6 harg6 arg7 harg7 arg8 harg8 arg9 harg9 arg10 harg10 xt0 xt1 h1 h2 h3 h4 x0 x1 x2 xs0 xs1 xs2).2.2.1)

/-- Case C's pieces for the scratch buffer of the running weighted sum cover it: they tile the shape in blocks of the whole shape. -/
theorem scover1_C_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) (y : S512x1024.Idx) :
    ∃ pc ∈ (kernelRun1_C c i arg4 harg4 arg5 harg5 arg6 harg6 arg7 harg7 arg8 harg8 arg9 harg9 arg10 harg10 xt0 xt1 h1 h2 h3 h4 x0 x1 x2 xs0 xs1 xs2).2.2.2.1, y ∈ pc.1.set :=
  View.cover_of_tiledL (kernelRun1_C c i arg4 harg4 arg5 harg5 arg6 harg6 arg7 harg7 arg8 harg8 arg9 harg9 arg10 harg10 xt0 xt1 h1 h2 h3 h4 x0 x1 x2 xs0 xs1 xs2).2.2.2.1 S512x1024.size (by sl_kernel_rfl) y

/-- What case C leaves in the scratch buffer of the running weighted sum: its pieces read back over junk. -/
def sout1_C_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) : Vec F S512x1024 .f32 :=
  VS1_2.read (Elt F) (VS1_2.writes (Elt F) VS1_2.junk (kernelRun1_C c i arg4 harg4 arg5 harg5 arg6 harg6 arg7 harg7 arg8 harg8 arg9 harg9 arg10 harg10 xt0 xt1 h1 h2 h3 h4 x0 x1 x2 xs0 xs1 xs2).2.2.2.1)

/-- Case C's pieces for the output buffer cover it: one store of the whole block. -/
theorem cover1_C_7 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) (y : S1x512x1024.Idx) :
    ∃ pc ∈ (kernelRun1_C c i arg4 harg4 arg5 harg5 arg6 harg6 arg7 harg7 arg8 harg8 arg9 harg9 arg10 harg10 xt0 xt1 h1 h2 h3 h4 x0 x1 x2 xs0 xs1 xs2).1, y ∈ pc.1.set :=
  View.cover_of_tiledL (kernelRun1_C c i arg4 harg4 arg5 harg5 arg6 harg6 arg7 harg7 arg8 harg8 arg9 harg9 arg10 harg10 xt0 xt1 h1 h2 h3 h4 x0 x1 x2 xs0 xs1 xs2).1 S1x512x1024.size (by sl_kernel_rfl) y

/-- What case C leaves in the output buffer: its pieces read back over junk. -/
def out1_C_7 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) : Vec F S1x512x1024 .f32 :=
  VO1_3.read (Elt F) (VO1_3.writes (Elt F) VO1_3.junk (kernelRun1_C c i arg4 harg4 arg5 harg5 arg6 harg6 arg7 harg7 arg8 harg8 arg9 harg9 arg10 harg10 xt0 xt1 h1 h2 h3 h4 x0 x1 x2 xs0 xs1 xs2).1)

/-! ## Case A -/

set_option maxHeartbeats 2000000 in
/-- CASE A (reset, the diagonal block). The pieces the body's stores leave in the output buffer (one whole-block
    store: the weighted sum over the sum) and in the three scratch buffers (two whole-shape stores each: the reset, then
    the masked update, last first), with the proof that the body runs: from the three input blocks at their contents,
    the output buffer and the scratch at ANY contents and the two tables at theirs, to the continuation holding the
    inputs and tables as they were and each of the four buffers with its pieces written. Each of the four
    conditionals is decided by the case's hypothesis on the two table words. -/
noncomputable def kernelRun1_A (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) :
    Σ' (L7 : List (View.Piece (Elt F) S1x512x1024 .f32)) (LS0 : List (View.Piece (Elt F) S512x1 .f32)) (LS1 : List (View.Piece (Elt F) S512x1 .f32)),
      { LS2 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)
            ∗ tbPt1 c tbM1_0 xt0 ∗ tbPt1 c tbM1_1 xt1
            ∗ (iprop(owns (c : Thread nD τ) arg4 fullShare x0 ∗ owns (c : Thread nD τ) arg5 fullShare x1 ∗ owns (c : Thread nD τ) arg6 fullShare x2
                 ∗ (∃ f, arg7.view.loc (c : Thread nD τ) ↦[arg7.view.set]{fullShare} arg7.view.writes (Elt F) f L7)
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)
                 ∗ tbPt1 c tbM1_0 xt0 ∗ tbPt1 c tbM1_1 xt1) -∗ K ⟨⟩))
          ⊢ wp frame (wpE (defs₀ (F := F)) Variants.none c none) E (cc1__flash_kernel i tbM1_0 htbM1_0 tbM1_1 htbM1_1 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    rw [k1_part1_eq_skeleton (F := F)]
    unfold owns
    iintro ⟨⟨%f0, %hf0, H0⟩, ⟨%f1, %hf1, H1⟩, ⟨%f2, %hf2, H2⟩, ⟨%d7, %f7, -, H7⟩, ⟨%d8, %g0, -, HS0⟩, ⟨%d9, %g1, -, HS1⟩, ⟨%d10, %g2, -, HS2⟩, HT0, HT1, Hk⟩
    obtain rfl := harg4.eq_unread hf0; obtain rfl := harg5.eq_unread hf1; obtain rfl := harg6.eq_unread hf2
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]; · iexists _; iexact H7
    isplitl [HS0]; · iexists _; iexact HS0
    isplitl [HS1]; · iexists _; iexact HS1
    isplitl [HS2]; · iexists _; iexact HS2
    isplitl [HT0]; · iexact HT0
    iexact HT1

/-- Case A's pieces for the scratch buffer of the running maximum cover it: they tile the shape in blocks of the whole shape. -/
theorem scover1_A_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (y : S512x1.Idx) :
    ∃ pc ∈ (kernelRun1_A c i arg4 harg4 arg5 harg5 arg6 harg6 arg7 harg7 arg8 harg8 arg9 harg9 arg10 harg10 xt0 xt1 h1 h2 h3 h4 x0 x1 x2).2.1, y ∈ pc.1.set :=
  View.cover_of_tiledL (kernelRun1_A c i arg4 harg4 arg5 harg5 arg6 harg6 arg7 harg7 arg8 harg8 arg9 harg9 arg10 harg10 xt0 xt1 h1 h2 h3 h4 x0 x1 x2).2.1 S512x1.size (by sl_kernel_rfl) y

/-- What case A leaves in the scratch buffer of the running maximum: its pieces read back over junk. -/
def sout1_A_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) : Vec F S512x1 .f32 :=
  VS1_0.read (Elt F) (VS1_0.writes (Elt F) VS1_0.junk (kernelRun1_A c i arg4 harg4 arg5 harg5 arg6 harg6 arg7 harg7 arg8 harg8 arg9 harg9 arg10 harg10 xt0 xt1 h1 h2 h3 h4 x0 x1 x2).2.1)

/-- Case A's pieces for the scratch buffer of the running sum cover it: they tile the shape in blocks of the whole shape. -/
theorem scover1_A_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (y : S512x1.Idx) :
    ∃ pc ∈ (kernelRun1_A c i arg4 harg4 arg5 harg5 arg6 harg6 arg7 harg7 arg8 harg8 arg9 harg9 arg10 harg10 xt0 xt1 h1 h2 h3 h4 x0 x1 x2).2.2.1, y ∈ pc.1.set :=
  View.cover_of_tiledL (kernelRun1_A c i arg4 harg4 arg5 harg5 arg6 harg6 arg7 harg7 arg8 harg8 arg9 harg9 arg10 harg10 xt0 xt1 h1 h2 h3 h4 x0 x1 x2).2.2.1 S512x1.size (by sl_kernel_rfl) y

/-- What case A leaves in the scratch buffer of the running sum: its pieces read back over junk. -/
def sout1_A_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) : Vec F S512x1 .f32 :=
  VS1_1.read (Elt F) (VS1_1.writes (Elt F) VS1_1.junk (kernelRun1_A c i arg4 harg4 arg5 harg5 arg6 harg6 arg7 harg7 arg8 harg8 arg9 harg9 arg10 harg10 xt0 xt1 h1 h2 h3 h4 x0 x1 x2).2.2.1)

/-- Case A's pieces for the scratch buffer of the running weighted sum cover it: they tile the shape in blocks of the whole shape. -/
theorem scover1_A_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (y : S512x1024.Idx) :
    ∃ pc ∈ (kernelRun1_A c i arg4 harg4 arg5 harg5 arg6 harg6 arg7 harg7 arg8 harg8 arg9 harg9 arg10 harg10 xt0 xt1 h1 h2 h3 h4 x0 x1 x2).2.2.2.1, y ∈ pc.1.set :=
  View.cover_of_tiledL (kernelRun1_A c i arg4 harg4 arg5 harg5 arg6 harg6 arg7 harg7 arg8 harg8 arg9 harg9 arg10 harg10 xt0 xt1 h1 h2 h3 h4 x0 x1 x2).2.2.2.1 S512x1024.size (by sl_kernel_rfl) y

/-- What case A leaves in the scratch buffer of the running weighted sum: its pieces read back over junk. -/
def sout1_A_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) : Vec F S512x1024 .f32 :=
  VS1_2.read (Elt F) (VS1_2.writes (Elt F) VS1_2.junk (kernelRun1_A c i arg4 harg4 arg5 harg5 arg6 harg6 arg7 harg7 arg8 harg8 arg9 harg9 arg10 harg10 xt0 xt1 h1 h2 h3 h4 x0 x1 x2).2.2.2.1)

/-- Case A's pieces for the output buffer cover it: one store of the whole block. -/
theorem cover1_A_7 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (y : S1x512x1024.Idx) :
    ∃ pc ∈ (kernelRun1_A c i arg4 harg4 arg5 harg5 arg6 harg6 arg7 harg7 arg8 harg8 arg9 harg9 arg10 harg10 xt0 xt1 h1 h2 h3 h4 x0 x1 x2).1, y ∈ pc.1.set :=
  View.cover_of_tiledL (kernelRun1_A c i arg4 harg4 arg5 harg5 arg6 harg6 arg7 harg7 arg8 harg8 arg9 harg9 arg10 harg10 xt0 xt1 h1 h2 h3 h4 x0 x1 x2).1 S1x512x1024.size (by sl_kernel_rfl) y

/-- What case A leaves in the output buffer: its pieces read back over junk. -/
def out1_A_7 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) : Vec F S1x512x1024 .f32 :=
  VO1_3.read (Elt F) (VO1_3.writes (Elt F) VO1_3.junk (kernelRun1_A c i arg4 harg4 arg5 harg5 arg6 harg6 arg7 harg7 arg8 harg8 arg9 harg9 arg10 harg10 xt0 xt1 h1 h2 h3 h4 x0 x1 x2).1)

end Cert.Kernel.Hand

end
-- ==== Proof.BitsRegion1Cases.lean ====
/-
  Region 1 (the attention kernel): the four cases a grid point can be in, by its position modulo 10, and what the
  two index tables must say for that — the facts the body obligation and the value proof take as a hypothesis and
  each instance decides at the literal tables.
-/
import proofs.«418573_j77876347011327_3_alg».proof.Proof.BitsRegion1Base

noncomputable section

namespace Cert.Kernel.Hand

open Cert.Kernel Cert.Kernel.Gen
open Idealize.ShloMosaic Idealize.ShloMosaic.TcCoe
open Idealize.SL Idealize.SL.Sem

variable {F : FTy → Type} [FloatOps F]

/-- The points whose key block is the first of its query block. -/
def isReset (n : ℕ) : Prop := n % 10 = 0 ∨ n % 10 = 1 ∨ n % 10 = 3 ∨ n % 10 = 6
/-- The points on the diagonal. -/
def isDiag (n : ℕ) : Prop := n % 10 = 0 ∨ n % 10 = 2 ∨ n % 10 = 5 ∨ n % 10 = 9
instance (n : ℕ) : Decidable (isReset n) := by unfold isReset; infer_instance
instance (n : ℕ) : Decidable (isDiag n) := by unfold isDiag; infer_instance

variable (a : (pcfg1 (F := F)).Adm)

/-- The coordinates of point `t`. -/
abbrev crd (t : Fin (cfg1 a).N) : grid1.Coords := (cfg1 a).grid.coords t

/-- What the two tables say at every point, and what follows for the output window's schedule: the words the body
    reads put each point in its case, the output window is idle exactly off the diagonal and written back exactly
    on it. -/
structure TblFacts : Prop where
  reset : ∀ (c : Dev nD) (t : Fin (cfg1 a).N), cReset (wordK c (crd a t) (a.1 1)) ↔ isReset t.val
  diag : ∀ (c : Dev nD) (t : Fin (cfg1 a).N), cDiag (wordQ c (crd a t) (a.1 0)) (wordK c (crd a t) (a.1 1)) ↔ isDiag t.val
  off : ∀ (c : Dev nD) (t : Fin (cfg1 a).N), cOff (wordQ c (crd a t) (a.1 0)) (wordK c (crd a t) (a.1 1)) ↔ ¬ isDiag t.val
  fin : ∀ (c : Dev nD) (t : Fin (cfg1 a).N), cFin (wordQ c (crd a t) (a.1 0)) (wordK c (crd a t) (a.1 1)) ↔ isDiag t.val
  idle3 : ∀ t : Fin (cfg1 a).N, (cfg1 a).idle 3 (crd a t) = true ↔ ¬ isDiag t.val
  flush3 : ∀ t : Fin (cfg1 a).N, ((cfg1 a).win 3).flush t = true ↔ isDiag t.val
  n40 : (cfg1 a).N = 40

end Cert.Kernel.Hand

end
-- ==== Proof.BitsRegion1.lean ====
/-
  Region 1 (the attention kernel): what its scratch buffers and its output block hold after each grid point, the
  pipeline's proof data over that, and the body obligation.

  The grid is 4 batches by 10 (query block, key block) pairs in the order (0,0) (1,0) (1,1) (2,0) (2,1) (2,2)
  (3,0) (3,1) (3,2) (3,3). A pair with key block 0 resets the running maximum, sum and weighted sum; a diagonal pair
  masks the scores, and after it the output block is stored. So a point is in one of four cases by its position
  modulo 10: reset and diagonal (0), reset only (1, 3, 6), diagonal only (2, 5, 9), neither (4, 7, 8). What the
  scratch holds after a point is that case's run over the point's blocks and, without a reset, over what the point
  before left.
-/
import proofs.«418573_j77876347011327_3_alg».proof.Proof.BitsRegion1Runs
import proofs.«418573_j77876347011327_3_alg».proof.Proof.BitsRegion1Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The windows' blocks -/

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The four runs at a point of the pipeline -/

variable (hT : TblFacts a)

/-- The run of each case at point `t`, on the point's staging buffers, the scratch buffers and the tables. -/
def runA (c : Dev nD) (t : Fin (cfg1 a).N) (hr : isReset t.val) (hd : isDiag t.val) :=
  kernelRun1_A c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t)
def runB (c : Dev nD) (t : Fin (cfg1 a).N) (hr : isReset t.val) (hd : ¬ isDiag t.val) :=
  kernelRun1_B c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) (fun h => hd ((hT.diag c t).mp h)) ((hT.off c t).mpr hd) (fun h => hd ((hT.fin c t).mp h)) (iblk1 V a c 0 t) (iblk1 V a c 1 t) (iblk1 V a c 2 t)
def runC (c : Dev nD) (t : Fin (cfg1 a).N) (hr : ¬ isReset t.val) (hd : isDiag t.val) (xs0 xs1 : Vec F S512x1 .f32) (xs2 : Vec F S512x1024 .f32) :=
  kernelRun1_C c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2
def runD (c : Dev nD) (t : Fin (cfg1 a).N) (hr : ¬ isReset t.val) (hd : ¬ isDiag t.val) (xs0 xs1 : Vec F S512x1 .f32) (xs2 : Vec F S512x1024 .f32) :=
  kernelRun1_D c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) (fun h => hd ((hT.diag c t).mp h)) ((hT.off c t).mpr hd) (fun h => hd ((hT.fin c t).mp h)) (iblk1 V a c 0 t) (iblk1 V a c 1 t) (iblk1 V a c 2 t) xs0 xs1 xs2

/-- What a list of pieces leaves in each buffer: the pieces read back. -/
abbrev rd7 (L : List (View.Piece (Elt F) S1x512x1024 .f32)) : Vec F S1x512x1024 .f32 := VO1_3.read (Elt F) (VO1_3.writes (Elt F) VO1_3.junk L)
abbrev rd0 (L : List (View.Piece (Elt F) S512x1 .f32)) : Vec F S512x1 .f32 := VS1_0.read (Elt F) (VS1_0.writes (Elt F) VS1_0.junk L)
abbrev rd1 (L : List (View.Piece (Elt F) S512x1 .f32)) : Vec F S512x1 .f32 := VS1_1.read (Elt F) (VS1_1.writes (Elt F) VS1_1.junk L)
abbrev rd2 (L : List (View.Piece (Elt F) S512x1024 .f32)) : Vec F S512x1024 .f32 := VS1_2.read (Elt F) (VS1_2.writes (Elt F) VS1_2.junk L)

/-- What the output's staging buffer and the three scratch buffers hold after a point. -/
abbrev Outs1 (F : FTy → Type) : Type := Vec F S1x512x1024 .f32 × Vec F S512x1 .f32 × Vec F S512x1 .f32 × Vec F S512x1024 .f32

/-- What each case leaves, as the four buffers' contents: the pieces its run found, read back. -/
def outA (c : Dev nD) (t : Fin (cfg1 a).N) (hr : isReset t.val) (hd : isDiag t.val) : Outs1 F :=
  (rd7 (runA V a hT c t hr hd).1, rd0 (runA V a hT c t hr hd).2.1, rd1 (runA V a hT c t hr hd).2.2.1, rd2 (runA V a hT c t hr hd).2.2.2.1)
def outB (c : Dev nD) (t : Fin (cfg1 a).N) (hr : isReset t.val) (hd : ¬ isDiag t.val) : Outs1 F :=
  (rd7 (runB V a hT c t hr hd).1, rd0 (runB V a hT c t hr hd).2.1, rd1 (runB V a hT c t hr hd).2.2.1, rd2 (runB V a hT c t hr hd).2.2.2.1)
def outC (c : Dev nD) (t : Fin (cfg1 a).N) (hr : ¬ isReset t.val) (hd : isDiag t.val) (p : Vec F S512x1 .f32 × Vec F S512x1 .f32 × Vec F S512x1024 .f32) : Outs1 F :=
  (rd7 (runC V a hT c t hr hd p.1 p.2.1 p.2.2).1, rd0 (runC V a hT c t hr hd p.1 p.2.1 p.2.2).2.1, rd1 (runC V a hT c t hr hd p.1 p.2.1 p.2.2).2.2.1, rd2 (runC V a hT c t hr hd p.1 p.2.1 p.2.2).2.2.2.1)
def outD (c : Dev nD) (t : Fin (cfg1 a).N) (hr : ¬ isReset t.val) (hd : ¬ isDiag t.val) (p : Vec F S512x1 .f32 × Vec F S512x1 .f32 × Vec F S512x1024 .f32) : Outs1 F :=
  (rd7 (runD V a hT c t hr hd p.1 p.2.1 p.2.2).1, rd0 (runD V a hT c t hr hd p.1 p.2.1 p.2.2).2.1, rd1 (runD V a hT c t hr hd p.1 p.2.1 p.2.2).2.2.1, rd2 (runD V a hT c t hr hd p.1 p.2.1 p.2.2).2.2.2.1)

/-! ## What the buffers hold after each point -/

/-- The output's staging buffer and the scratch buffers after the body at position `n`: the case the position is
    in, run at the point's blocks and, without a reset, over what the point before left in the scratch. -/
def outsAt1 (c : Dev nD) : (n : ℕ) → n < (cfg1 a).N → Outs1 F
  | 0, hn => outA V a hT c ⟨0, hn⟩ (Or.inl rfl) (Or.inl rfl)
  | n + 1, hn =>
    if hr : isReset (n + 1) then
      if hd : isDiag (n + 1) then outA V a hT c ⟨n + 1, hn⟩ hr hd
      else outB V a hT c ⟨n + 1, hn⟩ hr hd
    else
      if hd : isDiag (n + 1) then outC V a hT c ⟨n + 1, hn⟩ hr hd (outsAt1 c n (Nat.lt_of_succ_lt hn)).2
      else outD V a hT c ⟨n + 1, hn⟩ hr hd (outsAt1 c n (Nat.lt_of_succ_lt hn)).2

theorem outsAt1_A (c : Dev nD) (t : Fin (cfg1 a).N) (hr : isReset t.val) (hd : isDiag t.val) :
    outsAt1 V a hT c t.val t.isLt = outA V a hT c t hr hd := by
  obtain ⟨n, hn⟩ := t
  cases n with
  | zero => rfl
  | succ n => exact (dif_pos hr).trans (dif_pos hd)

theorem outsAt1_B (c : Dev nD) (t : Fin (cfg1 a).N) (hr : isReset t.val) (hd : ¬ isDiag t.val) :
    outsAt1 V a hT c t.val t.isLt = outB V a hT c t hr hd := by
  obtain ⟨n, hn⟩ := t
  cases n with
  | zero => exact absurd (Or.inl rfl) hd
  | succ n => exact (dif_pos hr).trans (dif_neg hd)

theorem outsAt1_C (c : Dev nD) (t : Fin (cfg1 a).N) (hr : ¬ isReset t.val) (hd : isDiag t.val) :
    outsAt1 V a hT c t.val t.isLt = outC V a hT c t hr hd (outsAt1 V a hT c (t.val - 1) (Nat.lt_of_le_of_lt (Nat.sub_le _ _) t.isLt)).2 := by
  obtain ⟨n, hn⟩ := t
  cases n with
  | zero => exact absurd (Or.inl rfl) hr
  | succ n => exact (dif_neg hr).trans (dif_pos hd)

theorem outsAt1_D (c : Dev nD) (t : Fin (cfg1 a).N) (hr : ¬ isReset t.val) (hd : ¬ isDiag t.val) :
    outsAt1 V a hT c t.val t.isLt = outD V a hT c t hr hd (outsAt1 V a hT c (t.val - 1) (Nat.lt_of_le_of_lt (Nat.sub_le _ _) t.isLt)).2 := by
  obtain ⟨n, hn⟩ := t
  cases n with
  | zero => exact absurd (Or.inl rfl) hr
  | succ n => exact (dif_neg hr).trans (dif_neg hd)

/-! ## The region invariant -/

/-- The class invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The two tables held whole at the contents the region was entered with. -/
theorem PhiT1_eq (c : Dev nD) :
    (Pipeline.prefHeld (Ix := Unit) (Name := ℕ) (U := UR sig nD τ) (Lvl := ℕ) pre1 c (fun _ => fullShare) a.1 : sProp 𝕄)
      = iprop(tbPt1 c tbM1_0 (a.1 0) ∗ tbPt1 c tbM1_1 (a.1 1)) := by
  unfold Pipeline.prefHeld
  rw [show (Finset.univ : Finset (Fin 2)) = insert (0 : Fin 2) {(1 : Fin 2)} from by decide,
    bigSep_insert (by decide), bigSep_singleton]
  rfl

/-- The invariant before position `n`: before the first point every scratch at anything; afterwards each scratch at
    what the point before left; always the other scoped buffers at anything, the generator register at some state,
    and the two tables. -/
def PhiS1 (c : Dev nD) : (n : ℕ) → n ≤ (cfg1 a).N → sProp 𝕄
  | 0, _ => iprop(Pipeline.ΦA spec1 c ∗ tbPt1 c tbM1_0 (a.1 0) ∗ tbPt1 c tbM1_1 (a.1 1))
  | n + 1, hn => iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V a hT c n hn).2.1 ∗ owns (c : Thread nD τ) scM1_1 fullShare (outsAt1 V a hT c n hn).2.2.1 ∗ owns (c : Thread nD τ) scM1_2 fullShare (outsAt1 V a hT c n hn).2.2.2) ∗ (∃ r, prngReg c r)) ∗ tbPt1 c tbM1_0 (a.1 0) ∗ tbPt1 c tbM1_1 (a.1 1))

theorem PhiS1_zero (c : Dev nD) (n : ℕ) (h : n ≤ (cfg1 a).N) (hz : n = 0) :
    PhiS1 V a hT c n h = iprop(Pipeline.ΦA spec1 c ∗ tbPt1 c tbM1_0 (a.1 0) ∗ tbPt1 c tbM1_1 (a.1 1)) := by
  subst hz; rfl

theorem PhiS1_succ (c : Dev nD) (n : ℕ) (hn : n < (cfg1 a).N) :
    PhiS1 V a hT c (n + 1) hn = iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V a hT c n hn).2.1 ∗ owns (c : Thread nD τ) scM1_1 fullShare (outsAt1 V a hT c n hn).2.2.1 ∗ owns (c : Thread nD τ) scM1_2 fullShare (outsAt1 V a hT c n hn).2.2.2) ∗ (∃ r, prngReg c r)) ∗ tbPt1 c tbM1_0 (a.1 0) ∗ tbPt1 c tbM1_1 (a.1 1)) := rfl

theorem PhiS1_pos (c : Dev nD) (n : ℕ) (h : n ≤ (cfg1 a).N) (hz : n ≠ 0) :
    PhiS1 V a hT c n h = iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V a hT c (n - 1) (by omega)).2.1 ∗ owns (c : Thread nD τ) scM1_1 fullShare (outsAt1 V a hT c (n - 1) (by omega)).2.2.1 ∗ owns (c : Thread nD τ) scM1_2 fullShare (outsAt1 V a hT c (n - 1) (by omega)).2.2.2) ∗ (∃ r, prngReg c r)) ∗ tbPt1 c tbM1_0 (a.1 0) ∗ tbPt1 c tbM1_1 (a.1 1)) := by
  cases n with
  | zero => exact absurd rfl hz
  | succ n => rfl

/-! ## The pipeline's proof data -/

/-- The proof data of the pipeline on core `c`: the arrays as the region finds them; after the body at a point each
    input's buffer at its block and the output's at what the point's case leaves; the invariant above; the one array
    behind the three input windows shared out among them; nothing owed. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => (outsAt1 V a hT c t.val t.isLt).1
  Φ t := PhiS1 V a hT c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin (cfg1 a).W) : (dat1 V a hT c).A w = V c (Pipeline.arrRef spec1 w) := by
  dsimp only [dat1]

theorem PhiS1_castSucc (c : Dev nD) (t : Fin (cfg1 a).N) :
    (dat1 V a hT c).Φ t.castSucc = PhiS1 V a hT c t.val (Nat.le_of_lt t.isLt) := by
  dsimp only [dat1]; simp only [Fin.coe_castSucc]

theorem after1_0 (c : Dev nD) (t : Fin (cfg1 a).N) : (dat1 V a hT c).after 0 t = iblk1 V a c 0 t := by dsimp only [dat1]; rfl
theorem after1_1 (c : Dev nD) (t : Fin (cfg1 a).N) : (dat1 V a hT c).after 1 t = iblk1 V a c 1 t := by dsimp only [dat1]; rfl
theorem after1_2 (c : Dev nD) (t : Fin (cfg1 a).N) : (dat1 V a hT c).after 2 t = iblk1 V a c 2 t := by dsimp only [dat1]; rfl
theorem after1_3 (c : Dev nD) (t : Fin (cfg1 a).N) : (dat1 V a hT c).after 3 t = (outsAt1 V a hT c t.val t.isLt).1 := by dsimp only [dat1]; rfl

theorem before1_0 (c : Dev nD) (t : Fin (cfg1 a).N) (d) : (dat1 V a hT c).before 0 t d = iblk1 V a c 0 t :=
  before1_0_of V a (dat1 V a hT c) (A_eq1 V a hT c 0) (after1_0 V a hT c) t d
theorem before1_1 (c : Dev nD) (t : Fin (cfg1 a).N) (d) : (dat1 V a hT c).before 1 t d = iblk1 V a c 1 t :=
  before1_1_of V a (dat1 V a hT c) (A_eq1 V a hT c 1) (after1_1 V a hT c) t d
theorem before1_2 (c : Dev nD) (t : Fin (cfg1 a).N) (d) : (dat1 V a hT c).before 2 t d = iblk1 V a c 2 t :=
  before1_2_of V a (dat1 V a hT c) (A_eq1 V a hT c 2) (after1_2 V a hT c) t d

/-! ## The body obligation, at a generic point -/

/-- What the body is called with at point `t`, the windows one by one, -/
def bodyPre1 (c : Dev nD) (t : Fin (cfg1 a).N) : sProp 𝕄 :=
  iprop((dat1 V a hT c).Φ t.castSucc ∗ (dat1 V a hT c).owesAt () t.castSucc
    ∗ (∃ d, owns (c : Thread nD τ) (ms1_0 a t) fullShare ((dat1 V a hT c).before 0 t d))
    ∗ (∃ d, owns (c : Thread nD τ) (ms1_1 a t) fullShare ((dat1 V a hT c).before 1 t d))
    ∗ (∃ d, owns (c : Thread nD τ) (ms1_2 a t) fullShare ((dat1 V a hT c).before 2 t d))
    ∗ (∃ d, owns (c : Thread nD τ) (ms1_3 a t) fullShare ((dat1 V a hT c).before 3 t d)))

/-- and what it returns. -/
def bodyPost1 (c : Dev nD) (t : Fin (cfg1 a).N) : sProp 𝕄 :=
  iprop((dat1 V a hT c).Φ t.succ ∗ (dat1 V a hT c).owesAt () t.succ
    ∗ (dat1 V a hT c).leavesExact 0 t
    ∗ (dat1 V a hT c).leavesExact 1 t
    ∗ (dat1 V a hT c).leavesExact 2 t
    ∗ (dat1 V a hT c).leavesExact 3 t)

theorem leaves1_0 (c : Dev nD) (t : Fin (cfg1 a).N) : (dat1 V a hT c).leavesExact 0 t = owns (c : Thread nD τ) (ms1_0 a t) fullShare (iblk1 V a c 0 t) := by
  unfold Dat.leavesExact; rw [show (cfg1 a).idle 0 ((cfg1 a).grid.coords t) = false from rfl, after1_0]; rfl
theorem leaves1_1 (c : Dev nD) (t : Fin (cfg1 a).N) : (dat1 V a hT c).leavesExact 1 t = owns (c : Thread nD τ) (ms1_1 a t) fullShare (iblk1 V a c 1 t) := by
  unfold Dat.leavesExact; rw [show (cfg1 a).idle 1 ((cfg1 a).grid.coords t) = false from rfl, after1_1]; rfl
theorem leaves1_2 (c : Dev nD) (t : Fin (cfg1 a).N) : (dat1 V a hT c).leavesExact 2 t = owns (c : Thread nD τ) (ms1_2 a t) fullShare (iblk1 V a c 2 t) := by
  unfold Dat.leavesExact; rw [show (cfg1 a).idle 2 ((cfg1 a).grid.coords t) = false from rfl, after1_2]; rfl
/-- On the diagonal the output window is live: its buffer is left at what the case stores. -/
theorem leaves1_3_live (c : Dev nD) (t : Fin (cfg1 a).N) (hd : isDiag t.val) :
    (dat1 V a hT c).leavesExact 3 t = owns (c : Thread nD τ) (ms1_3 a t) fullShare (outsAt1 V a hT c t.val t.isLt).1 := by
  have hi : (cfg1 a).idle 3 ((cfg1 a).grid.coords t) = false := by
    cases h : (cfg1 a).idle 3 ((cfg1 a).grid.coords t) with
    | false => rfl
    | true => exact absurd hd ((hT.idle3 t).mp h)
  unfold Dat.leavesExact; rw [hi, after1_3]; rfl
/-- Off the diagonal it is idle and not written back: its buffer is left as found. -/
theorem leaves1_3_idle (c : Dev nD) (t : Fin (cfg1 a).N) (hd : ¬ isDiag t.val) :
    (dat1 V a hT c).leavesExact 3 t = iprop(∃ d, owns (c : Thread nD τ) (ms1_3 a t) fullShare ((dat1 V a hT c).before 3 t d)) := by
  have hf : ((cfg1 a).win 3).flush t = false := by
    cases h : ((cfg1 a).win 3).flush t with
    | false => rfl
    | true => exact absurd ((hT.flush3 t).mp h) hd
  exact Dat.leavesExact_idle (dat1 V a hT c) 3 t ((hT.idle3 t).mpr hd) hf

/-! ## The runs' pieces cover their buffers -/

theorem covA0 (c : Dev nD) (t : Fin (cfg1 a).N) (hr : isReset t.val) (hd : isDiag t.val) (y : S512x1.Idx) : ∃ pc ∈ (runA V a hT c t hr hd).2.1, y ∈ pc.1.set :=
  scover1_A_0 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t) y
theorem covA1 (c : Dev nD) (t : Fin (cfg1 a).N) (hr : isReset t.val) (hd : isDiag t.val) (y : S512x1.Idx) : ∃ pc ∈ (runA V a hT c t hr hd).2.2.1, y ∈ pc.1.set :=
  scover1_A_1 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t) y
theorem covA2 (c : Dev nD) (t : Fin (cfg1 a).N) (hr : isReset t.val) (hd : isDiag t.val) (y : S512x1024.Idx) : ∃ pc ∈ (runA V a hT c t hr hd).2.2.2.1, y ∈ pc.1.set :=
  scover1_A_2 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t) y
theorem covA7 (c : Dev nD) (t : Fin (cfg1 a).N) (hr : isReset t.val) (hd : isDiag t.val) (y : S1x512x1024.Idx) : ∃ pc ∈ (runA V a hT c t hr hd).1, y ∈ pc.1.set :=
  cover1_A_7 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t) y
theorem covB0 (c : Dev nD) (t : Fin (cfg1 a).N) (hr : isReset t.val) (hd : ¬ isDiag t.val) (y : S512x1.Idx) : ∃ pc ∈ (runB V a hT c t hr hd).2.1, y ∈ pc.1.set :=
  scover1_B_0 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) (fun h => hd ((hT.diag c t).mp h)) ((hT.off c t).mpr hd) (fun h => hd ((hT.fin c t).mp h)) (iblk1 V a c 0 t) (iblk1 V a c 1 t) (iblk1 V a c 2 t) y
theorem covB1 (c : Dev nD) (t : Fin (cfg1 a).N) (hr : isReset t.val) (hd : ¬ isDiag t.val) (y : S512x1.Idx) : ∃ pc ∈ (runB V a hT c t hr hd).2.2.1, y ∈ pc.1.set :=
  scover1_B_1 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) (fun h => hd ((hT.diag c t).mp h)) ((hT.off c t).mpr hd) (fun h => hd ((hT.fin c t).mp h)) (iblk1 V a c 0 t) (iblk1 V a c 1 t) (iblk1 V a c 2 t) y
theorem covB2 (c : Dev nD) (t : Fin (cfg1 a).N) (hr : isReset t.val) (hd : ¬ isDiag t.val) (y : S512x1024.Idx) : ∃ pc ∈ (runB V a hT c t hr hd).2.2.2.1, y ∈ pc.1.set :=
  scover1_B_2 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) (fun h => hd ((hT.diag c t).mp h)) ((hT.off c t).mpr hd) (fun h => hd ((hT.fin c t).mp h)) (iblk1 V a c 0 t) (iblk1 V a c 1 t) (iblk1 V a c 2 t) y
theorem covC0 (c : Dev nD) (t : Fin (cfg1 a).N) (hr : ¬ isReset t.val) (hd : isDiag t.val) (xs0 xs1 : Vec F S512x1 .f32) (xs2 : Vec F S512x1024 .f32) (y : S512x1.Idx) : ∃ pc ∈ (runC V a hT c t hr hd xs0 xs1 xs2).2.1, y ∈ pc.1.set :=
  scover1_C_0 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2 y
theorem covC1 (c : Dev nD) (t : Fin (cfg1 a).N) (hr : ¬ isReset t.val) (hd : isDiag t.val) (xs0 xs1 : Vec F S512x1 .f32) (xs2 : Vec F S512x1024 .f32) (y : S512x1.Idx) : ∃ pc ∈ (runC V a hT c t hr hd xs0 xs1 xs2).2.2.1, y ∈ pc.1.set :=
  scover1_C_1 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2 y
theorem covC2 (c : Dev nD) (t : Fin (cfg1 a).N) (hr : ¬ isReset t.val) (hd : isDiag t.val) (xs0 xs1 : Vec F S512x1 .f32) (xs2 : Vec F S512x1024 .f32) (y : S512x1024.Idx) : ∃ pc ∈ (runC V a hT c t hr hd xs0 xs1 xs2).2.2.2.1, y ∈ pc.1.set :=
  scover1_C_2 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2 y
theorem covC7 (c : Dev nD) (t : Fin (cfg1 a).N) (hr : ¬ isReset t.val) (hd : isDiag t.val) (xs0 xs1 : Vec F S512x1 .f32) (xs2 : Vec F S512x1024 .f32) (y : S1x512x1024.Idx) : ∃ pc ∈ (runC V a hT c t hr hd xs0 xs1 xs2).1, y ∈ pc.1.set :=
  cover1_C_7 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2 y
theorem covD0 (c : Dev nD) (t : Fin (cfg1 a).N) (hr : ¬ isReset t.val) (hd : ¬ isDiag t.val) (xs0 xs1 : Vec F S512x1 .f32) (xs2 : Vec F S512x1024 .f32) (y : S512x1.Idx) : ∃ pc ∈ (runD V a hT c t hr hd xs0 xs1 xs2).2.1, y ∈ pc.1.set :=
  scover1_D_0 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) (fun h => hd ((hT.diag c t).mp h)) ((hT.off c t).mpr hd) (fun h => hd ((hT.fin c t).mp h)) (iblk1 V a c 0 t) (iblk1 V a c 1 t) (iblk1 V a c 2 t) xs0 xs1 xs2 y
theorem covD1 (c : Dev nD) (t : Fin (cfg1 a).N) (hr : ¬ isReset t.val) (hd : ¬ isDiag t.val) (xs0 xs1 : Vec F S512x1 .f32) (xs2 : Vec F S512x1024 .f32) (y : S512x1.Idx) : ∃ pc ∈ (runD V a hT c t hr hd xs0 xs1 xs2).2.2.1, y ∈ pc.1.set :=
  scover1_D_1 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) (fun h => hd ((hT.diag c t).mp h)) ((hT.off c t).mpr hd) (fun h => hd ((hT.fin c t).mp h)) (iblk1 V a c 0 t) (iblk1 V a c 1 t) (iblk1 V a c 2 t) xs0 xs1 xs2 y
theorem covD2 (c : Dev nD) (t : Fin (cfg1 a).N) (hr : ¬ isReset t.val) (hd : ¬ isDiag t.val) (xs0 xs1 : Vec F S512x1 .f32) (xs2 : Vec F S512x1024 .f32) (y : S512x1024.Idx) : ∃ pc ∈ (runD V a hT c t hr hd xs0 xs1 xs2).2.2.2.1, y ∈ pc.1.set :=
  scover1_D_2 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) (fun h => hd ((hT.diag c t).mp h)) ((hT.off c t).mpr hd) (fun h => hd ((hT.fin c t).mp h)) (iblk1 V a c 0 t) (iblk1 V a c 1 t) (iblk1 V a c 2 t) xs0 xs1 xs2 y
/-! ## The body, case by case -/

set_option maxHeartbeats 2000000 in
theorem sound_A_any (c : Dev nD) (t : Fin (cfg1 a).N) (hr : isReset t.val) (hd : isDiag t.val) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runA V a hT c t hr hd).2.1) ∗ owns (c : Thread nD τ) scM1_1 fullShare (rd1 (runA V a hT c t hr hd).2.2.1) ∗ owns (c : Thread nD τ) scM1_2 fullShare (rd2 (runA V a hT c t hr hd).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ owns (c : Thread nD τ) (ms1_3 a t) fullShare (rd7 (runA V a hT c t hr hd).1))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runA V a hT c t hr hd).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HT0]; · iexact HT0
    isplitl [HT1]; · iexact HT1
    iintro ⟨H0, H1, H2, ⟨%e3, H3⟩, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covA0 V a hT c t hr hd)
          isplitl [HS1]
          · unfold owns; iexists _; isplitr
            swap; · iexact HS1
            ipureintro; exact View.read_writes_of_cover _ _ _ _ _ (covA1 V a hT c t hr hd)
          unfold owns; iexists _; isplitr
          swap; · iexact HS2
          ipureintro; exact View.read_writes_of_cover _ _ _ _ _ (covA2 V a hT c t hr hd)
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (covA7 V a hT c t hr hd)

set_option maxHeartbeats 2000000 in
theorem sound_A (c : Dev nD) (t : Fin (cfg1 a).N) (hr : isReset t.val) (hd : isDiag t.val) (p0 p1 : Vec F S512x1 .f32) (p2 : Vec F S512x1024 .f32) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare p0 ∗ owns (c : Thread nD τ) scM1_1 fullShare p1 ∗ owns (c : Thread nD τ) scM1_2 fullShare p2) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runA V a hT c t hr hd).2.1) ∗ owns (c : Thread nD τ) scM1_1 fullShare (rd1 (runA V a hT c t hr hd).2.2.1) ∗ owns (c : Thread nD τ) scM1_2 fullShare (rd2 (runA V a hT c t hr hd).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ owns (c : Thread nD τ) (ms1_3 a t) fullShare (rd7 (runA V a hT c t hr hd).1))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runA V a hT c t hr hd).2.2.2.2 Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    isplitl [HS2]; · iexists _; iexact HS2
    isplitl [HT0]; · iexact HT0
    isplitl [HT1]; · iexact HT1
    iintro ⟨H0, H1, H2, ⟨%e3, H3⟩, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covA0 V a hT c t hr hd)
          isplitl [HS1]
          · unfold owns; iexists _; isplitr
            swap; · iexact HS1
            ipureintro; exact View.read_writes_of_cover _ _ _ _ _ (covA1 V a hT c t hr hd)
          unfold owns; iexists _; isplitr
          swap; · iexact HS2
          ipureintro; exact View.read_writes_of_cover _ _ _ _ _ (covA2 V a hT c t hr hd)
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (covA7 V a hT c t hr hd)

set_option maxHeartbeats 2000000 in
theorem sound_B (c : Dev nD) (t : Fin (cfg1 a).N) (hr : isReset t.val) (hd : ¬ isDiag t.val) (p0 p1 : Vec F S512x1 .f32) (p2 : Vec F S512x1024 .f32) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare p0 ∗ owns (c : Thread nD τ) scM1_1 fullShare p1 ∗ owns (c : Thread nD τ) scM1_2 fullShare p2) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runB V a hT c t hr hd).2.1) ∗ owns (c : Thread nD τ) scM1_1 fullShare (rd1 (runB V a hT c t hr hd).2.2.1) ∗ owns (c : Thread nD τ) scM1_2 fullShare (rd2 (runB V a hT c t hr hd).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ (∃ d, owns (c : Thread nD τ) (ms1_3 a t) fullShare ((dat1 V a hT c).before 3 t d)))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runB V a hT c t hr hd).2.2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    isplitl [HT0]; · iexact HT0
    isplitl [HT1]; · iexact HT1
    iintro ⟨H0, H1, H2, H3, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covB0 V a hT c t hr hd)
          isplitl [HS1]
          · unfold owns; iexists _; isplitr
            swap; · iexact HS1
            ipureintro; exact View.read_writes_of_cover _ _ _ _ _ (covB1 V a hT c t hr hd)
          unfold owns; iexists _; isplitr
          swap; · iexact HS2
          ipureintro; exact View.read_writes_of_cover _ _ _ _ _ (covB2 V a hT c t hr hd)
        iexact Hg
      isplitl [HT0]; · iexact HT0
      iexact HT1
    isplitl [Ho]; · iexact Ho
    isplitl [H0]; · iexact H0
    isplitl [H1]; · iexact H1
    isplitl [H2]; · iexact H2
    iexists _; iexact H3

set_option maxHeartbeats 2000000 in
theorem sound_C (c : Dev nD) (t : Fin (cfg1 a).N) (hr : ¬ isReset t.val) (hd : isDiag t.val) (p0 p1 : Vec F S512x1 .f32) (p2 : Vec F S512x1024 .f32) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare p0 ∗ owns (c : Thread nD τ) scM1_1 fullShare p1 ∗ owns (c : Thread nD τ) scM1_2 fullShare p2) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runC V a hT c t hr hd p0 p1 p2).2.1) ∗ owns (c : Thread nD τ) scM1_1 fullShare (rd1 (runC V a hT c t hr hd p0 p1 p2).2.2.1) ∗ owns (c : Thread nD τ) scM1_2 fullShare (rd2 (runC V a hT c t hr hd p0 p1 p2).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ owns (c : Thread nD τ) (ms1_3 a t) fullShare (rd7 (runC V a hT c t hr hd p0 p1 p2).1))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runC V a hT c t hr hd p0 p1 p2).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HT0]; · iexact HT0
    isplitl [HT1]; · iexact HT1
    iintro ⟨H0, H1, H2, ⟨%e3, H3⟩, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covC0 V a hT c t hr hd p0 p1 p2)
          isplitl [HS1]
          · unfold owns; iexists _; isplitr
            swap; · iexact HS1
            ipureintro; exact View.read_writes_of_cover _ _ _ _ _ (covC1 V a hT c t hr hd p0 p1 p2)
          unfold owns; iexists _; isplitr
          swap; · iexact HS2
          ipureintro; exact View.read_writes_of_cover _ _ _ _ _ (covC2 V a hT c t hr hd p0 p1 p2)
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (covC7 V a hT c t hr hd p0 p1 p2)

set_option maxHeartbeats 2000000 in
theorem sound_D (c : Dev nD) (t : Fin (cfg1 a).N) (hr : ¬ isReset t.val) (hd : ¬ isDiag t.val) (p0 p1 : Vec F S512x1 .f32) (p2 : Vec F S512x1024 .f32) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare p0 ∗ owns (c : Thread nD τ) scM1_1 fullShare p1 ∗ owns (c : Thread nD τ) scM1_2 fullShare p2) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runD V a hT c t hr hd p0 p1 p2).2.1) ∗ owns (c : Thread nD τ) scM1_1 fullShare (rd1 (runD V a hT c t hr hd p0 p1 p2).2.2.1) ∗ owns (c : Thread nD τ) scM1_2 fullShare (rd2 (runD V a hT c t hr hd p0 p1 p2).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ (∃ d, owns (c : Thread nD τ) (ms1_3 a t) fullShare ((dat1 V a hT c).before 3 t d)))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runD V a hT c t hr hd p0 p1 p2).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HT0]; · iexact HT0
    isplitl [HT1]; · iexact HT1
    iintro ⟨H0, H1, H2, H3, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covD0 V a hT c t hr hd p0 p1 p2)
          isplitl [HS1]
          · unfold owns; iexists _; isplitr
            swap; · iexact HS1
            ipureintro; exact View.read_writes_of_cover _ _ _ _ _ (covD1 V a hT c t hr hd p0 p1 p2)
          unfold owns; iexists _; isplitr
          swap; · iexact HS2
          ipureintro; exact View.read_writes_of_cover _ _ _ _ _ (covD2 V a hT c t hr hd p0 p1 p2)
        iexact Hg
      isplitl [HT0]; · iexact HT0
      iexact HT1
    isplitl [Ho]; · iexact Ho
    isplitl [H0]; · iexact H0
    isplitl [H1]; · iexact H1
    isplitl [H2]; · iexact H2
    iexists _; iexact H3

/-! ## The body obligation -/

set_option maxHeartbeats 2000000 in
/-- The body at any point: the inputs' buffers hold their blocks; the tables put the point in its case; that case's
    run applies, handed the scratch at what the point before left (at anything before the first point) and giving
    it back at what this point leaves. -/
theorem sound_body1 (c : Dev nD) (t : Fin (cfg1 a).N) :
    bodyPre1 V a hT c t ⊢ wp frame (wpE (defs₀ (F := F)) Variants.none c none) Set.univ (bodyAt1 a t) (fun _ => bodyPost1 V a hT c t) := by
  unfold bodyPre1 bodyPost1
  simp only [before1_0, before1_1, before1_2]
  rw [show (dat1 V a hT c).owesAt () t.succ = (dat1 V a hT c).owesAt () t.castSucc from rfl]
  rw [show (dat1 V a hT c).Φ t.succ = PhiS1 V a hT c (t.val + 1) t.isLt from rfl, PhiS1_succ]
  rw [leaves1_0, leaves1_1, leaves1_2]
  by_cases hr : isReset t.val
  · by_cases hd : isDiag t.val
    · rw [leaves1_3_live V a hT c t hd, outsAt1_A V a hT c t hr hd]; unfold outA; dsimp only
      by_cases hz : t.val = 0
      · rw [PhiS1_castSucc V a hT c t, PhiS1_zero V a hT c _ _ hz, PhiA1_eq]
        exact sound_A_any V a hT c t hr hd
      · rw [PhiS1_castSucc V a hT c t, PhiS1_pos V a hT c _ _ hz]
        exact sound_A V a hT c t hr hd _ _ _
    · rw [leaves1_3_idle V a hT c t hd, outsAt1_B V a hT c t hr hd]; unfold outB; dsimp only
      have hz : t.val ≠ 0 := fun h => hd (Or.inl (by rw [h]))
      rw [PhiS1_castSucc V a hT c t, PhiS1_pos V a hT c _ _ hz]
      exact sound_B V a hT c t hr hd _ _ _
  · have hz : t.val ≠ 0 := fun h => hr (Or.inl (by rw [h]))
    by_cases hd : isDiag t.val
    · rw [leaves1_3_live V a hT c t hd, outsAt1_C V a hT c t hr hd]; unfold outC; dsimp only
      rw [PhiS1_castSucc V a hT c t, PhiS1_pos V a hT c _ _ hz]
      exact sound_C V a hT c t hr hd _ _ _
    · rw [leaves1_3_idle V a hT c t hd, outsAt1_D V a hT c t hr hd]; unfold outD; dsimp only
      rw [PhiS1_castSucc V a hT c t, PhiS1_pos V a hT c _ _ hz]
      exact sound_D V a hT c t hr hd _ _ _

/-- The library's body obligation, at every point. -/
theorem body_obligation1 (c : Dev nD) : BodyObligation (dat1 (F := F) V a hT c) (defs₀ (F := F)) Variants.none () Set.univ := fun t => by
  rw [bigSep_W1, bigSep_W1]
  exact sound_body1 V a hT c t

/-! ## Into the invariant and out of it -/

/-- What the region hands the kernel — the class invariant and the two tables — is the invariant before the first point. -/
theorem hin1 (c : Dev nD) :
    iprop(Pipeline.ΦA spec1 c ∗ Pipeline.prefHeld (Ix := Unit) (Name := ℕ) (U := UR sig nD τ) (Lvl := ℕ) pre1 c (fun _ => fullShare) a.1) ⊢ (dat1 V a hT c).Φ 0 := by
  rw [show (dat1 V a hT c).Φ 0 = PhiS1 V a hT c 0 (Nat.zero_le _) from rfl, PhiS1_zero V a hT c 0 _ rfl, PhiT1_eq]
  try exact Idealize.SL.BI.Entails.refl _

/-- After the last point the invariant gives both back: the scratch's contents are forgotten. -/
theorem hout1 (c : Dev nD) :
    (dat1 V a hT c).Φ (Fin.last (cfg1 a).N) ⊢ iprop(Pipeline.ΦA spec1 c ∗ Pipeline.prefHeld (Ix := Unit) (Name := ℕ) (U := UR sig nD τ) (Lvl := ℕ) pre1 c (fun _ => fullShare) a.1) := by
  have hne : (Fin.last (cfg1 a).N).val ≠ 0 := by rw [Fin.val_last, hT.n40]; decide
  rw [show (dat1 V a hT c).Φ (Fin.last (cfg1 a).N) = PhiS1 V a hT c (Fin.last (cfg1 a).N).val (Nat.le_of_lt_succ (Fin.last (cfg1 a).N).isLt) from rfl,
    PhiS1_pos V a hT c _ _ hne, PhiA1_eq, PhiT1_eq]
  iintro ⟨⟨⟨R1, R2, R3, R4, R5, HS0, HS1, HS2⟩, Hg⟩, HT0, HT1⟩
  isplitl [R1 R2 R3 R4 R5 HS0 HS1 HS2 Hg]
  · isplitl [R1 R2 R3 R4 R5 HS0 HS1 HS2]
    · isplitl [R1]; · iexact R1
      isplitl [R2]; · iexact R2
      isplitl [R3]; · iexact R3
      isplitl [R4]; · iexact R4
      isplitl [R5]; · iexact R5
      isplitl [HS0]; · iexists _; iexact HS0
      isplitl [HS1]; · iexists _; iexact HS1
      iexists _; iexact HS2
    iexact Hg
  isplitl [HT0]; · iexact HT0
  iexact HT1

end Cert.Kernel.Hand

end
-- ==== Proof.BitsRun.lean ====
/-
  The whole program's run: @main as host operations, the projection region, a reshape, the attention region, over
  the buffer contents at each boundary; every weakly fair execution terminates and every unscoped buffer ends
  holding the last boundary's contents. From that: the arguments end as launched, and the result array holds
  what the attention region's write-backs leave.

  The attention region reads ONE array through three windows (query, key and value blocks of the projected
  array), so the array's full share is dealt among them at entry — a half, a quarter, a quarter — and joined
  again at exit; its two index tables pass through the region's invariant whole.
-/
import proofs.«418573_j77876347011327_3_alg».proof.Proof.BitsRunBase
import proofs.«418573_j77876347011327_3_alg».proof.Proof.BitsRegion1
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One array behind three windows -/

theorem arrImage1 : Finset.univ.image (Pipeline.arrRef spec1) = ({main_v5, main_v6} : Finset (Ref sig .tc)) := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6)) := by
  unfold Pipeline.arrBufs
  rw [arrImage1, bigSep_insert (by decide), bigSep_singleton]
  rfl

/-- One whole buffer dealt into a half and two quarters, and joined again. -/
theorem deal3 (ℓ : Loc nD τ sig) (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  refine (pointsTo_share (PosShare.mem_left_op_right fullShare)).trans ?_
  exact ⟨sep_mono .rfl (pointsTo_share (PosShare.mem_left_op_right fullShare.right)).1,
    sep_mono .rfl (pointsTo_share (PosShare.mem_left_op_right fullShare.right)).2⟩

/-- A core's unscoped buffers: the two arrays the attention region's windows read and write, its two tables, the rest. -/
theorem unscoped1_eq (c : Dev nD) (V : (b : Ref sig .tc) → Buf (Elt F) ((c : Thread nD τ).loc b)) :
    (unscopedBufs c V : sProp 𝕄)
      = iprop(iprop((((c : Thread nD τ).loc main_v5) ↦{fullShare} V main_v5) ∗ (((c : Thread nD τ).loc main_v6) ↦{fullShare} V main_v6))
          ∗ Pipeline.prefHeld (Ix := Unit) (Name := ℕ) (U := UR sig nD τ) (Lvl := ℕ) pre1 c (fun _ => fullShare) (fun k => V (pre1.ref k))
          ∗ Pipeline.unscopedRestP (Ix := Unit) (Name := ℕ) (U := UR sig nD τ) (Lvl := ℕ) pre1 spec1 c V) := by
  classical
  have hA : Finset.univ.image (Pipeline.arrRef spec1) ⊆ Finset.univ.filter fun b : Ref sig .tc => ¬ b.isScoped := by decide
  rw [← arrBufs1_eq, ← Pipeline.unscopedRest_split preFacts1 c V]
  unfold unscopedBufs Pipeline.unscopedRest Pipeline.arrBufs
  rw [bigSep_sdiff_split hA]
  rfl

variable (m : (ℓ : Loc nD τ sig) → Buf (Elt F) ℓ) (ρ : Dev nD → PrngReg)
variable (hT : TblFacts (F := F) (adm 1))

/-! ## The attention region's proof data, and the last boundary -/

/-- Region 1's proof data at its entry contents. -/
abbrev D1 (c : Dev nD) : Dat τ (Elt F) Unit ℕ (UR sig nD τ) ℕ (cfg1 (adm (F := F) 1)) c := dat1 (V3 m ρ) (adm 1) hT c

/-- The windows' arrays as the proof data's `arrays`: the projected array at a half and two quarters, the result
    array whole. -/
theorem arrays1_eq (c : Dev nD) (Fn : (w : Fin (cfg1 (adm (F := F) 1)).W) → Buf (Elt F) (((cfg1 (adm (F := F) 1)).win w).arr.view.loc (c : Thread nD τ))) :
    ((D1 m ρ hT c).arrays Fn : sProp 𝕄)
      = iprop((((c : Thread nD τ).loc main_v5) ↦{fullShare.left} Fn 0) ∗ (((c : Thread nD τ).loc main_v5) ↦{fullShare.right.left} Fn 1)
          ∗ (((c : Thread nD τ).loc main_v5) ↦{fullShare.right.right} Fn 2) ∗ (((c : Thread nD τ).loc main_v6) ↦{fullShare} Fn 3)) := by
  unfold Dat.arrays
  rw [bigSep_W1]
  rw [(arr_whole1 0).set_eq_univ, (arr_whole1 3).set_eq_univ]
  rfl

/-- The buffers after the attention region: the result array at what the write-backs leave, every other as entered. -/
def W4 (c : Dev nD) : Valuation τ sig (Elt F) :=
  Function.update (W3 m ρ c) (Proc.devRef .tc main_v6) ((D1 m ρ hT c).arrAt 3 (cfg1 (adm (F := F) 1)).N)
theorem W4_v6 (c : Dev nD) : W4 m ρ hT c (Proc.devRef .tc main_v6) = (D1 m ρ hT c).arrAt 3 (cfg1 (adm (F := F) 1)).N := by
  unfold W4; exact Function.update_self ..
theorem W4_of_ne (c : Dev nD) (b : Ref sig .tc) (hb : b ≠ main_v6) : W4 m ρ hT c (Proc.devRef .tc b) = W3 m ρ c (Proc.devRef .tc b) := by
  unfold W4; exact Function.update_of_ne (StableHlo.devRef_ne_of_ne hb) ..
abbrev V4 (c : Dev nD) (b : Ref sig .tc) : Buf (Elt F) ((c : Thread nD τ).loc b) := W4 m ρ hT c b

theorem W4_main_arg0 (c : Dev nD) : W4 m ρ hT c (Proc.devRef .tc main_arg0) = m ((c : Thread nD τ).loc main_arg0) :=
  (W4_of_ne m ρ hT c main_arg0 (by decide)).trans (W3_main_arg0 m ρ c)
theorem W4_main_arg1 (c : Dev nD) : W4 m ρ hT c (Proc.devRef .tc main_arg1) = m ((c : Thread nD τ).loc main_arg1) :=
  (W4_of_ne m ρ hT c main_arg1 (by decide)).trans (W3_main_arg1 m ρ c)
theorem W4_main_arg2 (c : Dev nD) : W4 m ρ hT c (Proc.devRef .tc main_arg2) = m ((c : Thread nD τ).loc main_arg2) :=
  (W4_of_ne m ρ hT c main_arg2 (by decide)).trans (W3_main_arg2 m ρ c)
theorem W4_main_arg3 (c : Dev nD) : W4 m ρ hT c (Proc.devRef .tc main_arg3) = m ((c : Thread nD τ).loc main_arg3) :=
  (W4_of_ne m ρ hT c main_arg3 (by decide)).trans (W3_main_arg3 m ρ c)

/-- The last thread state without the `owes`. -/
abbrev Tₙ (c : Dev nD) : sProp 𝕄 := iprop(StableHlo.held (c : Thread nD τ) (Pipeline.ucRefs τ sig) (W4 m ρ hT c) ∗ ∃ r, prngReg c r)

/-! ## The attention region as a segment -/

-- library lemmas stated over `pin pcs a p` unify with the pinned configuration only when unification may unfold
-- plain definitions in a metavariable's type
set_option backward.isDefEq.respectTransparency.types false in
set_option maxHeartbeats 2000000 in
/-- Region 1 over the thread state: entered from every unscoped buffer at `W3`, left at `W4`. The projected array's
    full share is dealt among the three input windows and joined again; the two tables go through the invariant
    whole; the generator register into the invariant and out; nothing owed; no semaphore of the kernel's own. -/
def reg1 : Pipeline.RegionSeg (pcfgs (F := F)) adm (pdats m ρ (D1 m ρ hT)) () defs₀ 𝒱₀ L lv 1 where
  win := winFacts₀1
  block_pos := block_pos1
  stage_whole := stage_whole1
  K := PEmpty
  osem k := k.elim
  ho := Pipeline.OwnSemFacts.none _
  hbody c := (body_obligation1 (V3 m ρ) (adm 1) hT c).loose
  hwaits := Pipeline.hwaits_of_owed_zero _ _ _ _ L lv 1 fun _ _ => rfl
  pre c := iprop(StableHlo.held (c : Thread nD τ) (Pipeline.ucRefs τ sig) (W3 m ρ c) ∗ R c)
  post c := iprop(iprop(StableHlo.held (c : Thread nD τ) (Pipeline.ucRefs τ sig) (W4 m ρ hT c) ∗ ∃ r, prngReg c r) ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (adm (F := F) 1).1)
  Z c := Pipeline.unscopedRestP (Ix := Unit) (Name := ℕ) (U := UR sig nD τ) (Lvl := ℕ) pre1 spec1 c (V3 m ρ c)
  hentry c := by
    rw [Pipeline.ownSems0_none]
    have hub : (StableHlo.held (c : Thread nD τ) (Pipeline.ucRefs τ sig) (W3 m ρ c) : sProp 𝕄) = unscopedBufs c (V3 m ρ c) :=
      (Pipeline.unscopedBufs_held c (W3 m ρ c)).symm
    have hpre : (fun k => V3 m ρ c (pre1.ref k)) = (adm (F := F) 1).1 := funext fun k => V3_pre m ρ c k
    rw [show (pdats m ρ (D1 m ρ hT) 1 c) = D1 m ρ hT c from rfl, arrays1_eq, hub, unscoped1_eq, hpre]
    iintro ⟨⟨⟨⟨H5, H6⟩, HT, HR⟩, Hp, HO⟩, -, -⟩
    ihave H := (deal3 _ _).1 $$ H5
    icases H with ⟨Ha, Hb, Hc⟩
    imodintro
    isplitl [Ha Hb Hc H6]
    · isplitl [Ha]; · iexact Ha
      isplitl [Hb]; · iexact Hb
      isplitl [Hc]; · iexact Hc
      iexact H6
    isplitl [HT]; · iexact HT
    isplitl [HO]
    · iapply (owesAt_of_owes_zero c (D1 m ρ hT c) 0 rfl rfl); iexact HO
    isplitl [Hp]; · iexact Hp
    iexact HR
  hin c := by
    rw [show (pdats m ρ (D1 m ρ hT) 1 c).Φ 0 = (D1 m ρ hT c).Φ 0 from rfl]
    refine .trans ?_ (hin1 (V3 m ρ) (adm 1) hT c)
    unfold Pipeline.ΦA
    iintro ⟨Hp, Ht, Hr⟩
    isplitl [Hr Hp]
    · isplitl [Hr]; · iexact Hr
      iexact Hp
    iexact Ht
  hout c := by
    rw [Pipeline.ownSems0_none, show (pdats m ρ (D1 m ρ hT) 1 c).Φ (Fin.last _) = (D1 m ρ hT c).Φ (Fin.last _) from rfl]
    refine (hout1 (V3 m ρ) (adm 1) hT c).trans ?_
    unfold Pipeline.ΦA
    iintro ⟨⟨Hr, Hp⟩, Ht⟩
    isplitl [Hp Ht]
    · isplitl [Hp]; · iexact Hp
      iexact Ht
    isplitr; · iempintro
    iexact Hr
  hexit c := by
    have hub : (StableHlo.held (c : Thread nD τ) (Pipeline.ucRefs τ sig) (W4 m ρ hT c) : sProp 𝕄) = unscopedBufs c (V4 m ρ hT c) :=
      (Pipeline.unscopedBufs_held c (W4 m ρ hT c)).symm
    have hpre : (fun k => V4 m ρ hT c (pre1.ref k)) = (adm (F := F) 1).1 :=
      funext fun k => (W4_of_ne m ρ hT c (pre1.ref k) (by revert k; decide)).trans (V3_pre m ρ c k)
    have hrest : (Pipeline.unscopedRestP (Ix := Unit) (Name := ℕ) (U := UR sig nD τ) (Lvl := ℕ) pre1 spec1 c (V4 m ρ hT c) : sProp 𝕄)
        = Pipeline.unscopedRestP pre1 spec1 c (V3 m ρ c) := by
      unfold Pipeline.unscopedRestP
      refine bigSep_congr fun b hb => ?_
      rw [show V4 m ρ hT c b = V3 m ρ c b from W4_of_ne m ρ hT c b (fun e => by subst e; revert hb; decide)]
    rw [show (pdats m ρ (D1 m ρ hT) 1 c) = D1 m ρ hT c from rfl, arrays1_eq, hub, unscoped1_eq, hpre, hrest]
    rw [show V4 m ρ hT c main_v6 = (D1 m ρ hT c).arrAt 3 (cfg1 (adm (F := F) 1)).N from W4_v6 m ρ hT c,
      show V4 m ρ hT c main_v5 = V3 m ρ c main_v5 from W4_of_ne m ρ hT c main_v5 (by decide)]
    rw [(D1 m ρ hT c).arrAt_in 0 rfl, (D1 m ρ hT c).arrAt_in 1 rfl, (D1 m ρ hT c).arrAt_in 2 rfl]
    rw [show (D1 m ρ hT c).A 0 = V3 m ρ c main_v5 from A_eq1 (V3 m ρ) (adm 1) hT c 0,
      show (D1 m ρ hT c).A 1 = V3 m ρ c main_v5 from A_eq1 (V3 m ρ) (adm 1) hT c 1,
      show (D1 m ρ hT c).A 2 = V3 m ρ c main_v5 from A_eq1 (V3 m ρ) (adm 1) hT c 2]
    iintro ⟨⟨Ha, Hb, Hc, H6⟩, HO, ⟨Hp, HT⟩, HR⟩
    ihave H5 := (deal3 _ _).2 $$ [Ha Hb Hc]
    · isplitl [Ha]; · iexact Ha
      isplitl [Hb]; · iexact Hb
      iexact Hc
    imodintro
    isplitl [H5 H6 HT HR Hp]
    · isplitl [H5 H6 HT HR]
      · isplitl [H5 H6]
        · isplitl [H5]; · iexact H5
          iexact H6
        isplitl [HT]; · iexact HT
        iexact HR
      iexact Hp
    iapply (owes_zero_of_owesAt c (D1 m ρ hT c) (Fin.last _) rfl); iexact HO

/-! ## @main as segments, and the launch -/

/-- @main's four segments in order. -/
abbrev segs : List (Pipeline.Seg (pcfgs (F := F)) adm (pdats m ρ (D1 m ρ hT)) () defs₀ 𝒱₀ L lv) :=
  [ .host (hseg (hostOps0 (F := F)) hostOps0_sub hostOps0_fresh (W0 m ρ)),
    .region (reg0 m ρ (D1 m ρ hT)),
    .host (hseg (hostOps1 (F := F)) hostOps1_sub hostOps1_fresh (W2 m ρ)),
    .region (reg1 m ρ hT) ]

theorem main_run (c : Dev nD) : main (F := F) c = Pipeline.Seg.run (segs m ρ hT) := (main_chain c).trans (by chain_rfl)

set_option backward.isDefEq.respectTransparency.types false in
set_option maxHeartbeats 2000000 in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ hT c b) :=
  Pipeline.θ_run_regions_kit (pcfgs (F := F)) adm (pdats m ρ (D1 m ρ hT)) () (cellOf_inj adm) emb₁ defs₀ 𝒱₀ L lv m ρ main (segs m ρ hT)
    (fun c Q => by rw [main_run m ρ hT c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hT)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hT c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hT c) s')
      isplitl [Hh] <;> iassumption)
    (hQ := fun s h c => h c)

/-- The frame claim's post and the result array, read off the run. -/
theorem run_result : θ_run defs (onTc (τ := τ) (main (F := F))) ⟨m, fun _ => 0, ρ⟩ (fun r => ∀ c : Dev nD,
      r.2.mem ((c.tc : Thread nD τ).loc main_v6) = (D1 m ρ hT c).arrAt 3 (cfg1 (adm (F := F) 1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W4_v6 m ρ hT c),
     (h c _ (mem_uc main_arg0 (by decide))).trans (W4_main_arg0 m ρ hT c),
     (h c _ (mem_uc main_arg1 (by decide))).trans (W4_main_arg1 m ρ hT c),
     (h c _ (mem_uc main_arg2 (by decide))).trans (W4_main_arg2 m ρ hT c),
     (h c _ (mem_uc main_arg3 (by decide))).trans (W4_main_arg3 m ρ hT c)⟩) (run_all m ρ hT)

include hT in
/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ hT)

end Cert.Kernel.Hand

end
-- ==== Proof.BitsTbl.lean ====
/-
  The attention region at the literal index tables, at the word-level instance: every grid point is in the case its
  position says, and the output window is idle off the diagonal and written back on it.
-/
import proofs.«418573_j77876347011327_3_alg».proof.Proof.BitsRunBase
import proofs.«418573_j77876347011327_3_alg».proof.Proof.BitsRegion1Cases
import Idealize.ShloMosaic.PureOps.BitExact

set_option maxRecDepth 16384

noncomputable section

namespace Cert.Kernel.HandBits

open Cert.Kernel Cert.Kernel.Gen Cert.Kernel.Hand
open Idealize.ShloMosaic Idealize.ShloMosaic.TcCoe
open Idealize.SL Idealize.SL.Sem

set_option maxHeartbeats 4000000 in
theorem tblFacts : TblFacts (F := Bits) (adm (F := Bits) 1) where
  reset := (by decide +kernel : ∀ (c : Dev nD) (t : Fin grid1.N), cReset (wordK (F := Bits) c (grid1.coords t) (tblLit 1)) ↔ isReset t.val)
  diag := (by decide +kernel : ∀ (c : Dev nD) (t : Fin grid1.N), cDiag (wordQ (F := Bits) c (grid1.coords t) (tblLit 0)) (wordK (F := Bits) c (grid1.coords t) (tblLit 1)) ↔ isDiag t.val)
  off := (by decide +kernel : ∀ (c : Dev nD) (t : Fin grid1.N), cOff (wordQ (F := Bits) c (grid1.coords t) (tblLit 0)) (wordK (F := Bits) c (grid1.coords t) (tblLit 1)) ↔ ¬ isDiag t.val)
  fin := (by decide +kernel : ∀ (c : Dev nD) (t : Fin grid1.N), cFin (wordQ (F := Bits) c (grid1.coords t) (tblLit 0)) (wordK (F := Bits) c (grid1.coords t) (tblLit 1)) ↔ isDiag t.val)
  idle3 := (by decide +kernel : ∀ t : Fin grid1.N, (cfg1 (F := Bits) (adm (F := Bits) 1)).idle 3 (grid1.coords t) = true ↔ ¬ isDiag t.val)
  flush3 := (by decide +kernel : ∀ t : Fin grid1.N, ((cfg1 (F := Bits) (adm (F := Bits) 1)).win 3).flush t = true ↔ isDiag t.val)
  n40 := N_1

end Cert.Kernel.HandBits

end
-- ==== Proof.Region0.lean ====
import proofs.«418573_j77876347011327_3_alg».proof.Proof.Gen.KernelIdeal.Launch
import proofs.«418573_j77876347011327_3_alg».proof.Proof.Gen.KernelIdeal.Skeleton
import proofs.«418573_j77876347011327_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the projection kernel on its grid of 8 row tiles by 3 weight thirds

At grid point `(i, j)` the body reads the row tile `i` of the activations (1024 rows of 1024
columns), reads columns `j * 1024 … j * 1024 + 1023` of the whole weight array (1024 by 3072), and
stores the product of the two (the activations first rounded to the narrow format, the product
accumulated from zero and rounded to the narrow format) over the whole of its output block
`(j, i)`. It also reads its output block before writing it, and uses nothing of what it read.

This file states, for any contents `V` of the buffers when the region is entered: each window's
block at a point as a function of `V`; what the body leaves in its output block as a function of
the two input blocks (`out0_2`); the body's triple; the proof data of the pipeline (`dat0`); and
the body obligation at every point (`body_obligation0`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the row tile of the point at every point, fetched there or
    not (when it is not fetched the row tile has not changed), for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight array at every point (it is fetched once, at
    the first point, and its block never changes). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole activations block. -/
abbrev r0_0 : Rect S1024x1024 := Rect.unit (s := S1024x1024) ![0, 0] S1024x1024.size inb_S1024x1024_S1024x1024_0_0
/-- The weight slice of grid point `i`: all 1024 rows, the 1024 columns from `1024 * i 1` on. -/
abbrev r0_1 (i : grid0.Coords) : Rect S1024x3072 := Rect.unit (s := S1024x3072) (k0_off1 i) S1024x1024.size (k0_off1_inb i)
/-- The whole output block. -/
abbrev r0_2 : Rect S1x1024x1024 := Rect.unit (s := S1x1024x1024) ![0, 0, 0] S1x1024x1024.size inb_S1x1024x1024_S1x1024x1024_0_0_0

/-! ## What the body leaves in the output block -/

/-- The output block after the body at grid point `i`, from the activations block `x0` and the
    whole weight array `w0`: the one store, over the whole block, of the product of `x0` and the
    weight slice of the point. -/
def out0_2 (i : grid0.Coords) (x0 : Vec F S1024x1024 .f32) (w0 : Vec F S1024x3072 .bf16) : Vec F S1x1024x1024 .bf16 :=
  View.canon [⟨r0_2, k0_pay1 (View.ld x0 r0_0) (View.ld w0 (r0_1 i))⟩]

/-- The one store covers the output block. -/
theorem cover0_2 (p0 : Vec F S1x1024x1024 .bf16) (y : S1x1024x1024.Idx) :
    ∃ pc ∈ ([⟨r0_2, p0⟩] : List (View.Piece (Elt F) S1x1024x1024 .bf16)), y ∈ pc.1.set :=
  View.cover_of_tiled [⟨r0_2, p0⟩] S1x1024x1024.size (by rfl) y

/-! ## The body's triple -/

set_option maxHeartbeats 1000000 in
/-- The body at grid point `i` on whole staging buffers, the inputs' at read contents `x0`, `w0` and the
    output's at anything, runs to the continuation holding the inputs' as they were and the output's
    at `out0_2 i x0 w0`. The read of the output block before the store reads the unknown contents and
    its value goes nowhere. -/
theorem sound_kernel0 (c : Dev nD) (E : Set ℕ) (i : grid0.Coords)
    (arg2 : Memref sig .tc .vmem S1024x1024 .f32) (harg2 : arg2.IsWhole)
    (arg3 : Memref sig .tc .vmem S1024x3072 .bf16) (harg3 : arg3.IsWhole)
    (arg4 : Memref sig .tc .vmem S1x1024x1024 .bf16) (harg4 : arg4.IsWhole)
    (x0 : Vec F S1024x1024 .f32) (w0 : Vec F S1024x3072 .bf16) (K : PUnit → sProp 𝕄) :
    iprop(owns (c : Thread nD τ) arg2 fullShare x0 ∗ owns (c : Thread nD τ) arg3 fullShare w0 ∗ (∃ d, owns (c : Thread nD τ) arg4 fullShare d)
        ∗ (iprop(owns (c : Thread nD τ) arg2 fullShare x0 ∗ owns (c : Thread nD τ) arg3 fullShare w0 ∗ owns (c : Thread nD τ) arg4 fullShare (out0_2 i x0 w0)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the
    body at point `t` each input's buffer at its block and the output's at `out0_2` of the input
    blocks at the point's coordinates; the invariant the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies at the
    point's coordinates; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Base.lean ====
/-
  Region 1 (the attention kernel): the names its runs, its proof data and its body obligation share — the two
  index tables as the body is handed them, the two words the body reads from them at a grid point, its four
  branch conditions as propositions of those words, and its staging and scratch memrefs.
-/
import proofs.«418573_j77876347011327_3_alg».proof.Proof.Gen.KernelIdeal.Launch
import proofs.«418573_j77876347011327_3_alg».proof.Proof.Gen.KernelIdeal.Skeleton
import proofs.«418573_j77876347011327_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tables -/

/-- The table of query-block indices and the table of key-block indices, each a whole buffer in scalar memory. -/
abbrev tbM1_0 : Memref sig .tc .smem S10 .i32 := Memref.whole main_c
abbrev htbM1_0 : tbM1_0.IsWhole := Memref.isWhole_whole _
abbrev tbM1_1 : Memref sig .tc .smem S10 .i32 := Memref.whole main_c_0
abbrev htbM1_1 : tbM1_1.IsWhole := Memref.isWhole_whole _

/-- A table's contents type on core `c`, and the table held whole at contents `f`. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The query-block index and the key-block index the body reads at grid point `i`: entry `i 1` of each table. -/
abbrev wordQ (c : Dev nD) (i : grid1.Coords) (xt0 : TbBuf1 (F := F) c tbM1_0) : BitVec 32 :=
  tbM1_0.view.readAt (Elt F) (Rect.unit (s := S10) (k1_off1 i) S1.size (k1_off1_inb i)).toLoadRect xt0 (Shape.Idx.first (numel1_S1.symm ▸ Nat.one_pos))
abbrev wordK (c : Dev nD) (i : grid1.Coords) (xt1 : TbBuf1 (F := F) c tbM1_1) : BitVec 32 :=
  tbM1_1.view.readAt (Elt F) (Rect.unit (s := S10) (k1_off1 i) S1.size (k1_off1_inb i)).toLoadRect xt1 (Shape.Idx.first (numel1_S1.symm ▸ Nat.one_pos))

/-! ## The body's four conditions, of the query-block index `w1` and the key-block index `w3` -/

/-- The first key block of a query block: the running state is reset. -/
abbrev cReset (w3 : BitVec 32) : Prop := Scalar.cmpi .ne (Scalar.extui (Scalar.cmpi .eq w3 0#32)) 0#32 = 1#1
/-- The diagonal block: the causal mask is applied. -/
abbrev cDiag (w1 w3 : BitVec 32) : Prop := Scalar.cmpi .ne (Scalar.extui (Scalar.cmpi .eq w3 w1)) 0#32 = 1#1
/-- A block below the diagonal: no mask. -/
abbrev cOff (w1 w3 : BitVec 32) : Prop := Scalar.cmpi .ne (Scalar.extui (Scalar.xori (Scalar.cmpi .eq w3 w1) 1#1)) 0#32 = 1#1
/-- The diagonal block again: the output block is stored. -/
abbrev cFin (w1 w3 : BitVec 32) : Prop := k1_cond4 w1 w3 = 1#1

/-! ## The memrefs -/

/-- The three scratch operands (running maximum, running sum, running weighted sum): whole scoped buffers. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- Their views: what each holds is stated through them. -/
abbrev VS1_0 : View sig .tc .vmem S512x1 .f32 := scM1_0.view
abbrev VS1_1 : View sig .tc .vmem S512x1 .f32 := scM1_1.view
abbrev VS1_2 : View sig .tc .vmem S512x1024 .f32 := scM1_2.view
/-- One staging buffer of the output window, through which its contents are stated. -/
abbrev VO1_3 : View sig .tc .vmem S1x512x1024 .f32 := (Memref.whole cc1_stg3_0 : Memref sig .tc .vmem S1x512x1024 .f32).view

/-- Each window's current staging memref at point `t` of the pipeline at admissible table contents `a`. -/
abbrev ms1_0 (a : (pcfg1 (F := F)).Adm) (t : Fin (cfg1 a).N) : Memref sig .tc .vmem S1x1x512x1024 .bf16 := spec1_0.stage ((cfg1 a).slots t 0)
abbrev hs1_0 (a : (pcfg1 (F := F)).Adm) (t : Fin (cfg1 a).N) : (ms1_0 a t).IsWhole := hstage1_0 (((cfg1 a).slots t 0).cast nbuf1_0)
abbrev ms1_1 (a : (pcfg1 (F := F)).Adm) (t : Fin (cfg1 a).N) : Memref sig .tc .vmem S1x1x512x1024 .bf16 := spec1_1.stage ((cfg1 a).slots t 1)
abbrev hs1_1 (a : (pcfg1 (F := F)).Adm) (t : Fin (cfg1 a).N) : (ms1_1 a t).IsWhole := hstage1_1 (((cfg1 a).slots t 1).cast nbuf1_1)
abbrev ms1_2 (a : (pcfg1 (F := F)).Adm) (t : Fin (cfg1 a).N) : Memref sig .tc .vmem S1x1x512x1024 .bf16 := spec1_2.stage ((cfg1 a).slots t 2)
abbrev hs1_2 (a : (pcfg1 (F := F)).Adm) (t : Fin (cfg1 a).N) : (ms1_2 a t).IsWhole := hstage1_2 (((cfg1 a).slots t 2).cast nbuf1_2)
abbrev ms1_3 (a : (pcfg1 (F := F)).Adm) (t : Fin (cfg1 a).N) : Memref sig .tc .vmem S1x512x1024 .f32 := spec1_3.stage ((cfg1 a).slots t 3)
abbrev hs1_3 (a : (pcfg1 (F := F)).Adm) (t : Fin (cfg1 a).N) : (ms1_3 a t).IsWhole := hstage1_3 (((cfg1 a).slots t 3).cast nbuf1_3)

/-- The kernel body at point `t`, on what the pipeline calls it with. -/
abbrev bodyAt1 (a : (pcfg1 (F := F)).Adm) (t : Fin (cfg1 a).N) : Prog (TpuEff nD τ sig (Elt F) Λ₀ .tc) PUnit :=
  cc1__flash_kernel ((cfg1 a).grid.coords t) tbM1_0 htbM1_0 tbM1_1 htbM1_1 (ms1_0 a t) (hs1_0 a t) (ms1_1 a t) (hs1_1 a t) (ms1_2 a t) (hs1_2 a t) (ms1_3 a t) (hs1_3 a t)
    scM1_0 (Memref.isWhole_whole _) scM1_1 (Memref.isWhole_whole _) scM1_2 (Memref.isWhole_whole _)

end Cert.KernelIdeal.Hand

end
-- ==== Proof.RunBase.lean ====
/-
  The run of the launch up to and including region 0: the buffer contents at each segment boundary as a fold from
  the launch memory, the two index tables as literal contents and that region 1 finds them so, the admissible
  table contents of both pipelines, what the host operations leave in the arrays the regions read, the arguments
  read back to the launch memory, the proof-data family, the thread state, and region 0 as a segment.
-/
import proofs.«418573_j77876347011327_3_alg».proof.Proof.Region0
import proofs.«418573_j77876347011327_3_alg».proof.Proof.Region1Base
import Idealize.ShloMosaic.Lib.Pipeline.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the launch -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after (hostOps0 (F := F)) (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after (hostOps1 (F := F)) (W2 m ρ c)
/-- The same read at the TensorCore's references (what region 1's proof data take). -/
abbrev V3 : (c : Dev nD) → (b : Ref sig .tc) → Buf (Elt F) ((c : Thread nD τ).loc b) := fun c b => W3 m ρ c b

/-! ## Which operations write which buffers -/

/-- The second stretch writes only the reshaped projections. -/
theorem W3_of_ne (c : Dev nD) (b : Ref sig .tc) (hb : b ≠ main_v5) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The two index tables -/

/-- The tables' contents as the launch writes them: the query-block indices and the key-block indices of the ten
    lower-triangle blocks, in row-major order. -/
def tblLit : pre1.Contents (Elt F) := fun
  | ⟨0, _⟩ => fun i => lit0 (S10.rowMajor i)
  | ⟨1, _⟩ => fun i => lit1 (S10.rowMajor i)

/-- Region 1 finds the tables so: the first stretch writes them with the literals, and neither region 0 nor the
    second stretch writes them. -/
theorem V3_pre (c : Dev nD) (j : Fin 2) : V3 m ρ c (pre1.ref j) = tblLit j := by
  match j with
  | ⟨0, _⟩ =>
    refine (W3_of_ne m ρ c main_c (by decide)).trans ((W2_of_ne m ρ c main_c (by decide)).trans ?_)
    show StableHlo.after (hostOps0 (F := F)) (W0 m ρ c) (Proc.devRef .tc main_c) = _
    dsimp only [hostOps0]; after_results; rfl
  | ⟨1, _⟩ =>
    refine (W3_of_ne m ρ c main_c_0 (by decide)).trans ((W2_of_ne m ρ c main_c_0 (by decide)).trans ?_)
    show StableHlo.after (hostOps0 (F := F)) (W0 m ρ c) (Proc.devRef .tc main_c_0) = _
    dsimp only [hostOps0]; after_results; rfl

/-- Every grid point's table-indexed block lies inside its array, at the literal tables. -/
theorem ok_tbl : ok1 (F := F) tblLit := by
  unfold ok1
  dsimp only [cc1_transform_0, cc1_transform_1, cc1_transform_2, cc1_transform_3, tblLit, Pipeline.Prefetch.Contents.at]
  decide +kernel

/-- The tables' admissible contents: region 0 has no table, region 1 has the two literal tables. -/
abbrev adm : (p : Fin 2) → (pcfgs (F := F) p).Adm := fun
  | ⟨0, _⟩ => cfg0.toPCfg_adm
  | ⟨1, _⟩ => ⟨tblLit, ok_tbl⟩
  | ⟨_ + 2, h⟩ => absurd h (Nat.not_lt.2 (Nat.le_add_left _ _))

/-! ## What the host operations leave, and the arguments read back -/

/-- A buffer the first stretch does not write keeps its launch contents. -/
theorem W1_of_ne (c : Dev nD) (b : Ref sig .tc) (h0 : b ≠ main_c) (h1 : b ≠ main_c_0) (h2 : b ≠ main_v0) (h3 : b ≠ main_v1)
    (h4 : b ≠ main_v2) (h5 : b ≠ main_v3) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.nary_writes,
      StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- No host operation and no region before region 1 writes an argument: each is as launched. -/
theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans
    (W1_of_ne m ρ c main_arg0 (by decide) (by decide) (by decide) (by decide) (by decide) (by decide)))
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans
    (W1_of_ne m ρ c main_arg1 (by decide) (by decide) (by decide) (by decide) (by decide) (by decide)))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans
    (W1_of_ne m ρ c main_arg2 (by decide) (by decide) (by decide) (by decide) (by decide) (by decide)))
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans
    (W1_of_ne m ρ c main_arg3 (by decide) (by decide) (by decide) (by decide) (by decide) (by decide)))

/-- Region 0's activations array: the input reshaped to 8192 rows. -/
theorem V1_main_v3 (c : Dev nD) :
    (V1 m ρ c main_v3 : Vec F S8192x1024 .f32)
      = shapeCast S8192x1024 (m ((c : Thread nD τ).loc main_arg0) : Vec F S4x2048x1024 .f32) shapeCasts_S4x2048x1024_S8192x1024 := by
  show StableHlo.after (hostOps0 (F := F)) (W0 m ρ c) (Proc.devRef .tc main_v3) = _
  dsimp only [hostOps0]; after_results; rfl

/-- Region 0's weight array: the three weight arguments stacked, transposed and rounded to the narrow format. -/
theorem V1_main_v2 (c : Dev nD) :
    (V1 m ρ c main_v2 : Vec F S1024x3072 .bf16)
      = truncf .bf16 (transpose S1024x3072 [1, 0] (concatenate S3072x1024 0
          [⟨S1024x1024, (m ((c : Thread nD τ).loc main_arg1) : Vec F S1024x1024 .f32)⟩,
           ⟨S1024x1024, (m ((c : Thread nD τ).loc main_arg2) : Vec F S1024x1024 .f32)⟩,
           ⟨S1024x1024, (m ((c : Thread nD τ).loc main_arg3) : Vec F S1024x1024 .f32)⟩]
          concatenates_S1024x1024_S1024x1024_S1024x1024_S3072x1024_d0) transposes_S3072x1024_S1024x3072_1_0) bitsLt_bf16_f32 := by
  show StableHlo.after (hostOps0 (F := F)) (W0 m ρ c) (Proc.devRef .tc main_v2) = _
  dsimp only [hostOps0]; after_results; rfl

/-- Region 1's one input array: region 0's output reshaped to three arrays of four sequences. -/
theorem V3_main_v5 (c : Dev nD) :
    (V3 m ρ c main_v5 : Vec F S3x4x2048x1024 .bf16)
      = shapeCast S3x4x2048x1024 (W2 m ρ c (Proc.devRef .tc main_v4) : Vec F S3x8192x1024 .bf16) shapeCasts_S3x8192x1024_S3x4x2048x1024 := by
  show StableHlo.after (hostOps1 (F := F)) (W2 m ρ c) (Proc.devRef .tc main_v5) = _
  dsimp only [hostOps1]; after_results; rfl

/-! ## The proof-data family and the thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### What a core owes, in a pipeline's form and out of it

Where a pipeline's proof data say that nothing is owed before a point and bound nothing of what the core's waits
have recorded, "the core owes nothing" and the pipeline's statement of what it owes there are one another's. -/

theorem owesAt_of_owes_zero {cfg : Cfg sig Λ₀} (c : Dev nD) (D : Dat τ (Elt F) Unit ℕ (UR sig nD τ) ℕ cfg c) (t : Fin (cfg.N + 1))
    (ho : D.owed t = 0) (hr : D.recorded t = Set.univ) :
    (iprop(∃ W, owes (c : Thread nD τ) (0 : CellTallies nD τ sig Unit) W) : sProp 𝕄) ⊢ D.owesAt () t := by
  unfold Dat.owesAt Pipeline.owesWithin Dat.bound
  rw [ho, hr]
  iintro ⟨%W, H⟩
  iexists W
  isplitr
  · ipureintro; exact fun _ _ => Or.inl trivial
  iexact H

theorem owes_zero_of_owesAt {cfg : Cfg sig Λ₀} (c : Dev nD) (D : Dat τ (Elt F) Unit ℕ (UR sig nD τ) ℕ cfg c) (t : Fin (cfg.N + 1))
    (ho : D.owed t = 0) :
    D.owesAt () t ⊢ (iprop(∃ W, owes (c : Thread nD τ) (0 : CellTallies nD τ sig Unit) W) : sProp 𝕄) := by
  unfold Dat.owesAt Pipeline.owesWithin
  rw [ho]
  iintro ⟨%W, -, H⟩
  iexists W
  iexact H

section Run

-- region 1's proof data, at the pipeline pinned at the literal tables
variable (D1 : (c : Dev nD) → Dat τ (Elt F) Unit ℕ (UR sig nD τ) ℕ (cfg1 (adm (F := F) 1)) c)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => D1 c

/-! ## Region 0 as a segment -/

/-- Entering region 0, the unscoped buffers at `W1` are its three arrays at their entry contents beside the rest. -/
theorem split0 (c : Dev nD) :
    (StableHlo.held (c : Thread nD τ) (Pipeline.ucRefs τ sig) (W1 m ρ c) : sProp 𝕄)
      ⊢ iprop((pdats m ρ D1 0 c).arrays ((pdats m ρ D1 0 c).arrAt · 0)
          ∗ Pipeline.unscopedRest (Ix := Unit) (Name := ℕ) (U := UR sig nD τ) (Lvl := ℕ) spec0 c (V1 m ρ c)) := by
  rw [← Pipeline.unscopedBufs_held]
  exact Pipeline.arrays_of_unscopedBufs (p := 0) (pcfgs (F := F)) adm (pdats m ρ D1) (launch0 (F := F)).win (launch0 (F := F)).arr_whole c
    ((pdats m ρ D1 0 c).share_full fun _ => rfl) (V1 m ρ c) fun _ => rfl

/-- Leaving it, the arrays at what the pipeline leaves and the rest as entered are the unscoped buffers at `W2`. -/
theorem join0 (c : Dev nD) :
    iprop((pdats m ρ D1 0 c).arrays ((pdats m ρ D1 0 c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held]
  exact Pipeline.unscopedBufs_of_arrays (p := 0) (pcfgs (F := F)) adm (Ix := Unit) (Name := ℕ) (U := UR sig nD τ) (Lvl := ℕ)
    (launch0 (F := F)).win (launch0 (F := F)).arr_whole c (pdats m ρ D1) ((pdats m ρ D1 0 c).share_full fun _ => rfl)
    (V1 m ρ c) (V2 m ρ c) ((pdats m ρ D1 0 c).arrAt · cfg0.N) (hF0 m ρ c) (hrest0 m ρ c)

/-- Region 0 has no table to hold. -/
theorem noTables0 (c : Dev nD) :
    (Pipeline.prefHeld (pcfgs (F := F) 0).pre c (fun _ => fullShare) (adm (F := F) 0).1 : sProp 𝕄) = BI.emp := by
  unfold Pipeline.prefHeld
  rw [show (Finset.univ : Finset (Fin 0)) = ∅ from rfl, BI.bigSep_empty]

set_option backward.isDefEq.respectTransparency.types false in
/-- Region 0 over the thread state: entered from every unscoped buffer at `W1`, left at `W2`; the generator
    register goes into the pipeline's invariant and comes out of it; nothing is owed; the kernel has no
    semaphore of its own. -/
def reg0 : Pipeline.RegionSeg (pcfgs (F := F)) adm (pdats m ρ D1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none, noTables0]
    iintro ⟨⟨Hbufs, Hreg, Howes⟩, -, -⟩
    imodintro
    ihave Hs := split0 m ρ D1 c $$ Hbufs
    icases Hs with ⟨Harr, Hrest⟩
    isplitl [Harr]; · iexact Harr
    isplitr; · iempintro
    isplitl [Howes]
    · iapply (owesAt_of_owes_zero c (pdats m ρ D1 0 c) 0 rfl rfl); iexact Howes
    isplitl [Hreg]; · iexact Hreg
    iexact Hrest
  hin c := by
    rw [noTables0, show (pdats m ρ D1 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ D1 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    iintro ⟨Harr, Howes, Hreg, Hrest⟩
    imodintro
    isplitl [Harr Hrest]
    · iapply (join0 m ρ D1 c); isplitl [Harr] <;> iassumption
    isplitl [Hreg]; · iexact Hreg
    iapply (owes_zero_of_owesAt c (pdats m ρ D1 0 c) (Fin.last _) rfl); iexact Howes

end Run

end Cert.KernelIdeal.Hand

end
-- ==== Proof.Region1Runs.lean ====
/-
  Region 1 (the attention kernel): the runs of its body, one per control case.

  At a grid point the body reads the query-block index and the key-block index from the two tables and passes four
  conditionals on them: the reset of the running state (at a query block's first key block), the masked update (on
  the diagonal block), the unmasked update (below the diagonal) and the store of the output block (on the diagonal
  block again). On the tables the launch builds, four assignments of the conditions occur:
    A  reset, diagonal        B  reset, below the diagonal
    C  no reset, diagonal     D  no reset, below the diagonal.
  For each, `kernelRun1_κ` is the lists of pieces the body's stores leave in the output buffer and in the three
  scratch buffers (last store first), together with the proof that the body runs to a continuation holding them;
  `scover1_κ_j` / `cover1_κ_7` say the pieces cover their buffer, and `sout1_κ_j` / `out1_κ_7` are the buffer's
  contents read back from them. Everything is stated at any float model `F`.
-/
import proofs.«418573_j77876347011327_3_alg».proof.Proof.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Case D -/

set_option maxHeartbeats 2000000 in
/-- CASE D (no reset, a block below the diagonal). The pieces the body's stores leave in the output buffer (none) and in
    the three scratch buffers (one whole-shape store each: the unmasked update), with the proof that the body runs: from
    the three input blocks at their contents, the output buffer at any contents `xi7` (handed back untouched), the
    scratch at the contents `xs·` the point before left and the two tables at theirs, to the continuation holding the
    inputs and tables as they were and each scratch buffer with its pieces written. Each of the four conditionals is
    decided by the case's hypothesis on the two table words. -/
noncomputable def kernelRun1_D (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) :
    Σ' (L7 : List (View.Piece (Elt F) S1x512x1024 .f32)) (LS0 : List (View.Piece (Elt F) S512x1 .f32)) (LS1 : List (View.Piece (Elt F) S512x1 .f32)),
      { LS2 : List (View.Piece (Elt F) S512x1024 .f32) //
      ∀ (xi7 : Vec F S1x512x1024 .f32) (E : Set ℕ) (K : PUnit → sProp 𝕄),
        iprop(owns (c : Thread nD τ) arg4 fullShare x0 ∗ owns (c : Thread nD τ) arg5 fullShare x1 ∗ owns (c : Thread nD τ) arg6 fullShare x2
            ∗ owns (c : Thread nD τ) arg7 fullShare xi7
            ∗ owns (c : Thread nD τ) arg8 fullShare xs0 ∗ owns (c : Thread nD τ) arg9 fullShare xs1 ∗ owns (c : Thread nD τ) arg10 fullShare xs2
            ∗ tbPt1 c tbM1_0 xt0 ∗ tbPt1 c tbM1_1 xt1
            ∗ (iprop(owns (c : Thread nD τ) arg4 fullShare x0 ∗ owns (c : Thread nD τ) arg5 fullShare x1 ∗ owns (c : Thread nD τ) arg6 fullShare x2
                 ∗ owns (c : Thread nD τ) arg7 fullShare xi7
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)
                 ∗ tbPt1 c tbM1_0 xt0 ∗ tbPt1 c tbM1_1 xt1) -∗ K ⟨⟩))
          ⊢ wp frame (wpE (defs₀ (F := F)) Variants.none c none) E (cc1__flash_kernel i tbM1_0 htbM1_0 tbM1_1 htbM1_1 arg4 harg4 arg5 harg5 arg6 harg6 arg7 harg7 arg8 harg8 arg9 harg9 arg10 harg10) K } := by
  refine ⟨[], ?_, ?_, ?_, fun xi7 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f7, %hf7, H7⟩, ⟨%g0, %hg0, HS0⟩, ⟨%g1, %hg1, HS1⟩, ⟨%g2, %hg2, HS2⟩, HT0, HT1, Hk⟩
    obtain rfl := harg4.eq_unread hf0; obtain rfl := harg5.eq_unread hf1; obtain rfl := harg6.eq_unread hf2
    obtain rfl := harg7.eq_unread hf7
    obtain rfl := harg8.eq_unread hg0; obtain rfl := harg9.eq_unread hg1; obtain rfl := harg10.eq_unread hg2
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]
    · iexists _; isplitr; · ipureintro; exact harg7.read_unread _
      iexact H7
    isplitl [HS0]; · iexists _; iexact HS0
    isplitl [HS1]; · iexists _; iexact HS1
    isplitl [HS2]; · iexists _; iexact HS2
    isplitl [HT0]; · iexact HT0
    iexact HT1

/-- Case D's pieces for the scratch buffer of the running maximum cover it: they tile the shape in blocks of the whole shape. -/
theorem scover1_D_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) (y : S512x1.Idx) :
    ∃ pc ∈ (kernelRun1_D c i arg4 harg4 arg5 harg5 arg6 harg6 arg7 harg7 arg8 harg8 arg9 harg9 arg10 harg10 xt0 xt1 h1 h2 h3 h4 x0 x1 x2 xs0 xs1 xs2).2.1, y ∈ pc.1.set :=
  View.cover_of_tiledL (kernelRun1_D c i arg4 harg4 arg5 harg5 arg6 harg6 arg7 harg7 arg8 harg8 arg9 harg9 arg10 harg10 xt0 xt1 h1 h2 h3 h4 x0 x1 x2 xs0 xs1 xs2).2.1 S512x1.size (by sl_kernel_rfl) y

/-- What case D leaves in the scratch buffer of the running maximum: its pieces read back over junk. -/
def sout1_D_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) : Vec F S512x1 .f32 :=
  VS1_0.read (Elt F) (VS1_0.writes (Elt F) VS1_0.junk (kernelRun1_D c i arg4 harg4 arg5 harg5 arg6 harg6 arg7 harg7 arg8 harg8 arg9 harg9 arg10 harg10 xt0 xt1 h1 h2 h3 h4 x0 x1 x2 xs0 xs1 xs2).2.1)

/-- Case D's pieces for the scratch buffer of the running sum cover it: they tile the shape in blocks of the whole shape. -/
theorem scover1_D_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) (y : S512x1.Idx) :
    ∃ pc ∈ (kernelRun1_D c i arg4 harg4 arg5 harg5 arg6 harg6 arg7 harg7 arg8 harg8 arg9 harg9 arg10 harg10 xt0 xt1 h1 h2 h3 h4 x0 x1 x2 xs0 xs1 xs2).2.2.1, y ∈ pc.1.set :=
  View.cover_of_tiledL (kernelRun1_D c i arg4 harg4 arg5 harg5 arg6 harg6 arg7 harg7 arg8 harg8 arg9 harg9 arg10 harg10 xt0 xt1 h1 h2 h3 h4 x0 x1 x2 xs0 xs1 xs2).2.2.1 S512x1.size (by sl_kernel_rfl) y

/-- What case D leaves in the scratch buffer of the running sum: its pieces read back over junk. -/
def sout1_D_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) : Vec F S512x1 .f32 :=
  VS1_1.read (Elt F) (VS1_1.writes (Elt F) VS1_1.junk (kernelRun1_D c i arg4 harg4 arg5 harg5 arg6 harg6 arg7 harg7 arg8 harg8 arg9 harg9 arg10 harg10 xt0 xt1 h1 h2 h3 h4 x0 x1 x2 xs0 xs1 xs2).2.2.1)

/-- Case D's pieces for the scratch buffer of the running weighted sum cover it: they tile the shape in blocks of the whole shape. -/
theorem scover1_D_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) (y : S512x1024.Idx) :
    ∃ pc ∈ (kernelRun1_D c i arg4 harg4 arg5 harg5 arg6 harg6 arg7 harg7 arg8 harg8 arg9 harg9 arg10 harg10 xt0 xt1 h1 h2 h3 h4 x0 x1 x2 xs0 xs1 xs2).2.2.2.1, y ∈ pc.1.set :=
  View.cover_of_tiledL (kernelRun1_D c i arg4 harg4 arg5 harg5 arg6 harg6 arg7 harg7 arg8 harg8 arg9 harg9 arg10 harg10 xt0 xt1 h1 h2 h3 h4 x0 x1 x2 xs0 xs1 xs2).2.2.2.1 S512x1024.size (by sl_kernel_rfl) y

/-- What case D leaves in the scratch buffer of the running weighted sum: its pieces read back over junk. -/
def sout1_D_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) : Vec F S512x1024 .f32 :=
  VS1_2.read (Elt F) (VS1_2.writes (Elt F) VS1_2.junk (kernelRun1_D c i arg4 harg4 arg5 harg5 arg6 harg6 arg7 harg7 arg8 harg8 arg9 harg9 arg10 harg10 xt0 xt1 h1 h2 h3 h4 x0 x1 x2 xs0 xs1 xs2).2.2.2.1)

/-! ## Case B -/

set_option maxHeartbeats 2000000 in
/-- CASE B (reset, a block below the diagonal). The pieces the body's stores leave in the output buffer (none) and in
    the three scratch buffers (two whole-shape stores each: the reset, then the unmasked update, last first), with the
    proof that the body runs: from the three input blocks at their contents, the output buffer at any contents `xi7`
    (handed back untouched), the scratch at ANY contents and the two tables at theirs, to the continuation holding the
    inputs and tables as they were and each scratch buffer with its pieces written. Each of the four conditionals is
    decided by the case's hypothesis on the two table words. -/
noncomputable def kernelRun1_B (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) :
    Σ' (L7 : List (View.Piece (Elt F) S1x512x1024 .f32)) (LS0 : List (View.Piece (Elt F) S512x1 .f32)) (LS1 : List (View.Piece (Elt F) S512x1 .f32)),
      { LS2 : List (View.Piece (Elt F) S512x1024 .f32) //
      ∀ (xi7 : Vec F S1x512x1024 .f32) (E : Set ℕ) (K : PUnit → sProp 𝕄),
        iprop(owns (c : Thread nD τ) arg4 fullShare x0 ∗ owns (c : Thread nD τ) arg5 fullShare x1 ∗ owns (c : Thread nD τ) arg6 fullShare x2
            ∗ owns (c : Thread nD τ) arg7 fullShare xi7
            ∗ (∃ d, owns (c : Thread nD τ) arg8 fullShare d) ∗ (∃ d, owns (c : Thread nD τ) arg9 fullShare d) ∗ (∃ d, owns (c : Thread nD τ) arg10 fullShare d)
            ∗ tbPt1 c tbM1_0 xt0 ∗ tbPt1 c tbM1_1 xt1
            ∗ (iprop(owns (c : Thread nD τ) arg4 fullShare x0 ∗ owns (c : Thread nD τ) arg5 fullShare x1 ∗ owns (c : Thread nD τ) arg6 fullShare x2
                 ∗ owns (c : Thread nD τ) arg7 fullShare xi7
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)
                 ∗ tbPt1 c tbM1_0 xt0 ∗ tbPt1 c tbM1_1 xt1) -∗ K ⟨⟩))
          ⊢ wp frame (wpE (defs₀ (F := F)) Variants.none c none) E (cc1__flash_kernel i tbM1_0 htbM1_0 tbM1_1 htbM1_1 arg4 harg4 arg5 harg5 arg6 harg6 arg7 harg7 arg8 harg8 arg9 harg9 arg10 harg10) K } := by
  refine ⟨[], ?_, ?_, ?_, fun xi7 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f7, %hf7, H7⟩, ⟨%d8, %g0, -, HS0⟩, ⟨%d9, %g1, -, HS1⟩, ⟨%d10, %g2, -, HS2⟩, HT0, HT1, Hk⟩
    obtain rfl := harg4.eq_unread hf0; obtain rfl := harg5.eq_unread hf1; obtain rfl := harg6.eq_unread hf2
    obtain rfl := harg7.eq_unread hf7
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]
    · iexists _; isplitr; · ipureintro; exact harg7.read_unread _
      iexact H7
    isplitl [HS0]; · iexists _; iexact HS0
    isplitl [HS1]; · iexists _; iexact HS1
    isplitl [HS2]; · iexists _; iexact HS2
    isplitl [HT0]; · iexact HT0
    iexact HT1

/-- Case B's pieces for the scratch buffer of the running maximum cover it: they tile the shape in blocks of the whole shape. -/
theorem scover1_B_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (y : S512x1.Idx) :
    ∃ pc ∈ (kernelRun1_B c i arg4 harg4 arg5 harg5 arg6 harg6 arg7 harg7 arg8 harg8 arg9 harg9 arg10 harg10 xt0 xt1 h1 h2 h3 h4 x0 x1 x2).2.1, y ∈ pc.1.set :=
  View.cover_of_tiledL (kernelRun1_B c i arg4 harg4 arg5 harg5 arg6 harg6 arg7 harg7 arg8 harg8 arg9 harg9 arg10 harg10 xt0 xt1 h1 h2 h3 h4 x0 x1 x2).2.1 S512x1.size (by sl_kernel_rfl) y

/-- What case B leaves in the scratch buffer of the running maximum: its pieces read back over junk. -/
def sout1_B_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) : Vec F S512x1 .f32 :=
  VS1_0.read (Elt F) (VS1_0.writes (Elt F) VS1_0.junk (kernelRun1_B c i arg4 harg4 arg5 harg5 arg6 harg6 arg7 harg7 arg8 harg8 arg9 harg9 arg10 harg10 xt0 xt1 h1 h2 h3 h4 x0 x1 x2).2.1)

/-- Case B's pieces for the scratch buffer of the running sum cover it: they tile the shape in blocks of the whole shape. -/
theorem scover1_B_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (y : S512x1.Idx) :
    ∃ pc ∈ (kernelRun1_B c i arg4 harg4 arg5 harg5 arg6 harg6 arg7 harg7 arg8 harg8 arg9 harg9 arg10 harg10 xt0 xt1 h1 h2 h3 h4 x0 x1 x2).2.2.1, y ∈ pc.1.set :=
  View.cover_of_tiledL (kernelRun1_B c i arg4 harg4 arg5 harg5 arg6 harg6 arg7 harg7 arg8 harg8 arg9 harg9 arg10 harg10 xt0 xt1 h1 h2 h3 h4 x0 x1 x2).2.2.1 S512x1.size (by sl_kernel_rfl) y

/-- What case B leaves in the scratch buffer of the running sum: its pieces read back over junk. -/
def sout1_B_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) : Vec F S512x1 .f32 :=
  VS1_1.read (Elt F) (VS1_1.writes (Elt F) VS1_1.junk (kernelRun1_B c i arg4 harg4 arg5 harg5 arg6 harg6 arg7 harg7 arg8 harg8 arg9 harg9 arg10 harg10 xt0 xt1 h1 h2 h3 h4 x0 x1 x2).2.2.1)

/-- Case B's pieces for the scratch buffer of the running weighted sum cover it: they tile the shape in blocks of the whole shape. -/
theorem scover1_B_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (y : S512x1024.Idx) :
    ∃ pc ∈ (kernelRun1_B c i arg4 harg4 arg5 harg5 arg6 harg6 arg7 harg7 arg8 harg8 arg9 harg9 arg10 harg10 xt0 xt1 h1 h2 h3 h4 x0 x1 x2).2.2.2.1, y ∈ pc.1.set :=
  View.cover_of_tiledL (kernelRun1_B c i arg4 harg4 arg5 harg5 arg6 harg6 arg7 harg7 arg8 harg8 arg9 harg9 arg10 harg10 xt0 xt1 h1 h2 h3 h4 x0 x1 x2).2.2.2.1 S512x1024.size (by sl_kernel_rfl) y

/-- What case B leaves in the scratch buffer of the running weighted sum: its pieces read back over junk. -/
def sout1_B_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) : Vec F S512x1024 .f32 :=
  VS1_2.read (Elt F) (VS1_2.writes (Elt F) VS1_2.junk (kernelRun1_B c i arg4 harg4 arg5 harg5 arg6 harg6 arg7 harg7 arg8 harg8 arg9 harg9 arg10 harg10 xt0 xt1 h1 h2 h3 h4 x0 x1 x2).2.2.2.1)

/-! ## Case C -/

set_option maxHeartbeats 2000000 in
/-- CASE C (no reset, the diagonal block). The pieces the body's stores leave in the output buffer (one whole-block
    store: the weighted sum over the sum) and in the three scratch buffers (one whole-shape store each: the masked
    update), with the proof that the body runs: from the three input blocks at their contents, the output buffer at
    ANY contents, the scratch at the contents `xs·` the point before left and the two tables at theirs, to the
    continuation holding the inputs and tables as they were and each of the four buffers with its pieces written.
    Each of the four conditionals is decided by the case's hypothesis on the two table words. -/
noncomputable def kernelRun1_C (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) :
    Σ' (L7 : List (View.Piece (Elt F) S1x512x1024 .f32)) (LS0 : List (View.Piece (Elt F) S512x1 .f32)) (LS1 : List (View.Piece (Elt F) S512x1 .f32)),
      { LS2 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ tbPt1 c tbM1_0 xt0 ∗ tbPt1 c tbM1_1 xt1
            ∗ (iprop(owns (c : Thread nD τ) arg4 fullShare x0 ∗ owns (c : Thread nD τ) arg5 fullShare x1 ∗ owns (c : Thread nD τ) arg6 fullShare x2
                 ∗ (∃ f, arg7.view.loc (c : Thread nD τ) ↦[arg7.view.set]{fullShare} arg7.view.writes (Elt F) f L7)
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)
                 ∗ tbPt1 c tbM1_0 xt0 ∗ tbPt1 c tbM1_1 xt1) -∗ K ⟨⟩))
          ⊢ wp frame (wpE (defs₀ (F := F)) Variants.none c none) E (cc1__flash_kernel i tbM1_0 htbM1_0 tbM1_1 htbM1_1 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    rw [k1_part1_eq_skeleton (F := F)]
    unfold owns
    iintro ⟨⟨%f0, %hf0, H0⟩, ⟨%f1, %hf1, H1⟩, ⟨%f2, %hf2, H2⟩, ⟨%d7, %f7, -, H7⟩, ⟨%g0, %hg0, HS0⟩, ⟨%g1, %hg1, HS1⟩, ⟨%g2, %hg2, HS2⟩, HT0, HT1, Hk⟩
    obtain rfl := harg4.eq_unread hf0; obtain rfl := harg5.eq_unread hf1; obtain rfl := harg6.eq_unread hf2
    obtain rfl := harg8.eq_unread hg0; obtain rfl := harg9.eq_unread hg1; obtain rfl := harg10.eq_unread hg2
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]; · iexists _; iexact H7
    isplitl [HS0]; · iexists _; iexact HS0
    isplitl [HS1]; · iexists _; iexact HS1
    isplitl [HS2]; · iexists _; iexact HS2
    isplitl [HT0]; · iexact HT0
    iexact HT1

/-- Case C's pieces for the scratch buffer of the running maximum cover it: they tile the shape in blocks of the whole shape. -/
theorem scover1_C_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) (y : S512x1.Idx) :
    ∃ pc ∈ (kernelRun1_C c i arg4 harg4 arg5 harg5 arg6 harg6 arg7 harg7 arg8 harg8 arg9 harg9 arg10 harg10 xt0 xt1 h1 h2 h3 h4 x0 x1 x2 xs0 xs1 xs2).2.1, y ∈ pc.1.set :=
  View.cover_of_tiledL (kernelRun1_C c i arg4 harg4 arg5 harg5 arg6 harg6 arg7 harg7 arg8 harg8 arg9 harg9 arg10 harg10 xt0 xt1 h1 h2 h3 h4 x0 x1 x2 xs0 xs1 xs2).2.1 S512x1.size (by sl_kernel_rfl) y

/-- What case C leaves in the scratch buffer of the running maximum: its pieces read back over junk. -/
def sout1_C_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) : Vec F S512x1 .f32 :=
  VS1_0.read (Elt F) (VS1_0.writes (Elt F) VS1_0.junk (kernelRun1_C c i arg4 harg4 arg5 harg5 arg6 harg6 arg7 harg7 arg8 harg8 arg9 harg9 arg10 harg10 xt0 xt1 h1 h2 h3 h4 x0 x1 x2 xs0 xs1 xs2).2.1)

/-- Case C's pieces for the scratch buffer of the running sum cover it: they tile the shape in blocks of the whole shape. -/
theorem scover1_C_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) (y : S512x1.Idx) :
    ∃ pc ∈ (kernelRun1_C c i arg4 harg4 arg5 harg5 arg6 harg6 arg7 harg7 arg8 harg8 arg9 harg9 arg10 harg10 xt0 xt1 h1 h2 h3 h4 x0 x1 x2 xs0 xs1 xs2).2.2.1, y ∈ pc.1.set :=
  View.cover_of_tiledL (kernelRun1_C c i arg4 harg4 arg5 harg5 arg6 harg6 arg7 harg7 arg8 harg8 arg9 harg9 arg10 harg10 xt0 xt1 h1 h2 h3 h4 x0 x1 x2 xs0 xs1 xs2).2.2.1 S512x1.size (by sl_kernel_rfl) y

/-- What case C leaves in the scratch buffer of the running sum: its pieces read back over junk. -/
def sout1_C_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) : Vec F S512x1 .f32 :=
  VS1_1.read (Elt F) (VS1_1.writes (Elt F) VS1_1.junk (kernelRun1_C c i arg4 harg4 arg5 harg5 arg6 harg6 arg7 harg7 arg8 harg8 arg9 harg9 arg10 harg10 xt0 xt1 h1 h2 h3 h4 x0 x1 x2 xs0 xs1 xs2).2.2.1)

/-- Case C's pieces for the scratch buffer of the running weighted sum cover it: they tile the shape in blocks of the whole shape. -/
theorem scover1_C_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) (y : S512x1024.Idx) :
    ∃ pc ∈ (kernelRun1_C c i arg4 harg4 arg5 harg5 arg6 harg6 arg7 harg7 arg8 harg8 arg9 harg9 arg10 harg10 xt0 xt1 h1 h2 h3 h4 x0 x1 x2 xs0 xs1 xs2).2.2.2.1, y ∈ pc.1.set :=
  View.cover_of_tiledL (kernelRun1_C c i arg4 harg4 arg5 harg5 arg6 harg6 arg7 harg7 arg8 harg8 arg9 harg9 arg10 harg10 xt0 xt1 h1 h2 h3 h4 x0 x1 x2 xs0 xs1 xs2).2.2.2.1 S512x1024.size (by sl_kernel_rfl) y

/-- What case C leaves in the scratch buffer of the running weighted sum: its pieces read back over junk. -/
def sout1_C_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) : Vec F S512x1024 .f32 :=
  VS1_2.read (Elt F) (VS1_2.writes (Elt F) VS1_2.junk (kernelRun1_C c i arg4 harg4 arg5 harg5 arg6 harg6 arg7 harg7 arg8 harg8 arg9 harg9 arg10 harg10 xt0 xt1 h1 h2 h3 h4 x0 x1 x2 xs0 xs1 xs2).2.2.2.1)

/-- Case C's pieces for the output buffer cover it: one store of the whole block. -/
theorem cover1_C_7 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) (y : S1x512x1024.Idx) :
    ∃ pc ∈ (kernelRun1_C c i arg4 harg4 arg5 harg5 arg6 harg6 arg7 harg7 arg8 harg8 arg9 harg9 arg10 harg10 xt0 xt1 h1 h2 h3 h4 x0 x1 x2 xs0 xs1 xs2).1, y ∈ pc.1.set :=
  View.cover_of_tiledL (kernelRun1_C c i arg4 harg4 arg5 harg5 arg6 harg6 arg7 harg7 arg8 harg8 arg9 harg9 arg10 harg10 xt0 xt1 h1 h2 h3 h4 x0 x1 x2 xs0 xs1 xs2).1 S1x512x1024.size (by sl_kernel_rfl) y

/-- What case C leaves in the output buffer: its pieces read back over junk. -/
def out1_C_7 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) : Vec F S1x512x1024 .f32 :=
  VO1_3.read (Elt F) (VO1_3.writes (Elt F) VO1_3.junk (kernelRun1_C c i arg4 harg4 arg5 harg5 arg6 harg6 arg7 harg7 arg8 harg8 arg9 harg9 arg10 harg10 xt0 xt1 h1 h2 h3 h4 x0 x1 x2 xs0 xs1 xs2).1)

/-! ## Case A -/

set_option maxHeartbeats 2000000 in
/-- CASE A (reset, the diagonal block). The pieces the body's stores leave in the output buffer (one whole-block
    store: the weighted sum over the sum) and in the three scratch buffers (two whole-shape stores each: the reset, then
    the masked update, last first), with the proof that the body runs: from the three input blocks at their contents,
    the output buffer and the scratch at ANY contents and the two tables at theirs, to the continuation holding the
    inputs and tables as they were and each of the four buffers with its pieces written. Each of the four
    conditionals is decided by the case's hypothesis on the two table words. -/
noncomputable def kernelRun1_A (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) :
    Σ' (L7 : List (View.Piece (Elt F) S1x512x1024 .f32)) (LS0 : List (View.Piece (Elt F) S512x1 .f32)) (LS1 : List (View.Piece (Elt F) S512x1 .f32)),
      { LS2 : List (View.Piece (Elt F) S512x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)
            ∗ tbPt1 c tbM1_0 xt0 ∗ tbPt1 c tbM1_1 xt1
            ∗ (iprop(owns (c : Thread nD τ) arg4 fullShare x0 ∗ owns (c : Thread nD τ) arg5 fullShare x1 ∗ owns (c : Thread nD τ) arg6 fullShare x2
                 ∗ (∃ f, arg7.view.loc (c : Thread nD τ) ↦[arg7.view.set]{fullShare} arg7.view.writes (Elt F) f L7)
                 ∗ (∃ f, arg8.view.loc (c : Thread nD τ) ↦[arg8.view.set]{fullShare} arg8.view.writes (Elt F) f LS0)
                 ∗ (∃ f, arg9.view.loc (c : Thread nD τ) ↦[arg9.view.set]{fullShare} arg9.view.writes (Elt F) f LS1)
                 ∗ (∃ f, arg10.view.loc (c : Thread nD τ) ↦[arg10.view.set]{fullShare} arg10.view.writes (Elt F) f LS2)
                 ∗ tbPt1 c tbM1_0 xt0 ∗ tbPt1 c tbM1_1 xt1) -∗ K ⟨⟩))
          ⊢ wp frame (wpE (defs₀ (F := F)) Variants.none c none) E (cc1__flash_kernel i tbM1_0 htbM1_0 tbM1_1 htbM1_1 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    rw [k1_part1_eq_skeleton (F := F)]
    unfold owns
    iintro ⟨⟨%f0, %hf0, H0⟩, ⟨%f1, %hf1, H1⟩, ⟨%f2, %hf2, H2⟩, ⟨%d7, %f7, -, H7⟩, ⟨%d8, %g0, -, HS0⟩, ⟨%d9, %g1, -, HS1⟩, ⟨%d10, %g2, -, HS2⟩, HT0, HT1, Hk⟩
    obtain rfl := harg4.eq_unread hf0; obtain rfl := harg5.eq_unread hf1; obtain rfl := harg6.eq_unread hf2
    sl_exec (disch := first | sl_exact h1 | sl_exact h2 | sl_exact h3 | sl_exact h4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H7]; · iexists _; iexact H7
    isplitl [HS0]; · iexists _; iexact HS0
    isplitl [HS1]; · iexists _; iexact HS1
    isplitl [HS2]; · iexists _; iexact HS2
    isplitl [HT0]; · iexact HT0
    iexact HT1

/-- Case A's pieces for the scratch buffer of the running maximum cover it: they tile the shape in blocks of the whole shape. -/
theorem scover1_A_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (y : S512x1.Idx) :
    ∃ pc ∈ (kernelRun1_A c i arg4 harg4 arg5 harg5 arg6 harg6 arg7 harg7 arg8 harg8 arg9 harg9 arg10 harg10 xt0 xt1 h1 h2 h3 h4 x0 x1 x2).2.1, y ∈ pc.1.set :=
  View.cover_of_tiledL (kernelRun1_A c i arg4 harg4 arg5 harg5 arg6 harg6 arg7 harg7 arg8 harg8 arg9 harg9 arg10 harg10 xt0 xt1 h1 h2 h3 h4 x0 x1 x2).2.1 S512x1.size (by sl_kernel_rfl) y

/-- What case A leaves in the scratch buffer of the running maximum: its pieces read back over junk. -/
def sout1_A_0 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) : Vec F S512x1 .f32 :=
  VS1_0.read (Elt F) (VS1_0.writes (Elt F) VS1_0.junk (kernelRun1_A c i arg4 harg4 arg5 harg5 arg6 harg6 arg7 harg7 arg8 harg8 arg9 harg9 arg10 harg10 xt0 xt1 h1 h2 h3 h4 x0 x1 x2).2.1)

/-- Case A's pieces for the scratch buffer of the running sum cover it: they tile the shape in blocks of the whole shape. -/
theorem scover1_A_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (y : S512x1.Idx) :
    ∃ pc ∈ (kernelRun1_A c i arg4 harg4 arg5 harg5 arg6 harg6 arg7 harg7 arg8 harg8 arg9 harg9 arg10 harg10 xt0 xt1 h1 h2 h3 h4 x0 x1 x2).2.2.1, y ∈ pc.1.set :=
  View.cover_of_tiledL (kernelRun1_A c i arg4 harg4 arg5 harg5 arg6 harg6 arg7 harg7 arg8 harg8 arg9 harg9 arg10 harg10 xt0 xt1 h1 h2 h3 h4 x0 x1 x2).2.2.1 S512x1.size (by sl_kernel_rfl) y

/-- What case A leaves in the scratch buffer of the running sum: its pieces read back over junk. -/
def sout1_A_1 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) : Vec F S512x1 .f32 :=
  VS1_1.read (Elt F) (VS1_1.writes (Elt F) VS1_1.junk (kernelRun1_A c i arg4 harg4 arg5 harg5 arg6 harg6 arg7 harg7 arg8 harg8 arg9 harg9 arg10 harg10 xt0 xt1 h1 h2 h3 h4 x0 x1 x2).2.2.1)

/-- Case A's pieces for the scratch buffer of the running weighted sum cover it: they tile the shape in blocks of the whole shape. -/
theorem scover1_A_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (y : S512x1024.Idx) :
    ∃ pc ∈ (kernelRun1_A c i arg4 harg4 arg5 harg5 arg6 harg6 arg7 harg7 arg8 harg8 arg9 harg9 arg10 harg10 xt0 xt1 h1 h2 h3 h4 x0 x1 x2).2.2.2.1, y ∈ pc.1.set :=
  View.cover_of_tiledL (kernelRun1_A c i arg4 harg4 arg5 harg5 arg6 harg6 arg7 harg7 arg8 harg8 arg9 harg9 arg10 harg10 xt0 xt1 h1 h2 h3 h4 x0 x1 x2).2.2.2.1 S512x1024.size (by sl_kernel_rfl) y

/-- What case A leaves in the scratch buffer of the running weighted sum: its pieces read back over junk. -/
def sout1_A_2 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) : Vec F S512x1024 .f32 :=
  VS1_2.read (Elt F) (VS1_2.writes (Elt F) VS1_2.junk (kernelRun1_A c i arg4 harg4 arg5 harg5 arg6 harg6 arg7 harg7 arg8 harg8 arg9 harg9 arg10 harg10 xt0 xt1 h1 h2 h3 h4 x0 x1 x2).2.2.2.1)

/-- Case A's pieces for the output buffer cover it: one store of the whole block. -/
theorem cover1_A_7 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (y : S1x512x1024.Idx) :
    ∃ pc ∈ (kernelRun1_A c i arg4 harg4 arg5 harg5 arg6 harg6 arg7 harg7 arg8 harg8 arg9 harg9 arg10 harg10 xt0 xt1 h1 h2 h3 h4 x0 x1 x2).1, y ∈ pc.1.set :=
  View.cover_of_tiledL (kernelRun1_A c i arg4 harg4 arg5 harg5 arg6 harg6 arg7 harg7 arg8 harg8 arg9 harg9 arg10 harg10 xt0 xt1 h1 h2 h3 h4 x0 x1 x2).1 S1x512x1024.size (by sl_kernel_rfl) y

/-- What case A leaves in the output buffer: its pieces read back over junk. -/
def out1_A_7 (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) : Vec F S1x512x1024 .f32 :=
  VO1_3.read (Elt F) (VO1_3.writes (Elt F) VO1_3.junk (kernelRun1_A c i arg4 harg4 arg5 harg5 arg6 harg6 arg7 harg7 arg8 harg8 arg9 harg9 arg10 harg10 xt0 xt1 h1 h2 h3 h4 x0 x1 x2).1)

end Cert.KernelIdeal.Hand

end
-- ==== Proof.Region1Cases.lean ====
/-
  Region 1 (the attention kernel): the four cases a grid point can be in, by its position modulo 10, and what the
  two index tables must say for that — the facts the body obligation and the value proof take as a hypothesis and
  each instance decides at the literal tables.
-/
import proofs.«418573_j77876347011327_3_alg».proof.Proof.Region1Base

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- The points whose key block is the first of its query block. -/
def isReset (n : ℕ) : Prop := n % 10 = 0 ∨ n % 10 = 1 ∨ n % 10 = 3 ∨ n % 10 = 6
/-- The points on the diagonal. -/
def isDiag (n : ℕ) : Prop := n % 10 = 0 ∨ n % 10 = 2 ∨ n % 10 = 5 ∨ n % 10 = 9
instance (n : ℕ) : Decidable (isReset n) := by unfold isReset; infer_instance
instance (n : ℕ) : Decidable (isDiag n) := by unfold isDiag; infer_instance

variable (a : (pcfg1 (F := F)).Adm)

/-- The coordinates of point `t`. -/
abbrev crd (t : Fin (cfg1 a).N) : grid1.Coords := (cfg1 a).grid.coords t

/-- What the two tables say at every point, and what follows for the output window's schedule: the words the body
    reads put each point in its case, the output window is idle exactly off the diagonal and written back exactly
    on it. -/
structure TblFacts : Prop where
  reset : ∀ (c : Dev nD) (t : Fin (cfg1 a).N), cReset (wordK c (crd a t) (a.1 1)) ↔ isReset t.val
  diag : ∀ (c : Dev nD) (t : Fin (cfg1 a).N), cDiag (wordQ c (crd a t) (a.1 0)) (wordK c (crd a t) (a.1 1)) ↔ isDiag t.val
  off : ∀ (c : Dev nD) (t : Fin (cfg1 a).N), cOff (wordQ c (crd a t) (a.1 0)) (wordK c (crd a t) (a.1 1)) ↔ ¬ isDiag t.val
  fin : ∀ (c : Dev nD) (t : Fin (cfg1 a).N), cFin (wordQ c (crd a t) (a.1 0)) (wordK c (crd a t) (a.1 1)) ↔ isDiag t.val
  idle3 : ∀ t : Fin (cfg1 a).N, (cfg1 a).idle 3 (crd a t) = true ↔ ¬ isDiag t.val
  flush3 : ∀ t : Fin (cfg1 a).N, ((cfg1 a).win 3).flush t = true ↔ isDiag t.val
  n40 : (cfg1 a).N = 40

end Cert.KernelIdeal.Hand

end
-- ==== Proof.Region1.lean ====
/-
  Region 1 (the attention kernel): what its scratch buffers and its output block hold after each grid point, the
  pipeline's proof data over that, and the body obligation.

  The grid is 4 batches by 10 (query block, key block) pairs in the order (0,0) (1,0) (1,1) (2,0) (2,1) (2,2)
  (3,0) (3,1) (3,2) (3,3). A pair with key block 0 resets the running maximum, sum and weighted sum; a diagonal pair
  masks the scores, and after it the output block is stored. So a point is in one of four cases by its position
  modulo 10: reset and diagonal (0), reset only (1, 3, 6), diagonal only (2, 5, 9), neither (4, 7, 8). What the
  scratch holds after a point is that case's run over the point's blocks and, without a reset, over what the point
  before left.
-/
import proofs.«418573_j77876347011327_3_alg».proof.Proof.Region1Runs
import proofs.«418573_j77876347011327_3_alg».proof.Proof.Region1Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The windows' blocks -/

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's staging buffer holds its block at every point, fetched there or not. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The four runs at a point of the pipeline -/

variable (hT : TblFacts a)

/-- The run of each case at point `t`, on the point's staging buffers, the scratch buffers and the tables. -/
def runA (c : Dev nD) (t : Fin (cfg1 a).N) (hr : isReset t.val) (hd : isDiag t.val) :=
  kernelRun1_A c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t)
def runB (c : Dev nD) (t : Fin (cfg1 a).N) (hr : isReset t.val) (hd : ¬ isDiag t.val) :=
  kernelRun1_B c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) (fun h => hd ((hT.diag c t).mp h)) ((hT.off c t).mpr hd) (fun h => hd ((hT.fin c t).mp h)) (iblk1 V a c 0 t) (iblk1 V a c 1 t) (iblk1 V a c 2 t)
def runC (c : Dev nD) (t : Fin (cfg1 a).N) (hr : ¬ isReset t.val) (hd : isDiag t.val) (xs0 xs1 : Vec F S512x1 .f32) (xs2 : Vec F S512x1024 .f32) :=
  kernelRun1_C c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2
def runD (c : Dev nD) (t : Fin (cfg1 a).N) (hr : ¬ isReset t.val) (hd : ¬ isDiag t.val) (xs0 xs1 : Vec F S512x1 .f32) (xs2 : Vec F S512x1024 .f32) :=
  kernelRun1_D c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) (fun h => hd ((hT.diag c t).mp h)) ((hT.off c t).mpr hd) (fun h => hd ((hT.fin c t).mp h)) (iblk1 V a c 0 t) (iblk1 V a c 1 t) (iblk1 V a c 2 t) xs0 xs1 xs2

/-- What a list of pieces leaves in each buffer: the pieces read back. -/
abbrev rd7 (L : List (View.Piece (Elt F) S1x512x1024 .f32)) : Vec F S1x512x1024 .f32 := VO1_3.read (Elt F) (VO1_3.writes (Elt F) VO1_3.junk L)
abbrev rd0 (L : List (View.Piece (Elt F) S512x1 .f32)) : Vec F S512x1 .f32 := VS1_0.read (Elt F) (VS1_0.writes (Elt F) VS1_0.junk L)
abbrev rd1 (L : List (View.Piece (Elt F) S512x1 .f32)) : Vec F S512x1 .f32 := VS1_1.read (Elt F) (VS1_1.writes (Elt F) VS1_1.junk L)
abbrev rd2 (L : List (View.Piece (Elt F) S512x1024 .f32)) : Vec F S512x1024 .f32 := VS1_2.read (Elt F) (VS1_2.writes (Elt F) VS1_2.junk L)

/-- What the output's staging buffer and the three scratch buffers hold after a point. -/
abbrev Outs1 (F : FTy → Type) : Type := Vec F S1x512x1024 .f32 × Vec F S512x1 .f32 × Vec F S512x1 .f32 × Vec F S512x1024 .f32

/-- What each case leaves, as the four buffers' contents: the pieces its run found, read back. -/
def outA (c : Dev nD) (t : Fin (cfg1 a).N) (hr : isReset t.val) (hd : isDiag t.val) : Outs1 F :=
  (rd7 (runA V a hT c t hr hd).1, rd0 (runA V a hT c t hr hd).2.1, rd1 (runA V a hT c t hr hd).2.2.1, rd2 (runA V a hT c t hr hd).2.2.2.1)
def outB (c : Dev nD) (t : Fin (cfg1 a).N) (hr : isReset t.val) (hd : ¬ isDiag t.val) : Outs1 F :=
  (rd7 (runB V a hT c t hr hd).1, rd0 (runB V a hT c t hr hd).2.1, rd1 (runB V a hT c t hr hd).2.2.1, rd2 (runB V a hT c t hr hd).2.2.2.1)
def outC (c : Dev nD) (t : Fin (cfg1 a).N) (hr : ¬ isReset t.val) (hd : isDiag t.val) (p : Vec F S512x1 .f32 × Vec F S512x1 .f32 × Vec F S512x1024 .f32) : Outs1 F :=
  (rd7 (runC V a hT c t hr hd p.1 p.2.1 p.2.2).1, rd0 (runC V a hT c t hr hd p.1 p.2.1 p.2.2).2.1, rd1 (runC V a hT c t hr hd p.1 p.2.1 p.2.2).2.2.1, rd2 (runC V a hT c t hr hd p.1 p.2.1 p.2.2).2.2.2.1)
def outD (c : Dev nD) (t : Fin (cfg1 a).N) (hr : ¬ isReset t.val) (hd : ¬ isDiag t.val) (p : Vec F S512x1 .f32 × Vec F S512x1 .f32 × Vec F S512x1024 .f32) : Outs1 F :=
  (rd7 (runD V a hT c t hr hd p.1 p.2.1 p.2.2).1, rd0 (runD V a hT c t hr hd p.1 p.2.1 p.2.2).2.1, rd1 (runD V a hT c t hr hd p.1 p.2.1 p.2.2).2.2.1, rd2 (runD V a hT c t hr hd p.1 p.2.1 p.2.2).2.2.2.1)

/-! ## What the buffers hold after each point -/

/-- The output's staging buffer and the scratch buffers after the body at position `n`: the case the position is
    in, run at the point's blocks and, without a reset, over what the point before left in the scratch. -/
def outsAt1 (c : Dev nD) : (n : ℕ) → n < (cfg1 a).N → Outs1 F
  | 0, hn => outA V a hT c ⟨0, hn⟩ (Or.inl rfl) (Or.inl rfl)
  | n + 1, hn =>
    if hr : isReset (n + 1) then
      if hd : isDiag (n + 1) then outA V a hT c ⟨n + 1, hn⟩ hr hd
      else outB V a hT c ⟨n + 1, hn⟩ hr hd
    else
      if hd : isDiag (n + 1) then outC V a hT c ⟨n + 1, hn⟩ hr hd (outsAt1 c n (Nat.lt_of_succ_lt hn)).2
      else outD V a hT c ⟨n + 1, hn⟩ hr hd (outsAt1 c n (Nat.lt_of_succ_lt hn)).2

theorem outsAt1_A (c : Dev nD) (t : Fin (cfg1 a).N) (hr : isReset t.val) (hd : isDiag t.val) :
    outsAt1 V a hT c t.val t.isLt = outA V a hT c t hr hd := by
  obtain ⟨n, hn⟩ := t
  cases n with
  | zero => rfl
  | succ n => exact (dif_pos hr).trans (dif_pos hd)

theorem outsAt1_B (c : Dev nD) (t : Fin (cfg1 a).N) (hr : isReset t.val) (hd : ¬ isDiag t.val) :
    outsAt1 V a hT c t.val t.isLt = outB V a hT c t hr hd := by
  obtain ⟨n, hn⟩ := t
  cases n with
  | zero => exact absurd (Or.inl rfl) hd
  | succ n => exact (dif_pos hr).trans (dif_neg hd)

theorem outsAt1_C (c : Dev nD) (t : Fin (cfg1 a).N) (hr : ¬ isReset t.val) (hd : isDiag t.val) :
    outsAt1 V a hT c t.val t.isLt = outC V a hT c t hr hd (outsAt1 V a hT c (t.val - 1) (Nat.lt_of_le_of_lt (Nat.sub_le _ _) t.isLt)).2 := by
  obtain ⟨n, hn⟩ := t
  cases n with
  | zero => exact absurd (Or.inl rfl) hr
  | succ n => exact (dif_neg hr).trans (dif_pos hd)

theorem outsAt1_D (c : Dev nD) (t : Fin (cfg1 a).N) (hr : ¬ isReset t.val) (hd : ¬ isDiag t.val) :
    outsAt1 V a hT c t.val t.isLt = outD V a hT c t hr hd (outsAt1 V a hT c (t.val - 1) (Nat.lt_of_le_of_lt (Nat.sub_le _ _) t.isLt)).2 := by
  obtain ⟨n, hn⟩ := t
  cases n with
  | zero => exact absurd (Or.inl rfl) hr
  | succ n => exact (dif_neg hr).trans (dif_neg hd)

/-! ## The region invariant -/

/-- The class invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The two tables held whole at the contents the region was entered with. -/
theorem PhiT1_eq (c : Dev nD) :
    (Pipeline.prefHeld (Ix := Unit) (Name := ℕ) (U := UR sig nD τ) (Lvl := ℕ) pre1 c (fun _ => fullShare) a.1 : sProp 𝕄)
      = iprop(tbPt1 c tbM1_0 (a.1 0) ∗ tbPt1 c tbM1_1 (a.1 1)) := by
  unfold Pipeline.prefHeld
  rw [show (Finset.univ : Finset (Fin 2)) = insert (0 : Fin 2) {(1 : Fin 2)} from by decide,
    bigSep_insert (by decide), bigSep_singleton]
  rfl

/-- The invariant before position `n`: before the first point every scratch at anything; afterwards each scratch at
    what the point before left; always the other scoped buffers at anything, the generator register at some state,
    and the two tables. -/
def PhiS1 (c : Dev nD) : (n : ℕ) → n ≤ (cfg1 a).N → sProp 𝕄
  | 0, _ => iprop(Pipeline.ΦA spec1 c ∗ tbPt1 c tbM1_0 (a.1 0) ∗ tbPt1 c tbM1_1 (a.1 1))
  | n + 1, hn => iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V a hT c n hn).2.1 ∗ owns (c : Thread nD τ) scM1_1 fullShare (outsAt1 V a hT c n hn).2.2.1 ∗ owns (c : Thread nD τ) scM1_2 fullShare (outsAt1 V a hT c n hn).2.2.2) ∗ (∃ r, prngReg c r)) ∗ tbPt1 c tbM1_0 (a.1 0) ∗ tbPt1 c tbM1_1 (a.1 1))

theorem PhiS1_zero (c : Dev nD) (n : ℕ) (h : n ≤ (cfg1 a).N) (hz : n = 0) :
    PhiS1 V a hT c n h = iprop(Pipeline.ΦA spec1 c ∗ tbPt1 c tbM1_0 (a.1 0) ∗ tbPt1 c tbM1_1 (a.1 1)) := by
  subst hz; rfl

theorem PhiS1_succ (c : Dev nD) (n : ℕ) (hn : n < (cfg1 a).N) :
    PhiS1 V a hT c (n + 1) hn = iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V a hT c n hn).2.1 ∗ owns (c : Thread nD τ) scM1_1 fullShare (outsAt1 V a hT c n hn).2.2.1 ∗ owns (c : Thread nD τ) scM1_2 fullShare (outsAt1 V a hT c n hn).2.2.2) ∗ (∃ r, prngReg c r)) ∗ tbPt1 c tbM1_0 (a.1 0) ∗ tbPt1 c tbM1_1 (a.1 1)) := rfl

theorem PhiS1_pos (c : Dev nD) (n : ℕ) (h : n ≤ (cfg1 a).N) (hz : n ≠ 0) :
    PhiS1 V a hT c n h = iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V a hT c (n - 1) (by omega)).2.1 ∗ owns (c : Thread nD τ) scM1_1 fullShare (outsAt1 V a hT c (n - 1) (by omega)).2.2.1 ∗ owns (c : Thread nD τ) scM1_2 fullShare (outsAt1 V a hT c (n - 1) (by omega)).2.2.2) ∗ (∃ r, prngReg c r)) ∗ tbPt1 c tbM1_0 (a.1 0) ∗ tbPt1 c tbM1_1 (a.1 1)) := by
  cases n with
  | zero => exact absurd rfl hz
  | succ n => rfl

/-! ## The pipeline's proof data -/

/-- The proof data of the pipeline on core `c`: the arrays as the region finds them; after the body at a point each
    input's buffer at its block and the output's at what the point's case leaves; the invariant above; the one array
    behind the three input windows shared out among them; nothing owed. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => (outsAt1 V a hT c t.val t.isLt).1
  Φ t := PhiS1 V a hT c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin (cfg1 a).W) : (dat1 V a hT c).A w = V c (Pipeline.arrRef spec1 w) := by
  dsimp only [dat1]

theorem PhiS1_castSucc (c : Dev nD) (t : Fin (cfg1 a).N) :
    (dat1 V a hT c).Φ t.castSucc = PhiS1 V a hT c t.val (Nat.le_of_lt t.isLt) := by
  dsimp only [dat1]; simp only [Fin.coe_castSucc]

theorem after1_0 (c : Dev nD) (t : Fin (cfg1 a).N) : (dat1 V a hT c).after 0 t = iblk1 V a c 0 t := by dsimp only [dat1]; rfl
theorem after1_1 (c : Dev nD) (t : Fin (cfg1 a).N) : (dat1 V a hT c).after 1 t = iblk1 V a c 1 t := by dsimp only [dat1]; rfl
theorem after1_2 (c : Dev nD) (t : Fin (cfg1 a).N) : (dat1 V a hT c).after 2 t = iblk1 V a c 2 t := by dsimp only [dat1]; rfl
theorem after1_3 (c : Dev nD) (t : Fin (cfg1 a).N) : (dat1 V a hT c).after 3 t = (outsAt1 V a hT c t.val t.isLt).1 := by dsimp only [dat1]; rfl

theorem before1_0 (c : Dev nD) (t : Fin (cfg1 a).N) (d) : (dat1 V a hT c).before 0 t d = iblk1 V a c 0 t :=
  before1_0_of V a (dat1 V a hT c) (A_eq1 V a hT c 0) (after1_0 V a hT c) t d
theorem before1_1 (c : Dev nD) (t : Fin (cfg1 a).N) (d) : (dat1 V a hT c).before 1 t d = iblk1 V a c 1 t :=
  before1_1_of V a (dat1 V a hT c) (A_eq1 V a hT c 1) (after1_1 V a hT c) t d
theorem before1_2 (c : Dev nD) (t : Fin (cfg1 a).N) (d) : (dat1 V a hT c).before 2 t d = iblk1 V a c 2 t :=
  before1_2_of V a (dat1 V a hT c) (A_eq1 V a hT c 2) (after1_2 V a hT c) t d

/-! ## The body obligation, at a generic point -/

/-- What the body is called with at point `t`, the windows one by one, -/
def bodyPre1 (c : Dev nD) (t : Fin (cfg1 a).N) : sProp 𝕄 :=
  iprop((dat1 V a hT c).Φ t.castSucc ∗ (dat1 V a hT c).owesAt () t.castSucc
    ∗ (∃ d, owns (c : Thread nD τ) (ms1_0 a t) fullShare ((dat1 V a hT c).before 0 t d))
    ∗ (∃ d, owns (c : Thread nD τ) (ms1_1 a t) fullShare ((dat1 V a hT c).before 1 t d))
    ∗ (∃ d, owns (c : Thread nD τ) (ms1_2 a t) fullShare ((dat1 V a hT c).before 2 t d))
    ∗ (∃ d, owns (c : Thread nD τ) (ms1_3 a t) fullShare ((dat1 V a hT c).before 3 t d)))

/-- and what it returns. -/
def bodyPost1 (c : Dev nD) (t : Fin (cfg1 a).N) : sProp 𝕄 :=
  iprop((dat1 V a hT c).Φ t.succ ∗ (dat1 V a hT c).owesAt () t.succ
    ∗ (dat1 V a hT c).leavesExact 0 t
    ∗ (dat1 V a hT c).leavesExact 1 t
    ∗ (dat1 V a hT c).leavesExact 2 t
    ∗ (dat1 V a hT c).leavesExact 3 t)

theorem leaves1_0 (c : Dev nD) (t : Fin (cfg1 a).N) : (dat1 V a hT c).leavesExact 0 t = owns (c : Thread nD τ) (ms1_0 a t) fullShare (iblk1 V a c 0 t) := by
  unfold Dat.leavesExact; rw [show (cfg1 a).idle 0 ((cfg1 a).grid.coords t) = false from rfl, after1_0]; rfl
theorem leaves1_1 (c : Dev nD) (t : Fin (cfg1 a).N) : (dat1 V a hT c).leavesExact 1 t = owns (c : Thread nD τ) (ms1_1 a t) fullShare (iblk1 V a c 1 t) := by
  unfold Dat.leavesExact; rw [show (cfg1 a).idle 1 ((cfg1 a).grid.coords t) = false from rfl, after1_1]; rfl
theorem leaves1_2 (c : Dev nD) (t : Fin (cfg1 a).N) : (dat1 V a hT c).leavesExact 2 t = owns (c : Thread nD τ) (ms1_2 a t) fullShare (iblk1 V a c 2 t) := by
  unfold Dat.leavesExact; rw [show (cfg1 a).idle 2 ((cfg1 a).grid.coords t) = false from rfl, after1_2]; rfl
/-- On the diagonal the output window is live: its buffer is left at what the case stores. -/
theorem leaves1_3_live (c : Dev nD) (t : Fin (cfg1 a).N) (hd : isDiag t.val) :
    (dat1 V a hT c).leavesExact 3 t = owns (c : Thread nD τ) (ms1_3 a t) fullShare (outsAt1 V a hT c t.val t.isLt).1 := by
  have hi : (cfg1 a).idle 3 ((cfg1 a).grid.coords t) = false := by
    cases h : (cfg1 a).idle 3 ((cfg1 a).grid.coords t) with
    | false => rfl
    | true => exact absurd hd ((hT.idle3 t).mp h)
  unfold Dat.leavesExact; rw [hi, after1_3]; rfl
/-- Off the diagonal it is idle and not written back: its buffer is left as found. -/
theorem leaves1_3_idle (c : Dev nD) (t : Fin (cfg1 a).N) (hd : ¬ isDiag t.val) :
    (dat1 V a hT c).leavesExact 3 t = iprop(∃ d, owns (c : Thread nD τ) (ms1_3 a t) fullShare ((dat1 V a hT c).before 3 t d)) := by
  have hf : ((cfg1 a).win 3).flush t = false := by
    cases h : ((cfg1 a).win 3).flush t with
    | false => rfl
    | true => exact absurd ((hT.flush3 t).mp h) hd
  exact Dat.leavesExact_idle (dat1 V a hT c) 3 t ((hT.idle3 t).mpr hd) hf

/-! ## The runs' pieces cover their buffers -/

theorem covA0 (c : Dev nD) (t : Fin (cfg1 a).N) (hr : isReset t.val) (hd : isDiag t.val) (y : S512x1.Idx) : ∃ pc ∈ (runA V a hT c t hr hd).2.1, y ∈ pc.1.set :=
  scover1_A_0 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t) y
theorem covA1 (c : Dev nD) (t : Fin (cfg1 a).N) (hr : isReset t.val) (hd : isDiag t.val) (y : S512x1.Idx) : ∃ pc ∈ (runA V a hT c t hr hd).2.2.1, y ∈ pc.1.set :=
  scover1_A_1 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t) y
theorem covA2 (c : Dev nD) (t : Fin (cfg1 a).N) (hr : isReset t.val) (hd : isDiag t.val) (y : S512x1024.Idx) : ∃ pc ∈ (runA V a hT c t hr hd).2.2.2.1, y ∈ pc.1.set :=
  scover1_A_2 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t) y
theorem covA7 (c : Dev nD) (t : Fin (cfg1 a).N) (hr : isReset t.val) (hd : isDiag t.val) (y : S1x512x1024.Idx) : ∃ pc ∈ (runA V a hT c t hr hd).1, y ∈ pc.1.set :=
  cover1_A_7 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) ((hT.diag c t).mpr hd) (fun h => ((hT.off c t).mp h) hd) ((hT.fin c t).mpr hd) (iblk1 V a c 0 t) (iblk1 V a c 1 t) (iblk1 V a c 2 t) y
theorem covB0 (c : Dev nD) (t : Fin (cfg1 a).N) (hr : isReset t.val) (hd : ¬ isDiag t.val) (y : S512x1.Idx) : ∃ pc ∈ (runB V a hT c t hr hd).2.1, y ∈ pc.1.set :=
  scover1_B_0 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) (fun h => hd ((hT.diag c t).mp h)) ((hT.off c t).mpr hd) (fun h => hd ((hT.fin c t).mp h)) (iblk1 V a c 0 t) (iblk1 V a c 1 t) (iblk1 V a c 2 t) y
theorem covB1 (c : Dev nD) (t : Fin (cfg1 a).N) (hr : isReset t.val) (hd : ¬ isDiag t.val) (y : S512x1.Idx) : ∃ pc ∈ (runB V a hT c t hr hd).2.2.1, y ∈ pc.1.set :=
  scover1_B_1 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) (fun h => hd ((hT.diag c t).mp h)) ((hT.off c t).mpr hd) (fun h => hd ((hT.fin c t).mp h)) (iblk1 V a c 0 t) (iblk1 V a c 1 t) (iblk1 V a c 2 t) y
theorem covB2 (c : Dev nD) (t : Fin (cfg1 a).N) (hr : isReset t.val) (hd : ¬ isDiag t.val) (y : S512x1024.Idx) : ∃ pc ∈ (runB V a hT c t hr hd).2.2.2.1, y ∈ pc.1.set :=
  scover1_B_2 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) ((hT.reset c t).mpr hr) (fun h => hd ((hT.diag c t).mp h)) ((hT.off c t).mpr hd) (fun h => hd ((hT.fin c t).mp h)) (iblk1 V a c 0 t) (iblk1 V a c 1 t) (iblk1 V a c 2 t) y
theorem covC0 (c : Dev nD) (t : Fin (cfg1 a).N) (hr : ¬ isReset t.val) (hd : isDiag t.val) (xs0 xs1 : Vec F S512x1 .f32) (xs2 : Vec F S512x1024 .f32) (y : S512x1.Idx) : ∃ pc ∈ (runC V a hT c t hr hd xs0 xs1 xs2).2.1, y ∈ pc.1.set :=
  scover1_C_0 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2 y
theorem covC1 (c : Dev nD) (t : Fin (cfg1 a).N) (hr : ¬ isReset t.val) (hd : isDiag t.val) (xs0 xs1 : Vec F S512x1 .f32) (xs2 : Vec F S512x1024 .f32) (y : S512x1.Idx) : ∃ pc ∈ (runC V a hT c t hr hd xs0 xs1 xs2).2.2.1, y ∈ pc.1.set :=
  scover1_C_1 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2 y
theorem covC2 (c : Dev nD) (t : Fin (cfg1 a).N) (hr : ¬ isReset t.val) (hd : isDiag t.val) (xs0 xs1 : Vec F S512x1 .f32) (xs2 : Vec F S512x1024 .f32) (y : S512x1024.Idx) : ∃ pc ∈ (runC V a hT c t hr hd xs0 xs1 xs2).2.2.2.1, y ∈ pc.1.set :=
  scover1_C_2 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2 y
theorem covC7 (c : Dev nD) (t : Fin (cfg1 a).N) (hr : ¬ isReset t.val) (hd : isDiag t.val) (xs0 xs1 : Vec F S512x1 .f32) (xs2 : Vec F S512x1024 .f32) (y : S1x512x1024.Idx) : ∃ pc ∈ (runC V a hT c t hr hd xs0 xs1 xs2).1, y ∈ pc.1.set :=
  cover1_C_7 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) ((hT.diag c t).mpr hd) (fun h => ((hT.off c t).mp h) hd) ((hT.fin c t).mpr hd) (iblk1 V a c 0 t) (iblk1 V a c 1 t) (iblk1 V a c 2 t) xs0 xs1 xs2 y
theorem covD0 (c : Dev nD) (t : Fin (cfg1 a).N) (hr : ¬ isReset t.val) (hd : ¬ isDiag t.val) (xs0 xs1 : Vec F S512x1 .f32) (xs2 : Vec F S512x1024 .f32) (y : S512x1.Idx) : ∃ pc ∈ (runD V a hT c t hr hd xs0 xs1 xs2).2.1, y ∈ pc.1.set :=
  scover1_D_0 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) (fun h => hd ((hT.diag c t).mp h)) ((hT.off c t).mpr hd) (fun h => hd ((hT.fin c t).mp h)) (iblk1 V a c 0 t) (iblk1 V a c 1 t) (iblk1 V a c 2 t) xs0 xs1 xs2 y
theorem covD1 (c : Dev nD) (t : Fin (cfg1 a).N) (hr : ¬ isReset t.val) (hd : ¬ isDiag t.val) (xs0 xs1 : Vec F S512x1 .f32) (xs2 : Vec F S512x1024 .f32) (y : S512x1.Idx) : ∃ pc ∈ (runD V a hT c t hr hd xs0 xs1 xs2).2.2.1, y ∈ pc.1.set :=
  scover1_D_1 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) (fun h => hd ((hT.diag c t).mp h)) ((hT.off c t).mpr hd) (fun h => hd ((hT.fin c t).mp h)) (iblk1 V a c 0 t) (iblk1 V a c 1 t) (iblk1 V a c 2 t) xs0 xs1 xs2 y
theorem covD2 (c : Dev nD) (t : Fin (cfg1 a).N) (hr : ¬ isReset t.val) (hd : ¬ isDiag t.val) (xs0 xs1 : Vec F S512x1 .f32) (xs2 : Vec F S512x1024 .f32) (y : S512x1024.Idx) : ∃ pc ∈ (runD V a hT c t hr hd xs0 xs1 xs2).2.2.2.1, y ∈ pc.1.set :=
  scover1_D_2 (F := F) c (crd a t) (ms1_0 a t) (hs1_0 a t) (ms1_1 a t) (hs1_1 a t) (ms1_2 a t) (hs1_2 a t) (ms1_3 a t) (hs1_3 a t) scM1_0 (Memref.isWhole_whole _) scM1_1 (Memref.isWhole_whole _) scM1_2 (Memref.isWhole_whole _) (a.1 0) (a.1 1) (fun h => hr ((hT.reset c t).mp h)) (fun h => hd ((hT.diag c t).mp h)) ((hT.off c t).mpr hd) (fun h => hd ((hT.fin c t).mp h)) (iblk1 V a c 0 t) (iblk1 V a c 1 t) (iblk1 V a c 2 t) xs0 xs1 xs2 y
/-! ## The body, case by case -/

set_option maxHeartbeats 2000000 in
theorem sound_A_any (c : Dev nD) (t : Fin (cfg1 a).N) (hr : isReset t.val) (hd : isDiag t.val) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runA V a hT c t hr hd).2.1) ∗ owns (c : Thread nD τ) scM1_1 fullShare (rd1 (runA V a hT c t hr hd).2.2.1) ∗ owns (c : Thread nD τ) scM1_2 fullShare (rd2 (runA V a hT c t hr hd).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ owns (c : Thread nD τ) (ms1_3 a t) fullShare (rd7 (runA V a hT c t hr hd).1))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runA V a hT c t hr hd).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HT0]; · iexact HT0
    isplitl [HT1]; · iexact HT1
    iintro ⟨H0, H1, H2, ⟨%e3, H3⟩, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covA0 V a hT c t hr hd)
          isplitl [HS1]
          · unfold owns; iexists _; isplitr
            swap; · iexact HS1
            ipureintro; exact View.read_writes_of_cover _ _ _ _ _ (covA1 V a hT c t hr hd)
          unfold owns; iexists _; isplitr
          swap; · iexact HS2
          ipureintro; exact View.read_writes_of_cover _ _ _ _ _ (covA2 V a hT c t hr hd)
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (covA7 V a hT c t hr hd)

set_option maxHeartbeats 2000000 in
theorem sound_A (c : Dev nD) (t : Fin (cfg1 a).N) (hr : isReset t.val) (hd : isDiag t.val) (p0 p1 : Vec F S512x1 .f32) (p2 : Vec F S512x1024 .f32) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare p0 ∗ owns (c : Thread nD τ) scM1_1 fullShare p1 ∗ owns (c : Thread nD τ) scM1_2 fullShare p2) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runA V a hT c t hr hd).2.1) ∗ owns (c : Thread nD τ) scM1_1 fullShare (rd1 (runA V a hT c t hr hd).2.2.1) ∗ owns (c : Thread nD τ) scM1_2 fullShare (rd2 (runA V a hT c t hr hd).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ owns (c : Thread nD τ) (ms1_3 a t) fullShare (rd7 (runA V a hT c t hr hd).1))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runA V a hT c t hr hd).2.2.2.2 Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    isplitl [HS2]; · iexists _; iexact HS2
    isplitl [HT0]; · iexact HT0
    isplitl [HT1]; · iexact HT1
    iintro ⟨H0, H1, H2, ⟨%e3, H3⟩, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covA0 V a hT c t hr hd)
          isplitl [HS1]
          · unfold owns; iexists _; isplitr
            swap; · iexact HS1
            ipureintro; exact View.read_writes_of_cover _ _ _ _ _ (covA1 V a hT c t hr hd)
          unfold owns; iexists _; isplitr
          swap; · iexact HS2
          ipureintro; exact View.read_writes_of_cover _ _ _ _ _ (covA2 V a hT c t hr hd)
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (covA7 V a hT c t hr hd)

set_option maxHeartbeats 2000000 in
theorem sound_B (c : Dev nD) (t : Fin (cfg1 a).N) (hr : isReset t.val) (hd : ¬ isDiag t.val) (p0 p1 : Vec F S512x1 .f32) (p2 : Vec F S512x1024 .f32) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare p0 ∗ owns (c : Thread nD τ) scM1_1 fullShare p1 ∗ owns (c : Thread nD τ) scM1_2 fullShare p2) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runB V a hT c t hr hd).2.1) ∗ owns (c : Thread nD τ) scM1_1 fullShare (rd1 (runB V a hT c t hr hd).2.2.1) ∗ owns (c : Thread nD τ) scM1_2 fullShare (rd2 (runB V a hT c t hr hd).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ (∃ d, owns (c : Thread nD τ) (ms1_3 a t) fullShare ((dat1 V a hT c).before 3 t d)))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runB V a hT c t hr hd).2.2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    isplitl [HT0]; · iexact HT0
    isplitl [HT1]; · iexact HT1
    iintro ⟨H0, H1, H2, H3, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covB0 V a hT c t hr hd)
          isplitl [HS1]
          · unfold owns; iexists _; isplitr
            swap; · iexact HS1
            ipureintro; exact View.read_writes_of_cover _ _ _ _ _ (covB1 V a hT c t hr hd)
          unfold owns; iexists _; isplitr
          swap; · iexact HS2
          ipureintro; exact View.read_writes_of_cover _ _ _ _ _ (covB2 V a hT c t hr hd)
        iexact Hg
      isplitl [HT0]; · iexact HT0
      iexact HT1
    isplitl [Ho]; · iexact Ho
    isplitl [H0]; · iexact H0
    isplitl [H1]; · iexact H1
    isplitl [H2]; · iexact H2
    iexists _; iexact H3

set_option maxHeartbeats 2000000 in
theorem sound_C (c : Dev nD) (t : Fin (cfg1 a).N) (hr : ¬ isReset t.val) (hd : isDiag t.val) (p0 p1 : Vec F S512x1 .f32) (p2 : Vec F S512x1024 .f32) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare p0 ∗ owns (c : Thread nD τ) scM1_1 fullShare p1 ∗ owns (c : Thread nD τ) scM1_2 fullShare p2) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runC V a hT c t hr hd p0 p1 p2).2.1) ∗ owns (c : Thread nD τ) scM1_1 fullShare (rd1 (runC V a hT c t hr hd p0 p1 p2).2.2.1) ∗ owns (c : Thread nD τ) scM1_2 fullShare (rd2 (runC V a hT c t hr hd p0 p1 p2).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ owns (c : Thread nD τ) (ms1_3 a t) fullShare (rd7 (runC V a hT c t hr hd p0 p1 p2).1))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runC V a hT c t hr hd p0 p1 p2).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HT0]; · iexact HT0
    isplitl [HT1]; · iexact HT1
    iintro ⟨H0, H1, H2, ⟨%e3, H3⟩, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covC0 V a hT c t hr hd p0 p1 p2)
          isplitl [HS1]
          · unfold owns; iexists _; isplitr
            swap; · iexact HS1
            ipureintro; exact View.read_writes_of_cover _ _ _ _ _ (covC1 V a hT c t hr hd p0 p1 p2)
          unfold owns; iexists _; isplitr
          swap; · iexact HS2
          ipureintro; exact View.read_writes_of_cover _ _ _ _ _ (covC2 V a hT c t hr hd p0 p1 p2)
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (covC7 V a hT c t hr hd p0 p1 p2)

set_option maxHeartbeats 2000000 in
theorem sound_D (c : Dev nD) (t : Fin (cfg1 a).N) (hr : ¬ isReset t.val) (hd : ¬ isDiag t.val) (p0 p1 : Vec F S512x1 .f32) (p2 : Vec F S512x1024 .f32) :
    iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare p0 ∗ owns (c : Thread nD τ) scM1_1 fullShare p1 ∗ owns (c : Thread nD τ) scM1_2 fullShare p2) ∗ (∃ r, prngReg c r)) ∗ tbPt1 c tbM1_0 (a.1 0) ∗ tbPt1 c tbM1_1 (a.1 1)) ∗ (dat1 V a hT c).owesAt () t.castSucc
        ∗ (∃ d : ((cfg1 a).win 0).block.Idx → Elt F ((cfg1 a).win 0).elt, owns (c : Thread nD τ) (ms1_0 a t) fullShare (iblk1 V a c 0 t))
        ∗ (∃ d : ((cfg1 a).win 1).block.Idx → Elt F ((cfg1 a).win 1).elt, owns (c : Thread nD τ) (ms1_1 a t) fullShare (iblk1 V a c 1 t))
        ∗ (∃ d : ((cfg1 a).win 2).block.Idx → Elt F ((cfg1 a).win 2).elt, owns (c : Thread nD τ) (ms1_2 a t) fullShare (iblk1 V a c 2 t))
        ∗ (∃ d, owns (c : Thread nD τ) (ms1_3 a t) fullShare ((dat1 V a hT c).before 3 t d)))
      ⊢ wp frame (wpE (defs₀ (F := F)) Variants.none c none) Set.univ (bodyAt1 a t) (fun _ =>
        iprop(iprop(iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (rd0 (runD V a hT c t hr hd p0 p1 p2).2.1) ∗ owns (c : Thread nD τ) scM1_1 fullShare (rd1 (runD V a hT c t hr hd p0 p1 p2).2.2.1) ∗ owns (c : Thread nD τ) scM1_2 fullShare (rd2 (runD V a hT c t hr hd p0 p1 p2).2.2.2.1)) ∗ (∃ r, prngReg c r)) ∗ tbPt1 c tbM1_0 (a.1 0) ∗ tbPt1 c tbM1_1 (a.1 1)) ∗ (dat1 V a hT c).owesAt () t.castSucc
          ∗ owns (c : Thread nD τ) (ms1_0 a t) fullShare (iblk1 V a c 0 t)
          ∗ owns (c : Thread nD τ) (ms1_1 a t) fullShare (iblk1 V a c 1 t)
          ∗ owns (c : Thread nD τ) (ms1_2 a t) fullShare (iblk1 V a c 2 t)
          ∗ (∃ d, owns (c : Thread nD τ) (ms1_3 a t) fullShare ((dat1 V a hT c).before 3 t d)))) := by
    iintro ⟨⟨⟨⟨R1, R2, R3, R4, R5, HS0, HS1, HS2⟩, Hg⟩, HT0, HT1⟩, Ho, ⟨%d0, H0⟩, ⟨%d1, H1⟩, ⟨%d2, H2⟩, ⟨%d3, H3⟩⟩
    iapply ((runD V a hT c t hr hd p0 p1 p2).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HT0]; · iexact HT0
    isplitl [HT1]; · iexact HT1
    iintro ⟨H0, H1, H2, H3, ⟨%es0, HS0⟩, ⟨%es1, HS1⟩, ⟨%es2, HS2⟩, HT0, HT1⟩
    isplitl [R1 R2 R3 R4 R5 HS0 HS1 HS2 Hg HT0 HT1]
    · isplitl [R1 R2 R3 R4 R5 HS0 HS1 HS2 Hg]
      · isplitl [R1 R2 R3 R4 R5 HS0 HS1 HS2]
        · isplitl [R1]; · iexact R1
          isplitl [R2]; · iexact R2
          isplitl [R3]; · iexact R3
          isplitl [R4]; · iexact R4
          isplitl [R5]; · iexact R5
          isplitl [HS0]
          · unfold owns; iexists _; isplitr
            swap; · iexact HS0
            ipureintro; exact View.read_writes_of_cover _ _ _ _ _ (covD0 V a hT c t hr hd p0 p1 p2)
          isplitl [HS1]
          · unfold owns; iexists _; isplitr
            swap; · iexact HS1
            ipureintro; exact View.read_writes_of_cover _ _ _ _ _ (covD1 V a hT c t hr hd p0 p1 p2)
          unfold owns; iexists _; isplitr
          swap; · iexact HS2
          ipureintro; exact View.read_writes_of_cover _ _ _ _ _ (covD2 V a hT c t hr hd p0 p1 p2)
        iexact Hg
      isplitl [HT0]; · iexact HT0
      iexact HT1
    isplitl [Ho]; · iexact Ho
    isplitl [H0]; · iexact H0
    isplitl [H1]; · iexact H1
    isplitl [H2]; · iexact H2
    iexists _; iexact H3

/-! ## The body obligation -/

set_option maxHeartbeats 2000000 in
/-- The body at any point: the inputs' buffers hold their blocks; the tables put the point in its case; that case's
    run applies, handed the scratch at what the point before left (at anything before the first point) and giving
    it back at what this point leaves. -/
theorem sound_body1 (c : Dev nD) (t : Fin (cfg1 a).N) :
    bodyPre1 V a hT c t ⊢ wp frame (wpE (defs₀ (F := F)) Variants.none c none) Set.univ (bodyAt1 a t) (fun _ => bodyPost1 V a hT c t) := by
  unfold bodyPre1 bodyPost1
  simp only [before1_0, before1_1, before1_2]
  rw [show (dat1 V a hT c).owesAt () t.succ = (dat1 V a hT c).owesAt () t.castSucc from rfl]
  rw [show (dat1 V a hT c).Φ t.succ = PhiS1 V a hT c (t.val + 1) t.isLt from rfl, PhiS1_succ]
  rw [leaves1_0, leaves1_1, leaves1_2]
  by_cases hr : isReset t.val
  · by_cases hd : isDiag t.val
    · rw [leaves1_3_live V a hT c t hd, outsAt1_A V a hT c t hr hd]; unfold outA; dsimp only
      by_cases hz : t.val = 0
      · rw [PhiS1_castSucc V a hT c t, PhiS1_zero V a hT c _ _ hz, PhiA1_eq]
        exact sound_A_any V a hT c t hr hd
      · rw [PhiS1_castSucc V a hT c t, PhiS1_pos V a hT c _ _ hz]
        exact sound_A V a hT c t hr hd _ _ _
    · rw [leaves1_3_idle V a hT c t hd, outsAt1_B V a hT c t hr hd]; unfold outB; dsimp only
      have hz : t.val ≠ 0 := fun h => hd (Or.inl (by rw [h]))
      rw [PhiS1_castSucc V a hT c t, PhiS1_pos V a hT c _ _ hz]
      exact sound_B V a hT c t hr hd _ _ _
  · have hz : t.val ≠ 0 := fun h => hr (Or.inl (by rw [h]))
    by_cases hd : isDiag t.val
    · rw [leaves1_3_live V a hT c t hd, outsAt1_C V a hT c t hr hd]; unfold outC; dsimp only
      rw [PhiS1_castSucc V a hT c t, PhiS1_pos V a hT c _ _ hz]
      exact sound_C V a hT c t hr hd _ _ _
    · rw [leaves1_3_idle V a hT c t hd, outsAt1_D V a hT c t hr hd]; unfold outD; dsimp only
      rw [PhiS1_castSucc V a hT c t, PhiS1_pos V a hT c _ _ hz]
      exact sound_D V a hT c t hr hd _ _ _

/-- The library's body obligation, at every point. -/
theorem body_obligation1 (c : Dev nD) : BodyObligation (dat1 (F := F) V a hT c) (defs₀ (F := F)) Variants.none () Set.univ := fun t => by
  rw [bigSep_W1, bigSep_W1]
  exact sound_body1 V a hT c t

/-! ## Into the invariant and out of it -/

/-- What the region hands the kernel — the class invariant and the two tables — is the invariant before the first point. -/
theorem hin1 (c : Dev nD) :
    iprop(Pipeline.ΦA spec1 c ∗ Pipeline.prefHeld (Ix := Unit) (Name := ℕ) (U := UR sig nD τ) (Lvl := ℕ) pre1 c (fun _ => fullShare) a.1) ⊢ (dat1 V a hT c).Φ 0 := by
  rw [show (dat1 V a hT c).Φ 0 = PhiS1 V a hT c 0 (Nat.zero_le _) from rfl, PhiS1_zero V a hT c 0 _ rfl, PhiT1_eq]
  try exact Idealize.SL.BI.Entails.refl _

/-- After the last point the invariant gives both back: the scratch's contents are forgotten. -/
theorem hout1 (c : Dev nD) :
    (dat1 V a hT c).Φ (Fin.last (cfg1 a).N) ⊢ iprop(Pipeline.ΦA spec1 c ∗ Pipeline.prefHeld (Ix := Unit) (Name := ℕ) (U := UR sig nD τ) (Lvl := ℕ) pre1 c (fun _ => fullShare) a.1) := by
  have hne : (Fin.last (cfg1 a).N).val ≠ 0 := by rw [Fin.val_last, hT.n40]; decide
  rw [show (dat1 V a hT c).Φ (Fin.last (cfg1 a).N) = PhiS1 V a hT c (Fin.last (cfg1 a).N).val (Nat.le_of_lt_succ (Fin.last (cfg1 a).N).isLt) from rfl,
    PhiS1_pos V a hT c _ _ hne, PhiA1_eq, PhiT1_eq]
  iintro ⟨⟨⟨R1, R2, R3, R4, R5, HS0, HS1, HS2⟩, Hg⟩, HT0, HT1⟩
  isplitl [R1 R2 R3 R4 R5 HS0 HS1 HS2 Hg]
  · isplitl [R1 R2 R3 R4 R5 HS0 HS1 HS2]
    · isplitl [R1]; · iexact R1
      isplitl [R2]; · iexact R2
      isplitl [R3]; · iexact R3
      isplitl [R4]; · iexact R4
      isplitl [R5]; · iexact R5
      isplitl [HS0]; · iexists _; iexact HS0
      isplitl [HS1]; · iexists _; iexact HS1
      iexists _; iexact HS2
    iexact Hg
  isplitl [HT0]; · iexact HT0
  iexact HT1

end Cert.KernelIdeal.Hand

end
-- ==== Proof.Run.lean ====
/-
  The whole program's run: @main as host operations, the projection region, a reshape, the attention region, over
  the buffer contents at each boundary; every weakly fair execution terminates and every unscoped buffer ends
  holding the last boundary's contents. From that: the arguments end as launched, and the result array holds
  what the attention region's write-backs leave.

  The attention region reads ONE array through three windows (query, key and value blocks of the projected
  array), so the array's full share is dealt among them at entry — a half, a quarter, a quarter — and joined
  again at exit; its two index tables pass through the region's invariant whole.
-/
import proofs.«418573_j77876347011327_3_alg».proof.Proof.RunBase
import proofs.«418573_j77876347011327_3_alg».proof.Proof.Region1
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One array behind three windows -/

theorem arrImage1 : Finset.univ.image (Pipeline.arrRef spec1) = ({main_v5, main_v6} : Finset (Ref sig .tc)) := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5) ↦{fullShare} V main_v5) ∗ (((c : Thread nD τ).loc main_v6) ↦{fullShare} V main_v6)) := by
  unfold Pipeline.arrBufs
  rw [arrImage1, bigSep_insert (by decide), bigSep_singleton]
  rfl

/-- One whole buffer dealt into a half and two quarters, and joined again. -/
theorem deal3 (ℓ : Loc nD τ sig) (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  refine (pointsTo_share (PosShare.mem_left_op_right fullShare)).trans ?_
  exact ⟨sep_mono .rfl (pointsTo_share (PosShare.mem_left_op_right fullShare.right)).1,
    sep_mono .rfl (pointsTo_share (PosShare.mem_left_op_right fullShare.right)).2⟩

/-- A core's unscoped buffers: the two arrays the attention region's windows read and write, its two tables, the rest. -/
theorem unscoped1_eq (c : Dev nD) (V : (b : Ref sig .tc) → Buf (Elt F) ((c : Thread nD τ).loc b)) :
    (unscopedBufs c V : sProp 𝕄)
      = iprop(iprop((((c : Thread nD τ).loc main_v5) ↦{fullShare} V main_v5) ∗ (((c : Thread nD τ).loc main_v6) ↦{fullShare} V main_v6))
          ∗ Pipeline.prefHeld (Ix := Unit) (Name := ℕ) (U := UR sig nD τ) (Lvl := ℕ) pre1 c (fun _ => fullShare) (fun k => V (pre1.ref k))
          ∗ Pipeline.unscopedRestP (Ix := Unit) (Name := ℕ) (U := UR sig nD τ) (Lvl := ℕ) pre1 spec1 c V) := by
  classical
  have hA : Finset.univ.image (Pipeline.arrRef spec1) ⊆ Finset.univ.filter fun b : Ref sig .tc => ¬ b.isScoped := by decide
  rw [← arrBufs1_eq, ← Pipeline.unscopedRest_split preFacts1 c V]
  unfold unscopedBufs Pipeline.unscopedRest Pipeline.arrBufs
  rw [bigSep_sdiff_split hA]
  rfl

variable (m : (ℓ : Loc nD τ sig) → Buf (Elt F) ℓ) (ρ : Dev nD → PrngReg)
variable (hT : TblFacts (F := F) (adm 1))

/-! ## The attention region's proof data, and the last boundary -/

/-- Region 1's proof data at its entry contents. -/
abbrev D1 (c : Dev nD) : Dat τ (Elt F) Unit ℕ (UR sig nD τ) ℕ (cfg1 (adm (F := F) 1)) c := dat1 (V3 m ρ) (adm 1) hT c

/-- The windows' arrays as the proof data's `arrays`: the projected array at a half and two quarters, the result
    array whole. -/
theorem arrays1_eq (c : Dev nD) (Fn : (w : Fin (cfg1 (adm (F := F) 1)).W) → Buf (Elt F) (((cfg1 (adm (F := F) 1)).win w).arr.view.loc (c : Thread nD τ))) :
    ((D1 m ρ hT c).arrays Fn : sProp 𝕄)
      = iprop((((c : Thread nD τ).loc main_v5) ↦{fullShare.left} Fn 0) ∗ (((c : Thread nD τ).loc main_v5) ↦{fullShare.right.left} Fn 1)
          ∗ (((c : Thread nD τ).loc main_v5) ↦{fullShare.right.right} Fn 2) ∗ (((c : Thread nD τ).loc main_v6) ↦{fullShare} Fn 3)) := by
  unfold Dat.arrays
  rw [bigSep_W1]
  rw [(arr_whole1 0).set_eq_univ, (arr_whole1 3).set_eq_univ]
  rfl

/-- The buffers after the attention region: the result array at what the write-backs leave, every other as entered. -/
def W4 (c : Dev nD) : Valuation τ sig (Elt F) :=
  Function.update (W3 m ρ c) (Proc.devRef .tc main_v6) ((D1 m ρ hT c).arrAt 3 (cfg1 (adm (F := F) 1)).N)
theorem W4_v6 (c : Dev nD) : W4 m ρ hT c (Proc.devRef .tc main_v6) = (D1 m ρ hT c).arrAt 3 (cfg1 (adm (F := F) 1)).N := by
  unfold W4; exact Function.update_self ..
theorem W4_of_ne (c : Dev nD) (b : Ref sig .tc) (hb : b ≠ main_v6) : W4 m ρ hT c (Proc.devRef .tc b) = W3 m ρ c (Proc.devRef .tc b) := by
  unfold W4; exact Function.update_of_ne (StableHlo.devRef_ne_of_ne hb) ..
abbrev V4 (c : Dev nD) (b : Ref sig .tc) : Buf (Elt F) ((c : Thread nD τ).loc b) := W4 m ρ hT c b

theorem W4_main_arg0 (c : Dev nD) : W4 m ρ hT c (Proc.devRef .tc main_arg0) = m ((c : Thread nD τ).loc main_arg0) :=
  (W4_of_ne m ρ hT c main_arg0 (by decide)).trans (W3_main_arg0 m ρ c)
theorem W4_main_arg1 (c : Dev nD) : W4 m ρ hT c (Proc.devRef .tc main_arg1) = m ((c : Thread nD τ).loc main_arg1) :=
  (W4_of_ne m ρ hT c main_arg1 (by decide)).trans (W3_main_arg1 m ρ c)
theorem W4_main_arg2 (c : Dev nD) : W4 m ρ hT c (Proc.devRef .tc main_arg2) = m ((c : Thread nD τ).loc main_arg2) :=
  (W4_of_ne m ρ hT c main_arg2 (by decide)).trans (W3_main_arg2 m ρ c)
theorem W4_main_arg3 (c : Dev nD) : W4 m ρ hT c (Proc.devRef .tc main_arg3) = m ((c : Thread nD τ).loc main_arg3) :=
  (W4_of_ne m ρ hT c main_arg3 (by decide)).trans (W3_main_arg3 m ρ c)

/-- The last thread state without the `owes`. -/
abbrev Tₙ (c : Dev nD) : sProp 𝕄 := iprop(StableHlo.held (c : Thread nD τ) (Pipeline.ucRefs τ sig) (W4 m ρ hT c) ∗ ∃ r, prngReg c r)

/-! ## The attention region as a segment -/

-- library lemmas stated over `pin pcs a p` unify with the pinned configuration only when unification may unfold
-- plain definitions in a metavariable's type
set_option backward.isDefEq.respectTransparency.types false in
set_option maxHeartbeats 2000000 in
/-- Region 1 over the thread state: entered from every unscoped buffer at `W3`, left at `W4`. The projected array's
    full share is dealt among the three input windows and joined again; the two tables go through the invariant
    whole; the generator register into the invariant and out; nothing owed; no semaphore of the kernel's own. -/
def reg1 : Pipeline.RegionSeg (pcfgs (F := F)) adm (pdats m ρ (D1 m ρ hT)) () defs₀ 𝒱₀ L lv 1 where
  win := winFacts₀1
  block_pos := block_pos1
  stage_whole := stage_whole1
  K := PEmpty
  osem k := k.elim
  ho := Pipeline.OwnSemFacts.none _
  hbody c := (body_obligation1 (V3 m ρ) (adm 1) hT c).loose
  hwaits := Pipeline.hwaits_of_owed_zero _ _ _ _ L lv 1 fun _ _ => rfl
  pre c := iprop(StableHlo.held (c : Thread nD τ) (Pipeline.ucRefs τ sig) (W3 m ρ c) ∗ R c)
  post c := iprop(iprop(StableHlo.held (c : Thread nD τ) (Pipeline.ucRefs τ sig) (W4 m ρ hT c) ∗ ∃ r, prngReg c r) ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (adm (F := F) 1).1)
  Z c := Pipeline.unscopedRestP (Ix := Unit) (Name := ℕ) (U := UR sig nD τ) (Lvl := ℕ) pre1 spec1 c (V3 m ρ c)
  hentry c := by
    rw [Pipeline.ownSems0_none]
    have hub : (StableHlo.held (c : Thread nD τ) (Pipeline.ucRefs τ sig) (W3 m ρ c) : sProp 𝕄) = unscopedBufs c (V3 m ρ c) :=
      (Pipeline.unscopedBufs_held c (W3 m ρ c)).symm
    have hpre : (fun k => V3 m ρ c (pre1.ref k)) = (adm (F := F) 1).1 := funext fun k => V3_pre m ρ c k
    rw [show (pdats m ρ (D1 m ρ hT) 1 c) = D1 m ρ hT c from rfl, arrays1_eq, hub, unscoped1_eq, hpre]
    iintro ⟨⟨⟨⟨H5, H6⟩, HT, HR⟩, Hp, HO⟩, -, -⟩
    ihave H := (deal3 _ _).1 $$ H5
    icases H with ⟨Ha, Hb, Hc⟩
    imodintro
    isplitl [Ha Hb Hc H6]
    · isplitl [Ha]; · iexact Ha
      isplitl [Hb]; · iexact Hb
      isplitl [Hc]; · iexact Hc
      iexact H6
    isplitl [HT]; · iexact HT
    isplitl [HO]
    · iapply (owesAt_of_owes_zero c (D1 m ρ hT c) 0 rfl rfl); iexact HO
    isplitl [Hp]; · iexact Hp
    iexact HR
  hin c := by
    rw [show (pdats m ρ (D1 m ρ hT) 1 c).Φ 0 = (D1 m ρ hT c).Φ 0 from rfl]
    refine .trans ?_ (hin1 (V3 m ρ) (adm 1) hT c)
    unfold Pipeline.ΦA
    iintro ⟨Hp, Ht, Hr⟩
    isplitl [Hr Hp]
    · isplitl [Hr]; · iexact Hr
      iexact Hp
    iexact Ht
  hout c := by
    rw [Pipeline.ownSems0_none, show (pdats m ρ (D1 m ρ hT) 1 c).Φ (Fin.last _) = (D1 m ρ hT c).Φ (Fin.last _) from rfl]
    refine (hout1 (V3 m ρ) (adm 1) hT c).trans ?_
    unfold Pipeline.ΦA
    iintro ⟨⟨Hr, Hp⟩, Ht⟩
    isplitl [Hp Ht]
    · isplitl [Hp]; · iexact Hp
      iexact Ht
    isplitr; · iempintro
    iexact Hr
  hexit c := by
    have hub : (StableHlo.held (c : Thread nD τ) (Pipeline.ucRefs τ sig) (W4 m ρ hT c) : sProp 𝕄) = unscopedBufs c (V4 m ρ hT c) :=
      (Pipeline.unscopedBufs_held c (W4 m ρ hT c)).symm
    have hpre : (fun k => V4 m ρ hT c (pre1.ref k)) = (adm (F := F) 1).1 :=
      funext fun k => (W4_of_ne m ρ hT c (pre1.ref k) (by revert k; decide)).trans (V3_pre m ρ c k)
    have hrest : (Pipeline.unscopedRestP (Ix := Unit) (Name := ℕ) (U := UR sig nD τ) (Lvl := ℕ) pre1 spec1 c (V4 m ρ hT c) : sProp 𝕄)
        = Pipeline.unscopedRestP pre1 spec1 c (V3 m ρ c) := by
      unfold Pipeline.unscopedRestP
      refine bigSep_congr fun b hb => ?_
      rw [show V4 m ρ hT c b = V3 m ρ c b from W4_of_ne m ρ hT c b (fun e => by subst e; revert hb; decide)]
    rw [show (pdats m ρ (D1 m ρ hT) 1 c) = D1 m ρ hT c from rfl, arrays1_eq, hub, unscoped1_eq, hpre, hrest]
    rw [show V4 m ρ hT c main_v6 = (D1 m ρ hT c).arrAt 3 (cfg1 (adm (F := F) 1)).N from W4_v6 m ρ hT c,
      show V4 m ρ hT c main_v5 = V3 m ρ c main_v5 from W4_of_ne m ρ hT c main_v5 (by decide)]
    rw [(D1 m ρ hT c).arrAt_in 0 rfl, (D1 m ρ hT c).arrAt_in 1 rfl, (D1 m ρ hT c).arrAt_in 2 rfl]
    rw [show (D1 m ρ hT c).A 0 = V3 m ρ c main_v5 from A_eq1 (V3 m ρ) (adm 1) hT c 0,
      show (D1 m ρ hT c).A 1 = V3 m ρ c main_v5 from A_eq1 (V3 m ρ) (adm 1) hT c 1,
      show (D1 m ρ hT c).A 2 = V3 m ρ c main_v5 from A_eq1 (V3 m ρ) (adm 1) hT c 2]
    iintro ⟨⟨Ha, Hb, Hc, H6⟩, HO, ⟨Hp, HT⟩, HR⟩
    ihave H5 := (deal3 _ _).2 $$ [Ha Hb Hc]
    · isplitl [Ha]; · iexact Ha
      isplitl [Hb]; · iexact Hb
      iexact Hc
    imodintro
    isplitl [H5 H6 HT HR Hp]
    · isplitl [H5 H6 HT HR]
      · isplitl [H5 H6]
        · isplitl [H5]; · iexact H5
          iexact H6
        isplitl [HT]; · iexact HT
        iexact HR
      iexact Hp
    iapply (owes_zero_of_owesAt c (D1 m ρ hT c) (Fin.last _) rfl); iexact HO

/-! ## @main as segments, and the launch -/

/-- @main's four segments in order. -/
abbrev segs : List (Pipeline.Seg (pcfgs (F := F)) adm (pdats m ρ (D1 m ρ hT)) () defs₀ 𝒱₀ L lv) :=
  [ .host (hseg (hostOps0 (F := F)) hostOps0_sub hostOps0_fresh (W0 m ρ)),
    .region (reg0 m ρ (D1 m ρ hT)),
    .host (hseg (hostOps1 (F := F)) hostOps1_sub hostOps1_fresh (W2 m ρ)),
    .region (reg1 m ρ hT) ]

theorem main_run (c : Dev nD) : main (F := F) c = Pipeline.Seg.run (segs m ρ hT) := (main_chain c).trans (by chain_rfl)

set_option backward.isDefEq.respectTransparency.types false in
set_option maxHeartbeats 2000000 in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ hT c b) :=
  Pipeline.θ_run_regions_kit (pcfgs (F := F)) adm (pdats m ρ (D1 m ρ hT)) () (cellOf_inj adm) emb₁ defs₀ 𝒱₀ L lv m ρ main (segs m ρ hT)
    (fun c Q => by rw [main_run m ρ hT c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hT)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hT c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hT c) s')
      isplitl [Hh] <;> iassumption)
    (hQ := fun s h c => h c)

/-- The frame claim's post and the result array, read off the run. -/
theorem run_result : θ_run defs (onTc (τ := τ) (main (F := F))) ⟨m, fun _ => 0, ρ⟩ (fun r => ∀ c : Dev nD,
      r.2.mem ((c.tc : Thread nD τ).loc main_v6) = (D1 m ρ hT c).arrAt 3 (cfg1 (adm (F := F) 1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W4_v6 m ρ hT c),
     (h c _ (mem_uc main_arg0 (by decide))).trans (W4_main_arg0 m ρ hT c),
     (h c _ (mem_uc main_arg1 (by decide))).trans (W4_main_arg1 m ρ hT c),
     (h c _ (mem_uc main_arg2 (by decide))).trans (W4_main_arg2 m ρ hT c),
     (h c _ (mem_uc main_arg3 (by decide))).trans (W4_main_arg3 m ρ hT c)⟩) (run_all m ρ hT)

include hT in
/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ hT)

end Cert.KernelIdeal.Hand

end
-- ==== Proof.TblIdeal.lean ====
/-
  The attention region at the literal index tables, at the ideal instance: every grid point's case, its batch, its
  query block and its key block; which block of its array each window stages there; and how the pairs follow one
  another inside a query block's run (same batch, same query block, the next key block).
-/
import proofs.«418573_j77876347011327_3_alg».proof.Proof.RunBase
import proofs.«418573_j77876347011327_3_alg».proof.Proof.Region1Cases
import Idealize.ShloMosaic.PureOps.Ideal

set_option maxRecDepth 16384

noncomputable section

namespace Cert.KernelIdeal.HandValue

open Cert.KernelIdeal Cert.KernelIdeal.Gen Cert.KernelIdeal.Hand
open Idealize.ShloMosaic Idealize.ShloMosaic.TcCoe
open Idealize.SL Idealize.SL.Sem

/-- The pipeline's admissible table contents at the ideal instance: the two literal tables. -/
abbrev aI : (pcfg1 (F := Ideal)).Adm := adm (F := Ideal) 1

set_option maxHeartbeats 4000000 in
/-- At the literal tables every point is in the case its position says, and the output window is idle off the
    diagonal and written back on it. -/
theorem tblFacts : TblFacts (F := Ideal) aI where
  reset := (by decide +kernel : ∀ (c : Dev nD) (t : Fin grid1.N), cReset (wordK (F := Ideal) c (grid1.coords t) (tblLit 1)) ↔ isReset t.val)
  diag := (by decide +kernel : ∀ (c : Dev nD) (t : Fin grid1.N), cDiag (wordQ (F := Ideal) c (grid1.coords t) (tblLit 0)) (wordK (F := Ideal) c (grid1.coords t) (tblLit 1)) ↔ isDiag t.val)
  off := (by decide +kernel : ∀ (c : Dev nD) (t : Fin grid1.N), cOff (wordQ (F := Ideal) c (grid1.coords t) (tblLit 0)) (wordK (F := Ideal) c (grid1.coords t) (tblLit 1)) ↔ ¬ isDiag t.val)
  fin := (by decide +kernel : ∀ (c : Dev nD) (t : Fin grid1.N), cFin (wordQ (F := Ideal) c (grid1.coords t) (tblLit 0)) (wordK (F := Ideal) c (grid1.coords t) (tblLit 1)) ↔ isDiag t.val)
  idle3 := (by decide +kernel : ∀ t : Fin grid1.N, (cfg1 (F := Ideal) aI).idle 3 (grid1.coords t) = true ↔ ¬ isDiag t.val)
  flush3 := (by decide +kernel : ∀ t : Fin grid1.N, ((cfg1 (F := Ideal) aI).win 3).flush t = true ↔ isDiag t.val)
  n40 := N_1

/-- The batch, the query block and the key block of position `n`. -/
def bOf (n : ℕ) : ℕ := n / 10
def qiOf (n : ℕ) : ℕ := match n % 10 with | 0 => 0 | 1 => 1 | 2 => 1 | 3 => 2 | 4 => 2 | 5 => 2 | _ => 3
def kiOf (n : ℕ) : ℕ := match n % 10 with | 0 => 0 | 1 => 0 | 2 => 1 | 3 => 0 | 4 => 1 | 5 => 2 | 6 => 0 | 7 => 1 | 8 => 2 | _ => 3

/-- The same as elements of `Fin 4`, total in the position. -/
def bF (n : ℕ) : Fin 4 := ⟨bOf n % 4, Nat.mod_lt _ (by decide)⟩
theorem qiOf_lt (n : ℕ) : qiOf n < 4 := by unfold qiOf; split <;> decide
theorem kiOf_lt (n : ℕ) : kiOf n < 4 := by unfold kiOf; split <;> decide

def qF (n : ℕ) : Fin 4 := ⟨qiOf n, qiOf_lt n⟩
def kF (n : ℕ) : Fin 4 := ⟨kiOf n, kiOf_lt n⟩
theorem bF_val : ∀ n : Fin 40, (bF n.val).val = bOf n.val := by decide
theorem qF_val (n : ℕ) : (qF n).val = qiOf n := rfl
theorem kF_val (n : ℕ) : (kF n).val = kiOf n := rfl

/-- How the positions follow one another, decided over the 40 of them. -/
theorem reset_iff : ∀ n : Fin 40, isReset n.val ↔ kiOf n.val = 0 := by decide
theorem diag_iff : ∀ n : Fin 40, isDiag n.val ↔ kiOf n.val = qiOf n.val := by decide
theorem off_lt : ∀ n : Fin 40, ¬ isDiag n.val → kiOf n.val < qiOf n.val := by decide
theorem step_of_not_reset : ∀ n : Fin 40, ¬ isReset n.val →
    n.val ≠ 0 ∧ bOf (n.val - 1) = bOf n.val ∧ qiOf (n.val - 1) = qiOf n.val ∧ kiOf n.val = kiOf (n.val - 1) + 1 := by decide
theorem bOf_lt : ∀ n : Fin 40, bOf n.val < 4 := by decide

set_option maxHeartbeats 4000000 in
/-- The two words the body reads at a point are its query block and its key block. -/
theorem wordQ_eq : ∀ (c : Dev nD) (t : Fin grid1.N), wordQ (F := Ideal) c (grid1.coords t) (tblLit 0) = BitVec.ofNat 32 (qiOf t.val) := by decide +kernel
set_option maxHeartbeats 4000000 in
theorem wordK_eq : ∀ (c : Dev nD) (t : Fin grid1.N), wordK (F := Ideal) c (grid1.coords t) (tblLit 1) = BitVec.ofNat 32 (kiOf t.val) := by decide +kernel

set_option maxHeartbeats 4000000 in
/-- Which block of its array each window stages at a point: (query part, batch, query block), (key part, batch, key
    block), (value part, batch, key block), and for the output (batch, query block). -/
theorem index0 : ∀ t : Fin grid1.N, ((cfg1 (F := Ideal) aI).win 0).index t = ![0, bOf t.val, qiOf t.val, 0] := by decide +kernel
set_option maxHeartbeats 4000000 in
theorem index1 : ∀ t : Fin grid1.N, ((cfg1 (F := Ideal) aI).win 1).index t = ![1, bOf t.val, kiOf t.val, 0] := by decide +kernel
set_option maxHeartbeats 4000000 in
theorem index2 : ∀ t : Fin grid1.N, ((cfg1 (F := Ideal) aI).win 2).index t = ![2, bOf t.val, kiOf t.val, 0] := by decide +kernel
set_option maxHeartbeats 4000000 in
theorem index3 : ∀ t : Fin grid1.N, ((cfg1 (F := Ideal) aI).win 3).index t = ![bOf t.val, qiOf t.val, 0] := by decide +kernel

end Cert.KernelIdeal.HandValue

end
-- ==== Proof.Spec.lean ====
/-
  Causal softmax attention with fused projections, as one function of the four argument arrays over the
  extended reals.

  For a batch b, a query position q and a key position s, with x the input [4, 2048, 1024] and Wq, Wk, Wv the
  three weight matrices [1024, 1024] (rows indexed by the output feature, as a linear layer stores them):
    proj x W b s k   = ∑ e, x b s e · W k e                         (a projection)
    logit b q s      = (∑ k, proj x Wq b q k · proj x Wk b s k) · 1/32   (1/32 = 1/√1024)
    mlogit b q s     = logit b q s for s ≤ q, and ⊥ (minus infinity) for s > q  (the causal mask)
    rmax b q         = the maximum over s of mlogit b q s
    wgt b q s        = e^(mlogit b q s − rmax b q)
    den b q          = ∑ s, wgt b q s
    attn b q f       = ∑ s, (wgt b q s / den b q) · proj x Wv b s f.
  A streaming evaluation keeps, over a set S of key positions already seen, the running maximum, the sum of
  weights and the weighted sum of values against that maximum (`runMax`, `runSum`, `runAcc`); over the set of
  all positions s ≤ q their quotient is `attn` when the inputs are real numbers.
-/
import Idealize.ShloMosaic.PureOps.Ideal

noncomputable section

open scoped BigOperators

namespace Cert.Spec

open Idealize.ShloMosaic

/-- The input, by batch, position and feature. -/
abbrev Inp : Type := Fin 4 → Fin 2048 → Fin 1024 → EReal
/-- A weight matrix, by output feature and input feature. -/
abbrev Wgt : Type := Fin 1024 → Fin 1024 → EReal

/-- A projection: position s of batch b against row k of the weight matrix. -/
def proj (x : Inp) (W : Wgt) (b : Fin 4) (s : Fin 2048) (k : Fin 1024) : EReal :=
  ∑ e : Fin 1024, x b s e * W k e

/-- The scaled score of query q against key s. -/
def logit (x : Inp) (Wq Wk : Wgt) (b : Fin 4) (q s : Fin 2048) : EReal :=
  (∑ k : Fin 1024, proj x Wq b q k * proj x Wk b s k) * ((1 / 32 : ℝ) : EReal)

/-- The score under the causal mask: minus infinity at keys after the query. -/
def mlogit (x : Inp) (Wq Wk : Wgt) (b : Fin 4) (q s : Fin 2048) : EReal :=
  if s.val ≤ q.val then logit x Wq Wk b q s else ⊥

/-- The row maximum of the masked scores. -/
def rmax (x : Inp) (Wq Wk : Wgt) (b : Fin 4) (q : Fin 2048) : EReal :=
  Finset.univ.sup fun s : Fin 2048 => mlogit x Wq Wk b q s

/-- The softmax numerator at key s. -/
def wgt (x : Inp) (Wq Wk : Wgt) (b : Fin 4) (q s : Fin 2048) : EReal :=
  Ideal.exp (mlogit x Wq Wk b q s - rmax x Wq Wk b q)

/-- The softmax denominator. -/
def den (x : Inp) (Wq Wk : Wgt) (b : Fin 4) (q : Fin 2048) : EReal :=
  ∑ s : Fin 2048, wgt x Wq Wk b q s

/-- Causal softmax attention. -/
def attn (x : Inp) (Wq Wk Wv : Wgt) (b : Fin 4) (q : Fin 2048) (f : Fin 1024) : EReal :=
  ∑ s : Fin 2048, Ideal.div (wgt x Wq Wk b q s) (den x Wq Wk b q) * proj x Wv b s f

/-- The keys a query may attend to. -/
def allowed (q : Fin 2048) : Finset (Fin 2048) := Finset.univ.filter fun s => s.val ≤ q.val

/-- The running maximum over the keys in S. -/
def runMax (x : Inp) (Wq Wk : Wgt) (b : Fin 4) (q : Fin 2048) (S : Finset (Fin 2048)) : EReal :=
  S.sup fun s => logit x Wq Wk b q s

/-- The running sum of weights over the keys in S, against the running maximum. -/
def runSum (x : Inp) (Wq Wk : Wgt) (b : Fin 4) (q : Fin 2048) (S : Finset (Fin 2048)) : EReal :=
  ∑ s ∈ S, Ideal.exp (logit x Wq Wk b q s - runMax x Wq Wk b q S)

/-- The running weighted sum of values over the keys in S, against the running maximum. -/
def runAcc (x : Inp) (Wq Wk Wv : Wgt) (b : Fin 4) (q : Fin 2048) (S : Finset (Fin 2048)) (f : Fin 1024) : EReal :=
  ∑ s ∈ S, Ideal.exp (logit x Wq Wk b q s - runMax x Wq Wk b q S) * proj x Wv b s f

/-- Every entry of the four arrays is a real number. -/
def Finite (x : Inp) (Wq Wk Wv : Wgt) : Prop :=
  (∀ b s e, ∃ r : ℝ, x b s e = (r : EReal)) ∧ (∀ k e, ∃ r : ℝ, Wq k e = (r : EReal))
    ∧ (∀ k e, ∃ r : ℝ, Wk k e = (r : EReal)) ∧ (∀ k e, ∃ r : ℝ, Wv k e = (r : EReal))

end Cert.Spec

end
-- ==== Proof.TileSum.lean ====
/-
  Positions 0 … 2047 cut into 4 tiles of 512.

  Position r of tile i is the position i · 512 + r. The map r ↦ i · 512 + r is an injection of the 512
  offsets onto tile i, so a sum (or a maximum) over the offsets of a tile is the sum (or maximum) over the
  tile as a set of positions; with the causal condition s ≤ q inside the sum, it is the sum over the part of
  the tile at or before q. The keys of tiles 0 … ki at or before q grow tile by tile by disjoint parts; a tile
  strictly below the query's tile is wholly at or before the query; and once the query's own tile has been
  taken in, the keys seen are exactly the keys the query may attend to.
-/
import proofs.«418573_j77876347011327_3_alg».proof.Proof.Spec
import Mathlib.Algebra.BigOperators.Group.Finset.Basic
import Mathlib.Data.Finset.Lattice.Fold
import Mathlib.Data.EReal.Basic

open scoped BigOperators

namespace Cert.Tile

/-- Position r of tile i. -/
def row (i : Fin 4) (r : Fin 512) : Fin 2048 := ⟨i.val * 512 + r.val, by omega⟩

/-- The positions of tile i. -/
def tile (i : Fin 4) : Finset (Fin 2048) :=
  Finset.univ.filter fun s => i.val * 512 ≤ s.val ∧ s.val < (i.val + 1) * 512

/-- The keys of tiles 0 … ki that the query q may attend to. -/
def seen (ki : Fin 4) (q : Fin 2048) : Finset (Fin 2048) :=
  Finset.univ.filter fun s => s.val < (ki.val + 1) * 512 ∧ s.val ≤ q.val

/-- The keys of tile ki that the query q may attend to. -/
def part (ki : Fin 4) (q : Fin 2048) : Finset (Fin 2048) :=
  (tile ki).filter fun s => s.val ≤ q.val

theorem row_val (i : Fin 4) (r : Fin 512) : (row i r).val = i.val * 512 + r.val := rfl

theorem row_le_row (i : Fin 4) (j r : Fin 512) : (row i j).val ≤ (row i r).val ↔ j.val ≤ r.val := by
  simp only [row_val]
  omega

/-- Distinct offsets of a tile are distinct positions. -/
theorem row_injective (i : Fin 4) : Function.Injective (row i) := by
  intro a b h
  have h' : (row i a).val = (row i b).val := congrArg Fin.val h
  simp only [row_val] at h'
  exact Fin.ext (by omega)

theorem mem_tile (i : Fin 4) (s : Fin 2048) :
    s ∈ tile i ↔ i.val * 512 ≤ s.val ∧ s.val < (i.val + 1) * 512 := by
  simp only [tile, Finset.mem_filter, Finset.mem_univ, true_and]

theorem mem_part (i : Fin 4) (q s : Fin 2048) :
    s ∈ part i q ↔ (i.val * 512 ≤ s.val ∧ s.val < (i.val + 1) * 512) ∧ s.val ≤ q.val := by
  simp only [part, Finset.mem_filter, mem_tile]

theorem mem_seen (ki : Fin 4) (q s : Fin 2048) :
    s ∈ seen ki q ↔ s.val < (ki.val + 1) * 512 ∧ s.val ≤ q.val := by
  simp only [seen, Finset.mem_filter, Finset.mem_univ, true_and]

theorem mem_allowed (q s : Fin 2048) : s ∈ Cert.Spec.allowed q ↔ s.val ≤ q.val := by
  unfold Cert.Spec.allowed
  exact Finset.mem_filter.trans (and_iff_right (Finset.mem_univ s))

/-- Tile i is the set of positions of its 512 offsets. -/
theorem tile_eq_image (i : Fin 4) : tile i = Finset.univ.image (row i) := by
  ext s
  simp only [mem_tile, Finset.mem_image, Finset.mem_univ, true_and]
  constructor
  · rintro ⟨h1, h2⟩
    refine ⟨⟨s.val - i.val * 512, by omega⟩, Fin.ext ?_⟩
    simp only [row_val]
    omega
  · rintro ⟨r, rfl⟩
    simp only [row_val]
    constructor <;> omega

theorem sum_tile {M : Type*} [AddCommMonoid M] (i : Fin 4) (g : Fin 2048 → M) :
    ∑ j : Fin 512, g (row i j) = ∑ s ∈ tile i, g s := by
  rw [tile_eq_image, Finset.sum_image (fun a _ b _ h => row_injective i h)]

theorem sup_tile (i : Fin 4) (g : Fin 2048 → EReal) :
    (Finset.univ.sup fun j : Fin 512 => g (row i j)) = (tile i).sup g := by
  rw [tile_eq_image, Finset.sup_image]
  rfl

theorem sum_part {M : Type*} [AddCommMonoid M] (i : Fin 4) (q : Fin 2048) (g : Fin 2048 → M) :
    (∑ j : Fin 512, if (row i j).val ≤ q.val then g (row i j) else 0) = ∑ s ∈ part i q, g s :=
  (sum_tile i (fun s => if s.val ≤ q.val then g s else 0)).trans (Finset.sum_filter _ _).symm

theorem sup_part (i : Fin 4) (q : Fin 2048) (g : Fin 2048 → EReal) :
    (Finset.univ.sup fun j : Fin 512 => if (row i j).val ≤ q.val then g (row i j) else ⊥)
      = (part i q).sup g := by
  refine (sup_tile i (fun s => if s.val ≤ q.val then g s else ⊥)).trans ?_
  rw [Finset.sup_ite, Finset.sup_bot, sup_bot_eq]
  rfl

/-- A tile below the query's tile is wholly allowed. -/
theorem part_off (ki qi : Fin 4) (h : ki.val < qi.val) (r : Fin 512) : part ki (row qi r) = tile ki := by
  ext s
  simp only [mem_part, mem_tile, row_val]
  omega

/-- A tile at or below the query's tile has an allowed key: its first position. -/
theorem part_nonempty (ki qi : Fin 4) (h : ki.val ≤ qi.val) (r : Fin 512) :
    (part ki (row qi r)).Nonempty := by
  refine ⟨row ki ⟨0, by omega⟩, ?_⟩
  simp only [mem_part, row_val]
  omega

theorem seen_zero (q : Fin 2048) : seen 0 q = part 0 q := by
  ext s
  simp only [mem_seen, mem_part, Fin.val_zero]
  omega

theorem seen_succ (ki : Fin 4) (h : ki.val + 1 < 4) (q : Fin 2048) :
    seen ⟨ki.val + 1, h⟩ q = seen ki q ∪ part ⟨ki.val + 1, h⟩ q := by
  ext s
  simp only [mem_seen, mem_part, Finset.mem_union]
  omega

theorem seen_disjoint (ki : Fin 4) (h : ki.val + 1 < 4) (q : Fin 2048) :
    Disjoint (seen ki q) (part ⟨ki.val + 1, h⟩ q) := by
  refine Finset.disjoint_left.mpr ?_
  intro s hs ht
  simp only [mem_seen] at hs
  simp only [mem_part] at ht
  omega

/-- After the query's own tile every allowed key has been seen. -/
theorem seen_diag (qi : Fin 4) (r : Fin 512) : seen qi (row qi r) = Cert.Spec.allowed (row qi r) := by
  ext s
  simp only [mem_seen, mem_allowed, row_val]
  omega

theorem empty_union' (S : Finset (Fin 2048)) : (∅ : Finset (Fin 2048)) ∪ S = S :=
  Finset.empty_union S

theorem disjoint_empty' (S : Finset (Fin 2048)) : Disjoint (∅ : Finset (Fin 2048)) S :=
  Finset.disjoint_empty_left S

end Cert.Tile
-- ==== Proof.Region1Blocks.lean ====
import proofs.«418573_j77876347011327_3_alg».proof.Proof.Region1
import proofs.«418573_j77876347011327_3_alg».proof.Proof.TblIdeal
import proofs.«418573_j77876347011327_3_alg».proof.Proof.TileSum
import Idealize.ShloMosaic.Lib.Pipeline.Value
import Idealize.ShloMosaic.Lib.ValueIdx
import Idealize.ShloMosaic.Lib.ValueLayout

/-!
# Region 1: from blocks to whole arrays

The attention kernel runs on 40 grid points; point `t` is batch `t / 10` and the pair (query block, key block)
that `t % 10` names in the order (0,0) (1,0) (1,1) (2,0) (2,1) (2,2) (3,0) (3,1) (3,2) (3,3).

The three input windows read blocks of 512 rows by 1024 columns of the ONE array holding the query, key and value
parts: at point `t` the query block is rows `qi · 512 + r` of part 0 of batch `b`, the key block rows
`ki · 512 + j` of part 1, the value block rows `ki · 512 + j` of part 2. A block's coordinate on an axis is the
block index times the block's size plus the coordinate inside the block, so an entry of a block is the entry of
the array at `(part, b, tile · 512 + row, column)`.

The output window writes its block `(b, qi, 0)` back exactly at the diagonal points `ki = qi`. Entry `(b, q, f)`
of the result lies in the block of the diagonal point `10 · b + d (q / 512)` with `d 0 = 0`, `d 1 = 2`, `d 2 = 5`,
`d 3 = 9`: the ten-point run of a batch meets each query block's diagonal once, and the 16 diagonal blocks tile
the result. Hence, if every diagonal point leaves in the output's buffer its block of ONE function `G` of the
result's indices, the result array after the region is `G`.
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Tile

-- the buffer contents when the region is entered
variable (V : (c : Dev nD) → (b : Ref sig .tc) → Buf (Elt Ideal) ((c : Thread nD τ).loc b))

/-! ## The input blocks as parts of the array, at any admissible tables -/

section AnyTables

variable (a : (pcfg1 (F := Ideal)).Adm)

set_option maxHeartbeats 400000 in
/-- Entry `y` of window 0's block at a point whose block index is `(p, b, q, 0)` is entry
    `(p, b, q · 512 + y 2, y 3)` of the array behind the window: on every axis the array coordinate is the block
    index times the block's size plus the coordinate inside the block, and the two leading axes of the block have
    size one. -/
theorem blk0_entry (c : Dev nD) (t : Fin (cfg1 a).N) (p b q : ℕ)
    (hidx : ((cfg1 a).win 0).index t = ![p, b, q, 0])
    (y : S1x1x512x1024.Idx) (i : S3x4x2048x1024.Idx)
    (h0 : (i 0).val = p) (h1 : (i 1).val = b) (h2 : (i 2).val = q * 512 + (y 2).val) (h3 : (i 3).val = (y 3).val) :
    (iblk1 V a c 0 t : S1x1x512x1024.Idx → EReal) y = (V c main_v5 : S3x4x2048x1024.Idx → EReal) i := by
  have e0 : ((cfg1 a).win 0).index t (0 : Fin 4) = p := congrFun hidx (0 : Fin 4)
  have e1 : ((cfg1 a).win 0).index t (1 : Fin 4) = b := congrFun hidx (1 : Fin 4)
  have e2 : ((cfg1 a).win 0).index t (2 : Fin 4) = q := congrFun hidx (2 : Fin 4)
  have e3 : ((cfg1 a).win 0).index t (3 : Fin 4) = 0 := congrFun hidx (3 : Fin 4)
  have y0 : (y 0).val < 1 := (y 0).isLt
  have y1 : (y 1).val < 1 := (y 1).isLt
  show (V c main_v5 : S3x4x2048x1024.Idx → EReal) ((((cfg1 a).win 0).blk t).view.emb y) = (V c main_v5 : S3x4x2048x1024.Idx → EReal) i
  refine congrArg (V c main_v5 : S3x4x2048x1024.Idx → EReal) (funext fun d => Fin.ext ?_)
  match d with
  | ⟨0, _⟩ => show ((cfg1 a).win 0).index t (0 : Fin 4) * 1 + 1 * (y 0).val = (i 0).val; rw [e0, h0]; omega
  | ⟨1, _⟩ => show ((cfg1 a).win 0).index t (1 : Fin 4) * 1 + 1 * (y 1).val = (i 1).val; rw [e1, h1]; omega
  | ⟨2, _⟩ => show ((cfg1 a).win 0).index t (2 : Fin 4) * 512 + 1 * (y 2).val = (i 2).val; rw [e2, h2]; omega
  | ⟨3, _⟩ => show ((cfg1 a).win 0).index t (3 : Fin 4) * 1024 + 1 * (y 3).val = (i 3).val; rw [e3, h3]; omega

set_option maxHeartbeats 400000 in
/-- Entry `y` of window 1's block at a point whose block index is `(p, b, q, 0)` is entry
    `(p, b, q · 512 + y 2, y 3)` of the array behind the window: on every axis the array coordinate is the block
    index times the block's size plus the coordinate inside the block, and the two leading axes of the block have
    size one. -/
theorem blk1_entry (c : Dev nD) (t : Fin (cfg1 a).N) (p b q : ℕ)
    (hidx : ((cfg1 a).win 1).index t = ![p, b, q, 0])
    (y : S1x1x512x1024.Idx) (i : S3x4x2048x1024.Idx)
    (h0 : (i 0).val = p) (h1 : (i 1).val = b) (h2 : (i 2).val = q * 512 + (y 2).val) (h3 : (i 3).val = (y 3).val) :
    (iblk1 V a c 1 t : S1x1x512x1024.Idx → EReal) y = (V c main_v5 : S3x4x2048x1024.Idx → EReal) i := by
  have e0 : ((cfg1 a).win 1).index t (0 : Fin 4) = p := congrFun hidx (0 : Fin 4)
  have e1 : ((cfg1 a).win 1).index t (1 : Fin 4) = b := congrFun hidx (1 : Fin 4)
  have e2 : ((cfg1 a).win 1).index t (2 : Fin 4) = q := congrFun hidx (2 : Fin 4)
  have e3 : ((cfg1 a).win 1).index t (3 : Fin 4) = 0 := congrFun hidx (3 : Fin 4)
  have y0 : (y 0).val < 1 := (y 0).isLt
  have y1 : (y 1).val < 1 := (y 1).isLt
  show (V c main_v5 : S3x4x2048x1024.Idx → EReal) ((((cfg1 a).win 1).blk t).view.emb y) = (V c main_v5 : S3x4x2048x1024.Idx → EReal) i
  refine congrArg (V c main_v5 : S3x4x2048x1024.Idx → EReal) (funext fun d => Fin.ext ?_)
  match d with
  | ⟨0, _⟩ => show ((cfg1 a).win 1).index t (0 : Fin 4) * 1 + 1 * (y 0).val = (i 0).val; rw [e0, h0]; omega
  | ⟨1, _⟩ => show ((cfg1 a).win 1).index t (1 : Fin 4) * 1 + 1 * (y 1).val = (i 1).val; rw [e1, h1]; omega
  | ⟨2, _⟩ => show ((cfg1 a).win 1).index t (2 : Fin 4) * 512 + 1 * (y 2).val = (i 2).val; rw [e2, h2]; omega
  | ⟨3, _⟩ => show ((cfg1 a).win 1).index t (3 : Fin 4) * 1024 + 1 * (y 3).val = (i 3).val; rw [e3, h3]; omega

set_option maxHeartbeats 400000 in
/-- Entry `y` of window 2's block at a point whose block index is `(p, b, q, 0)` is entry
    `(p, b, q · 512 + y 2, y 3)` of the array behind the window: on every axis the array coordinate is the block
    index times the block's size plus the coordinate inside the block, and the two leading axes of the block have
    size one. -/
theorem blk2_entry (c : Dev nD) (t : Fin (cfg1 a).N) (p b q : ℕ)
    (hidx : ((cfg1 a).win 2).index t = ![p, b, q, 0])
    (y : S1x1x512x1024.Idx) (i : S3x4x2048x1024.Idx)
    (h0 : (i 0).val = p) (h1 : (i 1).val = b) (h2 : (i 2).val = q * 512 + (y 2).val) (h3 : (i 3).val = (y 3).val) :
    (iblk1 V a c 2 t : S1x1x512x1024.Idx → EReal) y = (V c main_v5 : S3x4x2048x1024.Idx → EReal) i := by
  have e0 : ((cfg1 a).win 2).index t (0 : Fin 4) = p := congrFun hidx (0 : Fin 4)
  have e1 : ((cfg1 a).win 2).index t (1 : Fin 4) = b := congrFun hidx (1 : Fin 4)
  have e2 : ((cfg1 a).win 2).index t (2 : Fin 4) = q := congrFun hidx (2 : Fin 4)
  have e3 : ((cfg1 a).win 2).index t (3 : Fin 4) = 0 := congrFun hidx (3 : Fin 4)
  have y0 : (y 0).val < 1 := (y 0).isLt
  have y1 : (y 1).val < 1 := (y 1).isLt
  show (V c main_v5 : S3x4x2048x1024.Idx → EReal) ((((cfg1 a).win 2).blk t).view.emb y) = (V c main_v5 : S3x4x2048x1024.Idx → EReal) i
  refine congrArg (V c main_v5 : S3x4x2048x1024.Idx → EReal) (funext fun d => Fin.ext ?_)
  match d with
  | ⟨0, _⟩ => show ((cfg1 a).win 2).index t (0 : Fin 4) * 1 + 1 * (y 0).val = (i 0).val; rw [e0, h0]; omega
  | ⟨1, _⟩ => show ((cfg1 a).win 2).index t (1 : Fin 4) * 1 + 1 * (y 1).val = (i 1).val; rw [e1, h1]; omega
  | ⟨2, _⟩ => show ((cfg1 a).win 2).index t (2 : Fin 4) * 512 + 1 * (y 2).val = (i 2).val; rw [e2, h2]; omega
  | ⟨3, _⟩ => show ((cfg1 a).win 2).index t (3 : Fin 4) * 1024 + 1 * (y 3).val = (i 3).val; rw [e3, h3]; omega

/-! ## The output's blocks and the result array, at any admissible tables -/

/-- The position inside a batch's run of ten of the diagonal point of query block `k`. -/
def diagPos (k : ℕ) : ℕ := match k with | 0 => 0 | 1 => 2 | 2 => 5 | _ => 9

/-- Point `10 · b + diagPos k` is one of the 40, lies on the diagonal, and is batch `b`, query block `k`. -/
theorem diagPos_facts : ∀ b k : Fin 4, 10 * b.val + diagPos k.val < 40 ∧ isDiag (10 * b.val + diagPos k.val)
    ∧ bOf (10 * b.val + diagPos k.val) = b.val ∧ qiOf (10 * b.val + diagPos k.val) = k.val := by decide

/-- An entry of the result array is in point `t`'s block iff each coordinate is in the block's range on its axis. -/
theorem mem_out_blk1 (t : Fin (cfg1 a).N) (i : S4x2048x1024.Idx) :
    i ∈ (((cfg1 a).win 3).blk t).view.set ↔ ∀ d : Fin 3, ((cfg1 a).win 3).index t d * S1x512x1024.size d ≤ (i d).val
      ∧ (i d).val < ((cfg1 a).win 3).index t d * S1x512x1024.size d + S1x512x1024.size d := by
  have h : (((cfg1 a).win 3).blk t).view.set = (((cfg1 a).win 3).rect t).set := View.set_slice_whole main_v6 _
  exact (iff_of_eq (congrArg (fun S => i ∈ S) h)).trans Rect.mem_set_unit

set_option maxHeartbeats 400000 in
/-- Entry `(b, q, f)` of the result lies in the block of the diagonal point `10 · b + diagPos (q / 512)`, which
    writes its block back. -/
theorem out_covered1 (hT : TblFacts a) (hidx : ∀ t : Fin (cfg1 a).N, ((cfg1 a).win 3).index t = ![bOf t.val, qiOf t.val, 0])
    (i : S4x2048x1024.Idx) :
    ∃ t : Fin (cfg1 a).N, ((cfg1 a).win 3).flush t = true ∧ i ∈ (((cfg1 a).win 3).blk t).view.set := by
  have h0 : (i 0).val < 4 := (i 0).isLt
  have h1 : (i 1).val < 2048 := (i 1).isLt
  have h2 : (i 2).val < 1024 := (i 2).isLt
  obtain ⟨hlt, hd, hb, hq⟩ := diagPos_facts ⟨(i 0).val, h0⟩ ⟨(i 1).val / 512, by omega⟩
  obtain ⟨t, ht⟩ : ∃ t : Fin (cfg1 a).N, t.val = 10 * (i 0).val + diagPos ((i 1).val / 512) :=
    ⟨⟨10 * (i 0).val + diagPos ((i 1).val / 512), by rw [hT.n40]; exact hlt⟩, rfl⟩
  have e0 : ((cfg1 a).win 3).index t (0 : Fin 3) = bOf t.val := congrFun (hidx t) (0 : Fin 3)
  have e1 : ((cfg1 a).win 3).index t (1 : Fin 3) = qiOf t.val := congrFun (hidx t) (1 : Fin 3)
  have e2 : ((cfg1 a).win 3).index t (2 : Fin 3) = 0 := congrFun (hidx t) (2 : Fin 3)
  rw [ht] at e0 e1
  refine ⟨t, (hT.flush3 t).mpr (by rw [ht]; exact hd), ?_⟩
  rw [mem_out_blk1]
  intro d
  match d with
  | ⟨0, _⟩ =>
    show ((cfg1 a).win 3).index t (0 : Fin 3) * 1 ≤ (i 0).val ∧ (i 0).val < ((cfg1 a).win 3).index t (0 : Fin 3) * 1 + 1
    rw [e0, hb]; show (i 0).val * 1 ≤ (i 0).val ∧ (i 0).val < (i 0).val * 1 + 1; omega
  | ⟨1, _⟩ =>
    show ((cfg1 a).win 3).index t (1 : Fin 3) * 512 ≤ (i 1).val ∧ (i 1).val < ((cfg1 a).win 3).index t (1 : Fin 3) * 512 + 512
    rw [e1, hq]; show (i 1).val / 512 * 512 ≤ (i 1).val ∧ (i 1).val < (i 1).val / 512 * 512 + 512; omega
  | ⟨2, _⟩ =>
    show ((cfg1 a).win 3).index t (2 : Fin 3) * 1024 ≤ (i 2).val ∧ (i 2).val < ((cfg1 a).win 3).index t (2 : Fin 3) * 1024 + 1024
    rw [e2]; omega

set_option maxHeartbeats 400000 in
/-- A point whose output buffer holds, entry by entry, block `(b, qi, 0)` of `G` writes back that block of `G`:
    the window's blocks tile the array, so all of the buffer is written, and entry `(0, r, f)` of the block is
    entry `(b, qi · 512 + r, f)` of the array. -/
theorem out_flushed1 {c : Dev nD} (dat : Dat τ (Elt Ideal) Unit ℕ (UR sig nD τ) ℕ (cfg1 a) c)
    (hidx : ∀ t : Fin (cfg1 a).N, ((cfg1 a).win 3).index t = ![bOf t.val, qiOf t.val, 0])
    (G : S4x2048x1024.Idx → EReal) (t : Fin (cfg1 a).N) (hN : t.val < 40)
    (hG : ∀ (r : Fin 512) (f : Fin 1024), (dat.after 3 t : S1x512x1024.Idx → EReal) (ix3 (0 : Fin 1) r f) = G (ix3 (bF t.val) (row (qF t.val) r) f)) :
    dat.flushed 3 t = (((cfg1 a).win 3).blk t).view.read (Elt Ideal) G := by
  have e0 : ((cfg1 a).win 3).index t (0 : Fin 3) = bOf t.val := congrFun (hidx t) (0 : Fin 3)
  have e1 : ((cfg1 a).win 3).index t (1 : Fin 3) = qiOf t.val := congrFun (hidx t) (1 : Fin 3)
  have e2 : ((cfg1 a).win 3).index t (2 : Fin 3) = 0 := congrFun (hidx t) (2 : Fin 3)
  refine funext fun (y : S1x512x1024.Idx) => ?_
  have y0 : (y 0).val < 1 := (y 0).isLt
  have y1 : (y 1).val < 512 := (y 1).isLt
  have y2 : (y 2).val < 1024 := (y 2).isLt
  have hy : ((cfg1 a).win 3).xinj ((cfg1 a).grid.coords t) y = (ix3 (0 : Fin 1) (⟨(y 1).val, y1⟩ : Fin 512) (⟨(y 2).val, y2⟩ : Fin 1024) : S1x512x1024.Idx) := by
    funext d
    match d with
    | ⟨0, _⟩ => exact Fin.ext (by show (y 0).val = 0; omega)
    | ⟨1, _⟩ => rfl
    | ⟨2, _⟩ => rfl
  show (dat.after 3 t : S1x512x1024.Idx → EReal) (((cfg1 a).win 3).xinj ((cfg1 a).grid.coords t) y) = G ((((cfg1 a).win 3).blk t).view.emb y)
  rw [hy, hG]
  refine congrArg G (funext fun d => Fin.ext ?_)
  match d with
  | ⟨0, _⟩ =>
    show (bF t.val).val = ((cfg1 a).win 3).index t (0 : Fin 3) * 1 + 1 * (y 0).val
    have hb : (bF t.val).val = bOf t.val := bF_val ⟨t.val, hN⟩
    rw [e0, hb]; omega
  | ⟨1, _⟩ =>
    show (qF t.val).val * 512 + (y 1).val = ((cfg1 a).win 3).index t (1 : Fin 3) * 512 + 1 * (y 1).val
    rw [e1, qF_val]; omega
  | ⟨2, _⟩ =>
    show (y 2).val = ((cfg1 a).win 3).index t (2 : Fin 3) * 1024 + 1 * (y 2).val
    rw [e2]; omega

/-- If every diagonal point leaves in the output's buffer its block of `G`, the result array after the region is
    `G`: the diagonal points write those blocks back, and their blocks cover the array. -/
theorem arr3_of_blocks {c : Dev nD} (dat : Dat τ (Elt Ideal) Unit ℕ (UR sig nD τ) ℕ (cfg1 a) c) (hT : TblFacts a)
    (hidx : ∀ t : Fin (cfg1 a).N, ((cfg1 a).win 3).index t = ![bOf t.val, qiOf t.val, 0])
    (G : S4x2048x1024.Idx → EReal)
    (hG : ∀ t : Fin (cfg1 a).N, isDiag t.val → ∀ (r : Fin 512) (f : Fin 1024),
      (dat.after 3 t : S1x512x1024.Idx → EReal) (ix3 (0 : Fin 1) r f) = G (ix3 (bF t.val) (row (qF t.val) r) f)) :
    dat.arrAt 3 (cfg1 a).N = G :=
  dat.arrAt_eq_of_cover 3 G
    (fun t hf => out_flushed1 a dat hidx G t (lt_of_lt_of_eq t.isLt hT.n40) (hG t ((hT.flush3 t).mp hf)))
    (out_covered1 a hT hidx)

end AnyTables

/-! ## At the literal tables -/

variable (c : Dev nD)

/-- Row `r`, column `k` of the query block at point `t` is row `qi · 512 + r`, column `k` of the query part of
    batch `b`. -/
theorem qblk_apply (t : Fin (cfg1 aI).N) (r : Fin 512) (k : Fin 1024) :
    (iblk1 V aI c 0 t : S1x1x512x1024.Idx → EReal) (ix4 (0 : Fin 1) (0 : Fin 1) r k)
      = (V c main_v5 : S3x4x2048x1024.Idx → EReal) (ix4 (0 : Fin 3) (bF t.val) (row (qF t.val) r) k) :=
  blk0_entry V aI c t 0 (bOf t.val) (qiOf t.val) (index0 t) _ _ rfl
    (bF_val ⟨t.val, lt_of_lt_of_eq t.isLt tblFacts.n40⟩) rfl rfl

/-- Row `j`, column `k` of the key block at point `t` is row `ki · 512 + j`, column `k` of the key part of
    batch `b`. -/
theorem kblk_apply (t : Fin (cfg1 aI).N) (j : Fin 512) (k : Fin 1024) :
    (iblk1 V aI c 1 t : S1x1x512x1024.Idx → EReal) (ix4 (0 : Fin 1) (0 : Fin 1) j k)
      = (V c main_v5 : S3x4x2048x1024.Idx → EReal) (ix4 (1 : Fin 3) (bF t.val) (row (kF t.val) j) k) :=
  blk1_entry V aI c t 1 (bOf t.val) (kiOf t.val) (index1 t) _ _ rfl
    (bF_val ⟨t.val, lt_of_lt_of_eq t.isLt tblFacts.n40⟩) rfl rfl

/-- Row `j`, column `f` of the value block at point `t` is row `ki · 512 + j`, column `f` of the value part of
    batch `b`. -/
theorem vblk_apply (t : Fin (cfg1 aI).N) (j : Fin 512) (f : Fin 1024) :
    (iblk1 V aI c 2 t : S1x1x512x1024.Idx → EReal) (ix4 (0 : Fin 1) (0 : Fin 1) j f)
      = (V c main_v5 : S3x4x2048x1024.Idx → EReal) (ix4 (2 : Fin 3) (bF t.val) (row (kF t.val) j) f) :=
  blk2_entry V aI c t 2 (bOf t.val) (kiOf t.val) (index2 t) _ _ rfl
    (bF_val ⟨t.val, lt_of_lt_of_eq t.isLt tblFacts.n40⟩) rfl rfl

/-- The result array after the region is `G`, once every diagonal point's output block is known to be its block
    of `G`: entry `(0, r, f)` of the block at point `t` against entry `(b, qi · 512 + r, f)` of `G`. -/
theorem out_arr (G : S4x2048x1024.Idx → EReal)
    (hG : ∀ t : Fin (cfg1 aI).N, isDiag t.val → ∀ (r : Fin 512) (f : Fin 1024),
      ((outsAt1 V aI tblFacts c t.val t.isLt).1 : S1x512x1024.Idx → EReal) (ix3 (0 : Fin 1) r f)
        = G (ix3 (bF t.val) (row (qF t.val) r) f)) :
    (dat1 V aI tblFacts c).arrAt 3 (cfg1 aI).N = G :=
  arr3_of_blocks aI (dat1 V aI tblFacts c) tblFacts index3 G
    (fun t hd r f => (congrFun (after1_3 V aI tblFacts c t) _).trans (hG t hd r f))

end Cert.KernelIdeal.HandValue

end
-- ==== Proof.Region1RunsEq.lean ====
/-
  Region 1 (the attention kernel): what each case of its body's run leaves in the three scratch buffers and in the
  output buffer, as VALUES over the blocks the body read.

  Each buffer ends covered by whole-shape stores, so what it holds is the LAST store's payload; a load of an input
  block, or of a scratch buffer the point before left, reads that block; a load of a scratch buffer after a store of
  the same run reads that store's payload (after the reset: the reset's constants). So with `W1`, `W3` the two table
  words at the point:
    D (no reset, below the diagonal)  the unmasked update of the carried state by the blocks;
    B (reset, below the diagonal)     the unmasked update of the reset state;
    C (no reset, diagonal)            the masked update of the carried state, and the output block: the updated
                                      weighted sum over the updated sum;
    A (reset, diagonal)               the same of the reset state.
  Stated at any float model `F`.
-/
import proofs.«418573_j77876347011327_3_alg».proof.Proof.Region1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2, rank-3 and rank-4 shape, as the constant function. -/
private theorem hzRuns2 : (![0, 0] : Fin 2 → Nat) = fun _ => 0 := funext fun a => by fin_cases a <;> rfl
private theorem hzRuns3 : (![0, 0, 0] : Fin 3 → Nat) = fun _ => 0 := funext fun a => by fin_cases a <;> rfl
private theorem hzRuns4 : (![0, 0, 0, 0] : Fin 4 → Nat) = fun _ => 0 := funext fun a => by fin_cases a <;> rfl

/-! ## Case D -/

set_option maxHeartbeats 400000 in
/-- Case D, the running maximum after an unmasked update of the carried state: the last store's payload, its loads read back as the blocks they read. -/
theorem sout1_D_0_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) :
    sout1_D_0 c i arg4 harg4 arg5 harg5 arg6 harg6 arg7 harg7 arg8 harg8 arg9 harg9 arg10 harg10 xt0 xt1 h1 h2 h3 h4 x0 x1 x2 xs0 xs1 xs2 = k1_pay11 x0 x1 xs0 := by
  unfold sout1_D_0
  rw [View.read_writes_eq_canon _ _ _ (scover1_D_0 c i arg4 harg4 arg5 harg5 arg6 harg6 arg7 harg7 arg8 harg8 arg9 harg9 arg10 harg10 xt0 xt1 h1 h2 h3 h4 x0 x1 x2 xs0 xs1 xs2)]
  unfold kernelRun1_D
  dsimp only
  sl_unfold_words
  rw [View.canon_cons_unit_zero (S := S512x1) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]

set_option maxHeartbeats 400000 in
/-- Case D, the running sum after an unmasked update of the carried state: the last store's payload, its loads read back as the blocks they read. -/
theorem sout1_D_1_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) :
    sout1_D_1 c i arg4 harg4 arg5 harg5 arg6 harg6 arg7 harg7 arg8 harg8 arg9 harg9 arg10 harg10 xt0 xt1 h1 h2 h3 h4 x0 x1 x2 xs0 xs1 xs2 = k1_pay9 x0 x1 xs0 xs1 := by
  unfold sout1_D_1
  rw [View.read_writes_eq_canon _ _ _ (scover1_D_1 c i arg4 harg4 arg5 harg5 arg6 harg6 arg7 harg7 arg8 harg8 arg9 harg9 arg10 harg10 xt0 xt1 h1 h2 h3 h4 x0 x1 x2 xs0 xs1 xs2)]
  unfold kernelRun1_D
  dsimp only
  sl_unfold_words
  rw [View.canon_cons_unit_zero (S := S512x1) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]

set_option maxHeartbeats 400000 in
/-- Case D, the running weighted sum after an unmasked update of the carried state: the last store's payload, its loads read back as the blocks they read. -/
theorem sout1_D_2_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) (xs0 xs1 : Vec F S512x1 .f32) (xs2 : Vec F S512x1024 .f32) :
    sout1_D_2 c i arg4 harg4 arg5 harg5 arg6 harg6 arg7 harg7 arg8 harg8 arg9 harg9 arg10 harg10 xt0 xt1 h1 h2 h3 h4 x0 x1 x2 xs0 xs1 xs2 = k1_pay10 x0 x1 x2 xs0 xs2 := by
  unfold sout1_D_2
  rw [View.read_writes_eq_canon _ _ _ (scover1_D_2 c i arg4 harg4 arg5 harg5 arg6 harg6 arg7 harg7 arg8 harg8 arg9 harg9 arg10 harg10 xt0 xt1 h1 h2 h3 h4 x0 x1 x2 xs0 xs1 xs2)]
  unfold kernelRun1_D
  dsimp only
  sl_unfold_words
  rw [View.canon_cons_unit_zero (S := S512x1024) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]

/-! ## Case B -/

set_option maxHeartbeats 400000 in
/-- Case B, the running maximum after an unmasked update of the reset state: the last store's payload, its loads read back as the blocks they read. -/
theorem sout1_B_0_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) :
    sout1_B_0 c i arg4 harg4 arg5 harg5 arg6 harg6 arg7 harg7 arg8 harg8 arg9 harg9 arg10 harg10 xt0 xt1 h1 h2 h3 h4 x0 x1 x2 = k1_pay11 x0 x1 (k1_pay1 (F := F)) := by
  unfold sout1_B_0
  rw [View.read_writes_eq_canon _ _ _ (scover1_B_0 c i arg4 harg4 arg5 harg5 arg6 harg6 arg7 harg7 arg8 harg8 arg9 harg9 arg10 harg10 xt0 xt1 h1 h2 h3 h4 x0 x1 x2)]
  unfold kernelRun1_B
  dsimp only
  sl_unfold_words
  rw [View.canon_cons_unit_zero (S := S512x1) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]

set_option maxHeartbeats 400000 in
/-- Case B, the running sum after an unmasked update of the reset state: the last store's payload, its loads read back as the blocks they read. -/
theorem sout1_B_1_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) :
    sout1_B_1 c i arg4 harg4 arg5 harg5 arg6 harg6 arg7 harg7 arg8 harg8 arg9 harg9 arg10 harg10 xt0 xt1 h1 h2 h3 h4 x0 x1 x2 = k1_pay9 x0 x1 (k1_pay1 (F := F)) (k1_pay2 (F := F)) := by
  unfold sout1_B_1
  rw [View.read_writes_eq_canon _ _ _ (scover1_B_1 c i arg4 harg4 arg5 harg5 arg6 harg6 arg7 harg7 arg8 harg8 arg9 harg9 arg10 harg10 xt0 xt1 h1 h2 h3 h4 x0 x1 x2)]
  unfold kernelRun1_B
  dsimp only
  sl_unfold_words
  rw [View.canon_cons_unit_zero (S := S512x1) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]

set_option maxHeartbeats 400000 in
/-- Case B, the running weighted sum after an unmasked update of the reset state: the last store's payload, its loads read back as the blocks they read. -/
theorem sout1_B_2_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : ¬ cDiag (wordQ c i xt0) (wordK c i xt1)) (h3 : cOff (wordQ c i xt0) (wordK c i xt1)) (h4 : ¬ cFin (wordQ c i xt0) (wordK c i xt1))
    (x0 x1 x2 : Vec F S1x1x512x1024 .bf16) :
    sout1_B_2 c i arg4 harg4 arg5 harg5 arg6 harg6 arg7 harg7 arg8 harg8 arg9 harg9 arg10 harg10 xt0 xt1 h1 h2 h3 h4 x0 x1 x2 = k1_pay10 x0 x1 x2 (k1_pay1 (F := F)) (k1_pay3 (F := F)) := by
  unfold sout1_B_2
  rw [View.read_writes_eq_canon _ _ _ (scover1_B_2 c i arg4 harg4 arg5 harg5 arg6 harg6 arg7 harg7 arg8 harg8 arg9 harg9 arg10 harg10 xt0 xt1 h1 h2 h3 h4 x0 x1 x2)]
  unfold kernelRun1_B
  dsimp only
  sl_unfold_words
  rw [View.canon_cons_unit_zero (S := S512x1024) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]

/-! ## Case C -/

set_option maxHeartbeats 400000 in
/-- Case C, the running maximum after a masked update of the carried state: the last store's payload, its loads read back as the blocks they read. -/
theorem sout1_C_0_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) :
    sout1_C_0 c i arg4 harg4 arg5 harg5 arg6 harg6 arg7 harg7 arg8 harg8 arg9 harg9 arg10 harg10 xt0 xt1 h1 h2 h3 h4 x0 x1 x2 xs0 xs1 xs2 = k1_pay19 (wordQ c i xt0) (wordK c i xt1) (k1_pay5 x0 x1) xs0 := by
  unfold sout1_C_0
  rw [View.read_writes_eq_canon _ _ _ (scover1_C_0 c i arg4 harg4 arg5 harg5 arg6 harg6 arg7 harg7 arg8 harg8 arg9 harg9 arg10 harg10 xt0 xt1 h1 h2 h3 h4 x0 x1 x2 xs0 xs1 xs2)]
  unfold kernelRun1_C
  dsimp only
  sl_unfold_words
  rw [View.canon_cons_unit_zero (S := S512x1) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]
  rfl

set_option maxHeartbeats 400000 in
/-- Case C, the running sum after a masked update of the carried state: the last store's payload, its loads read back as the blocks they read. -/
theorem sout1_C_1_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) :
    sout1_C_1 c i arg4 harg4 arg5 harg5 arg6 harg6 arg7 harg7 arg8 harg8 arg9 harg9 arg10 harg10 xt0 xt1 h1 h2 h3 h4 x0 x1 x2 xs0 xs1 xs2 = k1_pay17 (wordQ c i xt0) (wordK c i xt1) (k1_pay5 x0 x1) xs0 xs1 := by
  unfold sout1_C_1
  rw [View.read_writes_eq_canon _ _ _ (scover1_C_1 c i arg4 harg4 arg5 harg5 arg6 harg6 arg7 harg7 arg8 harg8 arg9 harg9 arg10 harg10 xt0 xt1 h1 h2 h3 h4 x0 x1 x2 xs0 xs1 xs2)]
  unfold kernelRun1_C
  dsimp only
  sl_unfold_words
  rw [View.canon_cons_unit_zero (S := S512x1) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]
  rfl

set_option maxHeartbeats 400000 in
/-- Case C, the running weighted sum after a masked update of the carried state: the last store's payload, its loads read back as the blocks they read. -/
theorem sout1_C_2_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) :
    sout1_C_2 c i arg4 harg4 arg5 harg5 arg6 harg6 arg7 harg7 arg8 harg8 arg9 harg9 arg10 harg10 xt0 xt1 h1 h2 h3 h4 x0 x1 x2 xs0 xs1 xs2 = k1_pay18 (wordQ c i xt0) (wordK c i xt1) (k1_pay4 x2) (k1_pay5 x0 x1) xs0 xs2 := by
  unfold sout1_C_2
  rw [View.read_writes_eq_canon _ _ _ (scover1_C_2 c i arg4 harg4 arg5 harg5 arg6 harg6 arg7 harg7 arg8 harg8 arg9 harg9 arg10 harg10 xt0 xt1 h1 h2 h3 h4 x0 x1 x2 xs0 xs1 xs2)]
  unfold kernelRun1_C
  dsimp only
  sl_unfold_words
  rw [View.canon_cons_unit_zero (S := S512x1024) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]
  rfl

set_option maxHeartbeats 400000 in
/-- Case C, the output block: the updated weighted sum over the updated sum: the last store's payload, its loads read back as the blocks they read. -/
theorem out1_C_7_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : ¬ cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) (xs0 xs1 : Vec F S512x1 .f32) (xs2 : Vec F S512x1024 .f32) :
    out1_C_7 c i arg4 harg4 arg5 harg5 arg6 harg6 arg7 harg7 arg8 harg8 arg9 harg9 arg10 harg10 xt0 xt1 h1 h2 h3 h4 x0 x1 x2 xs0 xs1 xs2 = k1_pay12 (k1_pay18 (wordQ c i xt0) (wordK c i xt1) (k1_pay4 x2) (k1_pay5 x0 x1) xs0 xs2) (k1_pay17 (wordQ c i xt0) (wordK c i xt1) (k1_pay5 x0 x1) xs0 xs1) := by
  unfold out1_C_7
  rw [View.read_writes_eq_canon _ _ _ (cover1_C_7 c i arg4 harg4 arg5 harg5 arg6 harg6 arg7 harg7 arg8 harg8 arg9 harg9 arg10 harg10 xt0 xt1 h1 h2 h3 h4 x0 x1 x2 xs0 xs1 xs2)]
  unfold kernelRun1_C
  dsimp only
  sl_unfold_words
  rw [View.canon_cons_unit_zero (S := S1x512x1024) hzRuns3]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]
  rfl

/-! ## Case A -/

set_option maxHeartbeats 400000 in
/-- Case A, the running maximum after a masked update of the reset state: the last store's payload, its loads read back as the blocks they read. -/
theorem sout1_A_0_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) :
    sout1_A_0 c i arg4 harg4 arg5 harg5 arg6 harg6 arg7 harg7 arg8 harg8 arg9 harg9 arg10 harg10 xt0 xt1 h1 h2 h3 h4 x0 x1 x2 = k1_pay19 (wordQ c i xt0) (wordK c i xt1) (k1_pay5 x0 x1) (k1_pay1 (F := F)) := by
  unfold sout1_A_0
  rw [View.read_writes_eq_canon _ _ _ (scover1_A_0 c i arg4 harg4 arg5 harg5 arg6 harg6 arg7 harg7 arg8 harg8 arg9 harg9 arg10 harg10 xt0 xt1 h1 h2 h3 h4 x0 x1 x2)]
  unfold kernelRun1_A
  dsimp only
  sl_unfold_words
  rw [View.canon_cons_unit_zero (S := S512x1) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]
  rfl

set_option maxHeartbeats 400000 in
/-- Case A, the running sum after a masked update of the reset state: the last store's payload, its loads read back as the blocks they read. -/
theorem sout1_A_1_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) :
    sout1_A_1 c i arg4 harg4 arg5 harg5 arg6 harg6 arg7 harg7 arg8 harg8 arg9 harg9 arg10 harg10 xt0 xt1 h1 h2 h3 h4 x0 x1 x2 = k1_pay17 (wordQ c i xt0) (wordK c i xt1) (k1_pay5 x0 x1) (k1_pay1 (F := F)) (k1_pay2 (F := F)) := by
  unfold sout1_A_1
  rw [View.read_writes_eq_canon _ _ _ (scover1_A_1 c i arg4 harg4 arg5 harg5 arg6 harg6 arg7 harg7 arg8 harg8 arg9 harg9 arg10 harg10 xt0 xt1 h1 h2 h3 h4 x0 x1 x2)]
  unfold kernelRun1_A
  dsimp only
  sl_unfold_words
  rw [View.canon_cons_unit_zero (S := S512x1) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]
  rfl

set_option maxHeartbeats 400000 in
/-- Case A, the running weighted sum after a masked update of the reset state: the last store's payload, its loads read back as the blocks they read. -/
theorem sout1_A_2_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) :
    sout1_A_2 c i arg4 harg4 arg5 harg5 arg6 harg6 arg7 harg7 arg8 harg8 arg9 harg9 arg10 harg10 xt0 xt1 h1 h2 h3 h4 x0 x1 x2 = k1_pay18 (wordQ c i xt0) (wordK c i xt1) (k1_pay4 x2) (k1_pay5 x0 x1) (k1_pay1 (F := F)) (k1_pay3 (F := F)) := by
  unfold sout1_A_2
  rw [View.read_writes_eq_canon _ _ _ (scover1_A_2 c i arg4 harg4 arg5 harg5 arg6 harg6 arg7 harg7 arg8 harg8 arg9 harg9 arg10 harg10 xt0 xt1 h1 h2 h3 h4 x0 x1 x2)]
  unfold kernelRun1_A
  dsimp only
  sl_unfold_words
  rw [View.canon_cons_unit_zero (S := S512x1024) hzRuns2]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]
  rfl

set_option maxHeartbeats 400000 in
/-- Case A, the output block: the updated weighted sum over the updated sum: the last store's payload, its loads read back as the blocks they read. -/
theorem out1_A_7_eq (c : Dev nD) (i : grid1.Coords)
    (arg4 : Memref sig .tc .vmem S1x1x512x1024 .bf16) (harg4 : arg4.IsWhole) (arg5 : Memref sig .tc .vmem S1x1x512x1024 .bf16) (harg5 : arg5.IsWhole)
    (arg6 : Memref sig .tc .vmem S1x1x512x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf1 (F := F) c tbM1_0) (xt1 : TbBuf1 (F := F) c tbM1_1)
    (h1 : cReset (wordK c i xt1)) (h2 : cDiag (wordQ c i xt0) (wordK c i xt1)) (h3 : ¬ cOff (wordQ c i xt0) (wordK c i xt1)) (h4 : cFin (wordQ c i xt0) (wordK c i xt1))
    (x0 x1 x2 : Vec F S1x1x512x1024 .bf16) :
    out1_A_7 c i arg4 harg4 arg5 harg5 arg6 harg6 arg7 harg7 arg8 harg8 arg9 harg9 arg10 harg10 xt0 xt1 h1 h2 h3 h4 x0 x1 x2 = k1_pay12 (k1_pay18 (wordQ c i xt0) (wordK c i xt1) (k1_pay4 x2) (k1_pay5 x0 x1) (k1_pay1 (F := F)) (k1_pay3 (F := F))) (k1_pay17 (wordQ c i xt0) (wordK c i xt1) (k1_pay5 x0 x1) (k1_pay1 (F := F)) (k1_pay2 (F := F))) := by
  unfold out1_A_7
  rw [View.read_writes_eq_canon _ _ _ (cover1_A_7 c i arg4 harg4 arg5 harg5 arg6 harg6 arg7 harg7 arg8 harg8 arg9 harg9 arg10 harg10 xt0 xt1 h1 h2 h3 h4 x0 x1 x2)]
  unfold kernelRun1_A
  dsimp only
  sl_unfold_words
  rw [View.canon_cons_unit_zero (S := S1x512x1024) hzRuns3]
  simp only [View.readAt_eq_ld, harg4.read_unread, harg5.read_unread, harg6.read_unread, harg8.read_unread, harg9.read_unread,
    harg10.read_unread, View.ld_unit_zero (S := S1x1x512x1024) hzRuns4, View.ld_unit_zero (S := S512x1) hzRuns2,
    View.ld_unit_zero (S := S512x1024) hzRuns2, View.readCov_cons_toLoadRect]
  rfl

end Cert.KernelIdeal.Hand

end
-- ==== Proof.LibRowProducts.lean ====
/-
  A plain matrix product read at one entry.

  For dimension numbers that contract the left operand's axis 1 with the right operand's axis 0, keep the left
  operand's axis 0 and the right operand's axis 1, and batch nothing, the operand indices at result entry (r, c) and
  contraction position k are (r, k) and (k, c). So both the accumulate-into-zero `tpu.matmul` and the host's
  `dot_general` are, at the ideal values, the entry's plain sum  ∑ q < K, l (r, q) · w (q, c)  over the shared axis:
  the same extended real whatever the number of rows of the left operand. This is the one fact that identifies a
  product computed a block of rows at a time with the product of the whole array.
-/
import Idealize.ShloMosaic.PureOps.Ideal.Laws
import Idealize.ShloMosaic.Lib.ValueIdx

noncomputable section

open scoped BigOperators

namespace Cert.Lib.RowProducts

open Idealize.ShloMosaic Idealize.ShloMosaic.ValueIdx

variable {n K c : Nat}

/-- Dimension numbers of a plain product [n, K] × [K, c] → [n, c]: contract left axis 1 with right axis 0, rows from
    the left, columns from the right, no batch axis. -/
structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem Plain.rank_contr (h : Plain d) : d.contr.rank = 1 := by rw [d.rank_contr, h.lc]; rfl

theorem Plain.size_contr (h : Plain d) : d.contr.size ⟨0, by rw [h.rank_contr]; exact Nat.one_pos⟩ = K := by
  have := d.size_contr 0 (by rw [h.lc]; exact Nat.one_pos)
  rw [this]; simp only [h.lc]; rfl

/-- The left operand's row is the result's row. -/
theorem Plain.lhs_row (h : Plain d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem Plain.lhs_col (h : Plain d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem Plain.rhs_row (h : Plain d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem Plain.rhs_col (h : Plain d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, c). -/
theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values. -/
theorem Plain.matmul_zero_apply (h : Plain d) (prec : Option ContractPrecision)
    (l : FVec Ideal ⟨2, ![n, K]⟩ .f32) (w : FVec Ideal ⟨2, ![K, c]⟩ .f32) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.LibOnlineSoftmax.lean ====
/-
  The online softmax over a finite set of positions, on the extended reals.

  Positions `p` carry a score `x p`, an additive mask `w p` and a value `v p`, all real numbers (as extended
  reals). For a finite set `S` of positions the state of a streaming softmax is the triple
    M = max over S of x,   L = ∑ p ∈ S, e^(x p + w p - M),   A = ∑ p ∈ S, e^(x p + w p - M) · v p,
  with `M = ⊥` and `L = A = 0` on the empty set. Taking in a further nonempty set `T` of positions, disjoint
  from `S`, the new maximum is `M' = max M (max over T of x)` and the old sums are rescaled by `e^(M - M')`:
    L' = e^(M - M') · L + ∑ p ∈ T, e^(x p + w p - M'),
  and likewise for `A`. The rescaling is exact: `e^(M - M') · e^(x + w - M) = e^(x + w - M')` for real
  numbers, and on the empty set `e^(⊥ - M') · 0 = 0`. So the triple after `S ∪ T` is again the state of
  `S ∪ T`, whatever the order and grouping in which positions arrive.
-/
import Idealize.ShloMosaic.PureOps.Ideal

noncomputable section

open scoped BigOperators

namespace Cert.Lib.OnlineSoftmax

open Idealize.ShloMosaic

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact IsReal.add (hf a (Finset.mem_insert_self a s)) (ih (fun i hi => hf i (Finset.mem_insert_of_mem hi)))

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from `⊥` is the supremum. -/
theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

variable {P : Type*} [DecidableEq P]

/-- The maximum of real scores over a nonempty set is a real number. -/
theorem sup_isReal (x : P → EReal) (hx : ∀ p, IsReal (x p)) (S : Finset P) (hS : S.Nonempty) : IsReal (S.sup x) := by
  obtain ⟨p, _, hp⟩ := Finset.exists_mem_eq_sup S hS x
  rw [hp]
  exact hx p

/-- The weight of position `p` against the maximum `M`. -/
def wt (x w : P → EReal) (M : EReal) (p : P) : EReal := Ideal.exp (x p + w p - M)

/-- The maximum after taking in `T`. -/
theorem step_max (x : P → EReal) (S T : Finset P) : max (S.sup x) (T.sup x) = (S ∪ T).sup x := by
  exact Finset.sup_union.symm

/-- The weighted sum after taking in `T`: the old sum rescaled plus the new positions' terms. -/
theorem step_acc (x w v : P → EReal) (hx : ∀ p, IsReal (x p)) (hw : ∀ p, IsReal (w p)) (hv : ∀ p, IsReal (v p))
    (S T : Finset P) (hST : Disjoint S T) (hT : T.Nonempty) :
    Ideal.exp (S.sup x - (S ∪ T).sup x) * (∑ p ∈ S, wt x w (S.sup x) p * v p)
        + ∑ p ∈ T, wt x w ((S ∪ T).sup x) p * v p
      = ∑ p ∈ S ∪ T, wt x w ((S ∪ T).sup x) p * v p := by
  classical
  -- real witnesses for the scores, the masks and the values
  choose xr hxr using hx
  choose wr hwr using hw
  choose vr hvr using hv
  obtain rfl : x = fun p => (xr p : EReal) := funext hxr
  obtain rfl : w = fun p => (wr p : EReal) := funext hwr
  obtain rfl : v = fun p => (vr p : EReal) := funext hvr
  rcases S.eq_empty_or_nonempty with rfl | hS
  · -- nothing seen so far: the old sum is empty, and `e^(⊥ - M') · 0 = 0`
    simp
  · -- both maxima are real numbers, and the identity is one of real numbers
    obtain ⟨M, hM⟩ := sup_isReal (fun p => (xr p : EReal)) (fun p => ⟨xr p, rfl⟩) S hS
    obtain ⟨M', hM'⟩ := sup_isReal (fun p => (xr p : EReal)) (fun p => ⟨xr p, rfl⟩) (S ∪ T)
      (hS.mono Finset.subset_union_left)
    simp only [wt, hM, hM', ← EReal.coe_add, ← EReal.coe_sub, Ideal.exp_coe, ← EReal.coe_mul,
      ← coe_finset_sum]
    congr 1
    rw [Finset.sum_union hST, Finset.mul_sum]
    congr 1
    refine Finset.sum_congr rfl (fun p _ => ?_)
    -- `e^(M - M') · e^(x + w - M) = e^(x + w - M')`
    rw [← mul_assoc, ← Real.exp_add]
    congr 2
    ring

/-- The sum of weights after taking in `T`. -/
theorem step_sum (x w : P → EReal) (hx : ∀ p, IsReal (x p)) (hw : ∀ p, IsReal (w p))
    (S T : Finset P) (hST : Disjoint S T) (hT : T.Nonempty) :
    Ideal.exp (S.sup x - (S ∪ T).sup x) * (∑ p ∈ S, wt x w (S.sup x) p)
        + ∑ p ∈ T, wt x w ((S ∪ T).sup x) p
      = ∑ p ∈ S ∪ T, wt x w ((S ∪ T).sup x) p := by
  -- the weighted sum with every value equal to one
  have h := step_acc x w (fun _ => (1 : EReal)) hx hw (fun _ => ⟨1, EReal.coe_one.symm⟩) S T hST hT
  simp only [mul_one] at h
  exact h

/-- Against a real maximum the mask may be added before or after the maximum is taken off. -/
theorem wt_comm (x w : P → EReal) (M : EReal) (p : P) (hx : IsReal (x p)) (hw : IsReal (w p)) (hM : IsReal M) :
    wt x w M p = Ideal.exp (x p - M + w p) := by
  obtain ⟨a, ha⟩ := hx
  obtain ⟨b, hb⟩ := hw
  obtain ⟨m, rfl⟩ := hM
  rw [wt, ha, hb, ← EReal.coe_add, ← EReal.coe_sub, ← EReal.coe_sub, ← EReal.coe_add]
  congr 2
  ring

end Cert.Lib.OnlineSoftmax

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.Payload1.lean ====
import proofs.«418573_j77876347011327_3_alg».proof.Proof.Gen.KernelIdeal.Skeleton
import proofs.«418573_j77876347011327_3_alg».proof.Proof.LibRowProducts
import proofs.«418573_j77876347011327_3_alg».proof.Proof.LibOnlineSoftmax
import proofs.«418573_j77876347011327_3_alg».proof.Proof.LibKeepdims
import Idealize.ShloMosaic.PureOps.Ideal
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

/-!
# The attention kernel's stored values, entry by entry, at the ideal values

Each value the attention kernel stores is a pure term of the blocks it has read. This file reads every
such term at one entry, on the extended reals:

* the scaled score of query row `r` against key row `j` of the current blocks, `sc qb kb r j`: the sum over
  the 1024 features of the products of the two rows, times 1/32;
* the three initial values (minus infinity for the running maximum, zero for the running sum of weights and
  for the running weighted sum);
* one step of the streaming softmax below the diagonal: the new maximum `M'`, the old sum of weights
  rescaled by `e^(m - M')` plus the new weights `e^(s - M')`, and the same with the values' rows;
* the same step on the diagonal, where the score of key `j` against query `r` counts only for `j ≤ r`
  and is minus infinity otherwise (`msc`);
* the output block: the weighted sum divided by the sum of weights.
-/

noncomputable section

open scoped BigOperators

namespace Cert.KernelIdeal.HandValue

open Cert.KernelIdeal Cert.KernelIdeal.Gen
open Idealize.ShloMosaic Idealize.ShloMosaic.ValueIdx

/-! ## The words the kernel spells -/

/-- The word 0xFF800000 denotes minus infinity. -/
theorem ofBits_ninf : Ideal.ofBits .f32 0xFF800000#32 = ⊥ := by
  simp [Ideal.ofBits, Ideal.ieee]

/-- The word 0 denotes zero. -/
theorem ofBits_zero : Ideal.ofBits .f32 0x00000000#32 = 0 := Ideal.ofBits_zero_f32

/-- The word 0x3D000000 denotes 1/32. -/
theorem ofBits_inv32 : Ideal.ofBits .f32 0x3D000000#32 = ((1 / 32 : ℝ) : EReal) := by
  simp [Ideal.ofBits, Ideal.ieee, -EReal.coe_mul]; norm_num

/-- The masked score's constant, named minus infinity by the certificate's table. -/
theorem neg_big : Named.named (F := Ideal) κ "neg_big" (φ := .f32) 0xFF333332#32 = ⊥ :=
  IdealRules.named_const.ideal_named_scalar _ _ _ _ rfl

/-! ## The three initial values -/

theorem pay1_apply (r : Fin 512) : k1_pay1 (F := Ideal) (ix2 r (0 : Fin 1)) = ⊥ := by
  unfold k1_pay1
  rw [shapeCast_self]
  exact ofBits_ninf

theorem pay2_apply (r : Fin 512) : k1_pay2 (F := Ideal) (ix2 r (0 : Fin 1)) = 0 := by
  unfold k1_pay2
  rw [shapeCast_self]
  exact ofBits_zero

theorem pay3_apply (r : Fin 512) (f : Fin 1024) : k1_pay3 (F := Ideal) (ix2 r f) = 0 := by
  unfold k1_pay3
  rw [shapeCast_self]
  exact ofBits_zero

/-! ## Layout: the leading unit axes of a block dropped -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## The score product: query rows against key rows

The product contracts the feature axis of both operands: at result entry (r, j) and contraction position d the
operand entries are (r, d) of the queries and (j, d) of the keys. -/

theorem qk_lhs_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
theorem qk_lhs_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem qk_rhs_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
theorem qk_rhs_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

set_option maxHeartbeats 400000 in
/-- The score product into the zero accumulator, at entry (r, j): the sum over the features of the products of
    query row r and key row j. -/
theorem qk_matmul_apply (l w : FVec Ideal S512x1024 .bf16) (r j : Fin 512) :
    matmul (F := Ideal) dot_S512x1024_S512x1024_S512x512_1_1_0_0_n_n none l w (constant (F := Ideal) S512x512 .f32 0x00000000#32) (ix2 r j)
      = ∑ d : Fin 1024, l (ix2 r d) * w (ix2 j d) := by
  refine (Ideal.matmul_constant_zero_apply dot_S512x1024_S512x1024_S512x512_1_1_0_0_n_n none l w (ix2 r j)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r j) ((contrEquiv1 dot_S512x1024_S512x1024_S512x512_1_1_0_0_n_n 1024 rfl rfl).symm k) = ix2 r k :=
    funext fun a => Fin.ext (by
      match a with
      | ⟨0, _⟩ => exact qk_lhs_0 _ _
      | ⟨1, _⟩ => exact (qk_lhs_1 _ _).trans hk)
  have er : dot_S512x1024_S512x1024_S512x512_1_1_0_0_n_n.rhsIdx (ix2 r j) ((contrEquiv1 dot_S512x1024_S512x1024_S512x512_1_1_0_0_n_n 1024 rfl rfl).symm k) = ix2 j k :=
    funext fun a => Fin.ext (by
      match a with
      | ⟨0, _⟩ => exact qk_rhs_0 _ _
      | ⟨1, _⟩ => exact (qk_rhs_1 _ _).trans hk)
  rw [el, er]

/-! ## The scaled score -/

/-- The scaled score of query row `r` against key row `j` of the current blocks: the sum over the features of
    the rows' products, times 1/32. -/
def sc (qb kb : S1x1x512x1024.Idx → EReal) (r j : Fin 512) : EReal :=
  (∑ d : Fin 1024, qb (ix4 (0 : Fin 1) (0 : Fin 1) r d) * kb (ix4 (0 : Fin 1) (0 : Fin 1) j d)) * ((1 / 32 : ℝ) : EReal)

/-- The score under the diagonal block's causal mask: minus infinity at keys after the query. -/
def msc (qb kb : S1x1x512x1024.Idx → EReal) (r j : Fin 512) : EReal :=
  if j.val ≤ r.val then sc qb kb r j else ⊥

set_option maxHeartbeats 400000 in
theorem pay5_apply (qb kb : Vec Ideal S1x1x512x1024 .bf16) (r j : Fin 512) :
    k1_pay5 (F := Ideal) qb kb (ix2 r j) = sc qb kb r j := by
  unfold k1_pay5 sc
  refine (mulf_apply _ _ _).trans ?_
  refine congrArg₂ (· * ·) ?_ ofBits_inv32
  refine (qk_matmul_apply _ _ r j).trans ?_
  refine Finset.sum_congr rfl fun d _ => ?_
  exact congrArg₂ (· * ·) (shapeCast_11ab_ab_apply qb _ r d) (shapeCast_11ab_ab_apply kb _ j d)

/-! ## The output block -/

set_option maxHeartbeats 400000 in
theorem pay12_apply (acc : Vec Ideal S512x1024 .f32) (l : Vec Ideal S512x1 .f32) (r : Fin 512) (f : Fin 1024) :
    k1_pay12 (F := Ideal) acc l (ix3 (0 : Fin 1) r f) = Ideal.div (acc (ix2 r f)) (l (ix2 r (0 : Fin 1))) := by
  unfold k1_pay12
  refine (shapeCast_ab_1ab_apply _ _ (0 : Fin 1) r f).trans ?_
  refine (divf_apply _ _ _).trans ?_
  exact congrArg (Ideal.div (acc (ix2 r f))) (Cert.Keepdims.broadcastTo_a1_ab_apply l _ r f)

/-! ## One step of the streaming softmax over a block of scores

`s` is the block of scores (512 query rows by 512 key rows); `m`, `l`, `acc` are the running maximum, the
running sum of weights and the running weighted sum before the step; `v` is the block of value rows. The
kernel's terms for the step are named here once, as functions of `s`, so that the step below the diagonal
(where `s` is the block of scaled scores) and the step on the diagonal (where `s` is the block of masked
scores) are read by the same lemmas. -/

/-- The new running maximum of row `r`: the old one against the row's largest score. -/
def newMax (s : S512x512.Idx → EReal) (m : S512x1.Idx → EReal) (r : Fin 512) : EReal :=
  max (m (ix2 r (0 : Fin 1))) (Finset.univ.sup fun j : Fin 512 => s (ix2 r j))

/-- The kernel's term for the new maxima: the row maxima of `s`, as a column, against `m`. -/
def maxV (s : FVec Ideal S512x512 .f32) (m : FVec Ideal S512x1 .f32) : FVec Ideal S512x1 .f32 :=
  maximumf m (shapeCast S512x1
    (multiReduction (F := Ideal) .maximumf [1] S512 s 0xFF800000#32 reduces_S512x512_S512 (.inl rfl) rfl) shapeCasts_S512_S512x1)

/-- The kernel's term for the rescaling factors `e^(m - M')`. -/
def scaleV (s : FVec Ideal S512x512 .f32) (m : FVec Ideal S512x1 .f32) : FVec Ideal S512x1 .f32 :=
  exp (subf m (maxV s m))

/-- The kernel's term for the new weights `e^(s - M')`. -/
def wtV (s : FVec Ideal S512x512 .f32) (m : FVec Ideal S512x1 .f32) : FVec Ideal S512x512 .f32 :=
  exp (subf s (broadcastTo S512x512 (maxV s m) broadcasts_S512x1_S512x512))

/-- The kernel's term for the new sums of weights. -/
def sumV (s : FVec Ideal S512x512 .f32) (m l : FVec Ideal S512x1 .f32) : FVec Ideal S512x1 .f32 :=
  addf (mulf (scaleV s m) l) (shapeCast S512x1
    (multiReduction (F := Ideal) .add [1] S512 (wtV s m) 0x00000000#32 reduces_S512x512_S512 (.inl rfl) rfl) shapeCasts_S512_S512x1)

/-- The kernel's term for the new weighted sums of value rows. -/
def accV (s : FVec Ideal S512x512 .f32) (m : FVec Ideal S512x1 .f32) (v : FVec Ideal S512x1024 .bf16)
    (acc : FVec Ideal S512x1024 .f32) : FVec Ideal S512x1024 .f32 :=
  addf (mulf (broadcastTo S512x1024 (scaleV s m) broadcasts_S512x1_S512x1024) acc)
    (matmul (F := Ideal) dot_S512x512_S512x1024_S512x1024_1_0_0_1_n_n none (truncf .bf16 (wtV s m) bitsLt_bf16_f32) v
      (constant (F := Ideal) S512x1024 .f32 0x00000000#32))

set_option maxHeartbeats 400000 in
theorem maxV_apply (s : FVec Ideal S512x512 .f32) (m : FVec Ideal S512x1 .f32) (r : Fin 512) :
    maxV s m (ix2 r (0 : Fin 1)) = newMax s m r := by
  unfold maxV newMax
  refine (maximumf_apply _ _ _).trans ?_
  refine congrArg (max (m (ix2 r (0 : Fin 1)))) ?_
  refine (Cert.Keepdims.shapeCast_a_a1_apply _ _ r (0 : Fin 1)).trans ?_
  refine (Cert.Keepdims.max_rows_f32 s _ _ _ r).trans ?_
  rw [ofBits_ninf]
  exact Cert.Lib.OnlineSoftmax.fold_max_bot_eq_sup _ _

theorem scaleV_apply (s : FVec Ideal S512x512 .f32) (m : FVec Ideal S512x1 .f32) (r : Fin 512) :
    scaleV s m (ix2 r (0 : Fin 1)) = Ideal.exp (m (ix2 r (0 : Fin 1)) - newMax s m r) := by
  unfold scaleV
  show Ideal.exp (m (ix2 r (0 : Fin 1)) - maxV s m (ix2 r (0 : Fin 1))) = _
  rw [maxV_apply]

set_option maxHeartbeats 400000 in
theorem wtV_apply (s : FVec Ideal S512x512 .f32) (m : FVec Ideal S512x1 .f32) (r j : Fin 512) :
    wtV s m (ix2 r j) = Ideal.exp (s (ix2 r j) - newMax s m r) := by
  unfold wtV
  show Ideal.exp (s (ix2 r j) - broadcastTo S512x512 (maxV s m) broadcasts_S512x1_S512x512 (ix2 r j)) = _
  rw [Cert.Keepdims.broadcastTo_a1_ab_apply (maxV s m) _ r j, maxV_apply]

set_option maxHeartbeats 400000 in
theorem sumV_apply (s : FVec Ideal S512x512 .f32) (m l : FVec Ideal S512x1 .f32) (r : Fin 512) :
    sumV s m l (ix2 r (0 : Fin 1))
      = Ideal.exp (m (ix2 r (0 : Fin 1)) - newMax s m r) * l (ix2 r (0 : Fin 1))
        + ∑ j : Fin 512, Ideal.exp (s (ix2 r j) - newMax s m r) := by
  unfold sumV
  refine (addf_apply _ _ _).trans ?_
  refine congrArg₂ (· + ·) ?_ ?_
  · refine (mulf_apply _ _ _).trans ?_
    rw [scaleV_apply]
  · refine (Cert.Keepdims.shapeCast_a_a1_apply _ _ r (0 : Fin 1)).trans ?_
    refine (Cert.Keepdims.add_rows_f32 (wtV s m) _ _ _ r).trans ?_
    exact Finset.sum_congr rfl fun j _ => wtV_apply s m r j

/-- The weights-times-values product has plain dimension numbers. -/
theorem pv_plain : Cert.Lib.RowProducts.Plain (n := 512) (K := 512) (c := 1024) dot_S512x512_S512x1024_S512x1024_1_0_0_1_n_n :=
  ⟨rfl, rfl, rfl, rfl, rfl, rfl⟩

set_option maxHeartbeats 400000 in
theorem accV_apply (s : FVec Ideal S512x512 .f32) (m : FVec Ideal S512x1 .f32) (v : FVec Ideal S512x1024 .bf16)
    (acc : FVec Ideal S512x1024 .f32) (r : Fin 512) (f : Fin 1024) :
    accV s m v acc (ix2 r f)
      = Ideal.exp (m (ix2 r (0 : Fin 1)) - newMax s m r) * acc (ix2 r f)
        + ∑ j : Fin 512, Ideal.exp (s (ix2 r j) - newMax s m r) * v (ix2 j f) := by
  unfold accV
  refine (addf_apply _ _ _).trans ?_
  refine congrArg₂ (· + ·) ?_ ?_
  · refine (mulf_apply _ _ _).trans ?_
    rw [Cert.Keepdims.broadcastTo_a1_ab_apply (scaleV s m) _ r f, scaleV_apply]
  · refine (Ideal.matmul_constant_zero_apply dot_S512x512_S512x1024_S512x1024_1_0_0_1_n_n none _ v (ix2 r f)).trans ?_
    refine (pv_plain.sum_eq _ v (ix2 r f)).trans ?_
    refine Finset.sum_congr rfl fun j _ => ?_
    show wtV s m (ix2 r j) * v (ix2 j f) = _
    rw [wtV_apply]

/-! ## The step below the diagonal: the scores are the scaled scores of the two blocks -/

theorem pay4_apply (vb : Vec Ideal S1x1x512x1024 .bf16) (j : Fin 512) (f : Fin 1024) :
    k1_pay4 (F := Ideal) vb (ix2 j f) = vb (ix4 (0 : Fin 1) (0 : Fin 1) j f) := by
  unfold k1_pay4
  exact shapeCast_11ab_ab_apply vb _ j f

theorem pay6_eq (qb kb : Vec Ideal S1x1x512x1024 .bf16) (m : Vec Ideal S512x1 .f32) :
    k1_pay6 (F := Ideal) qb kb m = maxV (k1_pay5 (F := Ideal) qb kb) m := rfl

theorem pay9_eq (qb kb : Vec Ideal S1x1x512x1024 .bf16) (m l : Vec Ideal S512x1 .f32) :
    k1_pay9 (F := Ideal) qb kb m l
      = shapeCast S512x1 (sumV (k1_pay5 (F := Ideal) qb kb) m l) shapeCasts_S512x1_S512x1 := rfl

theorem pay10_eq (qb kb vb : Vec Ideal S1x1x512x1024 .bf16) (m : Vec Ideal S512x1 .f32) (acc : Vec Ideal S512x1024 .f32) :
    k1_pay10 (F := Ideal) qb kb vb m acc
      = shapeCast S512x1024 (accV (k1_pay5 (F := Ideal) qb kb) m (k1_pay4 (F := Ideal) vb) acc)
          shapeCasts_S512x1024_S512x1024 := rfl

/-- The new maximum over the block of scaled scores. -/
theorem newMax_pay5 (qb kb : Vec Ideal S1x1x512x1024 .bf16) (m : Vec Ideal S512x1 .f32) (r : Fin 512) :
    newMax (k1_pay5 (F := Ideal) qb kb) m r
      = max (m (ix2 r (0 : Fin 1))) (Finset.univ.sup fun j : Fin 512 => sc qb kb r j) := by
  unfold newMax
  simp only [pay5_apply]

theorem pay11_apply (qb kb : Vec Ideal S1x1x512x1024 .bf16) (m : Vec Ideal S512x1 .f32) (r : Fin 512) :
    k1_pay11 (F := Ideal) qb kb m (ix2 r (0 : Fin 1))
      = max (m (ix2 r (0 : Fin 1))) (Finset.univ.sup fun j : Fin 512 => sc qb kb r j) := by
  unfold k1_pay11
  refine (congrFun (shapeCast_self _ _) _).trans ?_
  refine (congrFun (pay6_eq qb kb m) _).trans ?_
  exact (maxV_apply _ m r).trans (newMax_pay5 qb kb m r)

theorem pay9_apply (qb kb : Vec Ideal S1x1x512x1024 .bf16) (m l : Vec Ideal S512x1 .f32) (r : Fin 512) :
    k1_pay9 (F := Ideal) qb kb m l (ix2 r (0 : Fin 1))
      = Ideal.exp (m (ix2 r (0 : Fin 1)) - max (m (ix2 r (0 : Fin 1))) (Finset.univ.sup fun j : Fin 512 => sc qb kb r j))
          * l (ix2 r (0 : Fin 1))
        + ∑ j : Fin 512, Ideal.exp (sc qb kb r j
            - max (m (ix2 r (0 : Fin 1))) (Finset.univ.sup fun j : Fin 512 => sc qb kb r j)) := by
  rw [pay9_eq, shapeCast_self, sumV_apply, newMax_pay5]
  simp only [pay5_apply]

theorem pay10_apply (qb kb vb : Vec Ideal S1x1x512x1024 .bf16) (m : Vec Ideal S512x1 .f32) (acc : Vec Ideal S512x1024 .f32)
    (r : Fin 512) (f : Fin 1024) :
    k1_pay10 (F := Ideal) qb kb vb m acc (ix2 r f)
      = Ideal.exp (m (ix2 r (0 : Fin 1)) - max (m (ix2 r (0 : Fin 1))) (Finset.univ.sup fun j : Fin 512 => sc qb kb r j))
          * acc (ix2 r f)
        + ∑ j : Fin 512, Ideal.exp (sc qb kb r j
            - max (m (ix2 r (0 : Fin 1))) (Finset.univ.sup fun j : Fin 512 => sc qb kb r j))
          * vb (ix4 (0 : Fin 1) (0 : Fin 1) j f) := by
  rw [pay10_eq, shapeCast_self, accV_apply, newMax_pay5]
  simp only [pay5_apply, pay4_apply]

/-! ## The causal mask on the diagonal block

On the diagonal the query block and the key block are the same block of 512 positions, number `w` say, with
`w < 4`. The kernel compares the key's position `w * 512 + j` with the query's position `w * 512 + r` as signed
32-bit words; both are below 2560, so neither the products nor the sums wrap and the signed comparison is the
comparison `j ≤ r` of the positions inside the block. -/

/-- The word `w * 512 + t` for a block number `w < 4` and a position `t < 512` inside the block. -/
theorem pos_toNat (w : BitVec 32) (hs : w.toNat < 4) (t : ℕ) (ht : t < 512) :
    (IntOp.addi (IntOp.muli w 512#32) (BitVec.ofNat 32 t)).toNat = w.toNat * 512 + t := by
  unfold IntOp.addi IntOp.muli
  simp only [BitVec.toNat_add, BitVec.toNat_mul, BitVec.toNat_ofNat]
  omega

/-- The mask's condition at (r, j): key position at most query position. -/
theorem cond_iff (w1 w3 : BitVec 32) (hw : w3 = w1) (hs : w1.toNat < 4) (r j : Fin 512) :
    IntOp.cmpi .sle (IntOp.addi (IntOp.muli w3 512#32) (BitVec.ofNat 32 j.val))
        (IntOp.addi (IntOp.muli w1 512#32) (BitVec.ofNat 32 r.val)) = 1#1 ↔ j.val ≤ r.val := by
  subst hw
  have hj := j.isLt
  have hr := r.isLt
  have ej := pos_toNat w3 hs j.val hj
  have er := pos_toNat w3 hs r.val hr
  rw [Idealize.ShloMosaic.StableHlo.Predicate.sle_iff_toNat (by rw [ej]; omega) (by rw [er]; omega), ej, er]
  omega

set_option maxHeartbeats 400000 in
/-- The masked block of scores at (r, j): the score where the key is not after the query, minus infinity elsewhere. -/
theorem mask_apply (w1 w3 : BitVec 32) (hw : w3 = w1) (hs : w1.toNat < 4) (s : FVec Ideal S512x512 .f32) (r j : Fin 512) :
    k1_pay13 (F := Ideal) w1 w3 s (ix2 r j) = if j.val ≤ r.val then s (ix2 r j) else ⊥ := by
  unfold k1_pay13
  show Scalar.select
      (IntOp.cmpi .sle
        (IntOp.addi (IntOp.muli w3 512#32) (iota .tc S512x512 32 [1] iota_S512x512_d1_w32 (ix2 r j)))
        (IntOp.addi (IntOp.muli w1 512#32) (iota .tc S512x512 32 [0] iota_S512x512_d0_w32 (ix2 r j))))
      (s (ix2 r j)) (Named.named (F := Ideal) κ "neg_big" (φ := .f32) 0xFF333332#32) = _
  rw [iota_single_apply, iota_single_apply, neg_big]
  unfold Scalar.select
  by_cases h : j.val ≤ r.val
  · rw [if_pos h]
    exact if_pos ((cond_iff w1 w3 hw hs r j).mpr h)
  · rw [if_neg h]
    exact if_neg (fun hc => h ((cond_iff w1 w3 hw hs r j).mp hc))

/-! ## The step on the diagonal: the scores are the masked scores of the block against itself -/

theorem pay14_eq (w1 w3 : BitVec 32) (s : FVec Ideal S512x512 .f32) (m : Vec Ideal S512x1 .f32) :
    k1_pay14 (F := Ideal) w1 w3 s m = maxV (k1_pay13 (F := Ideal) w1 w3 s) m := rfl

theorem pay17_eq (w1 w3 : BitVec 32) (s : FVec Ideal S512x512 .f32) (m l : Vec Ideal S512x1 .f32) :
    k1_pay17 (F := Ideal) w1 w3 s m l
      = shapeCast S512x1 (sumV (k1_pay13 (F := Ideal) w1 w3 s) m l) shapeCasts_S512x1_S512x1 := rfl

theorem pay18_eq (w1 w3 : BitVec 32) (v : FVec Ideal S512x1024 .bf16) (s : FVec Ideal S512x512 .f32)
    (m : Vec Ideal S512x1 .f32) (acc : Vec Ideal S512x1024 .f32) :
    k1_pay18 (F := Ideal) w1 w3 v s m acc
      = shapeCast S512x1024 (accV (k1_pay13 (F := Ideal) w1 w3 s) m v acc) shapeCasts_S512x1024_S512x1024 := rfl

/-- The masked block of scaled scores at (r, j). -/
theorem masked_apply (w1 w3 : BitVec 32) (hw : w3 = w1) (hs : w1.toNat < 4) (qb kb : Vec Ideal S1x1x512x1024 .bf16)
    (r j : Fin 512) :
    k1_pay13 (F := Ideal) w1 w3 (k1_pay5 (F := Ideal) qb kb) (ix2 r j) = msc qb kb r j := by
  rw [mask_apply w1 w3 hw hs, pay5_apply]
  rfl

/-- The new maximum over the masked block. -/
theorem newMax_pay13 (w1 w3 : BitVec 32) (hw : w3 = w1) (hs : w1.toNat < 4) (qb kb : Vec Ideal S1x1x512x1024 .bf16)
    (m : Vec Ideal S512x1 .f32) (r : Fin 512) :
    newMax (k1_pay13 (F := Ideal) w1 w3 (k1_pay5 (F := Ideal) qb kb)) m r
      = max (m (ix2 r (0 : Fin 1))) (Finset.univ.sup fun j : Fin 512 => msc qb kb r j) := by
  unfold newMax
  simp only [masked_apply w1 w3 hw hs]

theorem pay19_apply (w1 w3 : BitVec 32) (hw : w3 = w1) (hs : w1.toNat < 4) (qb kb : Vec Ideal S1x1x512x1024 .bf16)
    (m : Vec Ideal S512x1 .f32) (r : Fin 512) :
    k1_pay19 (F := Ideal) w1 w3 (k1_pay5 (F := Ideal) qb kb) m (ix2 r (0 : Fin 1))
      = max (m (ix2 r (0 : Fin 1))) (Finset.univ.sup fun j : Fin 512 => msc qb kb r j) := by
  unfold k1_pay19
  refine (congrFun (shapeCast_self _ _) _).trans ?_
  refine (congrFun (pay14_eq w1 w3 _ m) _).trans ?_
  exact (maxV_apply _ m r).trans (newMax_pay13 w1 w3 hw hs qb kb m r)

theorem pay17_apply (w1 w3 : BitVec 32) (hw : w3 = w1) (hs : w1.toNat < 4) (qb kb : Vec Ideal S1x1x512x1024 .bf16)
    (m l : Vec Ideal S512x1 .f32) (r : Fin 512) :
    k1_pay17 (F := Ideal) w1 w3 (k1_pay5 (F := Ideal) qb kb) m l (ix2 r (0 : Fin 1))
      = Ideal.exp (m (ix2 r (0 : Fin 1)) - max (m (ix2 r (0 : Fin 1))) (Finset.univ.sup fun j : Fin 512 => msc qb kb r j))
          * l (ix2 r (0 : Fin 1))
        + ∑ j : Fin 512, Ideal.exp (msc qb kb r j
            - max (m (ix2 r (0 : Fin 1))) (Finset.univ.sup fun j : Fin 512 => msc qb kb r j)) := by
  rw [pay17_eq, shapeCast_self, sumV_apply, newMax_pay13 w1 w3 hw hs]
  simp only [masked_apply w1 w3 hw hs]

theorem pay18_apply (w1 w3 : BitVec 32) (hw : w3 = w1) (hs : w1.toNat < 4) (qb kb vb : Vec Ideal S1x1x512x1024 .bf16)
    (m : Vec Ideal S512x1 .f32) (acc : Vec Ideal S512x1024 .f32) (r : Fin 512) (f : Fin 1024) :
    k1_pay18 (F := Ideal) w1 w3 (k1_pay4 (F := Ideal) vb) (k1_pay5 (F := Ideal) qb kb) m acc (ix2 r f)
      = Ideal.exp (m (ix2 r (0 : Fin 1)) - max (m (ix2 r (0 : Fin 1))) (Finset.univ.sup fun j : Fin 512 => msc qb kb r j))
          * acc (ix2 r f)
        + ∑ j : Fin 512, Ideal.exp (msc qb kb r j
            - max (m (ix2 r (0 : Fin 1))) (Finset.univ.sup fun j : Fin 512 => msc qb kb r j))
          * vb (ix4 (0 : Fin 1) (0 : Fin 1) j f) := by
  rw [pay18_eq, shapeCast_self, accV_apply, newMax_pay13 w1 w3 hw hs]
  simp only [masked_apply w1 w3 hw hs, pay4_apply]

end Cert.KernelIdeal.HandValue

end
-- ==== Proof.Algebra.lean ====
/-
  The algebra of causal softmax attention on the extended reals.

  Under the hypothesis that every entry of the four arrays is a real number, every projection and every score
  is a real number. The streaming state over a set S of keys (running maximum, running sum of weights,
  running weighted sum of values) obeys the online-softmax step: taking in a further tile T of keys, the
  old sums are rescaled by e^(M - M') and the new keys' terms are added. The causal mask puts minus infinity
  at keys after the query; since e^(-∞) = 0 and -∞ is neutral for the maximum, the masked keys drop out of
  every sum and of the maximum. Finally the reference's normalise-then-weigh form
    ∑ s, (w s / L) · v s
  is the quotient (∑ s, w s · v s) / L of the streaming state over the allowed keys, because L is a positive
  real number.
-/
import proofs.«418573_j77876347011327_3_alg».proof.Proof.Spec
import proofs.«418573_j77876347011327_3_alg».proof.Proof.LibOnlineSoftmax
import Idealize.ShloMosaic.PureOps.Ideal

noncomputable section

open scoped BigOperators

namespace Cert.Algebra

open Idealize.ShloMosaic Cert.Spec Cert.Lib.OnlineSoftmax

variable {x : Inp} {Wq Wk Wv : Wgt} {b : Fin 4} {q : Fin 2048}

/-! ### Projections and scores are real numbers -/

/-- A projection of real inputs against a real weight matrix is a real number. -/
theorem proj_real {x : Inp} {W : Wgt} (hx : ∀ b s e, ∃ r : ℝ, x b s e = (r : EReal))
    (hW : ∀ k e, ∃ r : ℝ, W k e = (r : EReal)) (b : Fin 4) (s : Fin 2048) (k : Fin 1024) :
    ∃ r : ℝ, proj x W b s k = (r : EReal) :=
  IsReal.sum Finset.univ (fun e => x b s e * W k e) (fun e _ => IsReal.mul (hx b s e) (hW k e))

/-- Every score is a real number. -/
theorem logit_real (hF : Finite x Wq Wk Wv) (b : Fin 4) (q s : Fin 2048) :
    ∃ r : ℝ, logit x Wq Wk b q s = (r : EReal) := by
  obtain ⟨hx, hq, hk, _⟩ := hF
  exact IsReal.mul
    (IsReal.sum Finset.univ (fun k => proj x Wq b q k * proj x Wk b s k)
      (fun k _ => IsReal.mul (proj_real hx hq b q k) (proj_real hx hk b s k)))
    ⟨(1 / 32 : ℝ), rfl⟩

/-- Every value is a real number. -/
theorem value_real (hF : Finite x Wq Wk Wv) (b : Fin 4) (s : Fin 2048) (f : Fin 1024) :
    ∃ r : ℝ, proj x Wv b s f = (r : EReal) :=
  proj_real hF.1 hF.2.2.2 b s f

/-! ### The streaming state on the empty set -/

theorem runMax_empty : runMax x Wq Wk b q ∅ = ⊥ := Finset.sup_empty

theorem runSum_empty : runSum x Wq Wk b q ∅ = 0 := Finset.sum_empty

theorem runAcc_empty {f : Fin 1024} : runAcc x Wq Wk Wv b q ∅ f = 0 := Finset.sum_empty

/-! ### Taking in a tile of keys -/

/-- The running maximum after taking in T. -/
theorem runMax_union (S T : Finset (Fin 2048)) :
    runMax x Wq Wk b q (S ∪ T) = max (runMax x Wq Wk b q S) (T.sup fun s => logit x Wq Wk b q s) :=
  Finset.sup_union

/-- The weight of the online softmax at the zero additive mask. -/
theorem wt_zero (a : Fin 2048 → EReal) (M : EReal) (p : Fin 2048) :
    wt a (fun _ => (0 : EReal)) M p = Ideal.exp (a p - M) := by
  rw [wt, add_zero]

/-- The running sum of weights after taking in a nonempty tile T disjoint from S. -/
theorem runSum_union (hF : Finite x Wq Wk Wv) (S T : Finset (Fin 2048)) (hST : Disjoint S T)
    (hT : T.Nonempty) :
    runSum x Wq Wk b q (S ∪ T)
      = Ideal.exp (runMax x Wq Wk b q S - runMax x Wq Wk b q (S ∪ T)) * runSum x Wq Wk b q S
          + ∑ s ∈ T, Ideal.exp (logit x Wq Wk b q s - runMax x Wq Wk b q (S ∪ T)) := by
  have h := step_sum (fun s => logit x Wq Wk b q s) (fun _ => (0 : EReal))
    (fun s => logit_real hF b q s) (fun _ => ⟨0, EReal.coe_zero.symm⟩) S T hST hT
  simp only [wt_zero] at h
  exact h.symm

/-- The running weighted sum of values after taking in a nonempty tile T disjoint from S. -/
theorem runAcc_union (hF : Finite x Wq Wk Wv) (S T : Finset (Fin 2048)) (hST : Disjoint S T)
    (hT : T.Nonempty) (f : Fin 1024) :
    runAcc x Wq Wk Wv b q (S ∪ T) f
      = Ideal.exp (runMax x Wq Wk b q S - runMax x Wq Wk b q (S ∪ T)) * runAcc x Wq Wk Wv b q S f
          + ∑ s ∈ T, Ideal.exp (logit x Wq Wk b q s - runMax x Wq Wk b q (S ∪ T)) * proj x Wv b s f := by
  have h := step_acc (fun s => logit x Wq Wk b q s) (fun _ => (0 : EReal)) (fun s => proj x Wv b s f)
    (fun s => logit_real hF b q s) (fun _ => ⟨0, EReal.coe_zero.symm⟩) (fun s => value_real hF b s f)
    S T hST hT
  simp only [wt_zero] at h
  exact h.symm

/-! ### The causal mask inside one tile of keys -/

/-- The maximum of the masked scores over a tile is the maximum of the scores over its allowed keys:
    minus infinity is neutral for the maximum. -/
theorem masked_sup (T : Finset (Fin 2048)) :
    (T.sup fun s => mlogit x Wq Wk b q s)
      = ((T.filter fun s => s.val ≤ q.val).sup fun s => logit x Wq Wk b q s) := by
  unfold mlogit
  rw [Finset.sup_ite, Finset.sup_bot, sup_bot_eq]

/-- The weight of a masked score: the score's weight at an allowed key, and e^(-∞) = 0 after the query. -/
theorem exp_mlogit_sub (M : EReal) (s : Fin 2048) :
    Ideal.exp (mlogit x Wq Wk b q s - M)
      = if s.val ≤ q.val then Ideal.exp (logit x Wq Wk b q s - M) else 0 := by
  by_cases h : s.val ≤ q.val
  · rw [mlogit, if_pos h, if_pos h]
  · rw [mlogit, if_neg h, if_neg h, EReal.bot_sub, Ideal.exp_bot]

/-- The masked keys drop out of the sum of weights. -/
theorem masked_sum {M : EReal} (hM : ∃ r : ℝ, M = (r : EReal)) (T : Finset (Fin 2048)) :
    ∑ s ∈ T, Ideal.exp (mlogit x Wq Wk b q s - M)
      = ∑ s ∈ T.filter (fun s => s.val ≤ q.val), Ideal.exp (logit x Wq Wk b q s - M) := by
  obtain ⟨m, rfl⟩ := hM
  rw [Finset.sum_filter]
  exact Finset.sum_congr rfl (fun s _ => exp_mlogit_sub (m : EReal) s)

/-- The masked keys drop out of the weighted sum of values: 0 · v = 0. -/
theorem masked_acc (hF : Finite x Wq Wk Wv) {M : EReal} (hM : ∃ r : ℝ, M = (r : EReal))
    (T : Finset (Fin 2048)) (f : Fin 1024) :
    ∑ s ∈ T, Ideal.exp (mlogit x Wq Wk b q s - M) * proj x Wv b s f
      = ∑ s ∈ T.filter (fun s => s.val ≤ q.val),
          Ideal.exp (logit x Wq Wk b q s - M) * proj x Wv b s f := by
  obtain ⟨m, rfl⟩ := hM
  rw [Finset.sum_filter]
  refine Finset.sum_congr rfl (fun s _ => ?_)
  obtain ⟨v, hv⟩ := value_real hF b s f
  rw [exp_mlogit_sub, hv]
  by_cases h : s.val ≤ q.val
  · rw [if_pos h, if_pos h]
  · rw [if_neg h, if_neg h, zero_mul]

/-! ### The streaming state over a nonempty set is real, and its sum of weights is positive -/

/-- The running maximum over a nonempty set of keys is a real number. -/
theorem runMax_real (hF : Finite x Wq Wk Wv) (S : Finset (Fin 2048)) (hS : S.Nonempty) :
    ∃ r : ℝ, runMax x Wq Wk b q S = (r : EReal) :=
  sup_isReal (fun s => logit x Wq Wk b q s) (fun s => logit_real hF b q s) S hS

/-- The running sum of weights over a nonempty set of keys is a positive real number. -/
theorem runSum_pos (hF : Finite x Wq Wk Wv) (S : Finset (Fin 2048)) (hS : S.Nonempty) :
    ∃ l : ℝ, 0 < l ∧ runSum x Wq Wk b q S = (l : EReal) := by
  obtain ⟨m, hm⟩ := runMax_real (b := b) (q := q) hF S hS
  choose lr hlr using fun s => logit_real hF b q s
  refine ⟨∑ s ∈ S, Real.exp (lr s - m), Finset.sum_pos (fun s _ => Real.exp_pos _) hS, ?_⟩
  rw [coe_finset_sum]
  unfold runSum
  refine Finset.sum_congr rfl (fun s _ => ?_)
  rw [hm, hlr s, ← EReal.coe_sub, Ideal.exp_coe]

/-! ### The reference's row quantities in terms of the streaming state over the allowed keys -/

/-- The query itself is an allowed key. -/
theorem allowed_nonempty (q : Fin 2048) : (allowed q).Nonempty :=
  ⟨q, Finset.mem_filter.mpr ⟨Finset.mem_univ q, le_refl _⟩⟩

/-- The row maximum of the masked scores is the running maximum over the allowed keys. -/
theorem rmax_eq : rmax x Wq Wk b q = runMax x Wq Wk b q (allowed q) :=
  masked_sup Finset.univ

/-- The row maximum is a real number. -/
theorem rmax_real (hF : Finite x Wq Wk Wv) : ∃ r : ℝ, rmax x Wq Wk b q = (r : EReal) := by
  rw [rmax_eq]
  exact runMax_real hF (allowed q) (allowed_nonempty q)

/-- The softmax denominator is the running sum of weights over the allowed keys. -/
theorem den_eq (hF : Finite x Wq Wk Wv) : den x Wq Wk b q = runSum x Wq Wk b q (allowed q) := by
  unfold den wgt
  rw [rmax_eq]
  exact masked_sum (runMax_real hF (allowed q) (allowed_nonempty q)) Finset.univ

/-- The weighted sum of values with the softmax numerators is the running weighted sum over the allowed
    keys. -/
theorem acc_eq (hF : Finite x Wq Wk Wv) (f : Fin 1024) :
    ∑ s : Fin 2048, wgt x Wq Wk b q s * proj x Wv b s f = runAcc x Wq Wk Wv b q (allowed q) f := by
  unfold wgt
  rw [rmax_eq]
  exact masked_acc hF (runMax_real hF (allowed q) (allowed_nonempty q)) Finset.univ f

/-- Every softmax numerator is a real number. -/
theorem wgt_real (hF : Finite x Wq Wk Wv) (s : Fin 2048) : ∃ r : ℝ, wgt x Wq Wk b q s = (r : EReal) := by
  obtain ⟨m, hm⟩ := rmax_real (b := b) (q := q) hF
  unfold wgt
  rw [exp_mlogit_sub, hm]
  by_cases h : s.val ≤ q.val
  · obtain ⟨a, ha⟩ := logit_real hF b q s
    rw [if_pos h, ha, ← EReal.coe_sub, Ideal.exp_coe]
    exact ⟨_, rfl⟩
  · rw [if_neg h]
    exact ⟨0, EReal.coe_zero.symm⟩

/-! ### The main identity -/

/-- The reference's normalise-then-weigh form is the streaming quotient over the allowed keys. -/
theorem attn_eq_run (hF : Finite x Wq Wk Wv) (b : Fin 4) (q : Fin 2048) (f : Fin 1024) :
    attn x Wq Wk Wv b q f
      = Ideal.div (runAcc x Wq Wk Wv b q (allowed q) f) (runSum x Wq Wk b q (allowed q)) := by
  -- the denominator is a positive real number l, the numerators and the values are real numbers
  obtain ⟨l, hl, hL⟩ := runSum_pos (b := b) (q := q) hF (allowed q) (allowed_nonempty q)
  choose wr hwr using fun s => wgt_real (b := b) (q := q) hF s
  choose vr hvr using fun s => value_real hF b s f
  unfold attn
  rw [← acc_eq hF f, den_eq hF, hL]
  simp only [Ideal.div_coe hl.ne', hwr, hvr, ← EReal.coe_mul, ← coe_finset_sum]
  -- in the real numbers: ∑ s, (w s · (1/l)) · v s = (∑ s, w s · v s) · (1/l)
  congr 1
  rw [Finset.sum_mul]
  refine Finset.sum_congr rfl (fun s _ => ?_)
  ring

end Cert.Algebra

end
-- ==== Proof.StepMath.lean ====
/-
  One step of the tile-by-tile evaluation of causal softmax attention, as identities of the extended reals.

  For a batch b and a query q = row qi r (offset r of tile qi), the keys are taken in tile by tile. Over the
  keys Sd already taken in, the state is the running maximum M, the running sum of weights L and the running
  weighted sum of values A (one per feature), all against M. Taking in the 512 keys of tile ki with scores
  S j gives
    M' = max M (sup_j S j),   L' = e^(M - M') · L + ∑_j e^(S j - M'),   A' = e^(M - M') · A + ∑_j e^(S j - M') · v j,
  and M', L', A' are the running quantities over Sd together with the tile. On the query's own tile the
  scores of the keys after the query are replaced by minus infinity; as minus infinity is neutral for the
  maximum and e^(-∞) = 0, the step then gives the running quantities over Sd together with the part of the
  tile at or before the query. Before any key the state is (⊥, 0, 0), the running quantities of the empty
  set; after the query's own tile the keys seen are exactly the allowed keys, and A / L is the attention
  output.
-/
import proofs.«418573_j77876347011327_3_alg».proof.Proof.Spec
import proofs.«418573_j77876347011327_3_alg».proof.Proof.Algebra
import proofs.«418573_j77876347011327_3_alg».proof.Proof.TileSum
import Idealize.ShloMosaic.PureOps.Ideal

noncomputable section

open scoped BigOperators

namespace Cert.StepMath

open Idealize.ShloMosaic Cert.Spec Cert.Algebra Cert.Tile

variable {x : Inp} {Wq Wk Wv : Wgt}

/-! ### Auxiliary facts -/

/-- A tile contains its first position. -/
theorem tile_nonempty (ki : Fin 4) : (tile ki).Nonempty := by
  refine ⟨row ki ⟨0, by omega⟩, (mem_tile ki _).mpr ?_⟩
  simp only [row_val]
  omega

/-- Inside one tile, offset j is at or before offset r exactly when its position is at or before r's. -/
theorem mask_offsets (qi : Fin 4) (r j : Fin 512) (a z : EReal) :
    (if j.val ≤ r.val then a else z) = (if (row qi j).val ≤ (row qi r).val then a else z) :=
  if_congr (row_le_row qi j r).symm rfl rfl

/-- The weight of a masked score of the query's own tile: the score's weight at or before the query, and
    e^(-∞ - M) = e^(-∞) = 0 after it. -/
theorem masked_weight (qi : Fin 4) (r j : Fin 512) (L : Fin 2048 → EReal) (M : EReal) :
    Ideal.exp ((if j.val ≤ r.val then L (row qi j) else ⊥) - M)
      = if (row qi j).val ≤ (row qi r).val then Ideal.exp (L (row qi j) - M) else 0 := by
  by_cases h : j.val ≤ r.val
  · rw [if_pos h, if_pos ((row_le_row qi j r).mpr h)]
  · rw [if_neg h, if_neg (mt (row_le_row qi j r).mp h), EReal.bot_sub, Ideal.exp_bot]

/-- The same weight times a value: 0 · v = 0 after the query. -/
theorem masked_weight_mul (qi : Fin 4) (r j : Fin 512) (L V : Fin 2048 → EReal) (M : EReal) :
    Ideal.exp ((if j.val ≤ r.val then L (row qi j) else ⊥) - M) * V (row qi j)
      = if (row qi j).val ≤ (row qi r).val then Ideal.exp (L (row qi j) - M) * V (row qi j) else 0 := by
  by_cases h : j.val ≤ r.val
  · rw [if_pos h, if_pos ((row_le_row qi j r).mpr h)]
  · rw [if_neg h, if_neg (mt (row_le_row qi j r).mp h), EReal.bot_sub, Ideal.exp_bot, zero_mul]

/-! ### A tile below the query's tile -/

/-- The new maximum is the running maximum over the old keys and the tile. -/
theorem off_max (b : Fin 4) (qi ki : Fin 4) (r : Fin 512) (Sd : Finset (Fin 2048)) :
    max (runMax x Wq Wk b (row qi r) Sd)
        (Finset.univ.sup fun j : Fin 512 => logit x Wq Wk b (row qi r) (row ki j))
      = runMax x Wq Wk b (row qi r) (Sd ∪ tile ki) :=
  (congrArg (max (runMax x Wq Wk b (row qi r) Sd))
      (sup_tile ki (fun s => logit x Wq Wk b (row qi r) s))).trans
    (runMax_union Sd (tile ki)).symm

/-- The new sum of weights is the running sum over the old keys and the tile. -/
theorem off_sum (hF : Finite x Wq Wk Wv) (b : Fin 4) (qi ki : Fin 4) (r : Fin 512)
    (Sd : Finset (Fin 2048)) (hdis : Disjoint Sd (tile ki)) :
    Ideal.exp (runMax x Wq Wk b (row qi r) Sd - runMax x Wq Wk b (row qi r) (Sd ∪ tile ki))
          * runSum x Wq Wk b (row qi r) Sd
        + ∑ j : Fin 512, Ideal.exp (logit x Wq Wk b (row qi r) (row ki j)
            - runMax x Wq Wk b (row qi r) (Sd ∪ tile ki))
      = runSum x Wq Wk b (row qi r) (Sd ∪ tile ki) :=
  (congrArg
      (fun t => Ideal.exp (runMax x Wq Wk b (row qi r) Sd - runMax x Wq Wk b (row qi r) (Sd ∪ tile ki))
          * runSum x Wq Wk b (row qi r) Sd + t)
      (sum_tile ki (fun s => Ideal.exp (logit x Wq Wk b (row qi r) s
        - runMax x Wq Wk b (row qi r) (Sd ∪ tile ki))))).trans
    (runSum_union hF Sd (tile ki) hdis (tile_nonempty ki)).symm

/-- The new weighted sum of values is the running weighted sum over the old keys and the tile. -/
theorem off_acc (hF : Finite x Wq Wk Wv) (b : Fin 4) (qi ki : Fin 4) (r : Fin 512)
    (Sd : Finset (Fin 2048)) (hdis : Disjoint Sd (tile ki)) (f : Fin 1024) :
    Ideal.exp (runMax x Wq Wk b (row qi r) Sd - runMax x Wq Wk b (row qi r) (Sd ∪ tile ki))
          * runAcc x Wq Wk Wv b (row qi r) Sd f
        + ∑ j : Fin 512, Ideal.exp (logit x Wq Wk b (row qi r) (row ki j)
            - runMax x Wq Wk b (row qi r) (Sd ∪ tile ki)) * proj x Wv b (row ki j) f
      = runAcc x Wq Wk Wv b (row qi r) (Sd ∪ tile ki) f :=
  (congrArg
      (fun t => Ideal.exp (runMax x Wq Wk b (row qi r) Sd - runMax x Wq Wk b (row qi r) (Sd ∪ tile ki))
          * runAcc x Wq Wk Wv b (row qi r) Sd f + t)
      (sum_tile ki (fun s => Ideal.exp (logit x Wq Wk b (row qi r) s
        - runMax x Wq Wk b (row qi r) (Sd ∪ tile ki)) * proj x Wv b s f))).trans
    (runAcc_union hF Sd (tile ki) hdis (tile_nonempty ki) f).symm

/-! ### The query's own tile, under the causal mask -/

/-- The new maximum is the running maximum over the old keys and the keys of the tile at or before the
    query: minus infinity is neutral for the maximum. -/
theorem diag_max (b : Fin 4) (qi : Fin 4) (r : Fin 512) (Sd : Finset (Fin 2048)) :
    max (runMax x Wq Wk b (row qi r) Sd)
        (Finset.univ.sup fun j : Fin 512 =>
          if j.val ≤ r.val then logit x Wq Wk b (row qi r) (row qi j) else ⊥)
      = runMax x Wq Wk b (row qi r) (Sd ∪ part qi (row qi r)) := by
  refine (congrArg (max (runMax x Wq Wk b (row qi r) Sd)) ?_).trans
    (runMax_union Sd (part qi (row qi r))).symm
  refine (Finset.sup_congr rfl (fun j _ => mask_offsets qi r j _ ⊥)).trans ?_
  exact sup_part qi (row qi r) (fun s => logit x Wq Wk b (row qi r) s)

/-- The new sum of weights is the running sum over the old keys and the keys of the tile at or before the
    query: the keys after the query weigh e^(-∞) = 0. -/
theorem diag_sum (hF : Finite x Wq Wk Wv) (b : Fin 4) (qi : Fin 4) (r : Fin 512)
    (Sd : Finset (Fin 2048)) (hdis : Disjoint Sd (part qi (row qi r))) :
    Ideal.exp (runMax x Wq Wk b (row qi r) Sd
            - runMax x Wq Wk b (row qi r) (Sd ∪ part qi (row qi r)))
          * runSum x Wq Wk b (row qi r) Sd
        + ∑ j : Fin 512, Ideal.exp ((if j.val ≤ r.val then logit x Wq Wk b (row qi r) (row qi j) else ⊥)
            - runMax x Wq Wk b (row qi r) (Sd ∪ part qi (row qi r)))
      = runSum x Wq Wk b (row qi r) (Sd ∪ part qi (row qi r)) := by
  refine (congrArg
      (fun t => Ideal.exp (runMax x Wq Wk b (row qi r) Sd
            - runMax x Wq Wk b (row qi r) (Sd ∪ part qi (row qi r)))
          * runSum x Wq Wk b (row qi r) Sd + t) ?_).trans
    (runSum_union hF Sd (part qi (row qi r)) hdis (part_nonempty qi qi (le_refl _) r)).symm
  refine (Finset.sum_congr rfl (fun j _ => masked_weight qi r j
    (fun s => logit x Wq Wk b (row qi r) s) _)).trans ?_
  exact sum_part qi (row qi r) (fun s => Ideal.exp (logit x Wq Wk b (row qi r) s
    - runMax x Wq Wk b (row qi r) (Sd ∪ part qi (row qi r))))

/-- The new weighted sum of values is the running weighted sum over the old keys and the keys of the tile at
    or before the query. -/
theorem diag_acc (hF : Finite x Wq Wk Wv) (b : Fin 4) (qi : Fin 4) (r : Fin 512)
    (Sd : Finset (Fin 2048)) (hdis : Disjoint Sd (part qi (row qi r))) (f : Fin 1024) :
    Ideal.exp (runMax x Wq Wk b (row qi r) Sd
            - runMax x Wq Wk b (row qi r) (Sd ∪ part qi (row qi r)))
          * runAcc x Wq Wk Wv b (row qi r) Sd f
        + ∑ j : Fin 512, Ideal.exp ((if j.val ≤ r.val then logit x Wq Wk b (row qi r) (row qi j) else ⊥)
            - runMax x Wq Wk b (row qi r) (Sd ∪ part qi (row qi r))) * proj x Wv b (row qi j) f
      = runAcc x Wq Wk Wv b (row qi r) (Sd ∪ part qi (row qi r)) f := by
  refine (congrArg
      (fun t => Ideal.exp (runMax x Wq Wk b (row qi r) Sd
            - runMax x Wq Wk b (row qi r) (Sd ∪ part qi (row qi r)))
          * runAcc x Wq Wk Wv b (row qi r) Sd f + t) ?_).trans
    (runAcc_union hF Sd (part qi (row qi r)) hdis (part_nonempty qi qi (le_refl _) r) f).symm
  refine (Finset.sum_congr rfl (fun j _ => masked_weight_mul qi r j
    (fun s => logit x Wq Wk b (row qi r) s) (fun s => proj x Wv b s f) _)).trans ?_
  exact sum_part qi (row qi r) (fun s => Ideal.exp (logit x Wq Wk b (row qi r) s
    - runMax x Wq Wk b (row qi r) (Sd ∪ part qi (row qi r))) * proj x Wv b s f)

/-! ### The start and the end of a query tile's run -/

/-- The reset maximum is the running maximum of no key. -/
theorem start_max (b : Fin 4) (q : Fin 2048) : (⊥ : EReal) = runMax x Wq Wk b q ∅ :=
  runMax_empty.symm

/-- The reset sum of weights is the running sum of no key. -/
theorem start_sum (b : Fin 4) (q : Fin 2048) : (0 : EReal) = runSum x Wq Wk b q ∅ :=
  runSum_empty.symm

/-- The reset weighted sum of values is the running weighted sum of no key. -/
theorem start_acc (b : Fin 4) (q : Fin 2048) (f : Fin 1024) :
    (0 : EReal) = runAcc x Wq Wk Wv b q ∅ f :=
  runAcc_empty.symm

/-- After the query's own tile every allowed key has been seen, and the quotient of the weighted sum of
    values by the sum of weights is the attention output. -/
theorem finish (hF : Finite x Wq Wk Wv) (b : Fin 4) (qi : Fin 4) (r : Fin 512) (f : Fin 1024) :
    Ideal.div (runAcc x Wq Wk Wv b (row qi r) (seen qi (row qi r)) f)
        (runSum x Wq Wk b (row qi r) (seen qi (row qi r)))
      = attn x Wq Wk Wv b (row qi r) f := by
  rw [seen_diag qi r]
  exact (attn_eq_run hF b (row qi r) f).symm

end Cert.StepMath

end
-- ==== Proof.Region1Traj.lean ====
/-
  Region 1 (the attention kernel) at the ideal values: what its scratch buffers hold after each grid point, and
  what its output block holds after a diagonal point.

  The grid runs, batch by batch, through the pairs (query tile, key tile) of the lower triangle; for one query
  tile the key tiles come in order 0, 1, …, up to the query tile itself. The body keeps, for each of the 512
  query rows of the tile, a running maximum m, a running sum of weights l and a running weighted sum of value
  rows acc. At the first key tile of a query tile they are reset to (-∞, 0, 0): the running quantities of the
  specification over no key. At every point they are updated by the streaming-softmax step over the point's
  block of scores: below the diagonal the 512 scores of the row against the key tile, on the diagonal the same
  with the keys after the query at -∞. By the step identities of the specification's running quantities, after
  the point (query tile qi, key tile ki) the three arrays hold, for the row r with query position q = qi·512 + r,
  the running maximum, sum and weighted sum over the keys of tiles 0 … ki at or before q. After the diagonal
  point these are all the keys the query may attend to, and the stored block acc / l is the attention output.
-/
import proofs.«418573_j77876347011327_3_alg».proof.Proof.Region1
import proofs.«418573_j77876347011327_3_alg».proof.Proof.Region1RunsEq
import proofs.«418573_j77876347011327_3_alg».proof.Proof.Payload1
import proofs.«418573_j77876347011327_3_alg».proof.Proof.TblIdeal
import proofs.«418573_j77876347011327_3_alg».proof.Proof.StepMath
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Cert.Spec Cert.Tile Cert.StepMath

variable {x : Inp} {Wq Wk Wv : Wgt}

/-- The three scratch arrays: running maximum, running sum of weights, running weighted sum of values. -/
abbrev St : Type := Vec Ideal S512x1 .f32 × Vec Ideal S512x1 .f32 × Vec Ideal S512x1024 .f32

/-- The three state arrays hold, row by row, the running quantities of batch b and query tile qi over the
    keys S r of row r. -/
def IsRun (x : Inp) (Wq Wk Wv : Wgt) (b qi : Fin 4) (S : Fin 512 → Finset (Fin 2048))
    (m l : Vec Ideal S512x1 .f32) (acc : Vec Ideal S512x1024 .f32) : Prop :=
  ∀ r : Fin 512,
    m (ix2 r (0 : Fin 1)) = runMax x Wq Wk b (row qi r) (S r)
    ∧ l (ix2 r (0 : Fin 1)) = runSum x Wq Wk b (row qi r) (S r)
    ∧ ∀ f : Fin 1024, acc (ix2 r f) = runAcc x Wq Wk Wv b (row qi r) (S r) f

/-- The same statement of a triple equal to the three arrays, over key sets equal row by row. -/
theorem IsRun.of_eq {b qi : Fin 4} {S S' : Fin 512 → Finset (Fin 2048)} {p : St}
    {m l : Vec Ideal S512x1 .f32} {acc : Vec Ideal S512x1024 .f32}
    (hp : p = (m, l, acc)) (hS : ∀ r, S' r = S r) (h : IsRun x Wq Wk Wv b qi S m l acc) :
    IsRun x Wq Wk Wv b qi S' p.1 p.2.1 p.2.2 := by
  subst hp
  have hSS : S' = S := funext hS
  subst hSS
  exact h

/-- The scaled score of two rows of blocks that are tiles of the projections is the specification's score. -/
theorem sc_eq (Q K : Vec Ideal S1x1x512x1024 .bf16) (b qi ki : Fin 4)
    (hq : ∀ (r : Fin 512) (k : Fin 1024), Q (ix4 (0 : Fin 1) (0 : Fin 1) r k) = proj x Wq b (row qi r) k)
    (hk : ∀ (j : Fin 512) (k : Fin 1024), K (ix4 (0 : Fin 1) (0 : Fin 1) j k) = proj x Wk b (row ki j) k)
    (r j : Fin 512) : sc Q K r j = logit x Wq Wk b (row qi r) (row ki j) := by
  unfold sc logit
  refine congrArg (· * ((1 / 32 : ℝ) : EReal)) ?_
  exact Finset.sum_congr rfl (fun d _ => congrArg₂ (· * ·) (hq r d) (hk j d))

/-- The reset constants are the running quantities of no key. -/
theorem isRun_reset (b qi : Fin 4) :
    IsRun x Wq Wk Wv b qi (fun _ => ∅) (k1_pay1 (F := Ideal)) (k1_pay2 (F := Ideal)) (k1_pay3 (F := Ideal)) :=
  fun r => ⟨(pay1_apply r).trans (start_max b _), (pay2_apply r).trans (start_sum b _),
    fun f => (pay3_apply r f).trans (start_acc b _ f)⟩

set_option maxHeartbeats 400000 in
/-- The unmasked step on a tile below the query's tile. -/
theorem isRun_off (hF : Finite x Wq Wk Wv) (b qi ki : Fin 4) (hlt : ki.val < qi.val)
    (Q K Vb : Vec Ideal S1x1x512x1024 .bf16)
    (hq : ∀ (r : Fin 512) (k : Fin 1024), Q (ix4 (0 : Fin 1) (0 : Fin 1) r k) = proj x Wq b (row qi r) k)
    (hk : ∀ (j : Fin 512) (k : Fin 1024), K (ix4 (0 : Fin 1) (0 : Fin 1) j k) = proj x Wk b (row ki j) k)
    (hv : ∀ (j : Fin 512) (f : Fin 1024), Vb (ix4 (0 : Fin 1) (0 : Fin 1) j f) = proj x Wv b (row ki j) f)
    (S : Fin 512 → Finset (Fin 2048)) (hdis : ∀ r, Disjoint (S r) (part ki (row qi r)))
    (m l : Vec Ideal S512x1 .f32) (acc : Vec Ideal S512x1024 .f32)
    (h : IsRun x Wq Wk Wv b qi S m l acc) :
    IsRun x Wq Wk Wv b qi (fun r => S r ∪ part ki (row qi r))
      (k1_pay11 (F := Ideal) Q K m) (k1_pay9 (F := Ideal) Q K m l) (k1_pay10 (F := Ideal) Q K Vb m acc) := by
  intro r
  obtain ⟨hm, hl, ha⟩ := h r
  have hsc : ∀ j, sc Q K r j = logit x Wq Wk b (row qi r) (row ki j) := sc_eq Q K b qi ki hq hk r
  have hd : Disjoint (S r) (tile ki) := (part_off ki qi hlt r) ▸ hdis r
  show _ = runMax x Wq Wk b (row qi r) (S r ∪ part ki (row qi r))
    ∧ _ = runSum x Wq Wk b (row qi r) (S r ∪ part ki (row qi r))
    ∧ ∀ f : Fin 1024, _ = runAcc x Wq Wk Wv b (row qi r) (S r ∪ part ki (row qi r)) f
  rw [part_off ki qi hlt r]
  have hM : max (m (ix2 r (0 : Fin 1))) (Finset.univ.sup fun j : Fin 512 => sc Q K r j)
      = runMax x Wq Wk b (row qi r) (S r ∪ tile ki) := by
    rw [hm, funext hsc]
    exact off_max b qi ki r (S r)
  refine ⟨(pay11_apply Q K m r).trans hM, ?_, ?_⟩
  · rw [pay9_apply, hM, hm, hl]
    simp only [hsc]
    exact off_sum hF b qi ki r (S r) hd
  · intro f
    rw [pay10_apply, hM, hm, ha f]
    simp only [hsc, hv]
    exact off_acc hF b qi ki r (S r) hd f

/-- The masked score of the query's own tile. -/
theorem msc_eq (Q K : Vec Ideal S1x1x512x1024 .bf16) (b qi : Fin 4)
    (hq : ∀ (r : Fin 512) (k : Fin 1024), Q (ix4 (0 : Fin 1) (0 : Fin 1) r k) = proj x Wq b (row qi r) k)
    (hk : ∀ (j : Fin 512) (k : Fin 1024), K (ix4 (0 : Fin 1) (0 : Fin 1) j k) = proj x Wk b (row qi j) k)
    (r j : Fin 512) :
    msc Q K r j = if j.val ≤ r.val then logit x Wq Wk b (row qi r) (row qi j) else ⊥ := by
  unfold msc
  rw [sc_eq Q K b qi qi hq hk r j]

set_option maxHeartbeats 400000 in
/-- The masked step on the query's own tile. -/
theorem isRun_diag (hF : Finite x Wq Wk Wv) (b qi ki : Fin 4) (hkq : ki = qi)
    (w1 w3 : BitVec 32) (hw : w3 = w1) (hs : w1.toNat < 4)
    (Q K Vb : Vec Ideal S1x1x512x1024 .bf16)
    (hq : ∀ (r : Fin 512) (k : Fin 1024), Q (ix4 (0 : Fin 1) (0 : Fin 1) r k) = proj x Wq b (row qi r) k)
    (hk : ∀ (j : Fin 512) (k : Fin 1024), K (ix4 (0 : Fin 1) (0 : Fin 1) j k) = proj x Wk b (row ki j) k)
    (hv : ∀ (j : Fin 512) (f : Fin 1024), Vb (ix4 (0 : Fin 1) (0 : Fin 1) j f) = proj x Wv b (row ki j) f)
    (S : Fin 512 → Finset (Fin 2048)) (hdis : ∀ r, Disjoint (S r) (part ki (row qi r)))
    (m l : Vec Ideal S512x1 .f32) (acc : Vec Ideal S512x1024 .f32)
    (h : IsRun x Wq Wk Wv b qi S m l acc) :
    IsRun x Wq Wk Wv b qi (fun r => S r ∪ part ki (row qi r))
      (k1_pay19 (F := Ideal) w1 w3 (k1_pay5 (F := Ideal) Q K) m)
      (k1_pay17 (F := Ideal) w1 w3 (k1_pay5 (F := Ideal) Q K) m l)
      (k1_pay18 (F := Ideal) w1 w3 (k1_pay4 (F := Ideal) Vb) (k1_pay5 (F := Ideal) Q K) m acc) := by
  subst hkq
  intro r
  obtain ⟨hm, hl, ha⟩ := h r
  have hsc : ∀ j, msc Q K r j = if j.val ≤ r.val then logit x Wq Wk b (row ki r) (row ki j) else ⊥ :=
    msc_eq Q K b ki hq hk r
  have hM : max (m (ix2 r (0 : Fin 1))) (Finset.univ.sup fun j : Fin 512 => msc Q K r j)
      = runMax x Wq Wk b (row ki r) (S r ∪ part ki (row ki r)) := by
    rw [hm, funext hsc]
    exact diag_max b ki r (S r)
  refine ⟨(pay19_apply w1 w3 hw hs Q K m r).trans hM, ?_, ?_⟩
  · rw [pay17_apply w1 w3 hw hs, hM, hm, hl]
    simp only [hsc]
    exact diag_sum hF b ki r (S r) (hdis r)
  · intro f
    rw [pay18_apply w1 w3 hw hs, hM, hm, ha f]
    simp only [hsc, hv]
    exact diag_acc hF b ki r (S r) (hdis r) f

/-! ### The run of a query tile, point by point -/

section Trajectory

variable {N : ℕ} (scr : (n : ℕ) → n < N → St)

/-- The state the body at point t starts from: the reset constants at a query tile's first key tile, and
    what the point before left otherwise. -/
def prevOf (t : Fin N) : St :=
  if isReset t.val then (k1_pay1 (F := Ideal), k1_pay2 (F := Ideal), k1_pay3 (F := Ideal))
  else scr (t.val - 1) (Nat.lt_of_le_of_lt (Nat.sub_le _ _) t.isLt)

/-- The state a point starts from is the running state over the keys of the key tiles before the point's,
    which are disjoint from the point's share and make up with it the keys seen after the point. -/
theorem prev_run (hN : N = 40) (t : Fin N)
    (ih : ∀ (m : ℕ) (hm : m < N), m < t.val →
      IsRun x Wq Wk Wv (bF m) (qF m) (fun r => seen (kF m) (row (qF m) r)) (scr m hm).1 (scr m hm).2.1 (scr m hm).2.2) :
    ∃ Sd : Fin 512 → Finset (Fin 2048),
      IsRun x Wq Wk Wv (bF t.val) (qF t.val) Sd (prevOf scr t).1 (prevOf scr t).2.1 (prevOf scr t).2.2
      ∧ (∀ r, Disjoint (Sd r) (part (kF t.val) (row (qF t.val) r)))
      ∧ (∀ r, seen (kF t.val) (row (qF t.val) r) = Sd r ∪ part (kF t.val) (row (qF t.val) r)) := by
  have h40 : t.val < 40 := lt_of_lt_of_eq t.isLt hN
  by_cases hr : isReset t.val
  · have hk0 : kF t.val = 0 := Fin.ext ((reset_iff ⟨t.val, h40⟩).mp hr)
    refine ⟨fun _ => ∅, ?_, fun r => disjoint_empty' _, fun r => ?_⟩
    · unfold prevOf
      rw [if_pos hr]
      exact isRun_reset _ _
    · rw [hk0, seen_zero, empty_union']
  · obtain ⟨h0, hb, hqq, hkk⟩ := step_of_not_reset ⟨t.val, h40⟩ hr
    have hb' : bF (t.val - 1) = bF t.val := Fin.ext (congrArg (· % 4) hb)
    have hq' : qF (t.val - 1) = qF t.val := Fin.ext hqq
    have hlt : (kF (t.val - 1)).val + 1 < 4 := by
      have h1 := kiOf_lt t.val
      have h2 : kiOf t.val = (kF (t.val - 1)).val + 1 := hkk
      omega
    have hk' : kF t.val = ⟨(kF (t.val - 1)).val + 1, hlt⟩ := Fin.ext hkk
    have hprev := ih (t.val - 1) (Nat.lt_of_le_of_lt (Nat.sub_le _ _) t.isLt) (Nat.sub_lt (Nat.pos_of_ne_zero h0) Nat.one_pos)
    rw [hb', hq'] at hprev
    refine ⟨fun r => seen (kF (t.val - 1)) (row (qF t.val) r), ?_, fun r => ?_, fun r => ?_⟩
    · unfold prevOf
      rw [if_neg hr]
      exact hprev
    · rw [hk']
      exact seen_disjoint _ hlt _
    · rw [hk']
      exact seen_succ _ hlt _

variable (Q K Vb : Fin N → Vec Ideal S1x1x512x1024 .bf16) (w1 w3 : Fin N → BitVec 32)

set_option maxHeartbeats 400000 in
/-- After every point the scratch arrays hold the running quantities of the point's batch and query tile over
    the keys seen so far: by induction along the points, each point's arrays being the step's terms over the
    state it starts from. -/
theorem traj_inv (hF : Finite x Wq Wk Wv) (hN : N = 40)
    (hoff : ∀ t : Fin N, ¬ isDiag t.val → scr t.val t.isLt
      = (k1_pay11 (F := Ideal) (Q t) (K t) (prevOf scr t).1,
         k1_pay9 (F := Ideal) (Q t) (K t) (prevOf scr t).1 (prevOf scr t).2.1,
         k1_pay10 (F := Ideal) (Q t) (K t) (Vb t) (prevOf scr t).1 (prevOf scr t).2.2))
    (hdiag : ∀ t : Fin N, isDiag t.val → scr t.val t.isLt
      = (k1_pay19 (F := Ideal) (w1 t) (w3 t) (k1_pay5 (F := Ideal) (Q t) (K t)) (prevOf scr t).1,
         k1_pay17 (F := Ideal) (w1 t) (w3 t) (k1_pay5 (F := Ideal) (Q t) (K t)) (prevOf scr t).1 (prevOf scr t).2.1,
         k1_pay18 (F := Ideal) (w1 t) (w3 t) (k1_pay4 (F := Ideal) (Vb t)) (k1_pay5 (F := Ideal) (Q t) (K t))
           (prevOf scr t).1 (prevOf scr t).2.2))
    (hw1 : ∀ t : Fin N, w1 t = BitVec.ofNat 32 (qiOf t.val))
    (hw3 : ∀ t : Fin N, w3 t = BitVec.ofNat 32 (kiOf t.val))
    (hq : ∀ (t : Fin N) (r : Fin 512) (k : Fin 1024),
      Q t (ix4 (0 : Fin 1) (0 : Fin 1) r k) = proj x Wq (bF t.val) (row (qF t.val) r) k)
    (hk : ∀ (t : Fin N) (j : Fin 512) (k : Fin 1024),
      K t (ix4 (0 : Fin 1) (0 : Fin 1) j k) = proj x Wk (bF t.val) (row (kF t.val) j) k)
    (hv : ∀ (t : Fin N) (j : Fin 512) (f : Fin 1024),
      Vb t (ix4 (0 : Fin 1) (0 : Fin 1) j f) = proj x Wv (bF t.val) (row (kF t.val) j) f) :
    ∀ (n : ℕ) (hn : n < N),
      IsRun x Wq Wk Wv (bF n) (qF n) (fun r => seen (kF n) (row (qF n) r)) (scr n hn).1 (scr n hn).2.1 (scr n hn).2.2 := by
  intro n
  induction n using Nat.strong_induction_on with
  | _ n ih =>
    intro hn
    have h40 : n < 40 := lt_of_lt_of_eq hn hN
    obtain ⟨Sd, hrun, hdis, hseen⟩ := prev_run (x := x) (Wq := Wq) (Wk := Wk) (Wv := Wv) scr hN ⟨n, hn⟩
      (fun m hm hlt => ih m hlt hm)
    by_cases hd : isDiag n
    · have hkq : kF n = qF n := Fin.ext ((diag_iff ⟨n, h40⟩).mp hd)
      have hw : w3 ⟨n, hn⟩ = w1 ⟨n, hn⟩ :=
        (hw3 ⟨n, hn⟩).trans ((congrArg (BitVec.ofNat 32) ((diag_iff ⟨n, h40⟩).mp hd)).trans (hw1 ⟨n, hn⟩).symm)
      have hs : (w1 ⟨n, hn⟩).toNat < 4 := by
        rw [hw1 ⟨n, hn⟩, BitVec.toNat_ofNat]
        have h1 := qiOf_lt n
        show qiOf n % 2 ^ 32 < 4
        omega
      exact IsRun.of_eq (hdiag ⟨n, hn⟩ hd) hseen
        (isRun_diag hF (bF n) (qF n) (kF n) hkq (w1 ⟨n, hn⟩) (w3 ⟨n, hn⟩) hw hs (Q ⟨n, hn⟩) (K ⟨n, hn⟩) (Vb ⟨n, hn⟩)
          (hq ⟨n, hn⟩) (hk ⟨n, hn⟩) (hv ⟨n, hn⟩) Sd hdis _ _ _ hrun)
    · exact IsRun.of_eq (hoff ⟨n, hn⟩ hd) hseen
        (isRun_off hF (bF n) (qF n) (kF n) (off_lt ⟨n, h40⟩ hd) (Q ⟨n, hn⟩) (K ⟨n, hn⟩) (Vb ⟨n, hn⟩)
          (hq ⟨n, hn⟩) (hk ⟨n, hn⟩) (hv ⟨n, hn⟩) Sd hdis _ _ _ hrun)

end Trajectory

/-! ### The region's buffers, point by point -/

section Region

variable (V : (c : Dev nD) → (b : Ref sig .tc) → Buf (Elt Ideal) ((c : Thread nD τ).loc b)) (c : Dev nD)

/-- The three blocks staged at a point, and the two table words read there. -/
abbrev Qb (t : Fin (cfg1 aI).N) : Vec Ideal S1x1x512x1024 .bf16 := iblk1 V aI c 0 t
abbrev Kb (t : Fin (cfg1 aI).N) : Vec Ideal S1x1x512x1024 .bf16 := iblk1 V aI c 1 t
abbrev Vbk (t : Fin (cfg1 aI).N) : Vec Ideal S1x1x512x1024 .bf16 := iblk1 V aI c 2 t
abbrev wQ (t : Fin (cfg1 aI).N) : BitVec 32 := wordQ (F := Ideal) c (crd aI t) (aI.1 0)
abbrev wK (t : Fin (cfg1 aI).N) : BitVec 32 := wordK (F := Ideal) c (crd aI t) (aI.1 1)

/-- The three scratch arrays after position n. -/
abbrev scrAt (n : ℕ) (hn : n < (cfg1 aI).N) : St := (outsAt1 V aI tblFacts c n hn).2

set_option maxHeartbeats 400000 in
/-- No reset, below the diagonal: the unmasked step's terms over what the point before left. -/
theorem outD_scr (t : Fin (cfg1 aI).N) (hr : ¬ isReset t.val) (hd : ¬ isDiag t.val) (p : St) :
    (outD V aI tblFacts c t hr hd p).2
      = (k1_pay11 (F := Ideal) (Qb V c t) (Kb V c t) p.1, k1_pay9 (F := Ideal) (Qb V c t) (Kb V c t) p.1 p.2.1,
         k1_pay10 (F := Ideal) (Qb V c t) (Kb V c t) (Vbk V c t) p.1 p.2.2) := by
  refine Eq.trans ?_ (congrArg₂ Prod.mk (sout1_D_0_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) (fun h => hr ((tblFacts.reset c t).mp h)) (fun h => hd ((tblFacts.diag c t).mp h)) ((tblFacts.off c t).mpr hd) (fun h => hd ((tblFacts.fin c t).mp h)) (iblk1 V aI c 0 t) (iblk1 V aI c 1 t) (iblk1 V aI c 2 t) p.1 p.2.1 p.2.2)
    (congrArg₂ Prod.mk (sout1_D_1_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) (fun h => hr ((tblFacts.reset c t).mp h)) (fun h => hd ((tblFacts.diag c t).mp h)) ((tblFacts.off c t).mpr hd) (fun h => hd ((tblFacts.fin c t).mp h)) (iblk1 V aI c 0 t) (iblk1 V aI c 1 t) (iblk1 V aI c 2 t) p.1 p.2.1 p.2.2)
      (sout1_D_2_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) (fun h => hr ((tblFacts.reset c t).mp h)) (fun h => hd ((tblFacts.diag c t).mp h)) ((tblFacts.off c t).mpr hd) (fun h => hd ((tblFacts.fin c t).mp h)) (iblk1 V aI c 0 t) (iblk1 V aI c 1 t) (iblk1 V aI c 2 t) p.1 p.2.1 p.2.2)))
  unfold outD runD sout1_D_0 sout1_D_1 sout1_D_2 rd0 rd1 rd2
  dsimp only

set_option maxHeartbeats 400000 in
/-- Reset, below the diagonal: the unmasked step's terms over the reset constants. -/
theorem outB_scr (t : Fin (cfg1 aI).N) (hr : isReset t.val) (hd : ¬ isDiag t.val) :
    (outB V aI tblFacts c t hr hd).2
      = (k1_pay11 (F := Ideal) (Qb V c t) (Kb V c t) (k1_pay1 (F := Ideal)),
         k1_pay9 (F := Ideal) (Qb V c t) (Kb V c t) (k1_pay1 (F := Ideal)) (k1_pay2 (F := Ideal)),
         k1_pay10 (F := Ideal) (Qb V c t) (Kb V c t) (Vbk V c t) (k1_pay1 (F := Ideal)) (k1_pay3 (F := Ideal))) := by
  refine Eq.trans ?_ (congrArg₂ Prod.mk (sout1_B_0_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) ((tblFacts.reset c t).mpr hr) (fun h => hd ((tblFacts.diag c t).mp h)) ((tblFacts.off c t).mpr hd) (fun h => hd ((tblFacts.fin c t).mp h)) (iblk1 V aI c 0 t) (iblk1 V aI c 1 t) (iblk1 V aI c 2 t))
    (congrArg₂ Prod.mk (sout1_B_1_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) ((tblFacts.reset c t).mpr hr) (fun h => hd ((tblFacts.diag c t).mp h)) ((tblFacts.off c t).mpr hd) (fun h => hd ((tblFacts.fin c t).mp h)) (iblk1 V aI c 0 t) (iblk1 V aI c 1 t) (iblk1 V aI c 2 t))
      (sout1_B_2_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) ((tblFacts.reset c t).mpr hr) (fun h => hd ((tblFacts.diag c t).mp h)) ((tblFacts.off c t).mpr hd) (fun h => hd ((tblFacts.fin c t).mp h)) (iblk1 V aI c 0 t) (iblk1 V aI c 1 t) (iblk1 V aI c 2 t))))
  unfold outB runB sout1_B_0 sout1_B_1 sout1_B_2 rd0 rd1 rd2
  dsimp only

set_option maxHeartbeats 400000 in
/-- No reset, on the diagonal: the masked step's terms over what the point before left. -/
theorem outC_scr (t : Fin (cfg1 aI).N) (hr : ¬ isReset t.val) (hd : isDiag t.val) (p : St) :
    (outC V aI tblFacts c t hr hd p).2
      = (k1_pay19 (F := Ideal) (wQ c t) (wK c t) (k1_pay5 (F := Ideal) (Qb V c t) (Kb V c t)) p.1,
         k1_pay17 (F := Ideal) (wQ c t) (wK c t) (k1_pay5 (F := Ideal) (Qb V c t) (Kb V c t)) p.1 p.2.1,
         k1_pay18 (F := Ideal) (wQ c t) (wK c t) (k1_pay4 (F := Ideal) (Vbk V c t))
           (k1_pay5 (F := Ideal) (Qb V c t) (Kb V c t)) p.1 p.2.2) := by
  refine Eq.trans ?_ (congrArg₂ Prod.mk (sout1_C_0_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) (fun h => hr ((tblFacts.reset c t).mp h)) ((tblFacts.diag c t).mpr hd) (fun h => ((tblFacts.off c t).mp h) hd) ((tblFacts.fin c t).mpr hd) (iblk1 V aI c 0 t) (iblk1 V aI c 1 t) (iblk1 V aI c 2 t) p.1 p.2.1 p.2.2)
    (congrArg₂ Prod.mk (sout1_C_1_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) (fun h => hr ((tblFacts.reset c t).mp h)) ((tblFacts.diag c t).mpr hd) (fun h => ((tblFacts.off c t).mp h) hd) ((tblFacts.fin c t).mpr hd) (iblk1 V aI c 0 t) (iblk1 V aI c 1 t) (iblk1 V aI c 2 t) p.1 p.2.1 p.2.2)
      (sout1_C_2_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) (fun h => hr ((tblFacts.reset c t).mp h)) ((tblFacts.diag c t).mpr hd) (fun h => ((tblFacts.off c t).mp h) hd) ((tblFacts.fin c t).mpr hd) (iblk1 V aI c 0 t) (iblk1 V aI c 1 t) (iblk1 V aI c 2 t) p.1 p.2.1 p.2.2)))
  unfold outC runC sout1_C_0 sout1_C_1 sout1_C_2 rd0 rd1 rd2
  dsimp only

set_option maxHeartbeats 400000 in
/-- Reset, on the diagonal: the masked step's terms over the reset constants. -/
theorem outA_scr (t : Fin (cfg1 aI).N) (hr : isReset t.val) (hd : isDiag t.val) :
    (outA V aI tblFacts c t hr hd).2
      = (k1_pay19 (F := Ideal) (wQ c t) (wK c t) (k1_pay5 (F := Ideal) (Qb V c t) (Kb V c t)) (k1_pay1 (F := Ideal)),
         k1_pay17 (F := Ideal) (wQ c t) (wK c t) (k1_pay5 (F := Ideal) (Qb V c t) (Kb V c t)) (k1_pay1 (F := Ideal))
           (k1_pay2 (F := Ideal)),
         k1_pay18 (F := Ideal) (wQ c t) (wK c t) (k1_pay4 (F := Ideal) (Vbk V c t))
           (k1_pay5 (F := Ideal) (Qb V c t) (Kb V c t)) (k1_pay1 (F := Ideal)) (k1_pay3 (F := Ideal))) := by
  refine Eq.trans ?_ (congrArg₂ Prod.mk (sout1_A_0_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) ((tblFacts.reset c t).mpr hr) ((tblFacts.diag c t).mpr hd) (fun h => ((tblFacts.off c t).mp h) hd) ((tblFacts.fin c t).mpr hd) (iblk1 V aI c 0 t) (iblk1 V aI c 1 t) (iblk1 V aI c 2 t))
    (congrArg₂ Prod.mk (sout1_A_1_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) ((tblFacts.reset c t).mpr hr) ((tblFacts.diag c t).mpr hd) (fun h => ((tblFacts.off c t).mp h) hd) ((tblFacts.fin c t).mpr hd) (iblk1 V aI c 0 t) (iblk1 V aI c 1 t) (iblk1 V aI c 2 t))
      (sout1_A_2_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) ((tblFacts.reset c t).mpr hr) ((tblFacts.diag c t).mpr hd) (fun h => ((tblFacts.off c t).mp h) hd) ((tblFacts.fin c t).mpr hd) (iblk1 V aI c 0 t) (iblk1 V aI c 1 t) (iblk1 V aI c 2 t))))
  unfold outA runA sout1_A_0 sout1_A_1 sout1_A_2 rd0 rd1 rd2
  dsimp only

set_option maxHeartbeats 400000 in
/-- No reset, on the diagonal: the output block is the quotient term of the new weighted sum and the new sum. -/
theorem outC_out (t : Fin (cfg1 aI).N) (hr : ¬ isReset t.val) (hd : isDiag t.val) (p : St) :
    (outC V aI tblFacts c t hr hd p).1
      = k1_pay12 (F := Ideal)
          (k1_pay18 (F := Ideal) (wQ c t) (wK c t) (k1_pay4 (F := Ideal) (Vbk V c t))
            (k1_pay5 (F := Ideal) (Qb V c t) (Kb V c t)) p.1 p.2.2)
          (k1_pay17 (F := Ideal) (wQ c t) (wK c t) (k1_pay5 (F := Ideal) (Qb V c t) (Kb V c t)) p.1 p.2.1) := by
  refine Eq.trans ?_ (out1_C_7_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) (fun h => hr ((tblFacts.reset c t).mp h)) ((tblFacts.diag c t).mpr hd) (fun h => ((tblFacts.off c t).mp h) hd) ((tblFacts.fin c t).mpr hd) (iblk1 V aI c 0 t) (iblk1 V aI c 1 t) (iblk1 V aI c 2 t) p.1 p.2.1 p.2.2)
  unfold outC runC out1_C_7 rd7
  dsimp only

set_option maxHeartbeats 400000 in
/-- Reset, on the diagonal: the same over the reset constants. -/
theorem outA_out (t : Fin (cfg1 aI).N) (hr : isReset t.val) (hd : isDiag t.val) :
    (outA V aI tblFacts c t hr hd).1
      = k1_pay12 (F := Ideal)
          (k1_pay18 (F := Ideal) (wQ c t) (wK c t) (k1_pay4 (F := Ideal) (Vbk V c t))
            (k1_pay5 (F := Ideal) (Qb V c t) (Kb V c t)) (k1_pay1 (F := Ideal)) (k1_pay3 (F := Ideal)))
          (k1_pay17 (F := Ideal) (wQ c t) (wK c t) (k1_pay5 (F := Ideal) (Qb V c t) (Kb V c t)) (k1_pay1 (F := Ideal))
            (k1_pay2 (F := Ideal))) := by
  refine Eq.trans ?_ (out1_A_7_eq c (crd aI t) (ms1_0 aI t) (hs1_0 aI t) (ms1_1 aI t) (hs1_1 aI t) (ms1_2 aI t) (hs1_2 aI t) (ms1_3 aI t) (hs1_3 aI t) scM1_0 (Memref.isWhole_whole _) scM1_1 (Memref.isWhole_whole _) scM1_2 (Memref.isWhole_whole _) (aI.1 0) (aI.1 1) ((tblFacts.reset c t).mpr hr) ((tblFacts.diag c t).mpr hd) (fun h => ((tblFacts.off c t).mp h) hd) ((tblFacts.fin c t).mpr hd) (iblk1 V aI c 0 t) (iblk1 V aI c 1 t) (iblk1 V aI c 2 t))
  unfold outA runA out1_A_7 rd7
  dsimp only

/-- Below the diagonal: the scratch after the point, over the state the point starts from. -/
theorem scr_off (t : Fin (cfg1 aI).N) (hd : ¬ isDiag t.val) :
    scrAt V c t.val t.isLt
      = (k1_pay11 (F := Ideal) (Qb V c t) (Kb V c t) (prevOf (scrAt V c) t).1,
         k1_pay9 (F := Ideal) (Qb V c t) (Kb V c t) (prevOf (scrAt V c) t).1 (prevOf (scrAt V c) t).2.1,
         k1_pay10 (F := Ideal) (Qb V c t) (Kb V c t) (Vbk V c t) (prevOf (scrAt V c) t).1 (prevOf (scrAt V c) t).2.2) := by
  by_cases hr : isReset t.val
  · refine (congrArg Prod.snd (outsAt1_B V aI tblFacts c t hr hd)).trans ((outB_scr V c t hr hd).trans ?_)
    unfold prevOf
    rw [if_pos hr]
  · refine (congrArg Prod.snd (outsAt1_D V aI tblFacts c t hr hd)).trans ((outD_scr V c t hr hd _).trans ?_)
    unfold prevOf
    rw [if_neg hr]

/-- On the diagonal: the scratch after the point, over the state the point starts from. -/
theorem scr_diag (t : Fin (cfg1 aI).N) (hd : isDiag t.val) :
    scrAt V c t.val t.isLt
      = (k1_pay19 (F := Ideal) (wQ c t) (wK c t) (k1_pay5 (F := Ideal) (Qb V c t) (Kb V c t)) (prevOf (scrAt V c) t).1,
         k1_pay17 (F := Ideal) (wQ c t) (wK c t) (k1_pay5 (F := Ideal) (Qb V c t) (Kb V c t)) (prevOf (scrAt V c) t).1
           (prevOf (scrAt V c) t).2.1,
         k1_pay18 (F := Ideal) (wQ c t) (wK c t) (k1_pay4 (F := Ideal) (Vbk V c t))
           (k1_pay5 (F := Ideal) (Qb V c t) (Kb V c t)) (prevOf (scrAt V c) t).1 (prevOf (scrAt V c) t).2.2) := by
  by_cases hr : isReset t.val
  · refine (congrArg Prod.snd (outsAt1_A V aI tblFacts c t hr hd)).trans ((outA_scr V c t hr hd).trans ?_)
    unfold prevOf
    rw [if_pos hr]
  · refine (congrArg Prod.snd (outsAt1_C V aI tblFacts c t hr hd)).trans ((outC_scr V c t hr hd _).trans ?_)
    unfold prevOf
    rw [if_neg hr]

/-- On the diagonal the output block is the quotient term of the weighted sum and the sum the point leaves. -/
theorem out_diag (t : Fin (cfg1 aI).N) (hd : isDiag t.val) :
    (outsAt1 V aI tblFacts c t.val t.isLt).1
      = k1_pay12 (F := Ideal) (scrAt V c t.val t.isLt).2.2 (scrAt V c t.val t.isLt).2.1 := by
  rw [scr_diag V c t hd]
  by_cases hr : isReset t.val
  · refine (congrArg Prod.fst (outsAt1_A V aI tblFacts c t hr hd)).trans ((outA_out V c t hr hd).trans ?_)
    unfold prevOf
    rw [if_pos hr]
  · refine (congrArg Prod.fst (outsAt1_C V aI tblFacts c t hr hd)).trans ((outC_out V c t hr hd _).trans ?_)
    unfold prevOf
    rw [if_neg hr]

variable {x : Cert.Spec.Inp} {Wq Wk Wv : Cert.Spec.Wgt} (hF : Cert.Spec.Finite x Wq Wk Wv)
  (hq : ∀ (t : Fin (cfg1 aI).N) (r : Fin 512) (k : Fin 1024),
    iblk1 V aI c 0 t (ix4 (0 : Fin 1) (0 : Fin 1) r k) = Cert.Spec.proj x Wq (bF t.val) (Cert.Tile.row (qF t.val) r) k)
  (hk : ∀ (t : Fin (cfg1 aI).N) (j : Fin 512) (k : Fin 1024),
    iblk1 V aI c 1 t (ix4 (0 : Fin 1) (0 : Fin 1) j k) = Cert.Spec.proj x Wk (bF t.val) (Cert.Tile.row (kF t.val) j) k)
  (hv : ∀ (t : Fin (cfg1 aI).N) (j : Fin 512) (f : Fin 1024),
    iblk1 V aI c 2 t (ix4 (0 : Fin 1) (0 : Fin 1) j f) = Cert.Spec.proj x Wv (bF t.val) (Cert.Tile.row (kF t.val) j) f)

include hF hq hk hv

/-- After every point the three scratch buffers hold the specification's running quantities of the point's
    batch and query tile over the keys of the key tiles up to the point's, at or before each row's query. -/
theorem scratch_run (n : ℕ) (hn : n < (cfg1 aI).N) :
    IsRun x Wq Wk Wv (bF n) (qF n) (fun r => seen (kF n) (row (qF n) r))
      (outsAt1 V aI tblFacts c n hn).2.1 (outsAt1 V aI tblFacts c n hn).2.2.1 (outsAt1 V aI tblFacts c n hn).2.2.2 :=
  traj_inv (scrAt V c) (Qb V c) (Kb V c) (Vbk V c) (wQ c) (wK c) hF tblFacts.n40
    (scr_off V c) (scr_diag V c) (wordQ_eq c) (wordK_eq c) hq hk hv n hn

/-- After a diagonal point the output block holds the attention output of the point's batch at the rows of its
    query tile. -/
theorem out_block (t : Fin (cfg1 aI).N) (hd : isDiag t.val) (r : Fin 512) (f : Fin 1024) :
    (outsAt1 V aI tblFacts c t.val t.isLt).1 (ix3 (0 : Fin 1) r f)
      = Cert.Spec.attn x Wq Wk Wv (bF t.val) (Cert.Tile.row (qF t.val) r) f := by
  obtain ⟨_, hl, ha⟩ := scratch_run V c hF hq hk hv t.val t.isLt r
  have hkq : kF t.val = qF t.val :=
    Fin.ext ((diag_iff ⟨t.val, lt_of_lt_of_eq t.isLt tblFacts.n40⟩).mp hd)
  refine (congrFun (out_diag V c t hd) _).trans ?_
  refine (pay12_apply _ _ r f).trans ?_
  rw [ha f, hl, hkq]
  exact finish hF (bF t.val) (qF t.val) r f

end Region

end Cert.KernelIdeal.HandValue

end
-- ==== Proof.Region0Value.lean ====
import proofs.«418573_j77876347011327_3_alg».proof.Proof.Region0
import proofs.«418573_j77876347011327_3_alg».proof.Proof.LibRowProducts
import Idealize.ShloMosaic.Lib.Pipeline.Value
import Idealize.ShloMosaic.Lib.ValueIdx
import Idealize.ShloMosaic.Lib.ValueLayout
import Idealize.ShloMosaic.PureOps.Ideal.Laws

/-!
# Region 0 at the ideal values: the result array, entry by entry

The projection kernel runs on 24 grid points; point `t` is row tile `t / 3` and weight third
`t % 3`. At the ideal values a change of format is the identity and the product accumulates exactly
from zero, so the body's payload at entry `(p, q)` of its block is the plain sum
`∑ e, x (p, e) · w (e, q)` of the activations' row tile against 1024 columns of the weights.

Row `p` of the row tile at point `t` is row `(t / 3) * 1024 + p` of the activations array, the weight
block is the whole weight array, and the columns read are `(t % 3) * 1024 + q`. So what point `t`
writes back is block `(t % 3, t / 3, 0)` of ONE function `proj` of the two arrays,

  `proj x w (j, r, n) = ∑ e, x (r, e) · w (e, j * 1024 + n)`,

and the 24 blocks tile the result array: entry `(j, r, n)` lies in the block of point
`(r / 1024) * 3 + j`. Hence the result array after the region is `proj` of the activations and the
weights as the region found them (`proj_arr`).
-/

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffer contents when the region is entered
variable (V : (c : Dev nD) → (b : Ref sig .tc) → Buf (Elt Ideal) ((c : Thread nD τ).loc b))

/-! ## The payload at an entry -/

/-- The product contracts the columns of its left operand with the rows of its right operand, keeps
    the left rows and the right columns, and batches nothing: a plain matrix product. -/
theorem dims_plain : Cert.Lib.RowProducts.Plain (n := 1024) (K := 1024) (c := 1024)
    dot_S1024x1024_S1024x1024_S1024x1024_1_0_0_1_n_n := ⟨rfl, rfl, rfl, rfl, rfl, rfl⟩

theorem zeros2 : (![0, 0] : Fin 2 → Nat) = fun _ => 0 := funext fun a => by fin_cases a <;> rfl
theorem zeros3 : (![0, 0, 0] : Fin 3 → Nat) = fun _ => 0 := funext fun a => by fin_cases a <;> rfl

set_option maxHeartbeats 400000 in
/-- The payload at entry `(p, q)` of its block: the sum over the shared axis of the activations' row
    `p` against the weight slice's column `q`. The two changes of format are the identity at the
    ideal values, the accumulator is zero, and the leading unit axis of the stored block carries
    nothing. -/
theorem payload_entry (x0 : Vec Ideal S1024x1024 .f32) (w6 : Vec Ideal S1024x1024 .bf16) (u : Fin 1) (p q : Fin 1024) :
    k0_pay1 (F := Ideal) x0 w6 (ix3 u p q) = ∑ e : Fin 1024, x0 (ix2 p e) * w6 (ix2 e q) := by
  unfold k0_pay1
  refine (shapeCast_ab_1ab_apply _ _ u p q).trans ?_
  refine ((Ideal.matmul_constant_zero_apply (φ₁ := .bf16) (φ₂ := .bf16) _ none _ _ _).trans (dims_plain.sum_eq _ _ _)).trans ?_
  refine Finset.sum_congr rfl fun e _ => ?_
  rw [shapeCast_self, shapeCast_self]
  rfl

set_option maxHeartbeats 400000 in
/-- What the body leaves at an entry `y = (0, p, q)` of the output block at grid point `i`, from the
    activations block `x0` and the whole weight array `w0`: row `p` of `x0` against column
    `1024 * i 1 + q` of `w0` — the weight slice of the point starts at column `1024 * i 1`. -/
theorem out_entry (i : grid0.Coords) (x0 : Vec Ideal S1024x1024 .f32) (w0 : Vec Ideal S1024x3072 .bf16)
    (y : S1x1024x1024.Idx) (p q : Fin 1024) (col : Fin 3072)
    (hp : (y 1).val = p.val) (hq : (y 2).val = q.val) (hcol : col.val = 1024 * (i 1).val + q.val) :
    out0_2 i x0 w0 y = ∑ e : Fin 1024, x0 (ix2 p e) * w0 (ix2 e col) := by
  have hy : y = ix3 (0 : Fin 1) p q := by
    funext a
    match a with
    | ⟨0, _⟩ => exact Fin.ext (by have h : (y 0).val < 1 := (y 0).isLt; show (y 0).val = 0; omega)
    | ⟨1, _⟩ => exact Fin.ext hp
    | ⟨2, _⟩ => exact Fin.ext hq
  rw [hy]
  unfold out0_2
  rw [View.canon_unit_zero zeros3]
  refine (payload_entry _ _ 0 p q).trans ?_
  refine Finset.sum_congr rfl fun e _ => ?_
  refine congrArg₂ (· * ·) ?_ ?_
  · exact congrFun (View.ld_unit_zero (S := S1024x1024) zeros2 _ x0) (ix2 p e)
  · show w0 ((r0_1 i).idx (ix2 e q)) = w0 (ix2 e col)
    refine congrArg w0 (funext fun a => Fin.ext ?_)
    match a with
    | ⟨0, _⟩ =>
      show k0_off1 i 0 + 1 * e.val = e.val
      rw [k0_off1_eq i]; show 0 + 1 * e.val = e.val; omega
    | ⟨1, _⟩ =>
      show k0_off1 i 1 + 1 * q.val = col.val
      rw [k0_off1_eq i, hcol]; show 1024 * (i 1).val + 1 * q.val = _; omega

/-! ## The index maps over the grid -/

/-- Over the 24 points: the activations' block index is `(t / 3, 0)`, the weights' is `(0, 0)`, the
    output's is `(t % 3, t / 3, 0)`, and the point's second coordinate is `t % 3`. -/
theorem index_maps : ∀ t : Fin cfg0.N,
    win0_0.index t (0 : Fin 2) = t.val / 3 ∧ win0_0.index t (1 : Fin 2) = 0
    ∧ win0_1.index t (0 : Fin 2) = 0 ∧ win0_1.index t (1 : Fin 2) = 0
    ∧ win0_2.index t (0 : Fin 3) = t.val % 3 ∧ win0_2.index t (1 : Fin 3) = t.val / 3 ∧ win0_2.index t (2 : Fin 3) = 0
    ∧ ((grid0.coords t) 1).val = t.val % 3 :=
  (by decide +kernel : ∀ t : Fin grid0.N, _)

/-! ## The input blocks as parts of the arrays -/

set_option maxHeartbeats 400000 in
/-- Entry `(y0, y1)` of the activations block at point `t` is entry `((t / 3) * 1024 + y0, y1)` of the
    activations array. -/
theorem x_block_entry (c : Dev nD) (t : Fin cfg0.N) (y : S1024x1024.Idx) (k : S8192x1024.Idx)
    (hk0 : (k 0).val = t.val / 3 * 1024 + (y 0).val) (hk1 : (k 1).val = (y 1).val) :
    (iblk0 V c 0 t : Vec Ideal S1024x1024 .f32) y = (V c main_v3 : S8192x1024.Idx → EReal) k := by
  obtain ⟨e0, e1, -⟩ := index_maps t
  unfold iblk0
  rw [View.read_apply]
  show V c main_v3 _ = V c main_v3 _
  congr 1
  funext a
  apply Fin.ext
  match a with
  | ⟨0, _⟩ => show win0_0.index t 0 * 1024 + 1 * (y 0).val = (k 0).val; rw [e0, hk0]; omega
  | ⟨1, _⟩ => show win0_0.index t 1 * 1024 + 1 * (y 1).val = (k 1).val; rw [e1, hk1]; omega

set_option maxHeartbeats 400000 in
/-- The weights block at every point is the whole weight array. -/
theorem w_block_entry (c : Dev nD) (t : Fin cfg0.N) (y : S1024x3072.Idx) :
    (iblk0 V c 1 t : Vec Ideal S1024x3072 .bf16) y = (V c main_v2 : S1024x3072.Idx → EReal) y := by
  obtain ⟨-, -, e2, e3, -⟩ := index_maps t
  unfold iblk0
  rw [View.read_apply]
  show V c main_v2 _ = V c main_v2 _
  congr 1
  funext a
  apply Fin.ext
  match a with
  | ⟨0, _⟩ => show win0_1.index t 0 * 1024 + 1 * (y 0).val = (y 0).val; rw [e2]; omega
  | ⟨1, _⟩ => show win0_1.index t 1 * 3072 + 1 * (y 1).val = (y 1).val; rw [e3]; omega

/-! ## The whole result as one function of the two arrays -/

theorem col_lt (i : S3x8192x1024.Idx) : (i 0).val * 1024 + (i 2).val < 3072 := by
  have h0 : (i 0).val < 3 := (i 0).isLt
  have h2 : (i 2).val < 1024 := (i 2).isLt
  omega

/-- The projection of activations `x3` by weights `w2`: entry `(j, r, n)` is row `r` of `x3` against
    column `j * 1024 + n` of `w2`. -/
def proj (x3 : S8192x1024.Idx → EReal) (w2 : S1024x3072.Idx → EReal) : S3x8192x1024.Idx → EReal := fun i =>
  ∑ e : Fin 1024, x3 (ix2 (⟨(i 1).val, (i 1).isLt⟩ : Fin 8192) e) * w2 (ix2 e (⟨(i 0).val * 1024 + (i 2).val, col_lt i⟩ : Fin 3072))

/-- `proj` at an entry named by its coordinates. -/
theorem proj_entry (x3 : S8192x1024.Idx → EReal) (w2 : S1024x3072.Idx → EReal) (j : Fin 3) (r : Fin 8192) (n : Fin 1024) :
    proj x3 w2 (ix3 j r n) = ∑ e : Fin 1024, x3 (ix2 r e) * w2 (ix2 e ⟨j.val * 1024 + n.val, by omega⟩) := rfl

set_option maxHeartbeats 400000 in
/-- What point `t` writes back is block `(t % 3, t / 3, 0)` of `proj` of the two arrays: entry
    `(0, y1, y2)` of the block is array entry `(t % 3, (t / 3) * 1024 + y1, y2)`, its row of the
    activations is row `y1` of the point's row tile, and its column of the weights is
    `(t % 3) * 1024 + y2`. -/
theorem writes_block (c : Dev nD) (t : Fin cfg0.N) :
    (dat0 V c).flushed 2 t = ((cfg0.win 2).blk t).view.read (Elt Ideal) (proj (V c main_v3) (V c main_v2)) := by
  show (cfg0.win 2).cut (grid0.coords t) ((dat0 V c).after 2 t) = _
  rw [after0_2]
  funext y
  rw [View.read_apply]
  obtain ⟨-, -, -, -, e4, e5, e6, e7⟩ := index_maps t
  have hy0 : (y 0).val < 1 := (y 0).isLt
  have hy1 : (y 1).val < 1024 := (y 1).isLt
  have hy2 : (y 2).val < 1024 := (y 2).isLt
  have k0 : ((((cfg0.win 2).blk t).view.emb y) 0).val = t.val % 3 := by
    show win0_2.index t 0 * 1 + 1 * (y 0).val = _; rw [e4]; omega
  have k1 : ((((cfg0.win 2).blk t).view.emb y) 1).val = t.val / 3 * 1024 + (y 1).val := by
    show win0_2.index t 1 * 1024 + 1 * (y 1).val = _; rw [e5]; omega
  have k2 : ((((cfg0.win 2).blk t).view.emb y) 2).val = (y 2).val := by
    show win0_2.index t 2 * 1024 + 1 * (y 2).val = _; rw [e6]; omega
  have ht : t.val % 3 < 3 := Nat.mod_lt _ (by decide)
  refine (out_entry (grid0.coords t) _ _ _ ⟨(y 1).val, hy1⟩ ⟨(y 2).val, hy2⟩ ⟨t.val % 3 * 1024 + (y 2).val, by omega⟩ rfl rfl ?_).trans ?_
  · show t.val % 3 * 1024 + (y 2).val = 1024 * ((grid0.coords t) 1).val + (y 2).val
    rw [e7]; omega
  · unfold proj
    refine Finset.sum_congr rfl fun e _ => ?_
    refine congrArg₂ (· * ·) ?_ ?_
    · exact x_block_entry V c t _ _ k1 rfl
    · refine (w_block_entry V c t _).trans ?_
      refine congrArg (V c main_v2 : S1024x3072.Idx → EReal) ?_
      funext a
      match a with
      | ⟨0, _⟩ => rfl
      | ⟨1, _⟩ => exact Fin.ext (by show t.val % 3 * 1024 + (y 2).val = _ * 1024 + _; rw [k0, k2])

/-! ## Every entry of the result lies in some point's block -/

/-- An entry of the result array is in point `t`'s block iff each coordinate is in the block's range
    on its axis. -/
theorem mem_out_block (t : Fin cfg0.N) (i : S3x8192x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v4).slice (win0_2.rect t)).set ↔ _
  rw [View.set_slice_whole, Rect.mem_set_unit]
  exact Iff.rfl

set_option maxHeartbeats 400000 in
/-- Entry `(j, r, n)` lies in the block of point `(r / 1024) * 3 + j`, which writes its block back. -/
theorem covered (i : S3x8192x1024.Idx) :
    ∃ t : Fin cfg0.N, (cfg0.win 2).flush t = true ∧ i ∈ ((cfg0.win 2).blk t).view.set := by
  have h0 : (i 0).val < 3 := (i 0).isLt
  have h1 : (i 1).val < 8192 := (i 1).isLt
  have h2 : (i 2).val < 1024 := (i 2).isLt
  have hN : cfg0.N = 24 := N_0
  obtain ⟨t, ht⟩ : ∃ t : Fin cfg0.N, t.val = (i 1).val / 1024 * 3 + (i 0).val :=
    ⟨⟨(i 1).val / 1024 * 3 + (i 0).val, by rw [hN]; omega⟩, rfl⟩
  obtain ⟨-, -, -, -, e4, e5, e6, -⟩ := index_maps t
  refine ⟨t, flush0_2 t, ?_⟩
  rw [mem_out_block]
  intro a
  match a with
  | ⟨0, _⟩ =>
    show win0_2.index t 0 * 1 ≤ (i 0).val ∧ (i 0).val < win0_2.index t 0 * 1 + 1
    rw [e4, ht]; omega
  | ⟨1, _⟩ =>
    show win0_2.index t 1 * 1024 ≤ (i 1).val ∧ (i 1).val < win0_2.index t 1 * 1024 + 1024
    rw [e5, ht]; omega
  | ⟨2, _⟩ =>
    show win0_2.index t 2 * 1024 ≤ (i 2).val ∧ (i 2).val < win0_2.index t 2 * 1024 + 1024
    rw [e6]; omega

/-! ## The result array after the region -/

/-- The result array after the region is `proj` of the activations and the weights as the region
    found them: every point writes its block of `proj`, and the blocks cover the array. -/
theorem arr_eq_proj (c : Dev nD) : (dat0 V c).arrAt 2 cfg0.N = proj (V c main_v3) (V c main_v2) :=
  (dat0 V c).arrAt_eq_of_cover 2 (proj (V c main_v3) (V c main_v2)) (fun t _ => writes_block V c t) covered

/-- The result array after the region, entry by entry, as a plain sum. -/
theorem proj_arr (c : Dev nD) (j : Fin 3) (r : Fin 8192) (n : Fin 1024) :
    ((Cert.KernelIdeal.Hand.dat0 (F := Ideal) V c).arrAt 2 cfg0.N : S3x8192x1024.Idx → EReal) (ValueIdx.ix3 j r n)
      = Finset.sum (M := EReal) Finset.univ fun e : Fin 1024 =>
          HMul.hMul (α := EReal) (β := EReal) (γ := EReal) ((V c main_v3 : S8192x1024.Idx → EReal) (ValueIdx.ix2 r e))
            ((V c main_v2 : S1024x3072.Idx → EReal) (ValueIdx.ix2 e ⟨j.val * 1024 + n.val, by omega⟩)) :=
  congrFun (arr_eq_proj V c) (ix3 j r n)

end Cert.KernelIdeal.HandValue

end
-- ==== Proof.Qkv.lean ====
import proofs.«418573_j77876347011327_3_alg».proof.Proof.RunBase
import proofs.«418573_j77876347011327_3_alg».proof.Proof.Region0Value
import proofs.«418573_j77876347011327_3_alg».proof.Proof.Spec
import Idealize.ShloMosaic.Lib.ValueIdx
import Idealize.ShloMosaic.Lib.ValueLayout
import Idealize.ShloMosaic.Lib.Pipeline.Value
import Idealize.ShloMosaic.PureOps.Ideal

/-!
# The three projections as the attention region finds them

Before the attention region the program stacks the three weight matrices row-wise into one
[3072, 1024] matrix, transposes it to [1024, 3072], narrows its format (the identity at the ideal
values), flattens the input [4, 2048, 1024] to [8192, 1024], runs the projection region and splits
the 8192 rows of its result [3, 8192, 1024] back into [3, 4, 2048, 1024].

Entry (j, b, s, k) of that last array sits at the flat position of entry (j, b * 2048 + s, k) of the
region's result, which is the sum over e of row b * 2048 + s of the flattened input against
column j * 1024 + k of the transposed stack. Row b * 2048 + s of the flattened input is position s
of batch b; column j * 1024 + k of the transposed stack is row j * 1024 + k of the stack, that is
row k of the j-th weight matrix. So entry (j, b, s, k) is the projection of the input by the j-th
weight matrix at (b, s, k).
-/

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The input array read by batch, position and feature. -/
def inpK (a : S4x2048x1024.Idx → EReal) : Cert.Spec.Inp := fun b s e => a (ValueIdx.ix3 b s e)
/-- A weight array read by output feature and input feature. -/
def wgtK (a : S1024x1024.Idx → EReal) : Cert.Spec.Wgt := fun k e => a (ValueIdx.ix2 k e)

variable (m : (ℓ : Loc nD τ sig) → Buf (Elt Ideal) ℓ) (ρ : Dev nD → PrngReg)

/-! ## The split of the rows read at an index -/

set_option maxHeartbeats 400000 in
/-- Entry (j, b, s, k) of the split array is entry (j, b * 2048 + s, k) of the region's result. -/
theorem v5_entry (c : Dev nD) (j : Fin 3) (b : Fin 4) (s : Fin 2048) (k : Fin 1024) :
    (V3 (F := Ideal) m ρ c main_v5 : S3x4x2048x1024.Idx → EReal) (ix4 j b s k)
      = (W2 (F := Ideal) m ρ c (Proc.devRef .tc main_v4) : S3x8192x1024.Idx → EReal)
          (ix3 j (⟨b.val * 2048 + s.val, by omega⟩ : Fin 8192) k) := by
  refine (congrFun (V3_main_v5 (F := Ideal) m ρ c) _).trans ?_
  refine shapeCast_apply (s := S3x8192x1024) (t := S3x4x2048x1024) _ _ _ _ ?_
  rw [Shape.rowMajor_val_three, Shape.rowMajor_val_four]
  show (j.val * 8192 + (b.val * 2048 + s.val)) * 1024 + k.val = ((j.val * 4 + b.val) * 2048 + s.val) * 1024 + k.val
  omega

/-! ## The flattened input read at an index -/

set_option maxHeartbeats 400000 in
/-- Row b * 2048 + s of the flattened input is position s of batch b. -/
theorem v3_entry (c : Dev nD) (b : Fin 4) (s : Fin 2048) (e : Fin 1024) :
    (V1 (F := Ideal) m ρ c main_v3 : S8192x1024.Idx → EReal) (ix2 (⟨b.val * 2048 + s.val, by omega⟩ : Fin 8192) e)
      = (m ((c : Thread nD τ).loc main_arg0) : S4x2048x1024.Idx → EReal) (ix3 b s e) := by
  refine (congrFun (V1_main_v3 (F := Ideal) m ρ c) _).trans ?_
  refine shapeCast_apply (s := S4x2048x1024) (t := S8192x1024) _ _ _ _ ?_
  rw [Shape.rowMajor_val_three, Shape.rowMajor_val_two]
  rfl

/-! ## The transposed stack of the weights read at an index -/

/-- Off the stacking axis a piece's index and the stack's agree: the one other axis is the columns. -/
theorem cols_agree (k e : Fin 1024) (row : Fin 3072) :
    ∀ a : Fin S1024x1024.rank, a.cast (rfl : S1024x1024.rank = S3072x1024.rank) ≠ (0 : Fin S3072x1024.rank) →
      ((ix2 k e : S1024x1024.Idx) a).val = ((ix2 row e : S3072x1024.Idx) (a.cast rfl)).val := fun a =>
  match a with
  | ⟨0, _⟩ => fun h => absurd rfl h
  | ⟨1, _⟩ => fun _ => rfl

set_option maxHeartbeats 400000 in
/-- Entry (e, col) of the region's weight array is entry (col, e) of the stack: the narrowing of the
    format is the identity at the ideal values and the transpose swaps the two coordinates. -/
theorem v2_entry (c : Dev nD) (e : Fin 1024) (col : Fin 3072) :
    (V1 (F := Ideal) m ρ c main_v2 : S1024x3072.Idx → EReal) (ix2 e col)
      = concatenate (α := EReal) S3072x1024 0
          [⟨S1024x1024, (m ((c : Thread nD τ).loc main_arg1) : S1024x1024.Idx → EReal)⟩,
           ⟨S1024x1024, (m ((c : Thread nD τ).loc main_arg2) : S1024x1024.Idx → EReal)⟩,
           ⟨S1024x1024, (m ((c : Thread nD τ).loc main_arg3) : S1024x1024.Idx → EReal)⟩]
          concatenates_S1024x1024_S1024x1024_S1024x1024_S3072x1024_d0 (ix2 col e) := by
  refine (congrFun (V1_main_v2 (F := Ideal) m ρ c) _).trans ?_
  refine (truncf_apply (ψ := .bf16) (φ := .f32) _ bitsLt_bf16_f32 _).trans ?_
  exact transpose_ix2_apply _ _ e col

set_option maxHeartbeats 400000 in
/-- Rows 0 to 1023 of the stack are the first weight matrix. -/
theorem w_entry0 (c : Dev nD) (e k : Fin 1024) (col : Fin 3072) (hcol : col.val = k.val) :
    (V1 (F := Ideal) m ρ c main_v2 : S1024x3072.Idx → EReal) (ix2 e col)
      = (m ((c : Thread nD τ).loc main_arg1) : S1024x1024.Idx → EReal) (ix2 k e) := by
  refine (v2_entry m ρ c e col).trans ?_
  refine concatenate_apply_piece (0 : Fin S3072x1024.rank) _ _ _ 0 (by show (_ : Nat) < 3; omega) S1024x1024 _ rfl rfl 0 rfl (ix2 k e)
    (cols_agree k e col) ?_
  show 0 + k.val = col.val
  omega

set_option maxHeartbeats 400000 in
/-- Rows 1024 to 2047 of the stack are the second weight matrix. -/
theorem w_entry1 (c : Dev nD) (e k : Fin 1024) (col : Fin 3072) (hcol : col.val = 1024 + k.val) :
    (V1 (F := Ideal) m ρ c main_v2 : S1024x3072.Idx → EReal) (ix2 e col)
      = (m ((c : Thread nD τ).loc main_arg2) : S1024x1024.Idx → EReal) (ix2 k e) := by
  refine (v2_entry m ρ c e col).trans ?_
  refine concatenate_apply_piece (0 : Fin S3072x1024.rank) _ _ _ 1 (by show (_ : Nat) < 3; omega) S1024x1024 _ rfl rfl 1024 rfl (ix2 k e)
    (cols_agree k e col) ?_
  show 1024 + k.val = col.val
  omega

set_option maxHeartbeats 400000 in
/-- Rows 2048 to 3071 of the stack are the third weight matrix. -/
theorem w_entry2 (c : Dev nD) (e k : Fin 1024) (col : Fin 3072) (hcol : col.val = 2048 + k.val) :
    (V1 (F := Ideal) m ρ c main_v2 : S1024x3072.Idx → EReal) (ix2 e col)
      = (m ((c : Thread nD τ).loc main_arg3) : S1024x1024.Idx → EReal) (ix2 k e) := by
  refine (v2_entry m ρ c e col).trans ?_
  refine concatenate_apply_piece (0 : Fin S3072x1024.rank) _ _ _ 2 (by show (_ : Nat) < 3; omega) S1024x1024 _ rfl rfl 2048 rfl (ix2 k e)
    (cols_agree k e col) ?_
  show 2048 + k.val = col.val
  omega

/-! ## The three projections -/

set_option maxHeartbeats 400000 in
/-- Entry (j, b, s, k) of the split array is the projection of the input by a weight array A, once
    column j * 1024 + k of the region's weight array is known to be row k of A. -/
theorem qkv_at (c : Dev nD) (j : Fin 3) (b : Fin 4) (s : Fin 2048) (k : Fin 1024) (A : S1024x1024.Idx → EReal)
    (hA : ∀ e : Fin 1024, (V1 (F := Ideal) m ρ c main_v2 : S1024x3072.Idx → EReal)
        (ix2 e (⟨j.val * 1024 + k.val, by omega⟩ : Fin 3072)) = A (ix2 k e)) :
    (V3 (F := Ideal) m ρ c main_v5 : S3x4x2048x1024.Idx → EReal) (ix4 j b s k)
      = Cert.Spec.proj (inpK (m ((c : Thread nD τ).loc main_arg0))) (wgtK A) b s k := by
  refine (v5_entry m ρ c j b s k).trans ?_
  refine (congrFun (W2_arr (F := Ideal) m ρ c 2) _).trans ?_
  refine (proj_arr (V1 (F := Ideal) m ρ) c j _ k).trans ?_
  unfold Cert.Spec.proj
  change @Eq EReal _ _
  refine Finset.sum_congr rfl fun e _ => ?_
  exact congrArg₂ (· * ·) (v3_entry m ρ c b s e) (hA e)

/-- The array the attention region reads holds the three projections of the specification: the
    queries, the keys and the values, each the input against its own weight matrix. -/
theorem qkv (c : Dev nD) (b : Fin 4) (s : Fin 2048) (k : Fin 1024) :
    (V3 (F := Ideal) m ρ c main_v5 : S3x4x2048x1024.Idx → EReal) (ValueIdx.ix4 0 b s k)
        = Cert.Spec.proj (inpK (m ((c : Thread nD τ).loc main_arg0))) (wgtK (m ((c : Thread nD τ).loc main_arg1))) b s k
      ∧ (V3 (F := Ideal) m ρ c main_v5 : S3x4x2048x1024.Idx → EReal) (ValueIdx.ix4 1 b s k)
        = Cert.Spec.proj (inpK (m ((c : Thread nD τ).loc main_arg0))) (wgtK (m ((c : Thread nD τ).loc main_arg2))) b s k
      ∧ (V3 (F := Ideal) m ρ c main_v5 : S3x4x2048x1024.Idx → EReal) (ValueIdx.ix4 2 b s k)
        = Cert.Spec.proj (inpK (m ((c : Thread nD τ).loc main_arg0))) (wgtK (m ((c : Thread nD τ).loc main_arg3))) b s k :=
  ⟨qkv_at m ρ c 0 b s k _ fun e => w_entry0 m ρ c e k _ (by show (0 : Fin 3).val * 1024 + k.val = k.val; simp),
   qkv_at m ρ c 1 b s k _ fun e => w_entry1 m ρ c e k _ (by show (1 : Fin 3).val * 1024 + k.val = 1024 + k.val; simp),
   qkv_at m ρ c 2 b s k _ fun e => w_entry2 m ρ c e k _ (by show (2 : Fin 3).val * 1024 + k.val = 2048 + k.val; simp)⟩

end Cert.KernelIdeal.HandValue

end
-- ==== Proof.PreFinite.lean ====
import proofs.«418573_j77876347011327_3_alg».proof.Pre_finite_inputs
import proofs.«418573_j77876347011327_3_alg».proof.Proof.Gen.Pre_finite_inputs
import proofs.«418573_j77876347011327_3_alg».proof.Proof.Spec
import Idealize.ShloMosaic.PureOps.Ideal
import Idealize.ShloMosaic.Lib.ValueIdx
import Idealize.ShloMosaic.Lib.ReduceAll

/-!
  The precondition "every input entry is finite", read back.

  The predicate is the conjunction, over the four argument arrays, of "all entries a satisfy |a| < +∞", where
  |a| is max a (−a) on the extended reals and +∞ is what the pattern 0x7F800000 denotes. When the predicate is 1,
  each conjunct is 1, each entry passes its test, and an extended real a with max a (−a) < ⊤ is neither ⊤ nor ⊥:
  it is a real number.
-/

noncomputable section

namespace Cert.PreFinite

open Idealize.ShloMosaic
open Cert.Pre_finite_inputs

/-- The shape without axes has exactly one index. -/
instance subsingleton_S_Idx : Subsingleton S_.Idx := ⟨fun a b => funext fun d => d.elim0⟩

/-- The pattern 0x7F800000 of the 32-bit format denotes plus infinity. -/
theorem inf_eq_top : Ideal.ofBits .f32 0x7F800000#32 = (⊤ : EReal) := by
  simp [Ideal.ofBits, Ideal.ieee]

set_option maxHeartbeats 400000 in
/-- An extended real whose absolute value compares below plus infinity is a real number: at ⊤ the absolute value is
    ⊤, at ⊥ it is max ⊥ ⊤ = ⊤, and ⊤ < ⊤ fails. -/
theorem real_of_abs_olt_inf (a : EReal)
    (h : Ideal.cmp .olt (max a (-a)) (Ideal.ofBits .f32 0x7F800000#32) = 1#1) : ∃ r : ℝ, a = (r : EReal) := by
  rw [inf_eq_top] at h
  unfold Ideal.cmp at h
  induction a using EReal.rec with
  | bot => simp at h
  | coe r => exact ⟨r, rfl⟩
  | top => simp at h

/-- Four one-bit words whose conjunction is 1 are each 1. -/
theorem and4_eq_one (a b c d : BitVec 1) (h : IntOp.andi (IntOp.andi (IntOp.andi a b) c) d = 1#1) :
    a = 1#1 ∧ b = 1#1 ∧ c = 1#1 ∧ d = 1#1 := by
  obtain ⟨h1, hd⟩ := IntOp.andi_eq_one.1 h
  obtain ⟨h2, hc⟩ := IntOp.andi_eq_one.1 h1
  obtain ⟨ha, hb⟩ := IntOp.andi_eq_one.1 h2
  exact ⟨ha, hb, hc, hd⟩

set_option maxHeartbeats 400000 in
/-- The predicate being 1 everywhere makes every entry of the four arrays a real number. -/
theorem finite_of_pre [hP : Cert.Pre_finite_inputs.Facts]
    (x0 : FVec Ideal S4x2048x1024 .f32) (x1 x2 x3 : FVec Ideal S1024x1024 .f32)
    (h : Cert.Pre_finite_inputs.fn (F := Ideal) x0 x1 x2 x3 = fun _ => 1#1) :
    Cert.Spec.Finite (fun b s e => x0 (ValueIdx.ix3 b s e)) (fun k e => x1 (ValueIdx.ix2 k e))
      (fun k e => x2 (ValueIdx.ix2 k e)) (fun k e => x3 (ValueIdx.ix2 k e)) := by
  have h0 := congrFun h ValueIdx.ix0
  dsimp only [Cert.Pre_finite_inputs.fn, Cert.Pre_finite_inputs.fn_part1] at h0
  obtain ⟨e0, e1, e2, e3⟩ := and4_eq_one _ _ _ _ h0
  refine ⟨fun b s e => ?_, fun k e => ?_, fun k e => ?_, fun k e => ?_⟩
  · exact real_of_abs_olt_inf _ (Host.reduce_andi_all _ _ _ _ _ e0 (ValueIdx.ix3 b s e))
  · exact real_of_abs_olt_inf _ (Host.reduce_andi_all _ _ _ _ _ e1 (ValueIdx.ix2 k e))
  · exact real_of_abs_olt_inf _ (Host.reduce_andi_all _ _ _ _ _ e2 (ValueIdx.ix2 k e))
  · exact real_of_abs_olt_inf _ (Host.reduce_andi_all _ _ _ _ _ e3 (ValueIdx.ix2 k e))

end Cert.PreFinite

end
-- ==== Proof.Value.lean ====
/-
  The idealized kernel's result array, entry by entry, is causal softmax attention of the argument arrays.

  The projection region leaves the three projections of the input; the attention region stages their tiles; over
  the key blocks of a query block its scratch carries the running maximum, sum and weighted sum of the keys seen
  so far, and after the diagonal block their quotient — the attention output of the block's rows — is written back.
  The written blocks tile the result array.
-/
import proofs.«418573_j77876347011327_3_alg».proof.Proof.Run
import proofs.«418573_j77876347011327_3_alg».proof.Proof.TblIdeal
import proofs.«418573_j77876347011327_3_alg».proof.Proof.Region1Blocks
import proofs.«418573_j77876347011327_3_alg».proof.Proof.Region1Traj
import proofs.«418573_j77876347011327_3_alg».proof.Proof.Qkv
import proofs.«418573_j77876347011327_3_alg».proof.Proof.PreFinite
import proofs.«418573_j77876347011327_3_alg».proof.Defs

set_option maxRecDepth 16384

noncomputable section

namespace Cert.KernelIdeal.HandValue

open Cert.KernelIdeal Cert.KernelIdeal.Gen Cert.KernelIdeal.Hand
open Idealize.ShloMosaic Idealize.ShloMosaic.TcCoe
open Idealize.SL Idealize.SL.Sem
open ValueIdx Cert.Tile

variable (m : (ℓ : Loc nD τ sig) → Buf (Elt Ideal) ℓ) (ρ : Dev nD → PrngReg) (c : Dev nD)

/-- Every entry of the four argument arrays is a real number, under the precondition. -/
theorem finite_args [hP : Cert.Pre_finite_inputs.Facts] (hpre : Cert.Pre_KernelIdeal m) :
    Cert.Spec.Finite (inpK (m ((c : Thread nD τ).loc main_arg0))) (wgtK (m ((c : Thread nD τ).loc main_arg1)))
      (wgtK (m ((c : Thread nD τ).loc main_arg2))) (wgtK (m ((c : Thread nD τ).loc main_arg3))) :=
  Cert.PreFinite.finite_of_pre _ _ _ _ (hpre c)

/-- The result array after the run, at every entry. -/
theorem result_value [hP : Cert.Pre_finite_inputs.Facts] (hpre : Cert.Pre_KernelIdeal m) (b : Fin 4) (q : Fin 2048) (f : Fin 1024) :
    ((D1 m ρ tblFacts c).arrAt 3 (cfg1 aI).N : S4x2048x1024.Idx → EReal) (ix3 b q f)
      = Cert.Spec.attn (inpK (m ((c : Thread nD τ).loc main_arg0))) (wgtK (m ((c : Thread nD τ).loc main_arg1)))
          (wgtK (m ((c : Thread nD τ).loc main_arg2))) (wgtK (m ((c : Thread nD τ).loc main_arg3))) b q f := by
  have hF := finite_args m c hpre
  have hq : ∀ (t : Fin (cfg1 aI).N) (r : Fin 512) (k : Fin 1024), _ := fun t r k =>
    (qblk_apply (V3 (F := Ideal) m ρ) c t r k).trans (qkv m ρ c (bF t.val) (row (qF t.val) r) k).1
  have hk : ∀ (t : Fin (cfg1 aI).N) (j : Fin 512) (k : Fin 1024), _ := fun t j k =>
    (kblk_apply (V3 (F := Ideal) m ρ) c t j k).trans (qkv m ρ c (bF t.val) (row (kF t.val) j) k).2.1
  have hv : ∀ (t : Fin (cfg1 aI).N) (j : Fin 512) (f : Fin 1024), _ := fun t j f =>
    (vblk_apply (V3 (F := Ideal) m ρ) c t j f).trans (qkv m ρ c (bF t.val) (row (kF t.val) j) f).2.2
  have harr := out_arr (V3 (F := Ideal) m ρ) c
    (fun i => Cert.Spec.attn (inpK (m ((c : Thread nD τ).loc main_arg0))) (wgtK (m ((c : Thread nD τ).loc main_arg1)))
      (wgtK (m ((c : Thread nD τ).loc main_arg2))) (wgtK (m ((c : Thread nD τ).loc main_arg3))) (i 0) (i 1) (i 2))
    (fun t hd r f => out_block (V3 (F := Ideal) m ρ) c hF hq hk hv t hd r f)
  exact congrFun harr (ix3 b q f)

end Cert.KernelIdeal.HandValue

end
-- ==== Proof.RefValue.lean ====
/-
  The reference program's result, read index by index, is causal softmax attention of the argument arrays.
-/
import proofs.«418573_j77876347011327_3_alg».proof.Defs
import proofs.«418573_j77876347011327_3_alg».proof.Proof.Gen.ReferenceIdeal.Run
import proofs.«418573_j77876347011327_3_alg».proof.Proof.Gen.ReferenceIdeal.Read
import proofs.«418573_j77876347011327_3_alg».proof.Proof.Spec
import proofs.«418573_j77876347011327_3_alg».proof.Proof.LibOnlineSoftmax
import Idealize.ShloMosaic.Lib.ValueIdx
import Idealize.ShloMosaic.Lib.StableHlo.Predicate
import Idealize.ShloMosaic.PureOps.Ideal.Laws

noncomputable section

open scoped BigOperators

namespace Cert.RefValue

open Idealize.ShloMosaic Idealize.SL.Sem Idealize.ShloMosaic.ValueIdx Cert.ReferenceIdeal Cert.ReferenceIdeal.Read

/-- The input array by batch, position and feature. -/
def inp (a : S4x2048x1024.Idx → EReal) : Cert.Spec.Inp := fun b s e => a (ix3 b s e)

/-- A weight matrix by output feature and input feature. -/
def wgt (a : S1024x1024.Idx → EReal) : Cert.Spec.Wgt := fun k e => a (ix2 k e)

set_option maxHeartbeats 400000 in
/-- The query projection at (b, s, k). -/
theorem v0_at (x0 : S4x2048x1024.Idx → EReal) (x1 : S1024x1024.Idx → EReal) (b : Fin 4) (s : Fin 2048) (k : Fin 1024) :
    val_main_v0 (F := Ideal) x0 x1 (ix3 b s k) = Cert.Spec.proj (inp x0) (wgt x1) b s k := by
  rw [val_main_v0_apply]
  unfold Cert.Spec.proj inp wgt
  refine Finset.sum_congr rfl fun e _ => ?_
  have el : lidx_main_v0 (ix3 b s k) e = ix3 b s e := funext fun a => Fin.ext (by
    match a with | ⟨0, _⟩ => rfl | ⟨1, _⟩ => rfl | ⟨2, _⟩ => rfl)
  have er : ridx_main_v0 (ix3 b s k) e = ix2 k e := funext fun a => Fin.ext (by
    match a with | ⟨0, _⟩ => rfl | ⟨1, _⟩ => rfl)
  rw [el, er]

set_option maxHeartbeats 400000 in
/-- The key projection at (b, s, k). -/
theorem v1_at (x0 : S4x2048x1024.Idx → EReal) (x2 : S1024x1024.Idx → EReal) (b : Fin 4) (s : Fin 2048) (k : Fin 1024) :
    val_main_v1 (F := Ideal) x0 x2 (ix3 b s k) = Cert.Spec.proj (inp x0) (wgt x2) b s k := by
  rw [val_main_v1_apply]
  unfold Cert.Spec.proj inp wgt
  refine Finset.sum_congr rfl fun e _ => ?_
  have el : lidx_main_v1 (ix3 b s k) e = ix3 b s e := funext fun a => Fin.ext (by
    match a with | ⟨0, _⟩ => rfl | ⟨1, _⟩ => rfl | ⟨2, _⟩ => rfl)
  have er : ridx_main_v1 (ix3 b s k) e = ix2 k e := funext fun a => Fin.ext (by
    match a with | ⟨0, _⟩ => rfl | ⟨1, _⟩ => rfl)
  rw [el, er]

set_option maxHeartbeats 400000 in
/-- The value projection at (b, s, f). -/
theorem v2_at (x0 : S4x2048x1024.Idx → EReal) (x3 : S1024x1024.Idx → EReal) (b : Fin 4) (s : Fin 2048) (k : Fin 1024) :
    val_main_v2 (F := Ideal) x0 x3 (ix3 b s k) = Cert.Spec.proj (inp x0) (wgt x3) b s k := by
  rw [val_main_v2_apply]
  unfold Cert.Spec.proj inp wgt
  refine Finset.sum_congr rfl fun e _ => ?_
  have el : lidx_main_v2 (ix3 b s k) e = ix3 b s e := funext fun a => Fin.ext (by
    match a with | ⟨0, _⟩ => rfl | ⟨1, _⟩ => rfl | ⟨2, _⟩ => rfl)
  have er : ridx_main_v2 (ix3 b s k) e = ix2 k e := funext fun a => Fin.ext (by
    match a with | ⟨0, _⟩ => rfl | ⟨1, _⟩ => rfl)
  rw [el, er]

set_option maxHeartbeats 400000 in
/-- The unscaled score of query q against key s: the sum over k of the two projections' products. -/
theorem v3_at (x0 : S4x2048x1024.Idx → EReal) (x1 x2 : S1024x1024.Idx → EReal) (b : Fin 4) (q s : Fin 2048) :
    val_main_v3 (F := Ideal) x0 x1 x2 (ix3 b q s)
      = ∑ k : Fin 1024, Cert.Spec.proj (inp x0) (wgt x1) b q k * Cert.Spec.proj (inp x0) (wgt x2) b s k := by
  rw [val_main_v3_apply]
  refine Finset.sum_congr rfl fun k _ => ?_
  have el : lidx_main_v3 (ix3 b q s) k = ix3 b q k := funext fun a => Fin.ext (by
    match a with | ⟨0, _⟩ => rfl | ⟨1, _⟩ => rfl | ⟨2, _⟩ => rfl)
  have er : ridx_main_v3 (ix3 b q s) k = ix3 b s k := funext fun a => Fin.ext (by
    match a with | ⟨0, _⟩ => rfl | ⟨1, _⟩ => rfl | ⟨2, _⟩ => rfl)
  rw [el, er, v0_at, v1_at]

/-- The word 0x44800000 denotes the real number 1024. -/
theorem ofBits_1024 : Ideal.ofBits .f32 0x44800000#32 = ((1024 : ℝ) : EReal) := by
  simp [Ideal.ofBits, Ideal.ieee, -EReal.coe_mul]; norm_num

/-- The word 0xFF800000 denotes minus infinity. -/
theorem ofBits_ninf : Ideal.ofBits .f32 0xFF800000#32 = ⊥ := by
  simp [Ideal.ofBits, Ideal.ieee]

/-- The word 0 denotes zero. -/
theorem ofBits_zero : Ideal.ofBits .f32 0x00000000#32 = 0 := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  congr 1
  rw [Real.sqrt_eq_iff_mul_self_eq (by norm_num) (by norm_num)]
  norm_num

set_option maxHeartbeats 400000 in
/-- The divisor of the scores is 32 everywhere. -/
theorem v5_at (i : S4x2048x2048.Idx) : val_main_v5 (F := Ideal) i = ((32 : ℝ) : EReal) := by
  rw [val_main_v5_apply, val_main_v4_apply, val_main_cst_apply]
  show Ideal.sqrt (Ideal.ofBits .f32 0x44800000#32) = _
  rw [ofBits_1024, sqrt_1024]

set_option maxHeartbeats 400000 in
/-- The scaled score. -/
theorem v6_at (x0 : S4x2048x1024.Idx → EReal) (x1 x2 : S1024x1024.Idx → EReal) (b : Fin 4) (q s : Fin 2048) :
    val_main_v6 (F := Ideal) x0 x1 x2 (ix3 b q s) = Cert.Spec.logit (inp x0) (wgt x1) (wgt x2) b q s := by
  rw [val_main_v6_apply, v3_at, v5_at]
  show Ideal.div _ ((32 : ℝ) : EReal) = _
  rw [Ideal.div_coe (by norm_num : (32 : ℝ) ≠ 0)]
  rfl

/-- The mask word at row q and column s: row + 0 ≥ column, compared as signed 32-bit words, selected against
    true and false, is the bit of s ≤ q. -/
theorem mask_word (q s : Nat) (hq : q < 2048) (hs : s < 2048) :
    Scalar.select (IntOp.cmpi .sge (IntOp.addi (BitVec.ofNat 32 q) 0#32) (BitVec.ofNat 32 s)) (1#1 : BitVec 1) 0#1
      = if s ≤ q then 1#1 else 0#1 := by
  have ha : (IntOp.addi (BitVec.ofNat 32 q) 0#32) = BitVec.ofNat 32 q := by
    unfold IntOp.addi; exact BitVec.add_zero _
  rw [ha]
  have tq : (BitVec.ofNat 32 q).toNat = q := by rw [BitVec.toNat_ofNat]; omega
  have ts : (BitVec.ofNat 32 s).toNat = s := by rw [BitVec.toNat_ofNat]; omega
  have hiff := StableHlo.Predicate.sge_iff_toNat (a := BitVec.ofNat 32 q) (b := BitVec.ofNat 32 s)
    (by rw [tq]; omega) (by rw [ts]; omega)
  rw [tq, ts] at hiff
  by_cases h : s ≤ q
  · rw [if_pos h, hiff.mpr h, select_one]
  · rw [if_neg h, eq_zero_of_ne_one (fun e => h (hiff.mp e)), select_zero]

set_option maxHeartbeats 400000 in
/-- The causal mask, broadcast over the batch, at (b, q, s). -/
theorem mask_at (b : Fin 4) (q s : Fin 2048) :
    val_main_call1_v1 (F := Ideal) (ix3 b q s) = if s.val ≤ q.val then 1#1 else 0#1 := by
  rw [val_main_call1_v1_apply, val_main_v8_apply, val_main_call0_v4_apply, val_main_call0_v2_apply,
    val_main_call0_v0_apply, val_main_call0_v1_apply, val_main_call0_c_apply, val_main_call0_v3_apply,
    val_main_v7_apply, val_main_c_apply, val_main_call0_v5_apply, val_main_call0_c_0_apply]
  exact mask_word q.val s.val q.isLt s.isLt

set_option maxHeartbeats 400000 in
/-- The masked score. -/
theorem v9_at (x0 : S4x2048x1024.Idx → EReal) (x1 x2 : S1024x1024.Idx → EReal) (b : Fin 4) (q s : Fin 2048) :
    val_main_v9 (F := Ideal) x0 x1 x2 (ix3 b q s) = Cert.Spec.mlogit (inp x0) (wgt x1) (wgt x2) b q s := by
  rw [val_main_v9_apply, mask_at, v6_at, val_main_call1_v2_apply, val_main_call1_v0_apply, val_main_cst_0_apply]
  unfold Cert.Spec.mlogit
  by_cases h : s.val ≤ q.val
  · rw [if_pos h, if_pos h, select_one]
  · rw [if_neg h, if_neg h, select_zero]
    exact ofBits_ninf

/-- A fold of the maximum over the key coordinates of the indices above (b, q), as a fold over the key positions. -/
theorem fold_keys (hred : S4x2048x2048.Reduces [2] S4x2048) (g : S4x2048x2048.Idx → EReal) (a : EReal)
    (b : Fin 4) (q : Fin 2048) :
    (Finset.univ : Finset (Fin (S4x2048x2048.size 2))).fold (FloatOps.maximumf (F := Ideal) (φ := .f32)) a
        (g ∘ hred.lift (ix2 b q))
      = (Finset.univ : Finset (Fin 2048)).fold max a (fun s => g (ix3 b q s)) := by
  have hl : ∀ k : Fin 2048, hred.lift (ix2 b q) k = ix3 b q k := fun k => funext fun a => Fin.ext (by
    match a with | ⟨0, _⟩ => rfl | ⟨1, _⟩ => rfl | ⟨2, _⟩ => rfl)
  exact congrArg (fun h : Fin 2048 → EReal => (Finset.univ : Finset (Fin 2048)).fold max a h)
    (funext fun s => congrArg g (hl s))

set_option maxHeartbeats 400000 in
/-- The row maximum: the reduction over the key axis is a fold of max from minus infinity, the supremum. -/
theorem v10_at (x0 : S4x2048x1024.Idx → EReal) (x1 x2 : S1024x1024.Idx → EReal) (b : Fin 4) (q : Fin 2048) :
    val_main_v10 (F := Ideal) x0 x1 x2 (ix2 b q) = Cert.Spec.rmax (inp x0) (wgt x1) (wgt x2) b q := by
  have hred : S4x2048x2048.Reduces [2] S4x2048 := by decide
  unfold val_main_v10
  refine (Host.reduce_eq_fold_single (FloatOps.maximumf (F := Ideal) (φ := .f32)) _ _ _ hred _ (ix2 b q)).trans ?_
  refine (fold_keys hred _ _ b q).trans ?_
  refine Eq.trans (congrArg₂ (fun a (h : Fin 2048 → EReal) => (Finset.univ : Finset (Fin 2048)).fold max a h)
    ofBits_ninf (funext fun s => v9_at x0 x1 x2 b q s)) ?_
  exact Cert.Lib.OnlineSoftmax.fold_max_bot_eq_sup _ _

set_option maxHeartbeats 400000 in
/-- The maximum with minus infinity changes nothing. -/
theorem v12_at (x0 : S4x2048x1024.Idx → EReal) (x1 x2 : S1024x1024.Idx → EReal) (b : Fin 4) (q : Fin 2048) :
    val_main_v12 (F := Ideal) x0 x1 x2 (ix2 b q) = Cert.Spec.rmax (inp x0) (wgt x1) (wgt x2) b q := by
  rw [val_main_v12_apply, v10_at, val_main_v11_apply, val_main_cst_2_apply]
  show max (Ideal.ofBits .f32 0xFF800000#32) _ = _
  rw [ofBits_ninf]
  exact max_eq_right bot_le

set_option maxHeartbeats 400000 in
/-- The row maximum, broadcast along the keys. -/
theorem v14_at (x0 : S4x2048x1024.Idx → EReal) (x1 x2 : S1024x1024.Idx → EReal) (b : Fin 4) (q s : Fin 2048) :
    val_main_v14 (F := Ideal) x0 x1 x2 (ix3 b q s) = Cert.Spec.rmax (inp x0) (wgt x1) (wgt x2) b q := by
  rw [val_main_v14_apply, val_main_v13_apply]
  have hi : idx_main_v13 (idx_main_v14 (ix3 b q s)) = ix2 b q := funext fun a => Fin.ext (by
    match a with | ⟨0, _⟩ => rfl | ⟨1, _⟩ => rfl)
  rw [hi, v12_at]

set_option maxHeartbeats 400000 in
/-- The softmax numerator. -/
theorem v16_at (x0 : S4x2048x1024.Idx → EReal) (x1 x2 : S1024x1024.Idx → EReal) (b : Fin 4) (q s : Fin 2048) :
    val_main_v16 (F := Ideal) x0 x1 x2 (ix3 b q s) = Cert.Spec.wgt (inp x0) (wgt x1) (wgt x2) b q s := by
  rw [val_main_v16_apply, val_main_v15_apply, v9_at, v14_at]
  rfl

set_option maxHeartbeats 400000 in
/-- The softmax denominator: the sum from zero over the key axis. -/
theorem v17_at (x0 : S4x2048x1024.Idx → EReal) (x1 x2 : S1024x1024.Idx → EReal) (b : Fin 4) (q : Fin 2048) :
    val_main_v17 (F := Ideal) x0 x1 x2 (ix2 b q) = Cert.Spec.den (inp x0) (wgt x1) (wgt x2) b q := by
  rw [val_main_v17_apply, val_main_cst_3_apply]
  show Ideal.ofBits .f32 0x00000000#32 + _ = _
  rw [ofBits_zero, zero_add]
  unfold Cert.Spec.den
  refine Finset.sum_congr rfl fun k _ => ?_
  have hi : idx_main_v17 (ix2 b q) k = ix3 b q k := funext fun a => Fin.ext (by
    match a with | ⟨0, _⟩ => rfl | ⟨1, _⟩ => rfl | ⟨2, _⟩ => rfl)
  rw [hi, v16_at]

set_option maxHeartbeats 400000 in
/-- The denominator, broadcast along the keys. -/
theorem v19_at (x0 : S4x2048x1024.Idx → EReal) (x1 x2 : S1024x1024.Idx → EReal) (b : Fin 4) (q s : Fin 2048) :
    val_main_v19 (F := Ideal) x0 x1 x2 (ix3 b q s) = Cert.Spec.den (inp x0) (wgt x1) (wgt x2) b q := by
  rw [val_main_v19_apply, val_main_v18_apply]
  have hi : idx_main_v18 (idx_main_v19 (ix3 b q s)) = ix2 b q := funext fun a => Fin.ext (by
    match a with | ⟨0, _⟩ => rfl | ⟨1, _⟩ => rfl)
  rw [hi, v17_at]

set_option maxHeartbeats 400000 in
/-- The normalized weight. -/
theorem v20_at (x0 : S4x2048x1024.Idx → EReal) (x1 x2 : S1024x1024.Idx → EReal) (b : Fin 4) (q s : Fin 2048) :
    val_main_v20 (F := Ideal) x0 x1 x2 (ix3 b q s)
      = Ideal.div (Cert.Spec.wgt (inp x0) (wgt x1) (wgt x2) b q s) (Cert.Spec.den (inp x0) (wgt x1) (wgt x2) b q) := by
  rw [val_main_v20_apply, v16_at, v19_at]
  rfl

set_option maxHeartbeats 400000 in
/-- The last stage at (b, q, f) is attention. -/
theorem v21_at (x0 : S4x2048x1024.Idx → EReal) (x1 x2 x3 : S1024x1024.Idx → EReal) (b : Fin 4) (q : Fin 2048) (f : Fin 1024) :
    val_main_v21 (F := Ideal) x0 x1 x2 x3 (ix3 b q f) = Cert.Spec.attn (inp x0) (wgt x1) (wgt x2) (wgt x3) b q f := by
  rw [val_main_v21_apply]
  unfold Cert.Spec.attn
  refine Finset.sum_congr rfl fun s _ => ?_
  have el : lidx_main_v21 (ix3 b q f) s = ix3 b q s := funext fun a => Fin.ext (by
    match a with | ⟨0, _⟩ => rfl | ⟨1, _⟩ => rfl | ⟨2, _⟩ => rfl)
  have er : ridx_main_v21 (ix3 b q f) s = ix3 b s f := funext fun a => Fin.ext (by
    match a with | ⟨0, _⟩ => rfl | ⟨1, _⟩ => rfl | ⟨2, _⟩ => rfl)
  rw [el, er, v20_at, v2_at]

set_option maxHeartbeats 400000 in
/-- The reference's result at (b, q, f) is causal softmax attention of its four argument arrays. -/
theorem result_eq (m : (ℓ : Loc nD τ sig) → Buf (Elt Ideal) ℓ) (c : Dev nD) (b : Fin 4) (q : Fin 2048) (f : Fin 1024) :
    Cert.ReferenceIdeal.Value.res_out0 (F := Ideal) m c (ix3 b q f)
      = Cert.Spec.attn (inp (m ((c.tc : Thread _ _).loc main_arg0)))
          (wgt (m ((c.tc : Thread _ _).loc main_arg1)))
          (wgt (m ((c.tc : Thread _ _).loc main_arg2)))
          (wgt (m ((c.tc : Thread _ _).loc main_arg3))) b q f :=
  (congrFun (val_main_v21_eq (F := Ideal) m c) (ix3 b q f)).trans (v21_at _ _ _ _ b q f)

end Cert.RefValue

end
-- ==== Proof.lean ====
/-
  The certificate: the printed kernel and its idealization each run to the end, fault nowhere and leave their four
  arguments unchanged; so does the reference; the one idealization rule applied (the finite mask fill read as minus
  infinity) is its rule's statement; and at the ideal instance, from memories agreeing on the arguments under the
  finiteness precondition, the idealized kernel and the reference end with the same result array: both hold causal
  softmax attention of the projected input, entry by entry.

  The kernel is two pipelined regions: a fused projection Y = X · [Wq; Wk; Wv]ᵀ laid out as three arrays, and a
  flash-attention region over the lower-triangular (query block, key block) pairs listed in two index tables,
  which keeps a running maximum, sum and weighted sum per query row and stores their quotient after the diagonal
  block. The reference computes the same projections, masks the scores above the diagonal with minus infinity,
  normalises with a softmax and weighs the values. Over the reals the streaming quotient and the normalised sum
  agree: rescaling by e^(old maximum − new maximum) is exact, and a masked key weighs e^(−∞) = 0.
-/
import proofs.«418573_j77876347011327_3_alg».proof.Defs
import proofs.«418573_j77876347011327_3_alg».proof.Proof.Gen.Kernel
import proofs.«418573_j77876347011327_3_alg».proof.Proof.Gen.KernelIdeal
import proofs.«418573_j77876347011327_3_alg».proof.Proof.Gen.ReferenceIdeal
import proofs.«418573_j77876347011327_3_alg».proof.Proof.Gen.ReferenceIdeal.Run
import proofs.«418573_j77876347011327_3_alg».proof.Proof.Gen.Pre_finite_inputs
import proofs.«418573_j77876347011327_3_alg».proof.Proof.BitsRun
import proofs.«418573_j77876347011327_3_alg».proof.Proof.BitsTbl
import proofs.«418573_j77876347011327_3_alg».proof.Proof.Run
import proofs.«418573_j77876347011327_3_alg».proof.Proof.Value
import proofs.«418573_j77876347011327_3_alg».proof.Proof.RefValue
import Idealize.ShloMosaic.PureOps.IdealRules
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The printed kernel runs to the end and leaves its arguments unchanged. -/
theorem frame_k : Cert.frame_Kernel := fun m ρ _ => Cert.Kernel.Hand.frame m ρ Cert.Kernel.HandBits.tblFacts

/-- So does its idealization. -/
theorem frame_ki : Cert.frame_KernelIdeal := fun m ρ _ => Cert.KernelIdeal.Hand.frame m ρ Cert.KernelIdeal.HandValue.tblFacts

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The mask fill −0.7 · (largest finite float) is named minus infinity: the rule's statement at the site. -/
theorem preserves : Cert.preserves_Kernel_KernelIdeal :=
  IdealRules.named_const.statement Cert.KernelIdeal.κ "neg_big" .f32 0xFF333332#32 ⊥ rfl

/-- Both idealized programs end with causal softmax attention of the arguments in their result arrays. -/
theorem algebraic : Cert.algebraic_KernelIdeal_ReferenceIdeal := by
  intro m ρ m' ρ' hpre hagree
  refine ⟨fun c => (Cert.KernelIdeal.Hand.D1 m ρ Cert.KernelIdeal.HandValue.tblFacts c).arrAt 3 _,
    Cert.KernelIdeal.Hand.run_result m ρ Cert.KernelIdeal.HandValue.tblFacts, ?_⟩
  refine (θ_run Cert.ReferenceIdeal.defs _ _).mono (fun _ h c => ⟨(h c).1.trans ?_, (h c).2⟩)
    (Cert.ReferenceIdeal.Value.run (F := Ideal) m' ρ')
  funext i
  obtain ⟨b, q, f, rfl⟩ : ∃ (b : Fin 4) (q : Fin 2048) (f : Fin 1024), i = ValueIdx.ix3 b q f := ⟨i 0, i 1, i 2, ValueIdx.eq_ix3 i⟩
  refine (Cert.RefValue.result_eq m' c b q f).trans ?_
  rw [(hagree c).1, (hagree c).2.1, (hagree c).2.2.1, (hagree c).2.2.2]
  exact (Cert.KernelIdeal.HandValue.result_value m ρ c hpre b q f).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
